-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x640000 : Shape := ⟨2, ![2, 640000]⟩
abbrev S640000x1 : Shape := ⟨2, ![640000, 1]⟩
abbrev S100000 : Shape := ⟨1, ![100000]⟩
abbrev S50000x128 : Shape := ⟨2, ![50000, 128]⟩
abbrev S128x128 : Shape := ⟨2, ![128, 128]⟩
abbrev S128 : Shape := ⟨1, ![128]⟩
abbrev S128x104 : Shape := ⟨2, ![128, 104]⟩
abbrev S104 : Shape := ⟨1, ![104]⟩
abbrev S_ : Shape := ⟨0, ![]⟩

class Facts : Prop where
  bcast_S_S640000x1 : S_.BroadcastsInDim S640000x1 (![] : Fin 0 → Fin S640000x1.rank)
  reducesTo_S640000x1_S_d0_1 : S640000x1.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x104 : S_.BroadcastsInDim S128x104 (![] : Fin 0 → Fin S128x104.rank)
  reducesTo_S128x104_S_d0_1 : S128x104.ReducesTo [0, 1] S_
  bcast_S_S104 : S_.BroadcastsInDim S104 (![] : Fin 0 → Fin S104.rank)
  reducesTo_S104_S_d0 : S104.ReducesTo [0] S_

variable [Facts]

def fn_part2 {F : FTy → Type} [FloatOps F] (main_arg10 : FVec F S128 .f32) (main_arg11 : FVec F S128x104 .f32) (main_arg12 : FVec F S104 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x104 .f32 := Host.absf main_arg11
  let main_cst_14 : FVec F S_ .f32 := constant S_ .f32 0x7F800000#32
  let main_v40 : FVec F S128x104 .f32 := broadcastInDim S128x104 ![] bcast_S_S128x104 main_cst_14
  let main_v41 : IVec S128x104 1 := cmpf .olt main_v39 main_v40
  let main_c_15 : IVec S_ 1 := constantI S_ 1 1#1
  let main_v42 : IVec S_ 1 := (fun x v => Host.reduce IntOp.andi x v reducesTo_S128x104_S_d0_1 h_S_) main_v41 main_c_15
  let main_v43 : IVec S_ 1 := andi main_v38 main_v42
  let main_v44 : FVec F S104 .f32 := Host.absf main_arg12
  let main_cst_16 : FVec F S_ .f32 := constant S_ .f32 0x7F800000#32
  let main_v45 : FVec F S104 .f32 := broadcastInDim S104 ![] bcast_S_S104 main_cst_16
  let main_v46 : IVec S104 1 := cmpf .olt main_v44 main_v45
  let main_c_17 : IVec S_ 1 := constantI S_ 1 1#1
  let main_v47 : IVec S_ 1 := (fun x v => Host.reduce IntOp.andi x v reducesTo_S104_S_d0 h_S_) main_v46 main_c_17
  let main_v48 : IVec S_ 1 := andi main_v43 main_v47
  main_v48

def fn_part1 {F : FTy → Type} [FloatOps F] (main_arg7 : FVec F S128x128 .f32) (main_arg8 : FVec F S128 .f32) (main_arg9 : FVec F S128x128 .f32) (main_arg10 : FVec F S128 .f32) (main_arg11 : FVec F S128x104 .f32) (main_arg12 : FVec F S104 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_v33

def fn {F : FTy → Type} [FloatOps F] (main_arg0 : IVec S100000x1 32) (main_arg1 : IVec S2x640000 32) (main_arg2 : FVec F S640000x1 .f32) (main_arg3 : IVec S100000 32) (main_arg4 : FVec F S50000x128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x104 .f32) (main_arg12 : FVec F S104 .f32) : IVec S_ 1 :=
  let main_v0 : FVec F S640000x1 .f32 := Host.absf main_arg2
  let main_cst : FVec F S_ .f32 := constant S_ .f32 0x7F800000#32
  let main_v1 : FVec F S640000x1 .f32 := broadcastInDim S640000x1 ![] bcast_S_S640000x1 main_cst
  let main_v2 : IVec S640000x1 1 := cmpf .olt main_v0 main_v1
  let main_c : IVec S_ 1 := constantI S_ 1 1#1
  let main_v3 : IVec S_ 1 := (fun x v => Host.reduce IntOp.andi x v reducesTo_S640000x1_S_d0_1 h_S_) main_v2 main_c
  let main_v4 : FVec F S50000x128 .f32 := Host.absf main_arg4
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_v13 main_v16
-- ==== Kernel.lean ====
abbrev S100000x1 : Shape := ⟨2, ![100000, 1]⟩
abbrev S2x640000 : Shape := ⟨2, ![2, 640000]⟩
abbrev S640000x1 : Shape := ⟨2, ![640000, 1]⟩
abbrev S100000 : Shape := ⟨1, ![100000]⟩
abbrev S50000x128 : Shape := ⟨2, ![50000, 128]⟩
abbrev S128x128 : Shape := ⟨2, ![128, 128]⟩
abbrev S128 : Shape := ⟨1, ![128]⟩
abbrev S128x104 : Shape := ⟨2, ![128, 104]⟩
abbrev S104 : Shape := ⟨1, ![104]⟩
abbrev S1x640000 : Shape := ⟨2, ![1, 640000]⟩
abbrev S640000 : Shape := ⟨1, ![640000]⟩
abbrev S_ : Shape := ⟨0, ![]⟩
abbrev S100000x128 : Shape := ⟨2, ![100000, 128]⟩
abbrev S5000x128 : Shape := ⟨2, ![5000, 128]⟩
abbrev S640000x128 : Shape := ⟨2, ![640000, 128]⟩
abbrev S1x128 : Shape := ⟨2, ![1, 128]⟩
abbrev S128x1 : Shape := ⟨2, ![128, 1]⟩
abbrev S1x104 : Shape := ⟨2, ![1, 104]⟩

abbrev nBuf : Space → Nat
  | .hbm => 148
  | .vmem => 41
  | .smem => 0
  | _ => 0

abbrev hbmTy0_0 (i : Nat) : BufTy := match i % 128 with
  | 0 => ⟨S100000x1, .i32⟩
  | 1 => ⟨S2x640000, .i32⟩
  | 2 => ⟨S640000x1, .f32⟩
  | 3 => ⟨S100000, .i32⟩
  | 4 => ⟨S50000x128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x104, .f32⟩
  | 12 => ⟨S104, .f32⟩
  | 13 => ⟨S1x640000, .i32⟩
  | 14 => ⟨S640000, .i32⟩
  | 15 => ⟨S1x640000, .i32⟩
  | 16 => ⟨S640000, .i32⟩
  | 17 => ⟨S100000, .i32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x128, .f32⟩
  | 27 => ⟨S_, .f32⟩
  | 28 => ⟨S640000, .f32⟩
  | 29 => ⟨S_, .f32⟩
  | 30 => ⟨S100000, .f32⟩
  | 31 => ⟨S640000x1, .i32⟩
  | 32 => ⟨S100000, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .i1⟩
  | 39 => ⟨S100000, .f32⟩
  | 40 => ⟨S_, .f32⟩
  | 41 => ⟨S100000, .f32⟩
  | 42 => ⟨S100000, .f32⟩
  | 43 => ⟨S_, .f32⟩
  | 44 => ⟨S_, .f32⟩
  | 45 => ⟨S100000, .f32⟩
  | 46 => ⟨S100000, .f32⟩
  | 47 => ⟨S_, .i32⟩
  | 48 => ⟨S640000, .i32⟩
  | 49 => ⟨S640000, .i1⟩
  | 50 => ⟨S_, .i32⟩
  | 51 => ⟨S640000, .i32⟩
  | 52 => ⟨S640000, .i32⟩
  | 53 => ⟨S640000, .i32⟩
  | 54 => ⟨S640000x1, .i32⟩
  | 55 => ⟨S640000, .f32⟩
  | 56 => ⟨S_, .i32⟩
  | 57 => ⟨S640000, .i32⟩
  | 58 => ⟨S640000, .i1⟩
  | 59 => ⟨S_, .i32⟩
  | 60 => ⟨S640000, .i32⟩
  | 61 => ⟨S640000, .i32⟩
  | 62 => ⟨S640000, .i32⟩
  | 63 => ⟨S640000x1, .i32⟩
  | 64 => ⟨S640000, .f32⟩
  | 65 => ⟨S640000, .f32⟩
  | 66 => ⟨S100000, .f32⟩
  | 67 => ⟨S100000x128, .f32⟩
  | 68 => ⟨S_, .i32⟩
  | 69 => ⟨S640000, .i32⟩
  | 70 => ⟨S640000, .i1⟩
  | 71 => ⟨S_, .i32⟩
  | 72 => ⟨S640000, .i32⟩
  | 73 => ⟨S640000, .i32⟩
  | 74 => ⟨S640000, .i32⟩
  | 75 => ⟨S640000x1, .i32⟩
  | 76 => ⟨S640000x128, .f32⟩
  | 77 => ⟨S640000x1, .f32⟩
  | 78 => ⟨S640000x128, .f32⟩
  | 79 => ⟨S640000x128, .f32⟩
  | 80 => ⟨S_, .f32⟩
  | 81 => ⟨S100000x128, .f32⟩
  | 82 => ⟨S640000x1, .i32⟩
  | 83 => ⟨S100000x128, .f32⟩
  | 84 => ⟨S100000x1, .f32⟩
  | 85 => ⟨S100000x128, .f32⟩
  | 86 => ⟨S100000x128, .f32⟩
  | 87 => ⟨S100000x128, .f32⟩
  | 88 => ⟨S100000x128, .f32⟩
  | 89 => ⟨S100000x128, .f32⟩
  | 90 => ⟨S_, .i32⟩
  | 91 => ⟨S640000, .i32⟩
  | 92 => ⟨S640000, .i1⟩
  | 93 => ⟨S_, .i32⟩
  | 94 => ⟨S640000, .i32⟩
  | 95 => ⟨S640000, .i32⟩
  | 96 => ⟨S640000, .i32⟩
  | 97 => ⟨S640000x1, .i32⟩
  | 98 => ⟨S640000x128, .f32⟩
  | 99 => ⟨S640000x1, .f32⟩
  | 100 => ⟨S640000x128, .f32⟩
  | 101 => ⟨S640000x128, .f32⟩
  | 102 => ⟨S_, .f32⟩
  | 103 => ⟨S100000x128, .f32⟩
  | 104 => ⟨S640000x1, .i32⟩
  | 105 => ⟨S100000x128, .f32⟩
  | 106 => ⟨S100000x1, .f32⟩
  | 107 => ⟨S100000x128, .f32⟩
  | 108 => ⟨S100000x128, .f32⟩
  | 109 => ⟨S100000x128, .f32⟩
  | 110 => ⟨S100000x128, .f32⟩
  | 111 => ⟨S100000x128, .f32⟩
  | 112 => ⟨S_, .i32⟩
  | 113 => ⟨S640000, .i32⟩
  | 114 => ⟨S640000, .i1⟩
  | 115 => ⟨S_, .i32⟩
  | 116 => ⟨S640000, .i32⟩
  | 117 => ⟨S640000, .i32⟩
  | 118 => ⟨S640000, .i32⟩
  | 119 => ⟨S640000x1, .i32⟩
  | 120 => ⟨S640000x128, .f32⟩
  | 121 => ⟨S640000x1, .f32⟩
  | 122 => ⟨S640000x128, .f32⟩
  | 123 => ⟨S640000x128, .f32⟩
  | 124 => ⟨S_, .f32⟩
  | 125 => ⟨S100000x128, .f32⟩
  | 126 => ⟨S640000x1, .i32⟩
  | 127 => ⟨S100000x128, .f32⟩
  | _ => ⟨S100000x1, .i32⟩

abbrev hbmTy0_1 (i : Nat) : BufTy := match i % 128 with
  | 0 => ⟨S100000x1, .f32⟩
  | 1 => ⟨S100000x128, .f32⟩
  | 2 => ⟨S100000x128, .f32⟩
  | 3 => ⟨S100000x128, .f32⟩
  | 4 => ⟨S100000x128, .f32⟩
  | 5 => ⟨S128, .i32⟩
  | 6 => ⟨S100000x1, .i32⟩
  | 7 => ⟨S1x128, .i32⟩
  | 8 => ⟨S100000x128, .i32⟩
  | 9 => ⟨S100000x128, .i32⟩
  | 10 => ⟨S100000x128, .i1⟩
  | 11 => ⟨S100000x128, .bf16⟩
  | 12 => ⟨S128x128, .f32⟩
  | 13 => ⟨S_, .f32⟩
  | 14 => ⟨S100000, .f32⟩
  | 15 => ⟨S_, .f32⟩
  | 16 => ⟨S128, .f32⟩
  | 17 => ⟨S100000x1, .i32⟩
  | 18 => ⟨S128, .f32⟩
  | 19 => ⟨S128x104, .f32⟩
  | _ => ⟨S100000x1, .i32⟩

abbrev hbmTy (i : Nat) : BufTy := match i / 128 with
  | 0 => hbmTy0_0 i
  | 1 => hbmTy0_1 i
  | _ => ⟨S100000x1, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S5000x128, .bf16⟩
  | .local _ .vmem, ⟨31, _⟩ => ⟨S5000x128, .bf16⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S128x128, .f32⟩
  | .local _ .vmem, ⟨36, _⟩ => ⟨S128x128, .f32⟩
  | .local _ .vmem, ⟨37, _⟩ => ⟨S128, .f32⟩
  | .local _ .vmem, ⟨38, _⟩ => ⟨S128x104, .f32⟩
  | .local _ .vmem, ⟨39, _⟩ => ⟨S104, .f32⟩
  | .local _ .vmem, ⟨40, _⟩ => ⟨S128x104, .f32⟩
  | _, _ => ⟨S100000x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_call0_v0 : Ref sig .tc := ⟨.hbm, 44, rfl⟩
abbrev main_call0_v1 : Ref sig .tc := ⟨.hbm, 45, rfl⟩
abbrev main_v23 : Ref sig .tc := ⟨.hbm, 46, rfl⟩
abbrev main_c_6 : Ref sig .tc := ⟨.hbm, 47, rfl⟩
abbrev main_v24 : Ref sig .tc := ⟨.hbm, 48, rfl⟩
abbrev main_v25 : Ref sig .tc := ⟨.hbm, 49, rfl⟩
abbrev main_c_7 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_8 : Ref sig .tc := ⟨.hbm, 56, rfl⟩
abbrev main_v31 : Ref sig .tc := ⟨.hbm, 57, rfl⟩
abbrev main_v32 : Ref sig .tc := ⟨.hbm, 58, rfl⟩
abbrev main_c_9 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_10 : Ref sig .tc := ⟨.hbm, 68, rfl⟩
abbrev main_v41 : Ref sig .tc := ⟨.hbm, 69, rfl⟩
abbrev main_v42 : Ref sig .tc := ⟨.hbm, 70, rfl⟩
abbrev main_c_11 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_12 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_16 : Ref sig .tc := ⟨.hbm, 112, rfl⟩
abbrev main_v79 : Ref sig .tc := ⟨.hbm, 113, rfl⟩
abbrev main_v80 : Ref sig .tc := ⟨.hbm, 114, rfl⟩
abbrev main_c_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_18 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_19 : Ref sig .tc := ⟨.hbm, 141, rfl⟩
abbrev main_v105 : Ref sig .tc := ⟨.hbm, 142, rfl⟩
abbrev main_cst_20 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_scratch0 : Ref sig .tc := ⟨.vmem, 35, rfl⟩
abbrev cc7_stg0_0 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg3_0 : Ref sig .tc := ⟨.vmem, 39, rfl⟩
abbrev cc7_stg4_0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc7_sem0_0 : DmaSem sig := 35
abbrev cc7_sem1_0 : DmaSem sig := 36
abbrev cc7_sem2_0 : DmaSem sig := 37
abbrev cc7_sem3_0 : DmaSem sig := 38
abbrev cc7_sem4_0 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def k6_cond2 (i : grid6.Coords) : BitVec 1 :=
  let arg0 : BitVec 32 := BitVec.ofNat 32 (i 0).val
  let c19_i32 : BitVec 32 := 19#32
  let v14 : BitVec 1 := Scalar.cmpi .eq arg0 c19_i32
  let v15 : BitVec 32 := Scalar.extui v14
  let c0_i32_8 : BitVec 32 := 0#32
  let v16 : BitVec 1 := Scalar.cmpi .ne v15 c0_i32_8
  v16

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S128x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128x104 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S104 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x104 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S_S640000 : S_.BroadcastsInDim S640000 (![] : Fin 0 → Fin S640000.rank)
  bcast_S640000_S640000x1_0 : S640000.BroadcastsInDim S640000x1 (![0] : Fin 1 → Fin S640000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S128x128_S128x128 : S128x128.ShapeCasts S128x128
  bcast_S_S128 : S_.BroadcastsInDim S128 (![] : Fin 0 → Fin S128.rank)
  shapeCasts_S128_S128 : S128.ShapeCasts S128
  shapeCasts_S128_S128x1 : S128.ShapeCasts S128x1
  broadcasts_S128x1_S128x128 : S128x1.Broadcasts S128x128
  inb_S128x104_S128x104_0_0 : ∀ a, (![0, 0] : Fin 2 → Nat) a + S128x104.size a ≤ S128x104.size a
  h_S128x104 : 0 < S128x104.numel
  inb_S104_S104_0 : ∀ a, (![0] : Fin 1 → Nat) a + S104.size a ≤ S104.size a
  h_S104 : 0 < S104.numel
  shapeCasts_S104_S1x104 : S104.ShapeCasts S1x104
  broadcasts_S1x104_S128x104 : S1x104.Broadcasts S128x104
  gather_S50000x128_S100000x1_S100000x128_1_0_n_n_0_1_1128_wf : GatherDims.WF S50000x128 S100000x1 S100000x128 [1] [0] [] [0] [] 1 ![1, 128]
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  dot_S5000x128_S128x128_S5000x128_1_0_0_1_n_n_wf : DotDims.WF S5000x128 S128x128 S5000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S5000x128_S128x128_0_0_1_1_n_n_wf : DotDims.WF S5000x128 S5000x128 S128x128 [0] [0] [1] [1] [] []
  scatter_S128_S100000x1_S100000_n_0_0_1_wf : ScatterDims.WF S128 S100000x1 S100000 [] [0] [0] 1
  dot_S128x128_S128x104_S128x104_1_0_0_1_n_n_wf : DotDims.WF S128x128 S128x104 S128x104 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .bf16 = 32 ∨ (Rect.block (s := S100000x128) S5000x128.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S128x128.size a ≤ S128x128.size a
  hwx7_0 : ∀ i : grid7.Coords, EltTy.bits .f32 = 32 ∨ (Rect.block (s := S128x128) S128x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128.size a ≤ S128.size a
  hwx7_1 : ∀ i : grid7.Coords, EltTy.bits .f32 = 32 ∨ (Rect.block (s := S128) S128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x104.size a ≤ S128x104.size a
  hwx7_2 : ∀ i : grid7.Coords, EltTy.bits .f32 = 32 ∨ (Rect.block (s := S128x104) S128x104.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S104.size a ≤ S104.size a
  hwx7_3 : ∀ i : grid7.Coords, EltTy.bits .f32 = 32 ∨ (Rect.block (s := S104) S104.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x104.size a ≤ S128x104.size a
  hwx7_4 : ∀ i : grid7.Coords, EltTy.bits .f32 = 32 ∨ (Rect.block (s := S128x104) S128x104.size (cc7_transform_4 i) (hinb7_4 i)).WholeWords (EltTy.packing .f32)

variable [Facts₀]

def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x104_S128x104_1_0_0_1_n_n : DotDims S128x128 S128x104 S128x104 where
  lhsContracting := [1]
  rhsContracting := [0]
  lhsNonContracting := [0]
  rhsNonContracting := [1]
  lhsBatch := []
  rhsBatch := []
  wf := dot_S128x128_S128x104_S128x104_1_0_0_1_n_n_wf

abbrev win0_0 : Pipeline.Window sig grid0 :=
  Pipeline.Window.ofSpec (Memref.whole main_v11) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v57) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v76) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v77) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v95) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v96) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v103) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v96) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v104) S128x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v104) S128x128.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v108) S128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg11) S128x104.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg12) S104.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v109) S128x104.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x1 : Shape := ⟨2, ![100000, 1]⟩
abbrev S2x640000 : Shape := ⟨2, ![2, 640000]⟩
abbrev S640000x1 : Shape := ⟨2, ![640000, 1]⟩
abbrev S100000 : Shape := ⟨1, ![100000]⟩
abbrev S50000x128 : Shape := ⟨2, ![50000, 128]⟩
abbrev S128x128 : Shape := ⟨2, ![128, 128]⟩
abbrev S128 : Shape := ⟨1, ![128]⟩
abbrev S128x104 : Shape := ⟨2, ![128, 104]⟩
abbrev S104 : Shape := ⟨1, ![104]⟩
abbrev S1x640000 : Shape := ⟨2, ![1, 640000]⟩
abbrev S640000 : Shape := ⟨1, ![640000]⟩
abbrev S_ : Shape := ⟨0, ![]⟩
abbrev S100000x128 : Shape := ⟨2, ![100000, 128]⟩
abbrev S640000x128 : Shape := ⟨2, ![640000, 128]⟩
abbrev S1x128 : Shape := ⟨2, ![1, 128]⟩
abbrev S128x1 : Shape := ⟨2, ![128, 1]⟩
abbrev S1x104 : Shape := ⟨2, ![1, 104]⟩

abbrev nBuf : Space → Nat
  | .hbm => 245
  | .vmem => 0
  | .smem => 0
  | _ => 0

abbrev hbmTy0_0 (i : Nat) : BufTy := match i % 128 with
  | 0 => ⟨S100000x1, .i32⟩
  | 1 => ⟨S2x640000, .i32⟩
  | 2 => ⟨S640000x1, .f32⟩
  | 3 => ⟨S100000, .i32⟩
  | 4 => ⟨S50000x128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x104, .f32⟩
  | 12 => ⟨S104, .f32⟩
  | 13 => ⟨S1x640000, .i32⟩
  | 14 => ⟨S640000, .i32⟩
  | 15 => ⟨S1x640000, .i32⟩
  | 16 => ⟨S640000, .i32⟩
  | 17 => ⟨S100000, .i32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x128, .f32⟩
  | 27 => ⟨S100000x128, .f32⟩
  | 28 => ⟨S_, .f32⟩
  | 29 => ⟨S640000, .f32⟩
  | 30 => ⟨S_, .f32⟩
  | 31 => ⟨S100000, .f32⟩
  | 32 => ⟨S640000x1, .i32⟩
  | 33 => ⟨S100000, .f32⟩
  | 34 => ⟨S_, .f32⟩
  | 35 => ⟨S100000, .f32⟩
  | 36 => ⟨S100000, .f32⟩
  | 37 => ⟨S_, .f32⟩
  | 38 => ⟨S100000, .f32⟩
  | 39 => ⟨S100000, .i1⟩
  | 40 => ⟨S100000, .f32⟩
  | 41 => ⟨S_, .f32⟩
  | 42 => ⟨S100000, .f32⟩
  | 43 => ⟨S100000, .f32⟩
  | 44 => ⟨S_, .f32⟩
  | 45 => ⟨S_, .f32⟩
  | 46 => ⟨S100000, .f32⟩
  | 47 => ⟨S100000, .f32⟩
  | 48 => ⟨S_, .i32⟩
  | 49 => ⟨S640000, .i32⟩
  | 50 => ⟨S640000, .i1⟩
  | 51 => ⟨S_, .i32⟩
  | 52 => ⟨S640000, .i32⟩
  | 53 => ⟨S640000, .i32⟩
  | 54 => ⟨S640000, .i32⟩
  | 55 => ⟨S640000x1, .i32⟩
  | 56 => ⟨S640000, .f32⟩
  | 57 => ⟨S_, .i32⟩
  | 58 => ⟨S640000, .i32⟩
  | 59 => ⟨S640000, .i1⟩
  | 60 => ⟨S_, .i32⟩
  | 61 => ⟨S640000, .i32⟩
  | 62 => ⟨S640000, .i32⟩
  | 63 => ⟨S640000, .i32⟩
  | 64 => ⟨S640000x1, .i32⟩
  | 65 => ⟨S640000, .f32⟩
  | 66 => ⟨S640000, .f32⟩
  | 67 => ⟨S_, .i32⟩
  | 68 => ⟨S640000, .i32⟩
  | 69 => ⟨S640000, .i1⟩
  | 70 => ⟨S_, .i32⟩
  | 71 => ⟨S640000, .i32⟩
  | 72 => ⟨S640000, .i32⟩
  | 73 => ⟨S640000, .i32⟩
  | 74 => ⟨S640000x1, .i32⟩
  | 75 => ⟨S640000x128, .f32⟩
  | 76 => ⟨S640000x1, .f32⟩
  | 77 => ⟨S640000x128, .f32⟩
  | 78 => ⟨S640000x128, .f32⟩
  | 79 => ⟨S_, .f32⟩
  | 80 => ⟨S100000x128, .f32⟩
  | 81 => ⟨S640000x1, .i32⟩
  | 82 => ⟨S100000x128, .f32⟩
  | 83 => ⟨S100000, .f32⟩
  | 84 => ⟨S100000x1, .f32⟩
  | 85 => ⟨S100000x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x128, .f32⟩
  | 95 => ⟨S_, .f32⟩
  | 96 => ⟨S640000, .f32⟩
  | 97 => ⟨S_, .f32⟩
  | 98 => ⟨S100000, .f32⟩
  | 99 => ⟨S640000x1, .i32⟩
  | 100 => ⟨S100000, .f32⟩
  | 101 => ⟨S_, .f32⟩
  | 102 => ⟨S100000, .f32⟩
  | 103 => ⟨S100000, .f32⟩
  | 104 => ⟨S_, .f32⟩
  | 105 => ⟨S100000, .f32⟩
  | 106 => ⟨S100000, .i1⟩
  | 107 => ⟨S100000, .f32⟩
  | 108 => ⟨S_, .f32⟩
  | 109 => ⟨S100000, .f32⟩
  | 110 => ⟨S100000, .f32⟩
  | 111 => ⟨S_, .f32⟩
  | 112 => ⟨S_, .f32⟩
  | 113 => ⟨S100000, .f32⟩
  | 114 => ⟨S100000, .f32⟩
  | 115 => ⟨S_, .i32⟩
  | 116 => ⟨S640000, .i32⟩
  | 117 => ⟨S640000, .i1⟩
  | 118 => ⟨S_, .i32⟩
  | 119 => ⟨S640000, .i32⟩
  | 120 => ⟨S640000, .i32⟩
  | 121 => ⟨S640000, .i32⟩
  | 122 => ⟨S640000x1, .i32⟩
  | 123 => ⟨S640000, .f32⟩
  | 124 => ⟨S_, .i32⟩
  | 125 => ⟨S640000, .i32⟩
  | 126 => ⟨S640000, .i1⟩
  | 127 => ⟨S_, .i32⟩
  | _ => ⟨S100000x1, .i32⟩

abbrev hbmTy0_1 (i : Nat) : BufTy := match i % 128 with
  | 0 => ⟨S640000, .i32⟩
  | 1 => ⟨S640000, .i32⟩
  | 2 => ⟨S640000, .i32⟩
  | 3 => ⟨S640000x1, .i32⟩
  | 4 => ⟨S640000, .f32⟩
  | 5 => ⟨S640000, .f32⟩
  | 6 => ⟨S_, .i32⟩
  | 7 => ⟨S640000, .i32⟩
  | 8 => ⟨S640000, .i1⟩
  | 9 => ⟨S_, .i32⟩
  | 10 => ⟨S640000, .i32⟩
  | 11 => ⟨S640000, .i32⟩
  | 12 => ⟨S640000, .i32⟩
  | 13 => ⟨S640000x1, .i32⟩
  | 14 => ⟨S640000x128, .f32⟩
  | 15 => ⟨S640000x1, .f32⟩
  | 16 => ⟨S640000x128, .f32⟩
  | 17 => ⟨S640000x128, .f32⟩
  | 18 => ⟨S_, .f32⟩
  | 19 => ⟨S100000x128, .f32⟩
  | 20 => ⟨S640000x1, .i32⟩
  | 21 => ⟨S100000x128, .f32⟩
  | 22 => ⟨S100000, .f32⟩
  | 23 => ⟨S100000x1, .f32⟩
  | 24 => ⟨S100000x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S100000x128, .f32⟩
  | 34 => ⟨S_, .f32⟩
  | 35 => ⟨S640000, .f32⟩
  | 36 => ⟨S_, .f32⟩
  | 37 => ⟨S100000, .f32⟩
  | 38 => ⟨S640000x1, .i32⟩
  | 39 => ⟨S100000, .f32⟩
  | 40 => ⟨S_, .f32⟩
  | 41 => ⟨S100000, .f32⟩
  | 42 => ⟨S100000, .f32⟩
  | 43 => ⟨S_, .f32⟩
  | 44 => ⟨S100000, .f32⟩
  | 45 => ⟨S100000, .i1⟩
  | 46 => ⟨S100000, .f32⟩
  | 47 => ⟨S_, .f32⟩
  | 48 => ⟨S100000, .f32⟩
  | 49 => ⟨S100000, .f32⟩
  | 50 => ⟨S_, .f32⟩
  | 51 => ⟨S_, .f32⟩
  | 52 => ⟨S100000, .f32⟩
  | 53 => ⟨S100000, .f32⟩
  | 54 => ⟨S_, .i32⟩
  | 55 => ⟨S640000, .i32⟩
  | 56 => ⟨S640000, .i1⟩
  | 57 => ⟨S_, .i32⟩
  | 58 => ⟨S640000, .i32⟩
  | 59 => ⟨S640000, .i32⟩
  | 60 => ⟨S640000, .i32⟩
  | 61 => ⟨S640000x1, .i32⟩
  | 62 => ⟨S640000, .f32⟩
  | 63 => ⟨S_, .i32⟩
  | 64 => ⟨S640000, .i32⟩
  | 65 => ⟨S640000, .i1⟩
  | 66 => ⟨S_, .i32⟩
  | 67 => ⟨S640000, .i32⟩
  | 68 => ⟨S640000, .i32⟩
  | 69 => ⟨S640000, .i32⟩
  | 70 => ⟨S640000x1, .i32⟩
  | 71 => ⟨S640000, .f32⟩
  | 72 => ⟨S640000, .f32⟩
  | 73 => ⟨S_, .i32⟩
  | 74 => ⟨S640000, .i32⟩
  | 75 => ⟨S640000, .i1⟩
  | 76 => ⟨S_, .i32⟩
  | 77 => ⟨S640000, .i32⟩
  | 78 => ⟨S640000, .i32⟩
  | 79 => ⟨S640000, .i32⟩
  | 80 => ⟨S640000x1, .i32⟩
  | 81 => ⟨S640000x128, .f32⟩
  | 82 => ⟨S640000x1, .f32⟩
  | 83 => ⟨S640000x128, .f32⟩
  | 84 => ⟨S640000x128, .f32⟩
  | 85 => ⟨S_, .f32⟩
  | 86 => ⟨S100000x128, .f32⟩
  | 87 => ⟨S640000x1, .i32⟩
  | 88 => ⟨S100000x128, .f32⟩
  | 89 => ⟨S100000, .f32⟩
  | 90 => ⟨S100000x1, .f32⟩
  | 91 => ⟨S100000x128, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S128x128, .f32⟩
  | 99 => ⟨S100000x1, .i32⟩
  | 100 => ⟨S128x128, .f32⟩
  | 101 => ⟨S_, .f32⟩
  | 102 => ⟨S100000, .f32⟩
  | 103 => ⟨S_, .f32⟩
  | 104 => ⟨S128, .f32⟩
  | 105 => ⟨S100000x1, .i32⟩
  | 106 => ⟨S128, .f32⟩
  | 107 => ⟨S_, .f32⟩
  | 108 => ⟨S128, .f32⟩
  | 109 => ⟨S128, .f32⟩
  | 110 => ⟨S128x1, .f32⟩
  | 111 => ⟨S128x128, .f32⟩
  | 112 => ⟨S128x128, .f32⟩
  | 113 => ⟨S128x104, .f32⟩
  | 114 => ⟨S1x104, .f32⟩
  | 115 => ⟨S128x104, .f32⟩
  | 116 => ⟨S128x104, .f32⟩
  | _ => ⟨S100000x1, .i32⟩

abbrev hbmTy (i : Nat) : BufTy := match i / 128 with
  | 0 => hbmTy0_0 i
  | 1 => hbmTy0_1 i
  | _ => ⟨S100000x1, .i32⟩

abbrev bufTy : (tb : Table) → Fin (tcTables nBuf tb) → BufTy
  | .hbm, ⟨i, _⟩ => hbmTy i
  | _, _ => ⟨S100000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_c_7 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_8 : Ref sig .tc := ⟨.hbm, 57, rfl⟩
abbrev main_v32 : Ref sig .tc := ⟨.hbm, 58, rfl⟩
abbrev main_v33 : Ref sig .tc := ⟨.hbm, 59, rfl⟩
abbrev main_c_9 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_10 : Ref sig .tc := ⟨.hbm, 67, rfl⟩
abbrev main_v40 : Ref sig .tc := ⟨.hbm, 68, rfl⟩
abbrev main_v41 : Ref sig .tc := ⟨.hbm, 69, rfl⟩
abbrev main_c_11 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_12 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_call1_cst : Ref sig .tc := ⟨.hbm, 91, rfl⟩
abbrev main_call1_v0 : Ref sig .tc := ⟨.hbm, 92, rfl⟩
abbrev main_v61 : Ref sig .tc := ⟨.hbm, 93, rfl⟩
abbrev main_v62 : Ref sig .tc := ⟨.hbm, 94, rfl⟩
abbrev main_cst_13 : Ref sig .tc := ⟨.hbm, 95, rfl⟩
abbrev main_v63 : Ref sig .tc := ⟨.hbm, 96, rfl⟩
abbrev main_cst_14 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_15 : Ref sig .tc := ⟨.hbm, 101, rfl⟩
abbrev main_v67 : Ref sig .tc := ⟨.hbm, 102, rfl⟩
abbrev main_v68 : Ref sig .tc := ⟨.hbm, 103, rfl⟩
abbrev main_cst_16 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_17 : Ref sig .tc := ⟨.hbm, 108, rfl⟩
abbrev main_v72 : Ref sig .tc := ⟨.hbm, 109, rfl⟩
abbrev main_v73 : Ref sig .tc := ⟨.hbm, 110, rfl⟩
abbrev main_cst_18 : Ref sig .tc := ⟨.hbm, 111, rfl⟩
abbrev main_call2_v0 : Ref sig .tc := ⟨.hbm, 112, rfl⟩
abbrev main_call2_v1 : Ref sig .tc := ⟨.hbm, 113, rfl⟩
abbrev main_v74 : Ref sig .tc := ⟨.hbm, 114, rfl⟩
abbrev main_c_19 : Ref sig .tc := ⟨.hbm, 115, rfl⟩
abbrev main_v75 : Ref sig .tc := ⟨.hbm, 116, rfl⟩
abbrev main_v76 : Ref sig .tc := ⟨.hbm, 117, rfl⟩
abbrev main_c_20 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_21 : Ref sig .tc := ⟨.hbm, 124, rfl⟩
abbrev main_v82 : Ref sig .tc := ⟨.hbm, 125, rfl⟩
abbrev main_v83 : Ref sig .tc := ⟨.hbm, 126, rfl⟩
abbrev main_c_22 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_23 : Ref sig .tc := ⟨.hbm, 134, rfl⟩
abbrev main_v90 : Ref sig .tc := ⟨.hbm, 135, rfl⟩
abbrev main_v91 : Ref sig .tc := ⟨.hbm, 136, rfl⟩
abbrev main_c_24 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_25 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_call3_cst : Ref sig .tc := ⟨.hbm, 158, rfl⟩
abbrev main_call3_v0 : Ref sig .tc := ⟨.hbm, 159, rfl⟩
abbrev main_v111 : Ref sig .tc := ⟨.hbm, 160, rfl⟩
abbrev main_v112 : Ref sig .tc := ⟨.hbm, 161, rfl⟩
abbrev main_cst_26 : Ref sig .tc := ⟨.hbm, 162, rfl⟩
abbrev main_v113 : Ref sig .tc := ⟨.hbm, 163, rfl⟩
abbrev main_cst_27 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_28 : Ref sig .tc := ⟨.hbm, 168, rfl⟩
abbrev main_v117 : Ref sig .tc := ⟨.hbm, 169, rfl⟩
abbrev main_v118 : Ref sig .tc := ⟨.hbm, 170, rfl⟩
abbrev main_cst_29 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_cst_30 : Ref sig .tc := ⟨.hbm, 175, rfl⟩
abbrev main_v122 : Ref sig .tc := ⟨.hbm, 176, rfl⟩
abbrev main_v123 : Ref sig .tc := ⟨.hbm, 177, rfl⟩
abbrev main_cst_31 : Ref sig .tc := ⟨.hbm, 178, rfl⟩
abbrev main_call4_v0 : Ref sig .tc := ⟨.hbm, 179, rfl⟩
abbrev main_call4_v1 : Ref sig .tc := ⟨.hbm, 180, rfl⟩
abbrev main_v124 : Ref sig .tc := ⟨.hbm, 181, rfl⟩
abbrev main_c_32 : Ref sig .tc := ⟨.hbm, 182, rfl⟩
abbrev main_v125 : Ref sig .tc := ⟨.hbm, 183, rfl⟩
abbrev main_v126 : Ref sig .tc := ⟨.hbm, 184, rfl⟩
abbrev main_c_33 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_c_34 : Ref sig .tc := ⟨.hbm, 191, rfl⟩
abbrev main_v132 : Ref sig .tc := ⟨.hbm, 192, rfl⟩
abbrev main_v133 : Ref sig .tc := ⟨.hbm, 193, rfl⟩
abbrev main_c_35 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_c_36 : Ref sig .tc := ⟨.hbm, 201, rfl⟩
abbrev main_v140 : Ref sig .tc := ⟨.hbm, 202, rfl⟩
abbrev main_v141 : Ref sig .tc := ⟨.hbm, 203, rfl⟩
abbrev main_c_37 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_cst_38 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_cst_39 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_cst_40 : Ref sig .tc := ⟨.hbm, 229, rfl⟩
abbrev main_v164 : Ref sig .tc := ⟨.hbm, 230, rfl⟩
abbrev main_cst_41 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_cst_42 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128x128 : S_.BroadcastsInDim S128x128 (![] : Fin 0 → Fin S128x128.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S104_S1x104_1 : S104.BroadcastsInDim S1x104 (![1] : Fin 1 → Fin S1x104.rank)
  bcast_S1x104_S128x104_0_1 : S1x104.BroadcastsInDim S128x104 (![0, 1] : Fin 2 → Fin S128x104.rank)
  gather_S50000x128_S100000x1_S100000x128_1_0_n_n_0_1_1128_wf : GatherDims.WF S50000x128 S100000x1 S100000x128 [1] [0] [] [0] [] 1 ![1, 128]
  dot_S100000x128_S128x128_S100000x128_1_0_0_1_n_n_wf : DotDims.WF S100000x128 S128x128 S100000x128 [1] [0] [0] [1] [] []
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x104_S128x104_1_0_0_1_n_n_wf : DotDims.WF S128x128 S128x104 S128x104 [1] [0] [0] [1] [] []

variable [Facts₀]

def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x104_S128x104_1_0_0_1_n_n : DotDims S128x128 S128x104 S128x104 where
  lhsContracting := [1]
  rhsContracting := [0]
  lhsNonContracting := [0]
  rhsNonContracting := [1]
  lhsBatch := []
  rhsBatch := []
  wf := dot_S128x128_S128x104_S128x104_1_0_0_1_n_n_wf

class Facts : Prop extends Facts₀ where

variable [Facts]
-- ==== Proof.K.Fold.lean ====
/-
  The contents of a core's unscoped buffers between the items of @main, over a parameter: what each of the eight
  regions leaves in its output array, as a function of the contents the region is entered at. From the launch memory,
  each host stretch applies its operations (`StableHlo.after`) and each region replaces its output array; every other
  buffer is as it was. These are the generated valuations `V4 … V16` at the matching choice of the regions' outputs.
-/
import proofs.«406510_j66254165508930_1_alg».proof.Proof.Gen.Kernel.Regions

set_option maxRecDepth 16384

noncomputable section

namespace Cert.Kernel.Gen

open Idealize.ShloMosaic Idealize.ShloMosaic.TcCoe Idealize.SL.Sem

variable {F : FTy → Type} [FloatOps F]

/-- What each region leaves in its output array, given the contents it is entered at. -/
structure Leaves (F : FTy → Type) [FloatOps F] where
  l0 : (Dev nD → Valuation τ sig (Elt F)) → (c : Dev nD) → Buf (Elt F) ((c : Thread nD τ).loc main_v40)
  l1 : (Dev nD → Valuation τ sig (Elt F)) → (c : Dev nD) → Buf (Elt F) ((c : Thread nD τ).loc main_v58)
  l2 : (Dev nD → Valuation τ sig (Elt F)) → (c : Dev nD) → Buf (Elt F) ((c : Thread nD τ).loc main_v59)
  l3 : (Dev nD → Valuation τ sig (Elt F)) → (c : Dev nD) → Buf (Elt F) ((c : Thread nD τ).loc main_v77)
  l4 : (Dev nD → Valuation τ sig (Elt F)) → (c : Dev nD) → Buf (Elt F) ((c : Thread nD τ).loc main_v78)
  l5 : (Dev nD → Valuation τ sig (Elt F)) → (c : Dev nD) → Buf (Elt F) ((c : Thread nD τ).loc main_v96)
  l6 : (Dev nD → Valuation τ sig (Elt F)) → (c : Dev nD) → Buf (Elt F) ((c : Thread nD τ).loc main_v104)
  l7 : (Dev nD → Valuation τ sig (Elt F)) → (c : Dev nD) → Buf (Elt F) ((c : Thread nD τ).loc main_v109)

variable (lv : Leaves F) (m : (ℓ : Loc nD τ sig) → Buf (Elt F) ℓ)

/-! ## The contents between the items -/

/-- After region 0: its output array `main_v40` at what the region left, every other buffer as entered. -/
def X4 (c : Dev nD) : Valuation τ sig (Elt F) :=
  Function.update (V3 m c) (Proc.devRef .tc main_v40) (lv.l0 (V3 m) c)
/-- After the host stretch `hostOps1`. -/
def X5 (c : Dev nD) : Valuation τ sig (Elt F) := StableHlo.after hostOps1 (X4 lv m c)
/-- After region 1: its output array `main_v58` at what the region left, every other buffer as entered. -/
def X6 (c : Dev nD) : Valuation τ sig (Elt F) :=
  Function.update (X5 lv m c) (Proc.devRef .tc main_v58) (lv.l1 (X5 lv m) c)
/-- After region 2: its output array `main_v59` at what the region left, every other buffer as entered. -/
def X7 (c : Dev nD) : Valuation τ sig (Elt F) :=
  Function.update (X6 lv m c) (Proc.devRef .tc main_v59) (lv.l2 (X6 lv m) c)
/-- After the host stretch `hostOps3`. -/
def X8 (c : Dev nD) : Valuation τ sig (Elt F) := StableHlo.after hostOps3 (X7 lv m c)
/-- After region 3: its output array `main_v77` at what the region left, every other buffer as entered. -/
def X9 (c : Dev nD) : Valuation τ sig (Elt F) :=
  Function.update (X8 lv m c) (Proc.devRef .tc main_v77) (lv.l3 (X8 lv m) c)
/-- After region 4: its output array `main_v78` at what the region left, every other buffer as entered. -/
def X10 (c : Dev nD) : Valuation τ sig (Elt F) :=
  Function.update (X9 lv m c) (Proc.devRef .tc main_v78) (lv.l4 (X9 lv m) c)
/-- After the host stretch `hostOps5`. -/
def X11 (c : Dev nD) : Valuation τ sig (Elt F) := StableHlo.after hostOps5 (X10 lv m c)
/-- After region 5: its output array `main_v96` at what the region left, every other buffer as entered. -/
def X12 (c : Dev nD) : Valuation τ sig (Elt F) :=
  Function.update (X11 lv m c) (Proc.devRef .tc main_v96) (lv.l5 (X11 lv m) c)
/-- After the host stretch `hostOps6`. -/
def X13 (c : Dev nD) : Valuation τ sig (Elt F) := StableHlo.after hostOps6 (X12 lv m c)
/-- After region 6: its output array `main_v104` at what the region left, every other buffer as entered. -/
def X14 (c : Dev nD) : Valuation τ sig (Elt F) :=
  Function.update (X13 lv m c) (Proc.devRef .tc main_v104) (lv.l6 (X13 lv m) c)
/-- After the host stretch `hostOps7`. -/
def X15 (c : Dev nD) : Valuation τ sig (Elt F) := StableHlo.after hostOps7 (X14 lv m c)
/-- After region 7: its output array `main_v109` at what the region left, every other buffer as entered. -/
def X16 (c : Dev nD) : Valuation τ sig (Elt F) :=
  Function.update (X15 lv m c) (Proc.devRef .tc main_v109) (lv.l7 (X15 lv m) c)

/-- What the regions leave, as the generated valuations ask for it: item `J`'s contents read at a reference. -/
def outs : Outs (F := F) := fun J r c => match J with
  | 4 => X4 lv m c (Proc.devRef .tc r)
  | 6 => X6 lv m c (Proc.devRef .tc r)
  | 7 => X7 lv m c (Proc.devRef .tc r)
  | 9 => X9 lv m c (Proc.devRef .tc r)
  | 10 => X10 lv m c (Proc.devRef .tc r)
  | 12 => X12 lv m c (Proc.devRef .tc r)
  | 14 => X14 lv m c (Proc.devRef .tc r)
  | _ => X16 lv m c (Proc.devRef .tc r)

/-! The generated valuations at these `outs` are the contents above. -/

theorem V4_eq (c : Dev nD) : V4 m (outs lv m) c = X4 lv m c := by
  show Function.update (V3 m c) _ (X4 lv m c _) = X4 lv m c
  unfold X4; rw [Function.update_self]
theorem V5_eq (c : Dev nD) : V5 m (outs lv m) c = X5 lv m c := by
  show StableHlo.after hostOps1 (V4 m (outs lv m) c) = _
  rw [V4_eq]; rfl
theorem V6_eq (c : Dev nD) : V6 m (outs lv m) c = X6 lv m c := by
  show Function.update (V5 m (outs lv m) c) _ (X6 lv m c _) = X6 lv m c
  rw [V5_eq]; unfold X6; rw [Function.update_self]
theorem V7_eq (c : Dev nD) : V7 m (outs lv m) c = X7 lv m c := by
  show Function.update (V6 m (outs lv m) c) _ (X7 lv m c _) = X7 lv m c
  rw [V6_eq]; unfold X7; rw [Function.update_self]
theorem V8_eq (c : Dev nD) : V8 m (outs lv m) c = X8 lv m c := by
  show StableHlo.after hostOps3 (V7 m (outs lv m) c) = _
  rw [V7_eq]; rfl
theorem V9_eq (c : Dev nD) : V9 m (outs lv m) c = X9 lv m c := by
  show Function.update (V8 m (outs lv m) c) _ (X9 lv m c _) = X9 lv m c
  rw [V8_eq]; unfold X9; rw [Function.update_self]
theorem V10_eq (c : Dev nD) : V10 m (outs lv m) c = X10 lv m c := by
  show Function.update (V9 m (outs lv m) c) _ (X10 lv m c _) = X10 lv m c
  rw [V9_eq]; unfold X10; rw [Function.update_self]
theorem V11_eq (c : Dev nD) : V11 m (outs lv m) c = X11 lv m c := by
  show StableHlo.after hostOps5 (V10 m (outs lv m) c) = _
  rw [V10_eq]; rfl
theorem V12_eq (c : Dev nD) : V12 m (outs lv m) c = X12 lv m c := by
  show Function.update (V11 m (outs lv m) c) _ (X12 lv m c _) = X12 lv m c
  rw [V11_eq]; unfold X12; rw [Function.update_self]
theorem V13_eq (c : Dev nD) : V13 m (outs lv m) c = X13 lv m c := by
  show StableHlo.after hostOps6 (V12 m (outs lv m) c) = _
  rw [V12_eq]; rfl
theorem V14_eq (c : Dev nD) : V14 m (outs lv m) c = X14 lv m c := by
  show Function.update (V13 m (outs lv m) c) _ (X14 lv m c _) = X14 lv m c
  rw [V13_eq]; unfold X14; rw [Function.update_self]
theorem V15_eq (c : Dev nD) : V15 m (outs lv m) c = X15 lv m c := by
  show StableHlo.after hostOps7 (V14 m (outs lv m) c) = _
  rw [V14_eq]; rfl
theorem V16_eq (c : Dev nD) : V16 m (outs lv m) c = X16 lv m c := by
  show Function.update (V15 m (outs lv m) c) _ (X16 lv m c _) = X16 lv m c
  rw [V15_eq]; unfold X16; rw [Function.update_self]

/-! ## What an item leaves unchanged, and what a region leaves in its output -/

theorem X4_of (c : Dev nD) (r : Ref sig .tc) (h : r ≠ main_v40) : X4 lv m c (Proc.devRef .tc r) = V3 m c (Proc.devRef .tc r) :=
  Function.update_of_ne (StableHlo.devRef_ne_of_ne h) _ _
theorem X4_out (c : Dev nD) : X4 lv m c (Proc.devRef .tc main_v40) = lv.l0 (V3 m) c :=
  Function.update_self _ _ _
theorem X5_of (c : Dev nD) (r : Ref sig .tc) (h : r ∉ hostOps1_W) : X5 lv m c (Proc.devRef .tc r) = X4 lv m c (Proc.devRef .tc r) :=
  StableHlo.after_of_writes_sub hostOps1 _ hostOps1_writes h
theorem X6_of (c : Dev nD) (r : Ref sig .tc) (h : r ≠ main_v58) : X6 lv m c (Proc.devRef .tc r) = X5 lv m c (Proc.devRef .tc r) :=
  Function.update_of_ne (StableHlo.devRef_ne_of_ne h) _ _
theorem X6_out (c : Dev nD) : X6 lv m c (Proc.devRef .tc main_v58) = lv.l1 (X5 lv m) c :=
  Function.update_self _ _ _
theorem X7_of (c : Dev nD) (r : Ref sig .tc) (h : r ≠ main_v59) : X7 lv m c (Proc.devRef .tc r) = X6 lv m c (Proc.devRef .tc r) :=
  Function.update_of_ne (StableHlo.devRef_ne_of_ne h) _ _
theorem X7_out (c : Dev nD) : X7 lv m c (Proc.devRef .tc main_v59) = lv.l2 (X6 lv m) c :=
  Function.update_self _ _ _
theorem X8_of (c : Dev nD) (r : Ref sig .tc) (h : r ∉ hostOps3_W) : X8 lv m c (Proc.devRef .tc r) = X7 lv m c (Proc.devRef .tc r) :=
  StableHlo.after_of_writes_sub hostOps3 _ hostOps3_writes h
theorem X9_of (c : Dev nD) (r : Ref sig .tc) (h : r ≠ main_v77) : X9 lv m c (Proc.devRef .tc r) = X8 lv m c (Proc.devRef .tc r) :=
  Function.update_of_ne (StableHlo.devRef_ne_of_ne h) _ _
theorem X9_out (c : Dev nD) : X9 lv m c (Proc.devRef .tc main_v77) = lv.l3 (X8 lv m) c :=
  Function.update_self _ _ _
theorem X10_of (c : Dev nD) (r : Ref sig .tc) (h : r ≠ main_v78) : X10 lv m c (Proc.devRef .tc r) = X9 lv m c (Proc.devRef .tc r) :=
  Function.update_of_ne (StableHlo.devRef_ne_of_ne h) _ _
theorem X10_out (c : Dev nD) : X10 lv m c (Proc.devRef .tc main_v78) = lv.l4 (X9 lv m) c :=
  Function.update_self _ _ _
theorem X11_of (c : Dev nD) (r : Ref sig .tc) (h : r ∉ hostOps5_W) : X11 lv m c (Proc.devRef .tc r) = X10 lv m c (Proc.devRef .tc r) :=
  StableHlo.after_of_writes_sub hostOps5 _ hostOps5_writes h
theorem X12_of (c : Dev nD) (r : Ref sig .tc) (h : r ≠ main_v96) : X12 lv m c (Proc.devRef .tc r) = X11 lv m c (Proc.devRef .tc r) :=
  Function.update_of_ne (StableHlo.devRef_ne_of_ne h) _ _
theorem X12_out (c : Dev nD) : X12 lv m c (Proc.devRef .tc main_v96) = lv.l5 (X11 lv m) c :=
  Function.update_self _ _ _
theorem X13_of (c : Dev nD) (r : Ref sig .tc) (h : r ∉ hostOps6_W) : X13 lv m c (Proc.devRef .tc r) = X12 lv m c (Proc.devRef .tc r) :=
  StableHlo.after_of_writes_sub hostOps6 _ hostOps6_writes h
theorem X14_of (c : Dev nD) (r : Ref sig .tc) (h : r ≠ main_v104) : X14 lv m c (Proc.devRef .tc r) = X13 lv m c (Proc.devRef .tc r) :=
  Function.update_of_ne (StableHlo.devRef_ne_of_ne h) _ _
theorem X14_out (c : Dev nD) : X14 lv m c (Proc.devRef .tc main_v104) = lv.l6 (X13 lv m) c :=
  Function.update_self _ _ _
theorem X15_of (c : Dev nD) (r : Ref sig .tc) (h : r ∉ hostOps7_W) : X15 lv m c (Proc.devRef .tc r) = X14 lv m c (Proc.devRef .tc r) :=
  StableHlo.after_of_writes_sub hostOps7 _ hostOps7_writes h
theorem X16_of (c : Dev nD) (r : Ref sig .tc) (h : r ≠ main_v109) : X16 lv m c (Proc.devRef .tc r) = X15 lv m c (Proc.devRef .tc r) :=
  Function.update_of_ne (StableHlo.devRef_ne_of_ne h) _ _
theorem X16_out (c : Dev nD) : X16 lv m c (Proc.devRef .tc main_v109) = lv.l7 (X15 lv m) c :=
  Function.update_self _ _ _

end Cert.Kernel.Gen

end
-- ==== Proof.K.Region.lean ====
/-
  A kernel region of @main as a segment of the program's run, for ANY of the eight calls. The thread state between two
  items of @main is: every unscoped buffer of the core held whole at named contents, the generator register at some
  state, and the core owing nothing. A region is entered from such a state at contents `Win`: its windows' arrays are
  split out of the unscoped buffers (they are distinct whole buffers), the generator register goes into the region's
  invariant beside the scoped buffers no window stages, and at the exit the arrays come back at what the write-backs
  left (`arrAt` at the last point), which with the untouched buffers is the state at contents `Wout`. No kernel here has
  a semaphore of its own or a prefetched table, and none owes another core anything.
-/
import proofs.«406510_j66254165508930_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No core owes another anything: no level is assigned. -/
abbrev noLevels : GSem nD τ sig → Finset Unit := fun _ => ∅
abbrev zeroLevel : GSem nD τ sig → Unit → ℕ := fun _ _ => 0

/-- What rides beside the buffers through every item of @main: the generator register at some state, nothing owed. -/
abbrev beside (c : Dev nD) : sProp 𝕄 :=
  iprop((∃ r, prngReg c r) ∗ ∃ W, owes (c : Thread nD τ) (0 : CellTallies nD τ sig Unit) W)

/-- The thread state at contents `W`. -/
abbrev stateAt (W : Dev nD → Valuation τ sig (Elt F)) (c : Dev nD) : sProp 𝕄 :=
  iprop(StableHlo.held (c : Thread nD τ) (Pipeline.ucRefs τ sig) (W c) ∗ beside (F := F) c)

section
variable (pd : (p : Fin 8) → (c : Dev nD) → Dat τ (Elt F) Unit ℕ (UR sig nD τ) ℕ (cfgs p) c)

set_option backward.isDefEq.respectTransparency.types false in
/-- Region `p` as a segment, entered at contents `Win` and left at `Wout`. -/
def regionAt (p : Fin 8) (lf : Pipeline.LaunchFacts (nD := nD) (τ := τ) cfgs p)
    (Win Wout : Dev nD → Valuation τ sig (Elt F))
    (hbody : ∀ c, BodyObligation (pd p c) (defs₀ (F := F)) Variants.none () Set.univ)
    (hq : ∀ c w, (pd p c).q w = fullShare) (howed : ∀ c t, (pd p c).owed t = 0)
    (hrec : ∀ c t, (pd p c).recorded t = Set.univ)
    (hA : ∀ c w, (pd p c).A w = Win c (Pipeline.arrRef (cfgs p).spec w))
    (hΦ0 : ∀ c, Pipeline.ΦA (cfgs p).spec c ⊢ (pd p c).Φ 0)
    (hΦN : ∀ c, (pd p c).Φ (Fin.last (cfgs p).N) ⊢ Pipeline.ΦA (cfgs p).spec c)
    (hF : ∀ c w, (pd p c).arrAt w (cfgs p).N = Wout c (Pipeline.arrRef (cfgs p).spec w))
    (hrest : ∀ c (b : Ref sig .tc), b ∉ Finset.univ.image (Pipeline.arrRef (cfgs p).spec) → Wout c b = Win c b) :
    Pipeline.RegionSeg (pcfgs (F := F)) adm pd () defs₀ Variants.none noLevels zeroLevel p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ noLevels zeroLevel p howed
  pre := stateAt Win
  post := stateAt Wout
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm pd lf.win lf.arr_whole c
      ((pd p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hrec]; trivial)
      rw [howed c 0]; iexact HO
    isplitl [Hp]; · iexact Hp
    iexact Hrest
  hin c := by
    refine BIBase.Entails.trans ?_ (hΦ0 c)
    unfold Pipeline.ΦA
    iintro ⟨Hp, -, Hr⟩
    isplitl [Hr]; · iexact Hr
    iexact Hp
  hout c := by
    rw [Pipeline.ownSems0_none]
    refine BIBase.Entails.trans (hΦN c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c))
      (fun b => Win c b) (fun b => Wout c b) ((pd p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [howed c (Fin.last _)] at *; iexact HO

end

end Cert.Kernel.Gen

end
-- ==== Proof.K.RunCond.lean ====
/-
  The run of @main from the regions' records with the result read back. Between two items of @main a core holds every
  unscoped buffer whole at the contents the items so far left: the launch contents, then each host stretch's
  operations applied, then what each region left in its output array. At the end the last such contents are read
  against the final memory: the result buffer holds what the last region left in it, and no item writes an argument.
-/
import proofs.«406510_j66254165508930_1_alg».proof.Proof.Gen.Kernel.Regions

set_option maxRecDepth 1268

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- After the last region the result buffer holds what that region left in it. -/
theorem V16_main_v109 (outs : Outs (F := F)) (c : Dev nD) : V16 m outs c main_v109 = outs 16 main_v109 c := by
  simp only [V16, Function.update_self]

set_option backward.isDefEq.respectTransparency.types false in
/-- The run of @main given the regions' records, with the RESULT read back: for any user algebra, level assignment,
    launch dues and ghost resources, any rest states `E` the launch makes on every core at once (`hE0`) and that end
    owing nothing (`hE8`), any contents the regions leave (`outs`) and any proof data, GIVEN per region a segment
    record entered from the thread state before it and left at the one after it, every weakly fair execution of @main
    from memory `m` with zero counters terminates, and every final memory holds the result buffer `main_v109` at what
    the last region left there (`outs 16 main_v109`) and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c)) :
    θ_run defs (onTc (τ := τ) (main (F := F))) ⟨m, fun _ => 0, ρ⟩ (fun r => ∀ c : Dev nD,
      r.2.mem ((c.tc : Thread nD τ).loc main_v109) = outs 16 main_v109 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, .rfl, .rfl, hpre0 c, hpost0 c, hpre1 c, (hpost1 c).trans (hpre2 c), hpost2 c, hpre3 c, (hpost3 c).trans (hpre4 c), hpost4 c, hpre5 c, hpost5 c, hpre6 c, hpost6 c, hpre7 c, (hpost7 c).trans (sep_mono .rfl (hE8 c))⟩)
    (hinit := ?_) (QY := fun c s => s.mem ((c.tc : Thread nD τ).loc main_v109) = outs 16 main_v109 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V16 m outs c) s') $$ [Hh HSI]
    · isplitl [Hh] <;> iassumption
    icases Hr with ⟨%h, HSI⟩
    imodintro
    isplitr
    · ipureintro
      exact ⟨(h (Proc.devRef .tc main_v109) (Finset.mem_filter.mpr ⟨StableHlo.devRef_mem_tcRefs main_v109, by decide⟩)).trans (V16_main_v109 m outs c),
        (h (Proc.devRef .tc main_arg0) (Finset.mem_filter.mpr ⟨StableHlo.devRef_mem_tcRefs main_arg0, by decide⟩)).trans (V16_main_arg0 m outs c),
        (h (Proc.devRef .tc main_arg1) (Finset.mem_filter.mpr ⟨StableHlo.devRef_mem_tcRefs main_arg1, by decide⟩)).trans (V16_main_arg1 m outs c),
        (h (Proc.devRef .tc main_arg2) (Finset.mem_filter.mpr ⟨StableHlo.devRef_mem_tcRefs main_arg2, by decide⟩)).trans (V16_main_arg2 m outs c),
        (h (Proc.devRef .tc main_arg3) (Finset.mem_filter.mpr ⟨StableHlo.devRef_mem_tcRefs main_arg3, by decide⟩)).trans (V16_main_arg3 m outs c),
        (h (Proc.devRef .tc main_arg4) (Finset.mem_filter.mpr ⟨StableHlo.devRef_mem_tcRefs main_arg4, by decide⟩)).trans (V16_main_arg4 m outs c),
        (h (Proc.devRef .tc main_arg5) (Finset.mem_filter.mpr ⟨StableHlo.devRef_mem_tcRefs main_arg5, by decide⟩)).trans (V16_main_arg5 m outs c),
        (h (Proc.devRef .tc main_arg6) (Finset.mem_filter.mpr ⟨StableHlo.devRef_mem_tcRefs main_arg6, by decide⟩)).trans (V16_main_arg6 m outs c),
        (h (Proc.devRef .tc main_arg7) (Finset.mem_filter.mpr ⟨StableHlo.devRef_mem_tcRefs main_arg7, by decide⟩)).trans (V16_main_arg7 m outs c),
        (h (Proc.devRef .tc main_arg8) (Finset.mem_filter.mpr ⟨StableHlo.devRef_mem_tcRefs main_arg8, by decide⟩)).trans (V16_main_arg8 m outs c),
        (h (Proc.devRef .tc main_arg9) (Finset.mem_filter.mpr ⟨StableHlo.devRef_mem_tcRefs main_arg9, by decide⟩)).trans (V16_main_arg9 m outs c),
        (h (Proc.devRef .tc main_arg10) (Finset.mem_filter.mpr ⟨StableHlo.devRef_mem_tcRefs main_arg10, by decide⟩)).trans (V16_main_arg10 m outs c),
        (h (Proc.devRef .tc main_arg11) (Finset.mem_filter.mpr ⟨StableHlo.devRef_mem_tcRefs main_arg11, by decide⟩)).trans (V16_main_arg11 m outs c),
        (h (Proc.devRef .tc main_arg12) (Finset.mem_filter.mpr ⟨StableHlo.devRef_mem_tcRefs main_arg12, by decide⟩)).trans (V16_main_arg12 m outs c)⟩
    · iexact HSI

end Cert.Kernel.Gen

end
-- ==== Proof.K.R0.lean ====
/-
  A projection `hw = h · W` of @main (its regions 0, 2 and 4 are this one text at three calls). The grid has 20 points; point `t` reads rows
  `5000·t … 5000·t + 4999` of `h` (window 0), the whole 128 × 128 weight (window 1, fetched once and left in place),
  and writes the same rows of the product (window 2). The body loads both blocks whole, rounds them to bf16, multiplies
  them into a zero accumulator and stores the product whole; it also loads the output block first, a value it never
  uses. So after the body the output block is the payload `k0_pay1` of the two input blocks, whatever it held before.
  Stated at any entry contents `V` of the core's buffers and at any float instance.
-/
import proofs.«406510_j66254165508930_1_alg».proof.Proof.Gen.Kernel.Launch
import proofs.«406510_j66254165508930_1_alg».proof.Proof.Gen.Kernel.Skeleton
import proofs.«406510_j66254165508930_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The offsets `[0, 0]` are the zero offsets. -/
theorem off0_2 : (![0, 0] : Fin 2 → ℕ) = fun _ => 0 := by funext a; fin_cases a <;> rfl

set_option maxHeartbeats 1000000 in
/-- The body on whole staging memrefs: the two inputs keep their contents `x`, `w`; the output, whatever it held,
    ends at the product payload of `x` and `w`. -/
theorem body0 (c : Dev nD) (E : Set ℕ) (i : grid0.Coords)
    (a1 : Memref sig .tc .vmem S5000x128 .f32) (h1 : a1.IsWhole) (a2 : Memref sig .tc .vmem S128x128 .f32) (h2 : a2.IsWhole)
    (a3 : Memref sig .tc .vmem S5000x128 .f32) (h3 : a3.IsWhole)
    (x : Vec F S5000x128 .f32) (w : Vec F S128x128 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (k0_pay1 x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %e1, H1⟩, ⟨%f2, %e2, H2⟩, ⟨%d3, %f3, -, H3⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  -- one store through the whole rectangle: what is read back is its payload, and a load through the whole rectangle is the block
  rw [View.read_writes_eq_canon _ _ _ (View.cover_of_tiled _ S5000x128.size (by rfl)), View.canon_unit_zero off0_2]
  simp only [View.readAt_eq_ld, View.ld_unit_zero (S := S5000x128) off0_2, View.ld_unit_zero (S := S128x128) off0_2]

/-- The region's proof data on core `c`: the arrays as entered; after the body at point `t` the inputs' buffers at
    their blocks and the output's at the product payload of the two blocks; the class invariant (the scoped rest and
    the generator register, untouched); full shares; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => k0_pay1 (blk0 V c 0 t) (blk0 V c 1 t)
  Φ _ := Pipeline.ΦA spec0 c
  q _ := fullShare
  owed _ := 0

theorem A0 (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = k0_pay1 (blk0 V c 0 t) (blk0 V c 1 t) := by dsimp only [dat0]

/-- An input's current staging buffer holds its block at every point, fetched there or carried over from the point
    before (the weight's block index never moves). -/
theorem in0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A0]; try rfl) t d).trans
    (by unfold Dat.fetched Dat.blockOf blk0; rw [A0]; try rfl)
theorem in0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A0]; try rfl) t d).trans
    (by unfold Dat.fetched Dat.blockOf blk0; rw [A0]; try rfl)

/-- The body obligation of the launch theorem, at every point: the inputs' buffers hold their blocks, so `body0`
    applies; the invariant and the core's dues pass through unread. -/
theorem obligation0 (c : Dev nD) : BodyObligation (dat0 (F := F) V c) (defs₀ (F := F)) Variants.none () Set.univ := fun t => by
  rw [bigSep_W0, bigSep_W0]
  simp only [in0_0, in0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (body0 c Set.univ (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2)) (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.Kernel.Gen

end
-- ==== Proof.K.R1.lean ====
/-
  Region 1 of @main: the first layer's bias and activation, `max(x + b, 0)` on the aggregated features. The grid has 20 points; point `t` reads rows
  `5000·t … 5000·t + 4999` of the input (window 0), the whole bias row of 128 entries (window 1, fetched once and left
  in place), and writes the same rows of the result (window 2). The body loads both blocks whole, spreads the bias row
  over the 5000 rows, adds it to the input block, takes the entrywise maximum with 0 and stores the result whole; it also loads the output block
  first, a value it never uses. So after the body the output block is the payload `k1_pay1` of the two input blocks,
  whatever it held before. Stated at any entry contents `V` of the core's buffers and at any float instance.
-/
import proofs.«406510_j66254165508930_1_alg».proof.Proof.Gen.Kernel.Launch
import proofs.«406510_j66254165508930_1_alg».proof.Proof.Gen.Kernel.Skeleton
import proofs.«406510_j66254165508930_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rank-2 offsets `[0, 0]` are the zero offsets. -/
theorem off1_2 : (![0, 0] : Fin 2 → ℕ) = fun _ => 0 := by funext a; fin_cases a <;> rfl

/-- The rank-1 offset `[0]` is the zero offset. -/
theorem off1_1 : (![0] : Fin 1 → ℕ) = fun _ => 0 := by funext a; fin_cases a; rfl

set_option maxHeartbeats 1000000 in
/-- The body on whole staging memrefs: the two inputs keep their contents `x`, `b`; the output, whatever it held,
    ends at the bias payload of `x` and `b`. -/
theorem body1 (c : Dev nD) (E : Set ℕ) (i : grid1.Coords)
    (a1 : Memref sig .tc .vmem S5000x128 .f32) (h1 : a1.IsWhole) (a2 : Memref sig .tc .vmem S128 .f32) (h2 : a2.IsWhole)
    (a3 : Memref sig .tc .vmem S5000x128 .f32) (h3 : a3.IsWhole)
    (x : Vec F S5000x128 .f32) (b : Vec F S128 .f32) (K : PUnit → sProp 𝕄) :
    iprop(owns (c : Thread nD τ) a1 fullShare x ∗ owns (c : Thread nD τ) a2 fullShare b ∗ (∃ d, owns (c : Thread nD τ) a3 fullShare d)
        ∗ (iprop(owns (c : Thread nD τ) a1 fullShare x ∗ owns (c : Thread nD τ) a2 fullShare b
            ∗ owns (c : Thread nD τ) a3 fullShare (k1_pay1 x b)) -∗ K ⟨⟩))
      ⊢ wp frame (wpE (defs₀ (F := F)) Variants.none c none) E (cc1__bias_act_kernel i a1 h1 a2 h2 a3 h3) K := by
  simp only [cc1__bias_act_kernel_eq_skeleton]; unfold cc1__bias_act_kernel_skel
  unfold owns
  iintro ⟨⟨%f1, %e1, H1⟩, ⟨%f2, %e2, H2⟩, ⟨%d3, %f3, -, H3⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  -- one store through the whole rectangle: what is read back is its payload, and a load through the whole rectangle is the block
  rw [View.read_writes_eq_canon _ _ _ (View.cover_of_tiled _ S5000x128.size (by rfl)), View.canon_unit_zero off1_2]
  simp only [View.readAt_eq_ld, View.ld_unit_zero (S := S5000x128) off1_2, View.ld_unit_zero (S := S128) off1_1]

/-- The region's proof data on core `c`: the arrays as entered; after the body at point `t` the inputs' buffers at
    their blocks and the output's at the bias payload of the two blocks; the class invariant (the scoped rest and
    the generator register, untouched); full shares; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay1 (blk1 V c 0 t) (blk1 V c 1 t)
  Φ _ := Pipeline.ΦA spec1 c
  q _ := fullShare
  owed _ := 0

theorem A1 (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = k1_pay1 (blk1 V c 0 t) (blk1 V c 1 t) := by dsimp only [dat1]

/-- An input's current staging buffer holds its block at every point, fetched there or carried over from the point
    before (the bias row's block index never moves). -/
theorem in1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A1]; try rfl) t d).trans
    (by unfold Dat.fetched Dat.blockOf blk1; rw [A1]; try rfl)
theorem in1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A1]; try rfl) t d).trans
    (by unfold Dat.fetched Dat.blockOf blk1; rw [A1]; try rfl)

/-- The body obligation of the launch theorem, at every point: the inputs' buffers hold their blocks, so `body1`
    applies; the invariant and the core's dues pass through unread. -/
theorem obligation1 (c : Dev nD) : BodyObligation (dat1 (F := F) V c) (defs₀ (F := F)) Variants.none () Set.univ := fun t => by
  rw [bigSep_W1, bigSep_W1]
  simp only [in1_0, in1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (body1 c Set.univ (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2)) (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.Kernel.Gen

end
-- ==== Proof.K.R2.lean ====
/-
  A projection `hw = h · W` of @main (its regions 0, 2 and 4 are this one text at three calls). The grid has 20 points; point `t` reads rows
  `5000·t … 5000·t + 4999` of `h` (window 0), the whole 128 × 128 weight (window 1, fetched once and left in place),
  and writes the same rows of the product (window 2). The body loads both blocks whole, rounds them to bf16, multiplies
  them into a zero accumulator and stores the product whole; it also loads the output block first, a value it never
  uses. So after the body the output block is the payload `k2_pay1` of the two input blocks, whatever it held before.
  Stated at any entry contents `V` of the core's buffers and at any float instance.
-/
import proofs.«406510_j66254165508930_1_alg».proof.Proof.Gen.Kernel.Launch
import proofs.«406510_j66254165508930_1_alg».proof.Proof.Gen.Kernel.Skeleton
import proofs.«406510_j66254165508930_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The offsets `[0, 0]` are the zero offsets. -/
theorem off2_2 : (![0, 0] : Fin 2 → ℕ) = fun _ => 0 := by funext a; fin_cases a <;> rfl

set_option maxHeartbeats 1000000 in
/-- The body on whole staging memrefs: the two inputs keep their contents `x`, `w`; the output, whatever it held,
    ends at the product payload of `x` and `w`. -/
theorem body2 (c : Dev nD) (E : Set ℕ) (i : grid2.Coords)
    (a1 : Memref sig .tc .vmem S5000x128 .f32) (h1 : a1.IsWhole) (a2 : Memref sig .tc .vmem S128x128 .f32) (h2 : a2.IsWhole)
    (a3 : Memref sig .tc .vmem S5000x128 .f32) (h3 : a3.IsWhole)
    (x : Vec F S5000x128 .f32) (w : Vec F S128x128 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (k2_pay1 x w)) -∗ K ⟨⟩))
      ⊢ wp frame (wpE (defs₀ (F := F)) Variants.none c none) E (cc2__matmul_kernel i a1 h1 a2 h2 a3 h3) K := by
  simp only [cc2__matmul_kernel_eq_skeleton]; unfold cc2__matmul_kernel_skel
  unfold owns
  iintro ⟨⟨%f1, %e1, H1⟩, ⟨%f2, %e2, H2⟩, ⟨%d3, %f3, -, H3⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  -- one store through the whole rectangle: what is read back is its payload, and a load through the whole rectangle is the block
  rw [View.read_writes_eq_canon _ _ _ (View.cover_of_tiled _ S5000x128.size (by rfl)), View.canon_unit_zero off2_2]
  simp only [View.readAt_eq_ld, View.ld_unit_zero (S := S5000x128) off2_2, View.ld_unit_zero (S := S128x128) off2_2]

/-- The region's proof data on core `c`: the arrays as entered; after the body at point `t` the inputs' buffers at
    their blocks and the output's at the product payload of the two blocks; the class invariant (the scoped rest and
    the generator register, untouched); full shares; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => k2_pay1 (blk2 V c 0 t) (blk2 V c 1 t)
  Φ _ := Pipeline.ΦA spec2 c
  q _ := fullShare
  owed _ := 0

theorem A2 (c : Dev nD) (w : Fin cfg2.W) : (dat2 V c).A w = V c (Pipeline.arrRef spec2 w) := by dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = k2_pay1 (blk2 V c 0 t) (blk2 V c 1 t) := by dsimp only [dat2]

/-- An input's current staging buffer holds its block at every point, fetched there or carried over from the point
    before (the weight's block index never moves). -/
theorem in2_0 (c : Dev nD) (t : Fin cfg2.N) (d) : (dat2 V c).before 0 t d = blk2 V c 0 t :=
  ((dat2 V c).before_in_eq_fetched 0 rfl (fun _ => rfl) (fun _ _ _ => rfl)
    (fun t => by rw [after2_0]; unfold Dat.blockOf blk2; rw [A2]; try rfl) t d).trans
    (by unfold Dat.fetched Dat.blockOf blk2; rw [A2]; try rfl)
theorem in2_1 (c : Dev nD) (t : Fin cfg2.N) (d) : (dat2 V c).before 1 t d = blk2 V c 1 t :=
  ((dat2 V c).before_in_eq_fetched 1 rfl (fun _ => rfl) (fun _ _ _ => rfl)
    (fun t => by rw [after2_1]; unfold Dat.blockOf blk2; rw [A2]; try rfl) t d).trans
    (by unfold Dat.fetched Dat.blockOf blk2; rw [A2]; try rfl)

/-- The body obligation of the launch theorem, at every point: the inputs' buffers hold their blocks, so `body2`
    applies; the invariant and the core's dues pass through unread. -/
theorem obligation2 (c : Dev nD) : BodyObligation (dat2 (F := F) V c) (defs₀ (F := F)) Variants.none () Set.univ := fun t => by
  rw [bigSep_W2, bigSep_W2]
  simp only [in2_0, in2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (body2 c Set.univ (grid2.coords t) (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2)) (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.Kernel.Gen

end
-- ==== Proof.K.R3.lean ====
/-
  Region 3 of @main: the second layer's bias and activation, `max(x + b, 0)` on the aggregated features. The grid has 20 points; point `t` reads rows
  `5000·t … 5000·t + 4999` of the input (window 0), the whole bias row of 128 entries (window 1, fetched once and left
  in place), and writes the same rows of the result (window 2). The body loads both blocks whole, spreads the bias row
  over the 5000 rows, adds it to the input block, takes the entrywise maximum with 0 and stores the result whole; it also loads the output block
  first, a value it never uses. So after the body the output block is the payload `k3_pay1` of the two input blocks,
  whatever it held before. Stated at any entry contents `V` of the core's buffers and at any float instance.
-/
import proofs.«406510_j66254165508930_1_alg».proof.Proof.Gen.Kernel.Launch
import proofs.«406510_j66254165508930_1_alg».proof.Proof.Gen.Kernel.Skeleton
import proofs.«406510_j66254165508930_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rank-2 offsets `[0, 0]` are the zero offsets. -/
theorem off3_2 : (![0, 0] : Fin 2 → ℕ) = fun _ => 0 := by funext a; fin_cases a <;> rfl

/-- The rank-1 offset `[0]` is the zero offset. -/
theorem off3_1 : (![0] : Fin 1 → ℕ) = fun _ => 0 := by funext a; fin_cases a; rfl

set_option maxHeartbeats 1000000 in
/-- The body on whole staging memrefs: the two inputs keep their contents `x`, `b`; the output, whatever it held,
    ends at the bias payload of `x` and `b`. -/
theorem body3 (c : Dev nD) (E : Set ℕ) (i : grid3.Coords)
    (a1 : Memref sig .tc .vmem S5000x128 .f32) (h1 : a1.IsWhole) (a2 : Memref sig .tc .vmem S128 .f32) (h2 : a2.IsWhole)
    (a3 : Memref sig .tc .vmem S5000x128 .f32) (h3 : a3.IsWhole)
    (x : Vec F S5000x128 .f32) (b : Vec F S128 .f32) (K : PUnit → sProp 𝕄) :
    iprop(owns (c : Thread nD τ) a1 fullShare x ∗ owns (c : Thread nD τ) a2 fullShare b ∗ (∃ d, owns (c : Thread nD τ) a3 fullShare d)
        ∗ (iprop(owns (c : Thread nD τ) a1 fullShare x ∗ owns (c : Thread nD τ) a2 fullShare b
            ∗ owns (c : Thread nD τ) a3 fullShare (k3_pay1 x b)) -∗ K ⟨⟩))
      ⊢ wp frame (wpE (defs₀ (F := F)) Variants.none c none) E (cc3__bias_act_kernel i a1 h1 a2 h2 a3 h3) K := by
  simp only [cc3__bias_act_kernel_eq_skeleton]; unfold cc3__bias_act_kernel_skel
  unfold owns
  iintro ⟨⟨%f1, %e1, H1⟩, ⟨%f2, %e2, H2⟩, ⟨%d3, %f3, -, H3⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  -- one store through the whole rectangle: what is read back is its payload, and a load through the whole rectangle is the block
  rw [View.read_writes_eq_canon _ _ _ (View.cover_of_tiled _ S5000x128.size (by rfl)), View.canon_unit_zero off3_2]
  simp only [View.readAt_eq_ld, View.ld_unit_zero (S := S5000x128) off3_2, View.ld_unit_zero (S := S128) off3_1]

/-- The region's proof data on core `c`: the arrays as entered; after the body at point `t` the inputs' buffers at
    their blocks and the output's at the bias payload of the two blocks; the class invariant (the scoped rest and
    the generator register, untouched); full shares; nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => k3_pay1 (blk3 V c 0 t) (blk3 V c 1 t)
  Φ _ := Pipeline.ΦA spec3 c
  q _ := fullShare
  owed _ := 0

theorem A3 (c : Dev nD) (w : Fin cfg3.W) : (dat3 V c).A w = V c (Pipeline.arrRef spec3 w) := by dsimp only [dat3]
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = k3_pay1 (blk3 V c 0 t) (blk3 V c 1 t) := by dsimp only [dat3]

/-- An input's current staging buffer holds its block at every point, fetched there or carried over from the point
    before (the bias row's block index never moves). -/
theorem in3_0 (c : Dev nD) (t : Fin cfg3.N) (d) : (dat3 V c).before 0 t d = blk3 V c 0 t :=
  ((dat3 V c).before_in_eq_fetched 0 rfl (fun _ => rfl) (fun _ _ _ => rfl)
    (fun t => by rw [after3_0]; unfold Dat.blockOf blk3; rw [A3]; try rfl) t d).trans
    (by unfold Dat.fetched Dat.blockOf blk3; rw [A3]; try rfl)
theorem in3_1 (c : Dev nD) (t : Fin cfg3.N) (d) : (dat3 V c).before 1 t d = blk3 V c 1 t :=
  ((dat3 V c).before_in_eq_fetched 1 rfl (fun _ => rfl) (fun _ _ _ => rfl)
    (fun t => by rw [after3_1]; unfold Dat.blockOf blk3; rw [A3]; try rfl) t d).trans
    (by unfold Dat.fetched Dat.blockOf blk3; rw [A3]; try rfl)

/-- The body obligation of the launch theorem, at every point: the inputs' buffers hold their blocks, so `body3`
    applies; the invariant and the core's dues pass through unread. -/
theorem obligation3 (c : Dev nD) : BodyObligation (dat3 (F := F) V c) (defs₀ (F := F)) Variants.none () Set.univ := fun t => by
  rw [bigSep_W3, bigSep_W3]
  simp only [in3_0, in3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (body3 c Set.univ (grid3.coords t) (win3_0.stage (cfg3.slots t 0)) (hstage3_0 ((cfg3.slots t 0).cast nbuf3_0))
    (win3_1.stage (cfg3.slots t 1)) (hstage3_1 ((cfg3.slots t 1).cast nbuf3_1))
    (win3_2.stage (cfg3.slots t 2)) (hstage3_2 ((cfg3.slots t 2).cast nbuf3_2)) (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.Kernel.Gen

end
-- ==== Proof.K.R4.lean ====
/-
  A projection `hw = h · W` of @main (its regions 0, 2 and 4 are this one text at three calls). The grid has 20 points; point `t` reads rows
  `5000·t … 5000·t + 4999` of `h` (window 0), the whole 128 × 128 weight (window 1, fetched once and left in place),
  and writes the same rows of the product (window 2). The body loads both blocks whole, rounds them to bf16, multiplies
  them into a zero accumulator and stores the product whole; it also loads the output block first, a value it never
  uses. So after the body the output block is the payload `k4_pay1` of the two input blocks, whatever it held before.
  Stated at any entry contents `V` of the core's buffers and at any float instance.
-/
import proofs.«406510_j66254165508930_1_alg».proof.Proof.Gen.Kernel.Launch
import proofs.«406510_j66254165508930_1_alg».proof.Proof.Gen.Kernel.Skeleton
import proofs.«406510_j66254165508930_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The offsets `[0, 0]` are the zero offsets. -/
theorem off4_2 : (![0, 0] : Fin 2 → ℕ) = fun _ => 0 := by funext a; fin_cases a <;> rfl

set_option maxHeartbeats 1000000 in
/-- The body on whole staging memrefs: the two inputs keep their contents `x`, `w`; the output, whatever it held,
    ends at the product payload of `x` and `w`. -/
theorem body4 (c : Dev nD) (E : Set ℕ) (i : grid4.Coords)
    (a1 : Memref sig .tc .vmem S5000x128 .f32) (h1 : a1.IsWhole) (a2 : Memref sig .tc .vmem S128x128 .f32) (h2 : a2.IsWhole)
    (a3 : Memref sig .tc .vmem S5000x128 .f32) (h3 : a3.IsWhole)
    (x : Vec F S5000x128 .f32) (w : Vec F S128x128 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (k4_pay1 x w)) -∗ K ⟨⟩))
      ⊢ wp frame (wpE (defs₀ (F := F)) Variants.none c none) E (cc4__matmul_kernel i a1 h1 a2 h2 a3 h3) K := by
  simp only [cc4__matmul_kernel_eq_skeleton]; unfold cc4__matmul_kernel_skel
  unfold owns
  iintro ⟨⟨%f1, %e1, H1⟩, ⟨%f2, %e2, H2⟩, ⟨%d3, %f3, -, H3⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  -- one store through the whole rectangle: what is read back is its payload, and a load through the whole rectangle is the block
  rw [View.read_writes_eq_canon _ _ _ (View.cover_of_tiled _ S5000x128.size (by rfl)), View.canon_unit_zero off4_2]
  simp only [View.readAt_eq_ld, View.ld_unit_zero (S := S5000x128) off4_2, View.ld_unit_zero (S := S128x128) off4_2]

/-- The region's proof data on core `c`: the arrays as entered; after the body at point `t` the inputs' buffers at
    their blocks and the output's at the product payload of the two blocks; the class invariant (the scoped rest and
    the generator register, untouched); full shares; nothing owed. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => k4_pay1 (blk4 V c 0 t) (blk4 V c 1 t)
  Φ _ := Pipeline.ΦA spec4 c
  q _ := fullShare
  owed _ := 0

theorem A4 (c : Dev nD) (w : Fin cfg4.W) : (dat4 V c).A w = V c (Pipeline.arrRef spec4 w) := by dsimp only [dat4]
theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
theorem after4_2 (c : Dev nD) (t : Fin cfg4.N) : (dat4 V c).after 2 t = k4_pay1 (blk4 V c 0 t) (blk4 V c 1 t) := by dsimp only [dat4]

/-- An input's current staging buffer holds its block at every point, fetched there or carried over from the point
    before (the weight's block index never moves). -/
theorem in4_0 (c : Dev nD) (t : Fin cfg4.N) (d) : (dat4 V c).before 0 t d = blk4 V c 0 t :=
  ((dat4 V c).before_in_eq_fetched 0 rfl (fun _ => rfl) (fun _ _ _ => rfl)
    (fun t => by rw [after4_0]; unfold Dat.blockOf blk4; rw [A4]; try rfl) t d).trans
    (by unfold Dat.fetched Dat.blockOf blk4; rw [A4]; try rfl)
theorem in4_1 (c : Dev nD) (t : Fin cfg4.N) (d) : (dat4 V c).before 1 t d = blk4 V c 1 t :=
  ((dat4 V c).before_in_eq_fetched 1 rfl (fun _ => rfl) (fun _ _ _ => rfl)
    (fun t => by rw [after4_1]; unfold Dat.blockOf blk4; rw [A4]; try rfl) t d).trans
    (by unfold Dat.fetched Dat.blockOf blk4; rw [A4]; try rfl)

/-- The body obligation of the launch theorem, at every point: the inputs' buffers hold their blocks, so `body4`
    applies; the invariant and the core's dues pass through unread. -/
theorem obligation4 (c : Dev nD) : BodyObligation (dat4 (F := F) V c) (defs₀ (F := F)) Variants.none () Set.univ := fun t => by
  rw [bigSep_W4, bigSep_W4]
  simp only [in4_0, in4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (body4 c Set.univ (grid4.coords t) (win4_0.stage (cfg4.slots t 0)) (hstage4_0 ((cfg4.slots t 0).cast nbuf4_0))
    (win4_1.stage (cfg4.slots t 1)) (hstage4_1 ((cfg4.slots t 1).cast nbuf4_1))
    (win4_2.stage (cfg4.slots t 2)) (hstage4_2 ((cfg4.slots t 2).cast nbuf4_2)) (blk4 V c 0 t) (blk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.Kernel.Gen

end
-- ==== Proof.K.R5.lean ====
/-
  Region 5 of @main: the last layer's bias, `x + b` on the aggregated features, with no activation. The grid has 20 points; point `t` reads rows
  `5000·t … 5000·t + 4999` of the input (window 0), the whole bias row of 128 entries (window 1, fetched once and left
  in place), and writes the same rows of the result (window 2). The body loads both blocks whole, spreads the bias row
  over the 5000 rows, adds it to the input block and stores the result whole; it also loads the output block
  first, a value it never uses. So after the body the output block is the payload `k5_pay1` of the two input blocks,
  whatever it held before. Stated at any entry contents `V` of the core's buffers and at any float instance.
-/
import proofs.«406510_j66254165508930_1_alg».proof.Proof.Gen.Kernel.Launch
import proofs.«406510_j66254165508930_1_alg».proof.Proof.Gen.Kernel.Skeleton
import proofs.«406510_j66254165508930_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The rank-2 offsets `[0, 0]` are the zero offsets. -/
theorem off5_2 : (![0, 0] : Fin 2 → ℕ) = fun _ => 0 := by funext a; fin_cases a <;> rfl

/-- The rank-1 offset `[0]` is the zero offset. -/
theorem off5_1 : (![0] : Fin 1 → ℕ) = fun _ => 0 := by funext a; fin_cases a; rfl

set_option maxHeartbeats 1000000 in
/-- The body on whole staging memrefs: the two inputs keep their contents `x`, `b`; the output, whatever it held,
    ends at the bias payload of `x` and `b`. -/
theorem body5 (c : Dev nD) (E : Set ℕ) (i : grid5.Coords)
    (a1 : Memref sig .tc .vmem S5000x128 .f32) (h1 : a1.IsWhole) (a2 : Memref sig .tc .vmem S128 .f32) (h2 : a2.IsWhole)
    (a3 : Memref sig .tc .vmem S5000x128 .f32) (h3 : a3.IsWhole)
    (x : Vec F S5000x128 .f32) (b : Vec F S128 .f32) (K : PUnit → sProp 𝕄) :
    iprop(owns (c : Thread nD τ) a1 fullShare x ∗ owns (c : Thread nD τ) a2 fullShare b ∗ (∃ d, owns (c : Thread nD τ) a3 fullShare d)
        ∗ (iprop(owns (c : Thread nD τ) a1 fullShare x ∗ owns (c : Thread nD τ) a2 fullShare b
            ∗ owns (c : Thread nD τ) a3 fullShare (k5_pay1 x b)) -∗ K ⟨⟩))
      ⊢ wp frame (wpE (defs₀ (F := F)) Variants.none c none) E (cc5__bias_act_kernel i a1 h1 a2 h2 a3 h3) K := by
  simp only [cc5__bias_act_kernel_eq_skeleton]; unfold cc5__bias_act_kernel_skel
  unfold owns
  iintro ⟨⟨%f1, %e1, H1⟩, ⟨%f2, %e2, H2⟩, ⟨%d3, %f3, -, H3⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  -- one store through the whole rectangle: what is read back is its payload, and a load through the whole rectangle is the block
  rw [View.read_writes_eq_canon _ _ _ (View.cover_of_tiled _ S5000x128.size (by rfl)), View.canon_unit_zero off5_2]
  simp only [View.readAt_eq_ld, View.ld_unit_zero (S := S5000x128) off5_2, View.ld_unit_zero (S := S128) off5_1]

/-- The region's proof data on core `c`: the arrays as entered; after the body at point `t` the inputs' buffers at
    their blocks and the output's at the bias payload of the two blocks; the class invariant (the scoped rest and
    the generator register, untouched); full shares; nothing owed. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => k5_pay1 (blk5 V c 0 t) (blk5 V c 1 t)
  Φ _ := Pipeline.ΦA spec5 c
  q _ := fullShare
  owed _ := 0

theorem A5 (c : Dev nD) (w : Fin cfg5.W) : (dat5 V c).A w = V c (Pipeline.arrRef spec5 w) := by dsimp only [dat5]
theorem after5_0 (c : Dev nD) (t : Fin cfg5.N) : (dat5 V c).after 0 t = blk5 V c 0 t := by dsimp only [dat5]
theorem after5_1 (c : Dev nD) (t : Fin cfg5.N) : (dat5 V c).after 1 t = blk5 V c 1 t := by dsimp only [dat5]
theorem after5_2 (c : Dev nD) (t : Fin cfg5.N) : (dat5 V c).after 2 t = k5_pay1 (blk5 V c 0 t) (blk5 V c 1 t) := by dsimp only [dat5]

/-- An input's current staging buffer holds its block at every point, fetched there or carried over from the point
    before (the bias row's block index never moves). -/
theorem in5_0 (c : Dev nD) (t : Fin cfg5.N) (d) : (dat5 V c).before 0 t d = blk5 V c 0 t :=
  ((dat5 V c).before_in_eq_fetched 0 rfl (fun _ => rfl) (fun _ _ _ => rfl)
    (fun t => by rw [after5_0]; unfold Dat.blockOf blk5; rw [A5]; try rfl) t d).trans
    (by unfold Dat.fetched Dat.blockOf blk5; rw [A5]; try rfl)
theorem in5_1 (c : Dev nD) (t : Fin cfg5.N) (d) : (dat5 V c).before 1 t d = blk5 V c 1 t :=
  ((dat5 V c).before_in_eq_fetched 1 rfl (fun _ => rfl) (fun _ _ _ => rfl)
    (fun t => by rw [after5_1]; unfold Dat.blockOf blk5; rw [A5]; try rfl) t d).trans
    (by unfold Dat.fetched Dat.blockOf blk5; rw [A5]; try rfl)

/-- The body obligation of the launch theorem, at every point: the inputs' buffers hold their blocks, so `body5`
    applies; the invariant and the core's dues pass through unread. -/
theorem obligation5 (c : Dev nD) : BodyObligation (dat5 (F := F) V c) (defs₀ (F := F)) Variants.none () Set.univ := fun t => by
  rw [bigSep_W5, bigSep_W5]
  simp only [in5_0, in5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (body5 c Set.univ (grid5.coords t) (win5_0.stage (cfg5.slots t 0)) (hstage5_0 ((cfg5.slots t 0).cast nbuf5_0))
    (win5_1.stage (cfg5.slots t 1)) (hstage5_1 ((cfg5.slots t 1).cast nbuf5_1))
    (win5_2.stage (cfg5.slots t 2)) (hstage5_2 ((cfg5.slots t 2).cast nbuf5_2)) (blk5 V c 0 t) (blk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.Kernel.Gen

end
-- ==== Proof.K.R6.lean ====
/-
  Region 6 of @main: the pooling `pooled = onehotᵀ · h`, accumulated over the grid. The grid has 20 points; point `t`
  reads rows `5000·t … 5000·t + 4999` of the one-hot matrix (window 0, bf16) and of the features (window 1, f32); the
  result (window 2, 128 × 128) has one block whose index never moves, written back at the last point only. Beside the
  windows the body is handed a 128 × 128 accumulator of its own that is CARRIED from point to point. At the first point
  the body zeroes the accumulator; at every point it loads both input blocks and the accumulator `s` and stores the
  payload `k6_pay2 x₀ x₁ s` (the blocks' product, rounded to bf16, added to `s`) back into it; at the last point it
  copies the accumulator whole into the result's buffer. So three cases of control (first, middle, last point), and
  the accumulator after point `n` is the fold `acc6 n` of the payload over the points up to `n`, from zeros.
  Stated at any entry contents `V` of the core's buffers and at any float instance.
-/
import proofs.«406510_j66254165508930_1_alg».proof.Proof.Gen.Kernel.Launch
import proofs.«406510_j66254165508930_1_alg».proof.Proof.Gen.Kernel.Skeleton
import proofs.«406510_j66254165508930_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets `[0, 0]` are the zero offsets. -/
theorem off6_00 : (![0, 0] : Fin 2 → ℕ) = fun _ => 0 := by funext a; fin_cases a <;> rfl

/-- The body's first condition (the point is the grid's first), from the grid coordinates. -/
abbrev cond6_0 (i : grid6.Coords) : Prop := (Scalar.cmpi .ne (Scalar.extui (Scalar.cmpi .eq (BitVec.ofNat 32 (i 0).val) 0#32)) 0#32) = 1#1
/-- The body's second condition (the point is the grid's last). -/
abbrev cond6_1 (i : grid6.Coords) : Prop := k6_cond2 i = 1#1
/-- The first holds at point 0 only, the second at point 19 only: decided over the grid. -/
theorem hcond6_0 : ∀ t : Fin cfg6.N, cond6_0 (grid6.coords t) ↔ t.val = 0 :=
  (by decide +kernel : ∀ t : Fin grid6.N, cond6_0 (grid6.coords t) ↔ t.val = 0)
theorem hcond6_1 : ∀ t : Fin cfg6.N, cond6_1 (grid6.coords t) ↔ t.val = 19 :=
  (by decide +kernel : ∀ t : Fin grid6.N, cond6_1 (grid6.coords t) ↔ t.val = 19)

/-- Before the last point the result's window is idle and not written back; at the last point it is live. -/
theorem idle6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
theorem live6_2 : ∀ t : Fin cfg6.N, cond6_1 (grid6.coords t) → cfg6.idle 2 (grid6.coords t) = false := by decide +kernel
/-- The inputs' windows are never idle. -/
theorem live6_0 : ∀ t : Fin cfg6.N, cfg6.idle 0 (grid6.coords t) = false := by decide +kernel
theorem live6_1 : ∀ t : Fin cfg6.N, cfg6.idle 1 (grid6.coords t) = false := by decide +kernel

set_option maxHeartbeats 1000000 in
/-- The body at the FIRST point, on whole memrefs: the accumulator, whatever it held, is zeroed, read back and left at
    the payload of the two input blocks over zeros; the inputs keep their contents; the result's buffer is not touched. -/
theorem body6_first (c : Dev nD) (E : Set ℕ) (i : grid6.Coords) (hc0 : cond6_0 i) (hc1 : ¬cond6_1 i)
    (a1 : Memref sig .tc .vmem S5000x128 .bf16) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (x0 : Vec F S5000x128 .bf16) (x1 : Vec F S5000x128 .f32) (K : PUnit → sProp 𝕄) :
    iprop(owns (c : Thread nD τ) a1 fullShare x0 ∗ owns (c : Thread nD τ) a2 fullShare x1 ∗ (∃ d, owns (c : Thread nD τ) a4 fullShare d)
        ∗ (iprop(owns (c : Thread nD τ) a1 fullShare x0 ∗ owns (c : Thread nD τ) a2 fullShare x1
            ∗ owns (c : Thread nD τ) a4 fullShare (k6_pay2 x0 x1 k6_pay1)) -∗ K ⟨⟩))
      ⊢ wp frame (wpE (defs₀ (F := F)) Variants.none c none) E (cc6__pool_kernel i a1 h1 a2 h2 a3 h3 a4 h4) K := by
  simp only [cc6__pool_kernel_eq_skeleton]; unfold cc6__pool_kernel_skel
  unfold owns
  iintro ⟨⟨%f1, %e1, H1⟩, ⟨%f2, %e2, H2⟩, ⟨%d4, %f4, -, H4⟩, Hk⟩
  subst e1; subst e2
  sl_exec (disch := first | exact hc0 | exact hc1)
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  sl_unfold_run_names
  -- the later store covers: what is read back is its payload; the load between the two stores read the zeros
  rw [View.read_writes_eq_canon _ _ _ (fun y => ⟨_, List.mem_cons_self .., View.mem_set_unit_zero off6_00 inb_S128x128_S128x128_0_0 y⟩),
    View.canon_cons_unit_zero off6_00, View.readCov_unit_zero _ off6_00]
  simp only [View.readAt_eq_ld, View.ld_unit_zero (S := S5000x128) off6_00]

set_option maxHeartbeats 1000000 in
/-- The body at a MIDDLE point: the accumulator, holding `s`, is left at the payload of the two input blocks over `s`. -/
theorem body6_mid (c : Dev nD) (E : Set ℕ) (i : grid6.Coords) (hc0 : ¬cond6_0 i) (hc1 : ¬cond6_1 i)
    (a1 : Memref sig .tc .vmem S5000x128 .bf16) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (x0 : Vec F S5000x128 .bf16) (x1 : Vec F S5000x128 .f32) (s : Vec F S128x128 .f32) (K : PUnit → sProp 𝕄) :
    iprop(owns (c : Thread nD τ) a1 fullShare x0 ∗ owns (c : Thread nD τ) a2 fullShare x1 ∗ owns (c : Thread nD τ) a4 fullShare s
        ∗ (iprop(owns (c : Thread nD τ) a1 fullShare x0 ∗ owns (c : Thread nD τ) a2 fullShare x1
            ∗ owns (c : Thread nD τ) a4 fullShare (k6_pay2 x0 x1 s)) -∗ K ⟨⟩))
      ⊢ wp frame (wpE (defs₀ (F := F)) Variants.none c none) E (cc6__pool_kernel i a1 h1 a2 h2 a3 h3 a4 h4) K := by
  simp only [cc6__pool_kernel_eq_skeleton]; unfold cc6__pool_kernel_skel
  unfold owns
  iintro ⟨⟨%f1, %e1, H1⟩, ⟨%f2, %e2, H2⟩, ⟨%f4, %e4, H4⟩, Hk⟩
  subst e1; subst e2; subst e4
  sl_exec (disch := first | exact hc0 | exact hc1)
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  try sl_unfold_run_names
  rw [View.read_writes_eq_canon _ _ _ (fun y => ⟨_, List.mem_cons_self .., View.mem_set_unit_zero off6_00 inb_S128x128_S128x128_0_0 y⟩),
    View.canon_cons_unit_zero off6_00]
  simp only [View.readAt_eq_ld, View.ld_unit_zero (S := S5000x128) off6_00, View.ld_unit_zero (S := S128x128) off6_00]

set_option maxHeartbeats 1000000 in
/-- The body at the LAST point: the accumulator, holding `s`, is left at the payload of the two input blocks over `s`,
    read back, and stored whole into the result's buffer, whatever that held. -/
theorem body6_last (c : Dev nD) (E : Set ℕ) (i : grid6.Coords) (hc0 : ¬cond6_0 i) (hc1 : cond6_1 i)
    (a1 : Memref sig .tc .vmem S5000x128 .bf16) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (x0 : Vec F S5000x128 .bf16) (x1 : Vec F S5000x128 .f32) (s : Vec F S128x128 .f32) (K : PUnit → sProp 𝕄) :
    iprop(owns (c : Thread nD τ) a1 fullShare x0 ∗ owns (c : Thread nD τ) a2 fullShare x1 ∗ (∃ d, owns (c : Thread nD τ) a3 fullShare d)
        ∗ owns (c : Thread nD τ) a4 fullShare s
        ∗ (iprop(owns (c : Thread nD τ) a1 fullShare x0 ∗ owns (c : Thread nD τ) a2 fullShare x1
            ∗ owns (c : Thread nD τ) a3 fullShare (k6_pay2 x0 x1 s) ∗ owns (c : Thread nD τ) a4 fullShare (k6_pay2 x0 x1 s)) -∗ K ⟨⟩))
      ⊢ wp frame (wpE (defs₀ (F := F)) Variants.none c none) E (cc6__pool_kernel i a1 h1 a2 h2 a3 h3 a4 h4) K := by
  simp only [cc6__pool_kernel_eq_skeleton]; unfold cc6__pool_kernel_skel
  unfold owns
  iintro ⟨⟨%f1, %e1, H1⟩, ⟨%f2, %e2, H2⟩, ⟨%d3, %f3, -, H3⟩, ⟨%f4, %e4, H4⟩, Hk⟩
  subst e1; subst e2; subst e4
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_run_names
    rw [View.read_writes_eq_canon _ _ _ (fun y => ⟨_, List.mem_cons_self .., View.mem_set_unit_zero off6_00 inb_S128x128_S128x128_0_0 y⟩),
      View.canon_cons_unit_zero off6_00, View.readCov_unit_zero _ off6_00]
    simp only [View.readAt_eq_ld, View.ld_unit_zero (S := S5000x128) off6_00, View.ld_unit_zero (S := S128x128) off6_00]
  iexists _; isplitr
  swap; · iexact H4
  ipureintro
  try sl_unfold_run_names
  rw [View.read_writes_eq_canon _ _ _ (fun y => ⟨_, List.mem_cons_self .., View.mem_set_unit_zero off6_00 inb_S128x128_S128x128_0_0 y⟩),
    View.canon_cons_unit_zero off6_00]
  simp only [View.readAt_eq_ld, View.ld_unit_zero (S := S5000x128) off6_00, View.ld_unit_zero (S := S128x128) off6_00]

section
variable (V : (c : Dev nD) → (b : Ref sig .tc) → Buf (Elt F) ((c : Thread nD τ).loc b))

/-- Window `w`'s block at point `t`, cut out of its array as the region finds it. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- THE ACCUMULATION: what the carried accumulator holds after the body at point `n`: the payload of point `n`'s two
    input blocks over what point `n - 1` left, over zeros at the first point. -/
def acc6 (c : Dev nD) : (n : ℕ) → n < cfg6.N → Vec F S128x128 .f32
  | 0, h => k6_pay2 (blk6 V c 0 ⟨0, h⟩) (blk6 V c 1 ⟨0, h⟩) k6_pay1
  | n + 1, h => k6_pay2 (blk6 V c 0 ⟨n + 1, h⟩) (blk6 V c 1 ⟨n + 1, h⟩) (acc6 c n (Nat.lt_of_succ_lt h))

theorem acc6_zero (c : Dev nD) (t : Fin cfg6.N) (h : t.val = 0) :
    acc6 V c t.val t.isLt = k6_pay2 (blk6 V c 0 t) (blk6 V c 1 t) k6_pay1 := by
  obtain ⟨n, hn⟩ := t
  cases n with
  | zero => rfl
  | succ n => exact absurd h (Nat.succ_ne_zero _)

theorem acc6_pos (c : Dev nD) (t : Fin cfg6.N) (h : t.val ≠ 0) :
    acc6 V c t.val t.isLt = k6_pay2 (blk6 V c 0 t) (blk6 V c 1 t) (acc6 V c (t.val - 1) (Nat.lt_of_le_of_lt (Nat.sub_le _ _) t.isLt)) := by
  obtain ⟨n, hn⟩ := t
  cases n with
  | zero => exact absurd rfl h
  | succ n => rfl

/-- The accumulator: the kernel's own scoped buffer, whole. -/
abbrev scM6 : Memref sig .tc .vmem S128x128 .f32 := Memref.whole cc6_scratch0

/-- The class invariant with the accumulator as a memref owned at some contents. -/
theorem PhiA6_eq (c : Dev nD) :
    (Pipeline.ΦA spec6 c : sProp 𝕄)
      = iprop(iprop(iprop(∃ d, owns (c : Thread nD τ) scM6 fullShare d) ∗ Pipeline.scopedRestBut spec6 c [cc6_scratch0]) ∗ (∃ r, prngReg c r)) := by
  unfold Pipeline.ΦA; rw [scopedRest6_split]; simp only [scM6, owns_whole]; try rfl

/-- The region invariant before position `n`: before the first point the class's (the accumulator at anything);
    afterwards the accumulator at what the point before left, the other scoped buffers at anything and the generator
    register at some state. -/
def Phi6 (c : Dev nD) : (n : ℕ) → n ≤ cfg6.N → sProp 𝕄
  | 0, _ => Pipeline.ΦA spec6 c
  | n + 1, hn => iprop(iprop(owns (c : Thread nD τ) scM6 fullShare (acc6 V c n hn) ∗ Pipeline.scopedRestBut spec6 c [cc6_scratch0]) ∗ (∃ r, prngReg c r))

theorem Phi6_zero (c : Dev nD) (n : ℕ) (h : n ≤ cfg6.N) (hz : n = 0) : Phi6 V c n h = Pipeline.ΦA spec6 c := by
  subst hz; rfl

theorem Phi6_succ (c : Dev nD) (n : ℕ) (hn : n < cfg6.N) :
    Phi6 V c (n + 1) hn = iprop(iprop(owns (c : Thread nD τ) scM6 fullShare (acc6 V c n hn) ∗ Pipeline.scopedRestBut spec6 c [cc6_scratch0]) ∗ (∃ r, prngReg c r)) := rfl

theorem Phi6_pos (c : Dev nD) (n : ℕ) (h : n ≤ cfg6.N) (hz : n ≠ 0) :
    Phi6 V c n h = iprop(iprop(owns (c : Thread nD τ) scM6 fullShare (acc6 V c (n - 1) (by omega)) ∗ Pipeline.scopedRestBut spec6 c [cc6_scratch0]) ∗ (∃ r, prngReg c r)) := by
  cases n with
  | zero => exact absurd rfl hz
  | succ n => rfl

/-- The region's proof data on core `c`: the arrays as entered; after the body at point `t` the inputs' buffers at
    their blocks and the result's at the accumulation up to `t` (read at the last point only: elsewhere the window is
    idle); the invariant `Phi6`; full shares; nothing owed. -/
def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => acc6 V c t.val t.isLt
  Φ t := Phi6 V c t.val (Nat.le_of_lt_succ t.isLt)
  q _ := fullShare
  owed _ := 0

theorem A6 (c : Dev nD) (w : Fin cfg6.W) : (dat6 V c).A w = V c (Pipeline.arrRef spec6 w) := by dsimp only [dat6]
theorem after6_0 (c : Dev nD) (t : Fin cfg6.N) : (dat6 V c).after 0 t = blk6 V c 0 t := by dsimp only [dat6]
theorem after6_1 (c : Dev nD) (t : Fin cfg6.N) : (dat6 V c).after 1 t = blk6 V c 1 t := by dsimp only [dat6]
theorem after6_2 (c : Dev nD) (t : Fin cfg6.N) : (dat6 V c).after 2 t = acc6 V c t.val t.isLt := by dsimp only [dat6]

theorem Phi6_castSucc (c : Dev nD) (t : Fin cfg6.N) :
    (dat6 V c).Φ t.castSucc = Phi6 V c t.val (Nat.le_of_lt t.isLt) := by
  dsimp only [dat6]; simp only [Fin.coe_castSucc]

/-- An input's current staging buffer holds its block at every point (both are fetched at every point). -/
theorem in6_0 (c : Dev nD) (t : Fin cfg6.N) (d) : (dat6 V c).before 0 t d = blk6 V c 0 t :=
  ((dat6 V c).before_in_eq_fetched 0 rfl (fun _ => rfl) (fun _ _ _ => rfl)
    (fun t => by rw [after6_0]; unfold Dat.blockOf blk6; rw [A6]; try rfl) t d).trans
    (by unfold Dat.fetched Dat.blockOf blk6; rw [A6]; try rfl)
theorem in6_1 (c : Dev nD) (t : Fin cfg6.N) (d) : (dat6 V c).before 1 t d = blk6 V c 1 t :=
  ((dat6 V c).before_in_eq_fetched 1 rfl (fun _ => rfl) (fun _ _ _ => rfl)
    (fun t => by rw [after6_1]; unfold Dat.blockOf blk6; rw [A6]; try rfl) t d).trans
    (by unfold Dat.fetched Dat.blockOf blk6; rw [A6]; try rfl)

/-- What the body is called with at point `t`, the windows one by one, -/
def pre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def post6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4000000 in
/-- The body at any point, by the three cases of its two conditions: the invariant hands the body the accumulator (at
    anything at the first point, at what the point before left afterwards) and takes it back at this point's
    accumulation; before the last point the result's buffer passes through untouched (the window is idle and not
    written back there); at the last point it is stored whole at the accumulation. -/
theorem sound6 (c : Dev nD) (t : Fin cfg6.N) :
    pre6 V c t ⊢ wp frame (wpE (defs₀ (F := F)) Variants.none c none) Set.univ (bodyAt6 t) (fun _ => post6 V c t) := by
  unfold pre6 post6 bodyAt6
  simp only [in6_0, in6_1]
  rw [show (dat6 V c).owesAt () t.succ = (dat6 V c).owesAt () t.castSucc from rfl]
  rw [show (dat6 V c).Φ t.succ = Phi6 V c (t.val + 1) t.isLt from rfl, Phi6_succ]
  rw [show (dat6 V c).leavesExact 0 t = owns (c : Thread nD τ) (st6_0 t) fullShare ((dat6 V c).after 0 t) from by
    unfold Dat.leavesExact; rw [live6_0 t], after6_0]
  rw [show (dat6 V c).leavesExact 1 t = owns (c : Thread nD τ) (st6_1 t) fullShare ((dat6 V c).after 1 t) from by
    unfold Dat.leavesExact; rw [live6_1 t], after6_1]
  have hN : t.val < 20 := lt_of_lt_of_eq t.isLt (show cfg6.N = 20 from N_6)
  by_cases hl : t.val = 19
  · -- the last point
    have hz : t.val ≠ 0 := by omega
    have hc0 : ¬cond6_0 (grid6.coords t) := fun h => hz ((hcond6_0 t).mp h)
    have hc1 : cond6_1 (grid6.coords t) := (hcond6_1 t).mpr hl
    rw [show (dat6 V c).leavesExact 2 t = owns (c : Thread nD τ) (st6_2 t) fullShare ((dat6 V c).after 2 t) from by
      unfold Dat.leavesExact; rw [live6_2 t hc1], after6_2]
    rw [acc6_pos V c t hz, Phi6_castSucc V c t, Phi6_pos V c _ _ hz]
    iintro ⟨⟨⟨HS, Hr⟩, Hg⟩, Ho, ⟨%d0, H0⟩, ⟨%d1, H1⟩, ⟨%d2, H2⟩⟩
    iapply (body6_last c Set.univ (grid6.coords t) hc0 hc1 _ _ _ _ _ _ _ _ (blk6 V c 0 t) (blk6 V c 1 t) _ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · have hc1 : ¬cond6_1 (grid6.coords t) := fun h => hl ((hcond6_1 t).mp h)
    rw [Dat.leavesExact_idle (dat6 V c) 2 t (idle6_2 t hc1) (noFlush6_2 t hc1)]
    by_cases hz : t.val = 0
    · -- the first point
      have hc0 : cond6_0 (grid6.coords t) := (hcond6_0 t).mpr hz
      rw [acc6_zero V c t hz, Phi6_castSucc V c t, Phi6_zero V c _ _ hz, PhiA6_eq]
      iintro ⟨⟨⟨HS, Hr⟩, Hg⟩, Ho, ⟨%d0, H0⟩, ⟨%d1, H1⟩, H2⟩
      iapply (body6_first c Set.univ (grid6.coords t) hc0 hc1 _ _ _ _ _ _ _ _ (blk6 V c 0 t) (blk6 V c 1 t) _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · -- a middle point
      have hc0 : ¬cond6_0 (grid6.coords t) := fun h => hz ((hcond6_0 t).mp h)
      rw [acc6_pos V c t hz, Phi6_castSucc V c t, Phi6_pos V c _ _ hz]
      iintro ⟨⟨⟨HS, Hr⟩, Hg⟩, Ho, ⟨%d0, H0⟩, ⟨%d1, H1⟩, H2⟩
      iapply (body6_mid c Set.univ (grid6.coords t) hc0 hc1 _ _ _ _ _ _ _ _ (blk6 V c 0 t) (blk6 V c 1 t) _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2

/-- The body obligation of the launch theorem, at every point. -/
theorem obligation6 (c : Dev nD) : BodyObligation (dat6 (F := F) V c) (defs₀ (F := F)) Variants.none () Set.univ := fun t => by
  rw [bigSep_W6, bigSep_W6]
  exact sound6 V c t

/-- What the launch hands the region is the invariant before the first point. -/
theorem hin6 (c : Dev nD) : Pipeline.ΦA spec6 c ⊢ (dat6 V c).Φ 0 := by
  rw [show (dat6 V c).Φ 0 = Phi6 V c 0 (Nat.zero_le _) from rfl, Phi6_zero V c 0 _ rfl]
  try exact Idealize.SL.BI.Entails.refl _

/-- After the last point the invariant gives the class's back: the accumulator's named contents are forgotten. -/
theorem hout6 (c : Dev nD) : (dat6 V c).Φ (Fin.last cfg6.N) ⊢ Pipeline.ΦA spec6 c := by
  have hne : (Fin.last cfg6.N).val ≠ 0 := by rw [Fin.val_last]; have : cfg6.N = 20 := N_6; omega
  rw [show (dat6 V c).Φ (Fin.last cfg6.N) = Phi6 V c (Fin.last cfg6.N).val (Nat.le_of_lt_succ (Fin.last cfg6.N).isLt) from rfl,
    Phi6_pos V c _ _ hne, PhiA6_eq]
  iintro ⟨⟨HS, Hr⟩, Hg⟩
  isplitl [HS Hr]
  · isplitl [HS]
    · iexists _; iexact HS
    iexact Hr
  iexact Hg

end

end Cert.Kernel.Gen

end
-- ==== Proof.K.R7.lean ====
/-
  Region 7 of @main: the last step `out = (sums / max(counts, 1)) · linW + linb`. The grid has a single point; it reads
  the whole 128 × 128 array of pooled sums (window 0), the 128 counts (window 1), the whole 128 × 104 weight (window 2)
  and the 104 biases (window 3), and writes the whole 128 × 104 result (window 4). The body loads the four input blocks
  whole, clamps the counts below by one, divides each row of the sums by its count, rounds the quotient and the weight
  to bf16, multiplies them into a zero accumulator, adds the bias to every row and stores the sum whole; it also loads
  the output block first, a value it never uses. So after the body the output block is the payload `k7_pay1` of the
  four input blocks, whatever it held before. Stated at any entry contents `V` of the core's buffers and at any float
  instance.
-/
import proofs.«406510_j66254165508930_1_alg».proof.Proof.Gen.Kernel.Launch
import proofs.«406510_j66254165508930_1_alg».proof.Proof.Gen.Kernel.Skeleton
import proofs.«406510_j66254165508930_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at the single point `t`, cut out of its array as the region finds it. -/
def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The offsets `[0, 0]` are the zero offsets. -/
theorem off7_2 : (![0, 0] : Fin 2 → ℕ) = fun _ => 0 := by funext a; fin_cases a <;> rfl

/-- The offset `[0]` is the zero offset. -/
theorem off7_1 : (![0] : Fin 1 → ℕ) = fun _ => 0 := by funext a; fin_cases a; rfl

set_option maxHeartbeats 1000000 in
/-- The body on whole staging memrefs: the four inputs keep their contents `p`, `n`, `w`, `b`; the output, whatever
    it held, ends at the payload `k7_pay1 n p w b` (the sums divided by the clamped counts, times the weight, plus
    the bias). -/
theorem body7 (c : Dev nD) (E : Set ℕ) (i : grid7.Coords)
    (a1 : Memref sig .tc .vmem S128x128 .f32) (h1 : a1.IsWhole) (a2 : Memref sig .tc .vmem S128 .f32) (h2 : a2.IsWhole)
    (a3 : Memref sig .tc .vmem S128x104 .f32) (h3 : a3.IsWhole) (a4 : Memref sig .tc .vmem S104 .f32) (h4 : a4.IsWhole)
    (a5 : Memref sig .tc .vmem S128x104 .f32) (h5 : a5.IsWhole)
    (p : Vec F S128x128 .f32) (n : Vec F S128 .f32) (w : Vec F S128x104 .f32) (b : Vec F S104 .f32)
    (K : PUnit → sProp 𝕄) :
    iprop(owns (c : Thread nD τ) a1 fullShare p ∗ owns (c : Thread nD τ) a2 fullShare n
        ∗ owns (c : Thread nD τ) a3 fullShare w ∗ owns (c : Thread nD τ) a4 fullShare b
        ∗ (∃ d, owns (c : Thread nD τ) a5 fullShare d)
        ∗ (iprop(owns (c : Thread nD τ) a1 fullShare p ∗ owns (c : Thread nD τ) a2 fullShare n
            ∗ owns (c : Thread nD τ) a3 fullShare w ∗ owns (c : Thread nD τ) a4 fullShare b
            ∗ owns (c : Thread nD τ) a5 fullShare (k7_pay1 n p w b)) -∗ K ⟨⟩))
      ⊢ wp frame (wpE (defs₀ (F := F)) Variants.none c none) E (cc7__finalize_kernel i a1 h1 a2 h2 a3 h3 a4 h4 a5 h5) K := by
  simp only [cc7__finalize_kernel_eq_skeleton]; unfold cc7__finalize_kernel_skel
  unfold owns
  iintro ⟨⟨%f1, %e1, H1⟩, ⟨%f2, %e2, H2⟩, ⟨%f3, %e3, H3⟩, ⟨%f4, %e4, H4⟩, ⟨%d5, %f5, -, H5⟩, Hk⟩
  subst e1; subst e2; subst e3; subst e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- one store through the whole rectangle: what is read back is its payload, and a load through a whole rectangle is the block
  rw [View.read_writes_eq_canon _ _ _ (View.cover_of_tiled _ S128x104.size (by rfl)), View.canon_unit_zero off7_2]
  simp only [View.readAt_eq_ld, View.ld_unit_zero (S := S128x128) off7_2, View.ld_unit_zero (S := S128x104) off7_2,
    View.ld_unit_zero (S := S128) off7_1, View.ld_unit_zero (S := S104) off7_1]

/-- The region's proof data on core `c`: the arrays as entered; after the body at the point `t` the four inputs'
    buffers at their blocks and the output's at the payload of those blocks; the class invariant (the scoped rest and
    the generator register, untouched); full shares; nothing owed. -/
def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => blk7 V c 3 t
    | ⟨4, _⟩ => k7_pay1 (blk7 V c 1 t) (blk7 V c 0 t) (blk7 V c 2 t) (blk7 V c 3 t)
  Φ _ := Pipeline.ΦA spec7 c
  q _ := fullShare
  owed _ := 0

theorem A7 (c : Dev nD) (w : Fin cfg7.W) : (dat7 V c).A w = V c (Pipeline.arrRef spec7 w) := by dsimp only [dat7]
theorem after7_0 (c : Dev nD) (t : Fin cfg7.N) : (dat7 V c).after 0 t = blk7 V c 0 t := by dsimp only [dat7]
theorem after7_1 (c : Dev nD) (t : Fin cfg7.N) : (dat7 V c).after 1 t = blk7 V c 1 t := by dsimp only [dat7]
theorem after7_2 (c : Dev nD) (t : Fin cfg7.N) : (dat7 V c).after 2 t = blk7 V c 2 t := by dsimp only [dat7]
theorem after7_3 (c : Dev nD) (t : Fin cfg7.N) : (dat7 V c).after 3 t = blk7 V c 3 t := by dsimp only [dat7]
theorem after7_4 (c : Dev nD) (t : Fin cfg7.N) :
    (dat7 V c).after 4 t = k7_pay1 (blk7 V c 1 t) (blk7 V c 0 t) (blk7 V c 2 t) (blk7 V c 3 t) := by dsimp only [dat7]

/-- An input's current staging buffer holds its block at the point, fetched there. -/
theorem in7_0 (c : Dev nD) (t : Fin cfg7.N) (d) : (dat7 V c).before 0 t d = blk7 V c 0 t :=
  ((dat7 V c).before_in_eq_fetched 0 rfl (fun _ => rfl) (fun _ _ _ => rfl)
    (fun t => by rw [after7_0]; unfold Dat.blockOf blk7; rw [A7]; try rfl) t d).trans
    (by unfold Dat.fetched Dat.blockOf blk7; rw [A7]; try rfl)
theorem in7_1 (c : Dev nD) (t : Fin cfg7.N) (d) : (dat7 V c).before 1 t d = blk7 V c 1 t :=
  ((dat7 V c).before_in_eq_fetched 1 rfl (fun _ => rfl) (fun _ _ _ => rfl)
    (fun t => by rw [after7_1]; unfold Dat.blockOf blk7; rw [A7]; try rfl) t d).trans
    (by unfold Dat.fetched Dat.blockOf blk7; rw [A7]; try rfl)
theorem in7_2 (c : Dev nD) (t : Fin cfg7.N) (d) : (dat7 V c).before 2 t d = blk7 V c 2 t :=
  ((dat7 V c).before_in_eq_fetched 2 rfl (fun _ => rfl) (fun _ _ _ => rfl)
    (fun t => by rw [after7_2]; unfold Dat.blockOf blk7; rw [A7]; try rfl) t d).trans
    (by unfold Dat.fetched Dat.blockOf blk7; rw [A7]; try rfl)
theorem in7_3 (c : Dev nD) (t : Fin cfg7.N) (d) : (dat7 V c).before 3 t d = blk7 V c 3 t :=
  ((dat7 V c).before_in_eq_fetched 3 rfl (fun _ => rfl) (fun _ _ _ => rfl)
    (fun t => by rw [after7_3]; unfold Dat.blockOf blk7; rw [A7]; try rfl) t d).trans
    (by unfold Dat.fetched Dat.blockOf blk7; rw [A7]; try rfl)

/-- The body obligation of the launch theorem, at the single point: the inputs' buffers hold their blocks, so `body7`
    applies; the invariant and the core's dues pass through unread. -/
theorem obligation7 (c : Dev nD) : BodyObligation (dat7 (F := F) V c) (defs₀ (F := F)) Variants.none () Set.univ := fun t => by
  rw [bigSep_W7, bigSep_W7]
  simp only [in7_0, in7_1, in7_2, in7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (body7 c Set.univ (grid7.coords t) (win7_0.stage (cfg7.slots t 0)) (hstage7_0 ((cfg7.slots t 0).cast nbuf7_0))
    (win7_1.stage (cfg7.slots t 1)) (hstage7_1 ((cfg7.slots t 1).cast nbuf7_1))
    (win7_2.stage (cfg7.slots t 2)) (hstage7_2 ((cfg7.slots t 2).cast nbuf7_2))
    (win7_3.stage (cfg7.slots t 3)) (hstage7_3 ((cfg7.slots t 3).cast nbuf7_3))
    (win7_4.stage (cfg7.slots t 4)) (hstage7_4 ((cfg7.slots t 4).cast nbuf7_4))
    (blk7 V c 0 t) (blk7 V c 1 t) (blk7 V c 2 t) (blk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end

end Cert.Kernel.Gen

end
-- ==== Proof.K.Main.lean ====
/-
  The run of the whole program. Each region's proof data is taken at the contents the region is entered from, and what
  a region leaves in its output array is that array after the last write-back (`arrAt` of its proof data at the last
  point); with the host stretches between them this is the chain of contents of Fold.lean. The eight regions are
  segments of @main entered and left at those contents, so the launch theorem gives: every weakly fair execution of
  @main terminates, the result buffer holds the last region's output, and the arguments are as launched.
-/
import proofs.«406510_j66254165508930_1_alg».proof.Proof.K.Fold
import proofs.«406510_j66254165508930_1_alg».proof.Proof.K.Region
import proofs.«406510_j66254165508930_1_alg».proof.Proof.K.RunCond
import proofs.«406510_j66254165508930_1_alg».proof.Proof.K.R0
import proofs.«406510_j66254165508930_1_alg».proof.Proof.K.R1
import proofs.«406510_j66254165508930_1_alg».proof.Proof.K.R2
import proofs.«406510_j66254165508930_1_alg».proof.Proof.K.R3
import proofs.«406510_j66254165508930_1_alg».proof.Proof.K.R4
import proofs.«406510_j66254165508930_1_alg».proof.Proof.K.R5
import proofs.«406510_j66254165508930_1_alg».proof.Proof.K.R6
import proofs.«406510_j66254165508930_1_alg».proof.Proof.K.R7
import Idealize.ShloMosaic.Lib.Pipeline.Kit

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's contents read at its own references. -/
abbrev atRefs (W : Dev nD → Valuation τ sig (Elt F)) (c : Dev nD) (b : Ref sig .tc) : Buf (Elt F) ((c : Thread nD τ).loc b) :=
  W c (Proc.devRef .tc b)

/-- What each region leaves in its output array: the array after the region's last write-back, the region's proof
    data taken at the contents it is entered at. -/
def leaves : Leaves F where
  l0 W c := (dat0 (atRefs W) c).arrAt 2 cfg0.N
  l1 W c := (dat1 (atRefs W) c).arrAt 2 cfg1.N
  l2 W c := (dat2 (atRefs W) c).arrAt 2 cfg2.N
  l3 W c := (dat3 (atRefs W) c).arrAt 2 cfg3.N
  l4 W c := (dat4 (atRefs W) c).arrAt 2 cfg4.N
  l5 W c := (dat5 (atRefs W) c).arrAt 2 cfg5.N
  l6 W c := (dat6 (atRefs W) c).arrAt 2 cfg6.N
  l7 W c := (dat7 (atRefs W) c).arrAt 4 cfg7.N

variable (m : (ℓ : Loc nD τ sig) → Buf (Elt F) ℓ)

/-! ## The proof data of the eight calls, each at the contents its region is entered from -/

def pdats : (p : Fin 8) → (c : Dev nD) → Dat τ (Elt F) Unit ℕ (UR sig nD τ) ℕ (cfgs p) c
  | ⟨0, _⟩ => fun c => dat0 (atRefs (V3 m)) c
  | ⟨1, _⟩ => fun c => dat1 (atRefs (X5 leaves m)) c
  | ⟨2, _⟩ => fun c => dat2 (atRefs (X6 leaves m)) c
  | ⟨3, _⟩ => fun c => dat3 (atRefs (X8 leaves m)) c
  | ⟨4, _⟩ => fun c => dat4 (atRefs (X9 leaves m)) c
  | ⟨5, _⟩ => fun c => dat5 (atRefs (X11 leaves m)) c
  | ⟨6, _⟩ => fun c => dat6 (atRefs (X13 leaves m)) c
  | ⟨7, _⟩ => fun c => dat7 (atRefs (X15 leaves m)) c

/-! ## The regions as segments -/

/-- Region 0's arrays at its exit: the inputs as entered, the output at what the write-backs left. -/
theorem exitArr0 (c : Dev nD) (w : Fin cfg0.W) :
    (pdats m 0 c).arrAt w (cfgs 0).N = X4 leaves m c (Proc.devRef .tc (Pipeline.arrRef (cfgs 0).spec w)) := by
  fin_cases w
  · exact ((dat0 (atRefs (V3 m)) c).arrAt_in 0 rfl _).trans ((A0 (atRefs (V3 m)) c 0).trans (X4_of leaves m c main_v11 (by decide)).symm)
  · exact ((dat0 (atRefs (V3 m)) c).arrAt_in 1 rfl _).trans ((A0 (atRefs (V3 m)) c 1).trans (X4_of leaves m c main_arg5 (by decide)).symm)
  · exact (X4_out leaves m c).symm
/-- Every buffer that is no array of region 0 is as entered. -/
theorem exitRest0 (c : Dev nD) (b : Ref sig .tc) (hb : b ∉ Finset.univ.image (Pipeline.arrRef (cfgs 0).spec)) :
    X4 leaves m c (Proc.devRef .tc b) = V3 m c (Proc.devRef .tc b) :=
  X4_of leaves m c b fun e => hb (Finset.mem_image.mpr ⟨2, Finset.mem_univ _, e.symm⟩)
/-- Region 0 as a segment of @main. -/
def reg0 : Pipeline.RegionSeg (pcfgs (F := F)) adm (pdats m) () defs₀ Variants.none noLevels zeroLevel 0 :=
  regionAt (pdats m) 0 launch0 (V3 m) (X4 leaves m) (fun c => obligation0 (atRefs (V3 m)) c)
    (fun _ _ => rfl) (fun _ _ => rfl) (fun _ _ => rfl) (fun c w => A0 (atRefs (V3 m)) c w)
    (fun _ => .rfl) (fun _ => .rfl) (exitArr0 m) (exitRest0 m)

/-- Region 1's arrays at its exit: the inputs as entered, the output at what the write-backs left. -/
theorem exitArr1 (c : Dev nD) (w : Fin cfg1.W) :
    (pdats m 1 c).arrAt w (cfgs 1).N = X6 leaves m c (Proc.devRef .tc (Pipeline.arrRef (cfgs 1).spec w)) := by
  fin_cases w
  · exact ((dat1 (atRefs (X5 leaves m)) c).arrAt_in 0 rfl _).trans ((A1 (atRefs (X5 leaves m)) c 0).trans (X6_of leaves m c main_v57 (by decide)).symm)
  · exact ((dat1 (atRefs (X5 leaves m)) c).arrAt_in 1 rfl _).trans ((A1 (atRefs (X5 leaves m)) c 1).trans (X6_of leaves m c main_arg6 (by decide)).symm)
  · exact (X6_out leaves m c).symm
/-- Every buffer that is no array of region 1 is as entered. -/
theorem exitRest1 (c : Dev nD) (b : Ref sig .tc) (hb : b ∉ Finset.univ.image (Pipeline.arrRef (cfgs 1).spec)) :
    X6 leaves m c (Proc.devRef .tc b) = X5 leaves m c (Proc.devRef .tc b) :=
  X6_of leaves m c b fun e => hb (Finset.mem_image.mpr ⟨2, Finset.mem_univ _, e.symm⟩)
/-- Region 1 as a segment of @main. -/
def reg1 : Pipeline.RegionSeg (pcfgs (F := F)) adm (pdats m) () defs₀ Variants.none noLevels zeroLevel 1 :=
  regionAt (pdats m) 1 launch1 (X5 leaves m) (X6 leaves m) (fun c => obligation1 (atRefs (X5 leaves m)) c)
    (fun _ _ => rfl) (fun _ _ => rfl) (fun _ _ => rfl) (fun c w => A1 (atRefs (X5 leaves m)) c w)
    (fun _ => .rfl) (fun _ => .rfl) (exitArr1 m) (exitRest1 m)

/-- Region 2's arrays at its exit: the inputs as entered, the output at what the write-backs left. -/
theorem exitArr2 (c : Dev nD) (w : Fin cfg2.W) :
    (pdats m 2 c).arrAt w (cfgs 2).N = X7 leaves m c (Proc.devRef .tc (Pipeline.arrRef (cfgs 2).spec w)) := by
  fin_cases w
  · exact ((dat2 (atRefs (X6 leaves m)) c).arrAt_in 0 rfl _).trans ((A2 (atRefs (X6 leaves m)) c 0).trans (X7_of leaves m c main_v58 (by decide)).symm)
  · exact ((dat2 (atRefs (X6 leaves m)) c).arrAt_in 1 rfl _).trans ((A2 (atRefs (X6 leaves m)) c 1).trans (X7_of leaves m c main_arg7 (by decide)).symm)
  · exact (X7_out leaves m c).symm
/-- Every buffer that is no array of region 2 is as entered. -/
theorem exitRest2 (c : Dev nD) (b : Ref sig .tc) (hb : b ∉ Finset.univ.image (Pipeline.arrRef (cfgs 2).spec)) :
    X7 leaves m c (Proc.devRef .tc b) = X6 leaves m c (Proc.devRef .tc b) :=
  X7_of leaves m c b fun e => hb (Finset.mem_image.mpr ⟨2, Finset.mem_univ _, e.symm⟩)
/-- Region 2 as a segment of @main. -/
def reg2 : Pipeline.RegionSeg (pcfgs (F := F)) adm (pdats m) () defs₀ Variants.none noLevels zeroLevel 2 :=
  regionAt (pdats m) 2 launch2 (X6 leaves m) (X7 leaves m) (fun c => obligation2 (atRefs (X6 leaves m)) c)
    (fun _ _ => rfl) (fun _ _ => rfl) (fun _ _ => rfl) (fun c w => A2 (atRefs (X6 leaves m)) c w)
    (fun _ => .rfl) (fun _ => .rfl) (exitArr2 m) (exitRest2 m)

/-- Region 3's arrays at its exit: the inputs as entered, the output at what the write-backs left. -/
theorem exitArr3 (c : Dev nD) (w : Fin cfg3.W) :
    (pdats m 3 c).arrAt w (cfgs 3).N = X9 leaves m c (Proc.devRef .tc (Pipeline.arrRef (cfgs 3).spec w)) := by
  fin_cases w
  · exact ((dat3 (atRefs (X8 leaves m)) c).arrAt_in 0 rfl _).trans ((A3 (atRefs (X8 leaves m)) c 0).trans (X9_of leaves m c main_v76 (by decide)).symm)
  · exact ((dat3 (atRefs (X8 leaves m)) c).arrAt_in 1 rfl _).trans ((A3 (atRefs (X8 leaves m)) c 1).trans (X9_of leaves m c main_arg8 (by decide)).symm)
  · exact (X9_out leaves m c).symm
/-- Every buffer that is no array of region 3 is as entered. -/
theorem exitRest3 (c : Dev nD) (b : Ref sig .tc) (hb : b ∉ Finset.univ.image (Pipeline.arrRef (cfgs 3).spec)) :
    X9 leaves m c (Proc.devRef .tc b) = X8 leaves m c (Proc.devRef .tc b) :=
  X9_of leaves m c b fun e => hb (Finset.mem_image.mpr ⟨2, Finset.mem_univ _, e.symm⟩)
/-- Region 3 as a segment of @main. -/
def reg3 : Pipeline.RegionSeg (pcfgs (F := F)) adm (pdats m) () defs₀ Variants.none noLevels zeroLevel 3 :=
  regionAt (pdats m) 3 launch3 (X8 leaves m) (X9 leaves m) (fun c => obligation3 (atRefs (X8 leaves m)) c)
    (fun _ _ => rfl) (fun _ _ => rfl) (fun _ _ => rfl) (fun c w => A3 (atRefs (X8 leaves m)) c w)
    (fun _ => .rfl) (fun _ => .rfl) (exitArr3 m) (exitRest3 m)

/-- Region 4's arrays at its exit: the inputs as entered, the output at what the write-backs left. -/
theorem exitArr4 (c : Dev nD) (w : Fin cfg4.W) :
    (pdats m 4 c).arrAt w (cfgs 4).N = X10 leaves m c (Proc.devRef .tc (Pipeline.arrRef (cfgs 4).spec w)) := by
  fin_cases w
  · exact ((dat4 (atRefs (X9 leaves m)) c).arrAt_in 0 rfl _).trans ((A4 (atRefs (X9 leaves m)) c 0).trans (X10_of leaves m c main_v77 (by decide)).symm)
  · exact ((dat4 (atRefs (X9 leaves m)) c).arrAt_in 1 rfl _).trans ((A4 (atRefs (X9 leaves m)) c 1).trans (X10_of leaves m c main_arg9 (by decide)).symm)
  · exact (X10_out leaves m c).symm
/-- Every buffer that is no array of region 4 is as entered. -/
theorem exitRest4 (c : Dev nD) (b : Ref sig .tc) (hb : b ∉ Finset.univ.image (Pipeline.arrRef (cfgs 4).spec)) :
    X10 leaves m c (Proc.devRef .tc b) = X9 leaves m c (Proc.devRef .tc b) :=
  X10_of leaves m c b fun e => hb (Finset.mem_image.mpr ⟨2, Finset.mem_univ _, e.symm⟩)
/-- Region 4 as a segment of @main. -/
def reg4 : Pipeline.RegionSeg (pcfgs (F := F)) adm (pdats m) () defs₀ Variants.none noLevels zeroLevel 4 :=
  regionAt (pdats m) 4 launch4 (X9 leaves m) (X10 leaves m) (fun c => obligation4 (atRefs (X9 leaves m)) c)
    (fun _ _ => rfl) (fun _ _ => rfl) (fun _ _ => rfl) (fun c w => A4 (atRefs (X9 leaves m)) c w)
    (fun _ => .rfl) (fun _ => .rfl) (exitArr4 m) (exitRest4 m)

/-- Region 5's arrays at its exit: the inputs as entered, the output at what the write-backs left. -/
theorem exitArr5 (c : Dev nD) (w : Fin cfg5.W) :
    (pdats m 5 c).arrAt w (cfgs 5).N = X12 leaves m c (Proc.devRef .tc (Pipeline.arrRef (cfgs 5).spec w)) := by
  fin_cases w
  · exact ((dat5 (atRefs (X11 leaves m)) c).arrAt_in 0 rfl _).trans ((A5 (atRefs (X11 leaves m)) c 0).trans (X12_of leaves m c main_v95 (by decide)).symm)
  · exact ((dat5 (atRefs (X11 leaves m)) c).arrAt_in 1 rfl _).trans ((A5 (atRefs (X11 leaves m)) c 1).trans (X12_of leaves m c main_arg10 (by decide)).symm)
  · exact (X12_out leaves m c).symm
/-- Every buffer that is no array of region 5 is as entered. -/
theorem exitRest5 (c : Dev nD) (b : Ref sig .tc) (hb : b ∉ Finset.univ.image (Pipeline.arrRef (cfgs 5).spec)) :
    X12 leaves m c (Proc.devRef .tc b) = X11 leaves m c (Proc.devRef .tc b) :=
  X12_of leaves m c b fun e => hb (Finset.mem_image.mpr ⟨2, Finset.mem_univ _, e.symm⟩)
/-- Region 5 as a segment of @main. -/
def reg5 : Pipeline.RegionSeg (pcfgs (F := F)) adm (pdats m) () defs₀ Variants.none noLevels zeroLevel 5 :=
  regionAt (pdats m) 5 launch5 (X11 leaves m) (X12 leaves m) (fun c => obligation5 (atRefs (X11 leaves m)) c)
    (fun _ _ => rfl) (fun _ _ => rfl) (fun _ _ => rfl) (fun c w => A5 (atRefs (X11 leaves m)) c w)
    (fun _ => .rfl) (fun _ => .rfl) (exitArr5 m) (exitRest5 m)

/-- Region 6's arrays at its exit: the inputs as entered, the output at what the write-backs left. -/
theorem exitArr6 (c : Dev nD) (w : Fin cfg6.W) :
    (pdats m 6 c).arrAt w (cfgs 6).N = X14 leaves m c (Proc.devRef .tc (Pipeline.arrRef (cfgs 6).spec w)) := by
  fin_cases w
  · exact ((dat6 (atRefs (X13 leaves m)) c).arrAt_in 0 rfl _).trans ((A6 (atRefs (X13 leaves m)) c 0).trans (X14_of leaves m c main_v103 (by decide)).symm)
  · exact ((dat6 (atRefs (X13 leaves m)) c).arrAt_in 1 rfl _).trans ((A6 (atRefs (X13 leaves m)) c 1).trans (X14_of leaves m c main_v96 (by decide)).symm)
  · exact (X14_out leaves m c).symm
/-- Every buffer that is no array of region 6 is as entered. -/
theorem exitRest6 (c : Dev nD) (b : Ref sig .tc) (hb : b ∉ Finset.univ.image (Pipeline.arrRef (cfgs 6).spec)) :
    X14 leaves m c (Proc.devRef .tc b) = X13 leaves m c (Proc.devRef .tc b) :=
  X14_of leaves m c b fun e => hb (Finset.mem_image.mpr ⟨2, Finset.mem_univ _, e.symm⟩)
/-- Region 6 as a segment of @main. -/
def reg6 : Pipeline.RegionSeg (pcfgs (F := F)) adm (pdats m) () defs₀ Variants.none noLevels zeroLevel 6 :=
  regionAt (pdats m) 6 launch6 (X13 leaves m) (X14 leaves m) (fun c => obligation6 (atRefs (X13 leaves m)) c)
    (fun _ _ => rfl) (fun _ _ => rfl) (fun _ _ => rfl) (fun c w => A6 (atRefs (X13 leaves m)) c w)
    (fun c => hin6 (atRefs (X13 leaves m)) c) (fun c => hout6 (atRefs (X13 leaves m)) c) (exitArr6 m) (exitRest6 m)

/-- Region 7's arrays at its exit: the inputs as entered, the output at what the write-backs left. -/
theorem exitArr7 (c : Dev nD) (w : Fin cfg7.W) :
    (pdats m 7 c).arrAt w (cfgs 7).N = X16 leaves m c (Proc.devRef .tc (Pipeline.arrRef (cfgs 7).spec w)) := by
  fin_cases w
  · exact ((dat7 (atRefs (X15 leaves m)) c).arrAt_in 0 rfl _).trans ((A7 (atRefs (X15 leaves m)) c 0).trans (X16_of leaves m c main_v104 (by decide)).symm)
  · exact ((dat7 (atRefs (X15 leaves m)) c).arrAt_in 1 rfl _).trans ((A7 (atRefs (X15 leaves m)) c 1).trans (X16_of leaves m c main_v108 (by decide)).symm)
  · exact ((dat7 (atRefs (X15 leaves m)) c).arrAt_in 2 rfl _).trans ((A7 (atRefs (X15 leaves m)) c 2).trans (X16_of leaves m c main_arg11 (by decide)).symm)
  · exact ((dat7 (atRefs (X15 leaves m)) c).arrAt_in 3 rfl _).trans ((A7 (atRefs (X15 leaves m)) c 3).trans (X16_of leaves m c main_arg12 (by decide)).symm)
  · exact (X16_out leaves m c).symm
/-- Every buffer that is no array of region 7 is as entered. -/
theorem exitRest7 (c : Dev nD) (b : Ref sig .tc) (hb : b ∉ Finset.univ.image (Pipeline.arrRef (cfgs 7).spec)) :
    X16 leaves m c (Proc.devRef .tc b) = X15 leaves m c (Proc.devRef .tc b) :=
  X16_of leaves m c b fun e => hb (Finset.mem_image.mpr ⟨4, Finset.mem_univ _, e.symm⟩)
/-- Region 7 as a segment of @main. -/
def reg7 : Pipeline.RegionSeg (pcfgs (F := F)) adm (pdats m) () defs₀ Variants.none noLevels zeroLevel 7 :=
  regionAt (pdats m) 7 launch7 (X15 leaves m) (X16 leaves m) (fun c => obligation7 (atRefs (X15 leaves m)) c)
    (fun _ _ => rfl) (fun _ _ => rfl) (fun _ _ => rfl) (fun c w => A7 (atRefs (X15 leaves m)) c w)
    (fun _ => .rfl) (fun _ => .rfl) (exitArr7 m) (exitRest7 m)

/-! ## The run -/

/-- The pipelines' cells and duty tokens as the launch deals them. -/
abbrev launchGhost : UR sig nD τ := initOf (Pipeline.cells cfgs cellOf_inj) (Pipeline.launchToks cfgs cellOf_inj)

set_option backward.isDefEq.respectTransparency.types false in
/-- THE RUN: from any memory with zero counters every weakly fair execution of @main terminates; the result buffer
    ends at the last region's output and every argument array as launched. -/
theorem run_all (ρ : Dev nD → PrngReg) :
    θ_run defs (onTc (τ := τ) (main (F := F))) ⟨m, fun _ => 0, ρ⟩ (fun r => ∀ c : Dev nD,
      r.2.mem ((c.tc : Thread nD τ).loc main_v109) = X16 leaves m c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_cond m emb₁ () Variants.none noLevels zeroLevel (fun _ _ => rfl) ρ (outs leaves m) (pdats m)
    (O₀ := 0) (G := fun _ => iprop(emp)) (u₀ := launchGhost)
    (hu₀ := by
      iintro Hu; imodintro
      isplitl [Hu]
      · iapply (show (ownU launchGhost : sProp 𝕄) ⊢ BI.own (emb₁ launchGhost) from .rfl)
        iexact Hu
      iapply (show (BI.emp : sProp 𝕄) ⊢ bigSep Finset.univ (fun _ : Dev nD => (BI.emp : sProp 𝕄)) from by rw [BI.bigSep_emp_const])
      iempintro)
    (E := fun _ c => beside c)
    (hE0 := by
      refine Pipeline.initEach noLevels zeroLevel fun c => ?_
      iintro ⟨⟨-, HO, -, Hp, -⟩, -⟩
      imodintro
      isplitl [Hp]; · iexists _; iexact Hp
      iexists ∅; iexact HO)
    (hE8 := fun c => by iintro ⟨-, HO⟩; iexact HO)
    (reg0 m) (fun c => .rfl) (fun c => by rw [V4_eq]; exact .rfl)
    (reg1 m) (fun c => by rw [V5_eq]; exact .rfl) (fun c => by rw [V6_eq]; exact .rfl)
    (reg2 m) (fun c => by rw [V6_eq]; exact .rfl) (fun c => by rw [V7_eq]; exact .rfl)
    (reg3 m) (fun c => by rw [V8_eq]; exact .rfl) (fun c => by rw [V9_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)
    (reg7 m) (fun c => by rw [V15_eq]; exact .rfl) (fun c => by rw [V16_eq]; exact .rfl)

end Cert.Kernel.Gen

end
-- ==== Proof.KI.Fold.lean ====
/-
  The contents of a core's unscoped buffers between the items of @main, over a parameter: what each of the eight
  regions leaves in its output array, as a function of the contents the region is entered at. From the launch memory,
  each host stretch applies its operations (`StableHlo.after`) and each region replaces its output array; every other
  buffer is as it was. These are the generated valuations `V4 … V16` at the matching choice of the regions' outputs.
-/
import proofs.«406510_j66254165508930_1_alg».proof.Proof.Gen.KernelIdeal.Regions

set_option maxRecDepth 16384

noncomputable section

namespace Cert.KernelIdeal.Gen

open Idealize.ShloMosaic Idealize.ShloMosaic.TcCoe Idealize.SL.Sem

variable {F : FTy → Type} [FloatOps F]

/-- What each region leaves in its output array, given the contents it is entered at. -/
structure Leaves (F : FTy → Type) [FloatOps F] where
  l0 : (Dev nD → Valuation τ sig (Elt F)) → (c : Dev nD) → Buf (Elt F) ((c : Thread nD τ).loc main_v40)
  l1 : (Dev nD → Valuation τ sig (Elt F)) → (c : Dev nD) → Buf (Elt F) ((c : Thread nD τ).loc main_v58)
  l2 : (Dev nD → Valuation τ sig (Elt F)) → (c : Dev nD) → Buf (Elt F) ((c : Thread nD τ).loc main_v59)
  l3 : (Dev nD → Valuation τ sig (Elt F)) → (c : Dev nD) → Buf (Elt F) ((c : Thread nD τ).loc main_v77)
  l4 : (Dev nD → Valuation τ sig (Elt F)) → (c : Dev nD) → Buf (Elt F) ((c : Thread nD τ).loc main_v78)
  l5 : (Dev nD → Valuation τ sig (Elt F)) → (c : Dev nD) → Buf (Elt F) ((c : Thread nD τ).loc main_v96)
  l6 : (Dev nD → Valuation τ sig (Elt F)) → (c : Dev nD) → Buf (Elt F) ((c : Thread nD τ).loc main_v104)
  l7 : (Dev nD → Valuation τ sig (Elt F)) → (c : Dev nD) → Buf (Elt F) ((c : Thread nD τ).loc main_v109)

variable (lv : Leaves F) (m : (ℓ : Loc nD τ sig) → Buf (Elt F) ℓ)

/-! ## The contents between the items -/

/-- After region 0: its output array `main_v40` at what the region left, every other buffer as entered. -/
def X4 (c : Dev nD) : Valuation τ sig (Elt F) :=
  Function.update (V3 m c) (Proc.devRef .tc main_v40) (lv.l0 (V3 m) c)
/-- After the host stretch `hostOps1`. -/
def X5 (c : Dev nD) : Valuation τ sig (Elt F) := StableHlo.after hostOps1 (X4 lv m c)
/-- After region 1: its output array `main_v58` at what the region left, every other buffer as entered. -/
def X6 (c : Dev nD) : Valuation τ sig (Elt F) :=
  Function.update (X5 lv m c) (Proc.devRef .tc main_v58) (lv.l1 (X5 lv m) c)
/-- After region 2: its output array `main_v59` at what the region left, every other buffer as entered. -/
def X7 (c : Dev nD) : Valuation τ sig (Elt F) :=
  Function.update (X6 lv m c) (Proc.devRef .tc main_v59) (lv.l2 (X6 lv m) c)
/-- After the host stretch `hostOps3`. -/
def X8 (c : Dev nD) : Valuation τ sig (Elt F) := StableHlo.after hostOps3 (X7 lv m c)
/-- After region 3: its output array `main_v77` at what the region left, every other buffer as entered. -/
def X9 (c : Dev nD) : Valuation τ sig (Elt F) :=
  Function.update (X8 lv m c) (Proc.devRef .tc main_v77) (lv.l3 (X8 lv m) c)
/-- After region 4: its output array `main_v78` at what the region left, every other buffer as entered. -/
def X10 (c : Dev nD) : Valuation τ sig (Elt F) :=
  Function.update (X9 lv m c) (Proc.devRef .tc main_v78) (lv.l4 (X9 lv m) c)
/-- After the host stretch `hostOps5`. -/
def X11 (c : Dev nD) : Valuation τ sig (Elt F) := StableHlo.after hostOps5 (X10 lv m c)
/-- After region 5: its output array `main_v96` at what the region left, every other buffer as entered. -/
def X12 (c : Dev nD) : Valuation τ sig (Elt F) :=
  Function.update (X11 lv m c) (Proc.devRef .tc main_v96) (lv.l5 (X11 lv m) c)
/-- After the host stretch `hostOps6`. -/
def X13 (c : Dev nD) : Valuation τ sig (Elt F) := StableHlo.after hostOps6 (X12 lv m c)
/-- After region 6: its output array `main_v104` at what the region left, every other buffer as entered. -/
def X14 (c : Dev nD) : Valuation τ sig (Elt F) :=
  Function.update (X13 lv m c) (Proc.devRef .tc main_v104) (lv.l6 (X13 lv m) c)
/-- After the host stretch `hostOps7`. -/
def X15 (c : Dev nD) : Valuation τ sig (Elt F) := StableHlo.after hostOps7 (X14 lv m c)
/-- After region 7: its output array `main_v109` at what the region left, every other buffer as entered. -/
def X16 (c : Dev nD) : Valuation τ sig (Elt F) :=
  Function.update (X15 lv m c) (Proc.devRef .tc main_v109) (lv.l7 (X15 lv m) c)

/-- What the regions leave, as the generated valuations ask for it: item `J`'s contents read at a reference. -/
def outs : Outs (F := F) := fun J r c => match J with
  | 4 => X4 lv m c (Proc.devRef .tc r)
  | 6 => X6 lv m c (Proc.devRef .tc r)
  | 7 => X7 lv m c (Proc.devRef .tc r)
  | 9 => X9 lv m c (Proc.devRef .tc r)
  | 10 => X10 lv m c (Proc.devRef .tc r)
  | 12 => X12 lv m c (Proc.devRef .tc r)
  | 14 => X14 lv m c (Proc.devRef .tc r)
  | _ => X16 lv m c (Proc.devRef .tc r)

/-! The generated valuations at these `outs` are the contents above. -/

theorem V4_eq (c : Dev nD) : V4 m (outs lv m) c = X4 lv m c := by
  show Function.update (V3 m c) _ (X4 lv m c _) = X4 lv m c
  unfold X4; rw [Function.update_self]
theorem V5_eq (c : Dev nD) : V5 m (outs lv m) c = X5 lv m c := by
  show StableHlo.after hostOps1 (V4 m (outs lv m) c) = _
  rw [V4_eq]; rfl
theorem V6_eq (c : Dev nD) : V6 m (outs lv m) c = X6 lv m c := by
  show Function.update (V5 m (outs lv m) c) _ (X6 lv m c _) = X6 lv m c
  rw [V5_eq]; unfold X6; rw [Function.update_self]
theorem V7_eq (c : Dev nD) : V7 m (outs lv m) c = X7 lv m c := by
  show Function.update (V6 m (outs lv m) c) _ (X7 lv m c _) = X7 lv m c
  rw [V6_eq]; unfold X7; rw [Function.update_self]
theorem V8_eq (c : Dev nD) : V8 m (outs lv m) c = X8 lv m c := by
  show StableHlo.after hostOps3 (V7 m (outs lv m) c) = _
  rw [V7_eq]; rfl
theorem V9_eq (c : Dev nD) : V9 m (outs lv m) c = X9 lv m c := by
  show Function.update (V8 m (outs lv m) c) _ (X9 lv m c _) = X9 lv m c
  rw [V8_eq]; unfold X9; rw [Function.update_self]
theorem V10_eq (c : Dev nD) : V10 m (outs lv m) c = X10 lv m c := by
  show Function.update (V9 m (outs lv m) c) _ (X10 lv m c _) = X10 lv m c
  rw [V9_eq]; unfold X10; rw [Function.update_self]
theorem V11_eq (c : Dev nD) : V11 m (outs lv m) c = X11 lv m c := by
  show StableHlo.after hostOps5 (V10 m (outs lv m) c) = _
  rw [V10_eq]; rfl
theorem V12_eq (c : Dev nD) : V12 m (outs lv m) c = X12 lv m c := by
  show Function.update (V11 m (outs lv m) c) _ (X12 lv m c _) = X12 lv m c
  rw [V11_eq]; unfold X12; rw [Function.update_self]
theorem V13_eq (c : Dev nD) : V13 m (outs lv m) c = X13 lv m c := by
  show StableHlo.after hostOps6 (V12 m (outs lv m) c) = _
  rw [V12_eq]; rfl
theorem V14_eq (c : Dev nD) : V14 m (outs lv m) c = X14 lv m c := by
  show Function.update (V13 m (outs lv m) c) _ (X14 lv m c _) = X14 lv m c
  rw [V13_eq]; unfold X14; rw [Function.update_self]
theorem V15_eq (c : Dev nD) : V15 m (outs lv m) c = X15 lv m c := by
  show StableHlo.after hostOps7 (V14 m (outs lv m) c) = _
  rw [V14_eq]; rfl
theorem V16_eq (c : Dev nD) : V16 m (outs lv m) c = X16 lv m c := by
  show Function.update (V15 m (outs lv m) c) _ (X16 lv m c _) = X16 lv m c
  rw [V15_eq]; unfold X16; rw [Function.update_self]

/-! ## What an item leaves unchanged, and what a region leaves in its output -/

theorem X4_of (c : Dev nD) (r : Ref sig .tc) (h : r ≠ main_v40) : X4 lv m c (Proc.devRef .tc r) = V3 m c (Proc.devRef .tc r) :=
  Function.update_of_ne (StableHlo.devRef_ne_of_ne h) _ _
theorem X4_out (c : Dev nD) : X4 lv m c (Proc.devRef .tc main_v40) = lv.l0 (V3 m) c :=
  Function.update_self _ _ _
theorem X5_of (c : Dev nD) (r : Ref sig .tc) (h : r ∉ hostOps1_W) : X5 lv m c (Proc.devRef .tc r) = X4 lv m c (Proc.devRef .tc r) :=
  StableHlo.after_of_writes_sub hostOps1 _ hostOps1_writes h
theorem X6_of (c : Dev nD) (r : Ref sig .tc) (h : r ≠ main_v58) : X6 lv m c (Proc.devRef .tc r) = X5 lv m c (Proc.devRef .tc r) :=
  Function.update_of_ne (StableHlo.devRef_ne_of_ne h) _ _
theorem X6_out (c : Dev nD) : X6 lv m c (Proc.devRef .tc main_v58) = lv.l1 (X5 lv m) c :=
  Function.update_self _ _ _
theorem X7_of (c : Dev nD) (r : Ref sig .tc) (h : r ≠ main_v59) : X7 lv m c (Proc.devRef .tc r) = X6 lv m c (Proc.devRef .tc r) :=
  Function.update_of_ne (StableHlo.devRef_ne_of_ne h) _ _
theorem X7_out (c : Dev nD) : X7 lv m c (Proc.devRef .tc main_v59) = lv.l2 (X6 lv m) c :=
  Function.update_self _ _ _
theorem X8_of (c : Dev nD) (r : Ref sig .tc) (h : r ∉ hostOps3_W) : X8 lv m c (Proc.devRef .tc r) = X7 lv m c (Proc.devRef .tc r) :=
  StableHlo.after_of_writes_sub hostOps3 _ hostOps3_writes h
theorem X9_of (c : Dev nD) (r : Ref sig .tc) (h : r ≠ main_v77) : X9 lv m c (Proc.devRef .tc r) = X8 lv m c (Proc.devRef .tc r) :=
  Function.update_of_ne (StableHlo.devRef_ne_of_ne h) _ _
theorem X9_out (c : Dev nD) : X9 lv m c (Proc.devRef .tc main_v77) = lv.l3 (X8 lv m) c :=
  Function.update_self _ _ _
theorem X10_of (c : Dev nD) (r : Ref sig .tc) (h : r ≠ main_v78) : X10 lv m c (Proc.devRef .tc r) = X9 lv m c (Proc.devRef .tc r) :=
  Function.update_of_ne (StableHlo.devRef_ne_of_ne h) _ _
theorem X10_out (c : Dev nD) : X10 lv m c (Proc.devRef .tc main_v78) = lv.l4 (X9 lv m) c :=
  Function.update_self _ _ _
theorem X11_of (c : Dev nD) (r : Ref sig .tc) (h : r ∉ hostOps5_W) : X11 lv m c (Proc.devRef .tc r) = X10 lv m c (Proc.devRef .tc r) :=
  StableHlo.after_of_writes_sub hostOps5 _ hostOps5_writes h
theorem X12_of (c : Dev nD) (r : Ref sig .tc) (h : r ≠ main_v96) : X12 lv m c (Proc.devRef .tc r) = X11 lv m c (Proc.devRef .tc r) :=
  Function.update_of_ne (StableHlo.devRef_ne_of_ne h) _ _
theorem X12_out (c : Dev nD) : X12 lv m c (Proc.devRef .tc main_v96) = lv.l5 (X11 lv m) c :=
  Function.update_self _ _ _
theorem X13_of (c : Dev nD) (r : Ref sig .tc) (h : r ∉ hostOps6_W) : X13 lv m c (Proc.devRef .tc r) = X12 lv m c (Proc.devRef .tc r) :=
  StableHlo.after_of_writes_sub hostOps6 _ hostOps6_writes h
theorem X14_of (c : Dev nD) (r : Ref sig .tc) (h : r ≠ main_v104) : X14 lv m c (Proc.devRef .tc r) = X13 lv m c (Proc.devRef .tc r) :=
  Function.update_of_ne (StableHlo.devRef_ne_of_ne h) _ _
theorem X14_out (c : Dev nD) : X14 lv m c (Proc.devRef .tc main_v104) = lv.l6 (X13 lv m) c :=
  Function.update_self _ _ _
theorem X15_of (c : Dev nD) (r : Ref sig .tc) (h : r ∉ hostOps7_W) : X15 lv m c (Proc.devRef .tc r) = X14 lv m c (Proc.devRef .tc r) :=
  StableHlo.after_of_writes_sub hostOps7 _ hostOps7_writes h
theorem X16_of (c : Dev nD) (r : Ref sig .tc) (h : r ≠ main_v109) : X16 lv m c (Proc.devRef .tc r) = X15 lv m c (Proc.devRef .tc r) :=
  Function.update_of_ne (StableHlo.devRef_ne_of_ne h) _ _
theorem X16_out (c : Dev nD) : X16 lv m c (Proc.devRef .tc main_v109) = lv.l7 (X15 lv m) c :=
  Function.update_self _ _ _

end Cert.KernelIdeal.Gen

end
-- ==== Proof.KI.Region.lean ====
/-
  A kernel region of @main as a segment of the program's run, for ANY of the eight calls. The thread state between two
  items of @main is: every unscoped buffer of the core held whole at named contents, the generator register at some
  state, and the core owing nothing. A region is entered from such a state at contents `Win`: its windows' arrays are
  split out of the unscoped buffers (they are distinct whole buffers), the generator register goes into the region's
  invariant beside the scoped buffers no window stages, and at the exit the arrays come back at what the write-backs
  left (`arrAt` at the last point), which with the untouched buffers is the state at contents `Wout`. No kernel here has
  a semaphore of its own or a prefetched table, and none owes another core anything.
-/
import proofs.«406510_j66254165508930_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No core owes another anything: no level is assigned. -/
abbrev noLevels : GSem nD τ sig → Finset Unit := fun _ => ∅
abbrev zeroLevel : GSem nD τ sig → Unit → ℕ := fun _ _ => 0

/-- What rides beside the buffers through every item of @main: the generator register at some state, nothing owed. -/
abbrev beside (c : Dev nD) : sProp 𝕄 :=
  iprop((∃ r, prngReg c r) ∗ ∃ W, owes (c : Thread nD τ) (0 : CellTallies nD τ sig Unit) W)

/-- The thread state at contents `W`. -/
abbrev stateAt (W : Dev nD → Valuation τ sig (Elt F)) (c : Dev nD) : sProp 𝕄 :=
  iprop(StableHlo.held (c : Thread nD τ) (Pipeline.ucRefs τ sig) (W c) ∗ beside (F := F) c)

section
variable (pd : (p : Fin 8) → (c : Dev nD) → Dat τ (Elt F) Unit ℕ (UR sig nD τ) ℕ (cfgs p) c)

set_option backward.isDefEq.respectTransparency.types false in
/-- Region `p` as a segment, entered at contents `Win` and left at `Wout`. -/
def regionAt (p : Fin 8) (lf : Pipeline.LaunchFacts (nD := nD) (τ := τ) cfgs p)
    (Win Wout : Dev nD → Valuation τ sig (Elt F))
    (hbody : ∀ c, BodyObligation (pd p c) (defs₀ (F := F)) Variants.none () Set.univ)
    (hq : ∀ c w, (pd p c).q w = fullShare) (howed : ∀ c t, (pd p c).owed t = 0)
    (hrec : ∀ c t, (pd p c).recorded t = Set.univ)
    (hA : ∀ c w, (pd p c).A w = Win c (Pipeline.arrRef (cfgs p).spec w))
    (hΦ0 : ∀ c, Pipeline.ΦA (cfgs p).spec c ⊢ (pd p c).Φ 0)
    (hΦN : ∀ c, (pd p c).Φ (Fin.last (cfgs p).N) ⊢ Pipeline.ΦA (cfgs p).spec c)
    (hF : ∀ c w, (pd p c).arrAt w (cfgs p).N = Wout c (Pipeline.arrRef (cfgs p).spec w))
    (hrest : ∀ c (b : Ref sig .tc), b ∉ Finset.univ.image (Pipeline.arrRef (cfgs p).spec) → Wout c b = Win c b) :
    Pipeline.RegionSeg (pcfgs (F := F)) adm pd () defs₀ Variants.none noLevels zeroLevel p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ noLevels zeroLevel p howed
  pre := stateAt Win
  post := stateAt Wout
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm pd lf.win lf.arr_whole c
      ((pd p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hrec]; trivial)
      rw [howed c 0]; iexact HO
    isplitl [Hp]; · iexact Hp
    iexact Hrest
  hin c := by
    refine BIBase.Entails.trans ?_ (hΦ0 c)
    unfold Pipeline.ΦA
    iintro ⟨Hp, -, Hr⟩
    isplitl [Hr]; · iexact Hr
    iexact Hp
  hout c := by
    rw [Pipeline.ownSems0_none]
    refine BIBase.Entails.trans (hΦN c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c))
      (fun b => Win c b) (fun b => Wout c b) ((pd p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [howed c (Fin.last _)] at *; iexact HO

end

end Cert.KernelIdeal.Gen

end
-- ==== Proof.KI.RunCond.lean ====
/-
  The run of @main from the regions' records with the result read back. Between two items of @main a core holds every
  unscoped buffer whole at the contents the items so far left: the launch contents, then each host stretch's
  operations applied, then what each region left in its output array. At the end the last such contents are read
  against the final memory: the result buffer holds what the last region left in it, and no item writes an argument.
-/
import proofs.«406510_j66254165508930_1_alg».proof.Proof.Gen.KernelIdeal.Regions

set_option maxRecDepth 1268

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- After the last region the result buffer holds what that region left in it. -/
theorem V16_main_v109 (outs : Outs (F := F)) (c : Dev nD) : V16 m outs c main_v109 = outs 16 main_v109 c := by
  simp only [V16, Function.update_self]

set_option backward.isDefEq.respectTransparency.types false in
/-- The run of @main given the regions' records, with the RESULT read back: for any user algebra, level assignment,
    launch dues and ghost resources, any rest states `E` the launch makes on every core at once (`hE0`) and that end
    owing nothing (`hE8`), any contents the regions leave (`outs`) and any proof data, GIVEN per region a segment
    record entered from the thread state before it and left at the one after it, every weakly fair execution of @main
    from memory `m` with zero counters terminates, and every final memory holds the result buffer `main_v109` at what
    the last region left there (`outs 16 main_v109`) and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c)) :
    θ_run defs (onTc (τ := τ) (main (F := F))) ⟨m, fun _ => 0, ρ⟩ (fun r => ∀ c : Dev nD,
      r.2.mem ((c.tc : Thread nD τ).loc main_v109) = outs 16 main_v109 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, .rfl, .rfl, hpre0 c, hpost0 c, hpre1 c, (hpost1 c).trans (hpre2 c), hpost2 c, hpre3 c, (hpost3 c).trans (hpre4 c), hpost4 c, hpre5 c, hpost5 c, hpre6 c, hpost6 c, hpre7 c, (hpost7 c).trans (sep_mono .rfl (hE8 c))⟩)
    (hinit := ?_) (QY := fun c s => s.mem ((c.tc : Thread nD τ).loc main_v109) = outs 16 main_v109 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V16 m outs c) s') $$ [Hh HSI]
    · isplitl [Hh] <;> iassumption
    icases Hr with ⟨%h, HSI⟩
    imodintro
    isplitr
    · ipureintro
      exact ⟨(h (Proc.devRef .tc main_v109) (Finset.mem_filter.mpr ⟨StableHlo.devRef_mem_tcRefs main_v109, by decide⟩)).trans (V16_main_v109 m outs c),
        (h (Proc.devRef .tc main_arg0) (Finset.mem_filter.mpr ⟨StableHlo.devRef_mem_tcRefs main_arg0, by decide⟩)).trans (V16_main_arg0 m outs c),
        (h (Proc.devRef .tc main_arg1) (Finset.mem_filter.mpr ⟨StableHlo.devRef_mem_tcRefs main_arg1, by decide⟩)).trans (V16_main_arg1 m outs c),
        (h (Proc.devRef .tc main_arg2) (Finset.mem_filter.mpr ⟨StableHlo.devRef_mem_tcRefs main_arg2, by decide⟩)).trans (V16_main_arg2 m outs c),
        (h (Proc.devRef .tc main_arg3) (Finset.mem_filter.mpr ⟨StableHlo.devRef_mem_tcRefs main_arg3, by decide⟩)).trans (V16_main_arg3 m outs c),
        (h (Proc.devRef .tc main_arg4) (Finset.mem_filter.mpr ⟨StableHlo.devRef_mem_tcRefs main_arg4, by decide⟩)).trans (V16_main_arg4 m outs c),
        (h (Proc.devRef .tc main_arg5) (Finset.mem_filter.mpr ⟨StableHlo.devRef_mem_tcRefs main_arg5, by decide⟩)).trans (V16_main_arg5 m outs c),
        (h (Proc.devRef .tc main_arg6) (Finset.mem_filter.mpr ⟨StableHlo.devRef_mem_tcRefs main_arg6, by decide⟩)).trans (V16_main_arg6 m outs c),
        (h (Proc.devRef .tc main_arg7) (Finset.mem_filter.mpr ⟨StableHlo.devRef_mem_tcRefs main_arg7, by decide⟩)).trans (V16_main_arg7 m outs c),
        (h (Proc.devRef .tc main_arg8) (Finset.mem_filter.mpr ⟨StableHlo.devRef_mem_tcRefs main_arg8, by decide⟩)).trans (V16_main_arg8 m outs c),
        (h (Proc.devRef .tc main_arg9) (Finset.mem_filter.mpr ⟨StableHlo.devRef_mem_tcRefs main_arg9, by decide⟩)).trans (V16_main_arg9 m outs c),
        (h (Proc.devRef .tc main_arg10) (Finset.mem_filter.mpr ⟨StableHlo.devRef_mem_tcRefs main_arg10, by decide⟩)).trans (V16_main_arg10 m outs c),
        (h (Proc.devRef .tc main_arg11) (Finset.mem_filter.mpr ⟨StableHlo.devRef_mem_tcRefs main_arg11, by decide⟩)).trans (V16_main_arg11 m outs c),
        (h (Proc.devRef .tc main_arg12) (Finset.mem_filter.mpr ⟨StableHlo.devRef_mem_tcRefs main_arg12, by decide⟩)).trans (V16_main_arg12 m outs c)⟩
    · iexact HSI

end Cert.KernelIdeal.Gen

end
-- ==== Proof.KI.R0.lean ====
/-
  A projection `hw = h · W` of @main (its regions 0, 2 and 4 are this one text at three calls). The grid has 20 points; point `t` reads rows
  `5000·t … 5000·t + 4999` of `h` (window 0), the whole 128 × 128 weight (window 1, fetched once and left in place),
  and writes the same rows of the product (window 2). The body loads both blocks whole, rounds them to bf16, multiplies
  them into a zero accumulator and stores the product whole; it also loads the output block first, a value it never
  uses. So after the body the output block is the payload `k0_pay1` of the two input blocks, whatever it held before.
  Stated at any entry contents `V` of the core's buffers and at any float instance.
-/
import proofs.«406510_j66254165508930_1_alg».proof.Proof.Gen.KernelIdeal.Launch
import proofs.«406510_j66254165508930_1_alg».proof.Proof.Gen.KernelIdeal.Skeleton
import proofs.«406510_j66254165508930_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The offsets `[0, 0]` are the zero offsets. -/
theorem off0_2 : (![0, 0] : Fin 2 → ℕ) = fun _ => 0 := by funext a; fin_cases a <;> rfl

set_option maxHeartbeats 1000000 in
/-- The body on whole staging memrefs: the two inputs keep their contents `x`, `w`; the output, whatever it held,
    ends at the product payload of `x` and `w`. -/
theorem body0 (c : Dev nD) (E : Set ℕ) (i : grid0.Coords)
    (a1 : Memref sig .tc .vmem S5000x128 .f32) (h1 : a1.IsWhole) (a2 : Memref sig .tc .vmem S128x128 .f32) (h2 : a2.IsWhole)
    (a3 : Memref sig .tc .vmem S5000x128 .f32) (h3 : a3.IsWhole)
    (x : Vec F S5000x128 .f32) (w : Vec F S128x128 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (k0_pay1 x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %e1, H1⟩, ⟨%f2, %e2, H2⟩, ⟨%d3, %f3, -, H3⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  -- one store through the whole rectangle: what is read back is its payload, and a load through the whole rectangle is the block
  rw [View.read_writes_eq_canon _ _ _ (View.cover_of_tiled _ S5000x128.size (by rfl)), View.canon_unit_zero off0_2]
  simp only [View.readAt_eq_ld, View.ld_unit_zero (S := S5000x128) off0_2, View.ld_unit_zero (S := S128x128) off0_2]

/-- The region's proof data on core `c`: the arrays as entered; after the body at point `t` the inputs' buffers at
    their blocks and the output's at the product payload of the two blocks; the class invariant (the scoped rest and
    the generator register, untouched); full shares; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => k0_pay1 (blk0 V c 0 t) (blk0 V c 1 t)
  Φ _ := Pipeline.ΦA spec0 c
  q _ := fullShare
  owed _ := 0

theorem A0 (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = k0_pay1 (blk0 V c 0 t) (blk0 V c 1 t) := by dsimp only [dat0]

/-- An input's current staging buffer holds its block at every point, fetched there or carried over from the point
    before (the weight's block index never moves). -/
theorem in0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A0]; try rfl) t d).trans
    (by unfold Dat.fetched Dat.blockOf blk0; rw [A0]; try rfl)
theorem in0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A0]; try rfl) t d).trans
    (by unfold Dat.fetched Dat.blockOf blk0; rw [A0]; try rfl)

/-- The body obligation of the launch theorem, at every point: the inputs' buffers hold their blocks, so `body0`
    applies; the invariant and the core's dues pass through unread. -/
theorem obligation0 (c : Dev nD) : BodyObligation (dat0 (F := F) V c) (defs₀ (F := F)) Variants.none () Set.univ := fun t => by
  rw [bigSep_W0, bigSep_W0]
  simp only [in0_0, in0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (body0 c Set.univ (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2)) (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.KernelIdeal.Gen

end
-- ==== Proof.KI.R1.lean ====
/-
  Region 1 of @main: the first layer's bias and activation, `max(x + b, 0)` on the aggregated features. The grid has 20 points; point `t` reads rows
  `5000·t … 5000·t + 4999` of the input (window 0), the whole bias row of 128 entries (window 1, fetched once and left
  in place), and writes the same rows of the result (window 2). The body loads both blocks whole, spreads the bias row
  over the 5000 rows, adds it to the input block, takes the entrywise maximum with 0 and stores the result whole; it also loads the output block
  first, a value it never uses. So after the body the output block is the payload `k1_pay1` of the two input blocks,
  whatever it held before. Stated at any entry contents `V` of the core's buffers and at any float instance.
-/
import proofs.«406510_j66254165508930_1_alg».proof.Proof.Gen.KernelIdeal.Launch
import proofs.«406510_j66254165508930_1_alg».proof.Proof.Gen.KernelIdeal.Skeleton
import proofs.«406510_j66254165508930_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rank-2 offsets `[0, 0]` are the zero offsets. -/
theorem off1_2 : (![0, 0] : Fin 2 → ℕ) = fun _ => 0 := by funext a; fin_cases a <;> rfl

/-- The rank-1 offset `[0]` is the zero offset. -/
theorem off1_1 : (![0] : Fin 1 → ℕ) = fun _ => 0 := by funext a; fin_cases a; rfl

set_option maxHeartbeats 1000000 in
/-- The body on whole staging memrefs: the two inputs keep their contents `x`, `b`; the output, whatever it held,
    ends at the bias payload of `x` and `b`. -/
theorem body1 (c : Dev nD) (E : Set ℕ) (i : grid1.Coords)
    (a1 : Memref sig .tc .vmem S5000x128 .f32) (h1 : a1.IsWhole) (a2 : Memref sig .tc .vmem S128 .f32) (h2 : a2.IsWhole)
    (a3 : Memref sig .tc .vmem S5000x128 .f32) (h3 : a3.IsWhole)
    (x : Vec F S5000x128 .f32) (b : Vec F S128 .f32) (K : PUnit → sProp 𝕄) :
    iprop(owns (c : Thread nD τ) a1 fullShare x ∗ owns (c : Thread nD τ) a2 fullShare b ∗ (∃ d, owns (c : Thread nD τ) a3 fullShare d)
        ∗ (iprop(owns (c : Thread nD τ) a1 fullShare x ∗ owns (c : Thread nD τ) a2 fullShare b
            ∗ owns (c : Thread nD τ) a3 fullShare (k1_pay1 x b)) -∗ K ⟨⟩))
      ⊢ wp frame (wpE (defs₀ (F := F)) Variants.none c none) E (cc1__bias_act_kernel i a1 h1 a2 h2 a3 h3) K := by
  simp only [cc1__bias_act_kernel_eq_skeleton]; unfold cc1__bias_act_kernel_skel
  unfold owns
  iintro ⟨⟨%f1, %e1, H1⟩, ⟨%f2, %e2, H2⟩, ⟨%d3, %f3, -, H3⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  -- one store through the whole rectangle: what is read back is its payload, and a load through the whole rectangle is the block
  rw [View.read_writes_eq_canon _ _ _ (View.cover_of_tiled _ S5000x128.size (by rfl)), View.canon_unit_zero off1_2]
  simp only [View.readAt_eq_ld, View.ld_unit_zero (S := S5000x128) off1_2, View.ld_unit_zero (S := S128) off1_1]

/-- The region's proof data on core `c`: the arrays as entered; after the body at point `t` the inputs' buffers at
    their blocks and the output's at the bias payload of the two blocks; the class invariant (the scoped rest and
    the generator register, untouched); full shares; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay1 (blk1 V c 0 t) (blk1 V c 1 t)
  Φ _ := Pipeline.ΦA spec1 c
  q _ := fullShare
  owed _ := 0

theorem A1 (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = k1_pay1 (blk1 V c 0 t) (blk1 V c 1 t) := by dsimp only [dat1]

/-- An input's current staging buffer holds its block at every point, fetched there or carried over from the point
    before (the bias row's block index never moves). -/
theorem in1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A1]; try rfl) t d).trans
    (by unfold Dat.fetched Dat.blockOf blk1; rw [A1]; try rfl)
theorem in1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A1]; try rfl) t d).trans
    (by unfold Dat.fetched Dat.blockOf blk1; rw [A1]; try rfl)

/-- The body obligation of the launch theorem, at every point: the inputs' buffers hold their blocks, so `body1`
    applies; the invariant and the core's dues pass through unread. -/
theorem obligation1 (c : Dev nD) : BodyObligation (dat1 (F := F) V c) (defs₀ (F := F)) Variants.none () Set.univ := fun t => by
  rw [bigSep_W1, bigSep_W1]
  simp only [in1_0, in1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (body1 c Set.univ (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2)) (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.KernelIdeal.Gen

end
-- ==== Proof.KI.R2.lean ====
/-
  A projection `hw = h · W` of @main (its regions 0, 2 and 4 are this one text at three calls). The grid has 20 points; point `t` reads rows
  `5000·t … 5000·t + 4999` of `h` (window 0), the whole 128 × 128 weight (window 1, fetched once and left in place),
  and writes the same rows of the product (window 2). The body loads both blocks whole, rounds them to bf16, multiplies
  them into a zero accumulator and stores the product whole; it also loads the output block first, a value it never
  uses. So after the body the output block is the payload `k2_pay1` of the two input blocks, whatever it held before.
  Stated at any entry contents `V` of the core's buffers and at any float instance.
-/
import proofs.«406510_j66254165508930_1_alg».proof.Proof.Gen.KernelIdeal.Launch
import proofs.«406510_j66254165508930_1_alg».proof.Proof.Gen.KernelIdeal.Skeleton
import proofs.«406510_j66254165508930_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The offsets `[0, 0]` are the zero offsets. -/
theorem off2_2 : (![0, 0] : Fin 2 → ℕ) = fun _ => 0 := by funext a; fin_cases a <;> rfl

set_option maxHeartbeats 1000000 in
/-- The body on whole staging memrefs: the two inputs keep their contents `x`, `w`; the output, whatever it held,
    ends at the product payload of `x` and `w`. -/
theorem body2 (c : Dev nD) (E : Set ℕ) (i : grid2.Coords)
    (a1 : Memref sig .tc .vmem S5000x128 .f32) (h1 : a1.IsWhole) (a2 : Memref sig .tc .vmem S128x128 .f32) (h2 : a2.IsWhole)
    (a3 : Memref sig .tc .vmem S5000x128 .f32) (h3 : a3.IsWhole)
    (x : Vec F S5000x128 .f32) (w : Vec F S128x128 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (k2_pay1 x w)) -∗ K ⟨⟩))
      ⊢ wp frame (wpE (defs₀ (F := F)) Variants.none c none) E (cc2__matmul_kernel i a1 h1 a2 h2 a3 h3) K := by
  simp only [cc2__matmul_kernel_eq_skeleton]; unfold cc2__matmul_kernel_skel
  unfold owns
  iintro ⟨⟨%f1, %e1, H1⟩, ⟨%f2, %e2, H2⟩, ⟨%d3, %f3, -, H3⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  -- one store through the whole rectangle: what is read back is its payload, and a load through the whole rectangle is the block
  rw [View.read_writes_eq_canon _ _ _ (View.cover_of_tiled _ S5000x128.size (by rfl)), View.canon_unit_zero off2_2]
  simp only [View.readAt_eq_ld, View.ld_unit_zero (S := S5000x128) off2_2, View.ld_unit_zero (S := S128x128) off2_2]

/-- The region's proof data on core `c`: the arrays as entered; after the body at point `t` the inputs' buffers at
    their blocks and the output's at the product payload of the two blocks; the class invariant (the scoped rest and
    the generator register, untouched); full shares; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => k2_pay1 (blk2 V c 0 t) (blk2 V c 1 t)
  Φ _ := Pipeline.ΦA spec2 c
  q _ := fullShare
  owed _ := 0

theorem A2 (c : Dev nD) (w : Fin cfg2.W) : (dat2 V c).A w = V c (Pipeline.arrRef spec2 w) := by dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = k2_pay1 (blk2 V c 0 t) (blk2 V c 1 t) := by dsimp only [dat2]

/-- An input's current staging buffer holds its block at every point, fetched there or carried over from the point
    before (the weight's block index never moves). -/
theorem in2_0 (c : Dev nD) (t : Fin cfg2.N) (d) : (dat2 V c).before 0 t d = blk2 V c 0 t :=
  ((dat2 V c).before_in_eq_fetched 0 rfl (fun _ => rfl) (fun _ _ _ => rfl)
    (fun t => by rw [after2_0]; unfold Dat.blockOf blk2; rw [A2]; try rfl) t d).trans
    (by unfold Dat.fetched Dat.blockOf blk2; rw [A2]; try rfl)
theorem in2_1 (c : Dev nD) (t : Fin cfg2.N) (d) : (dat2 V c).before 1 t d = blk2 V c 1 t :=
  ((dat2 V c).before_in_eq_fetched 1 rfl (fun _ => rfl) (fun _ _ _ => rfl)
    (fun t => by rw [after2_1]; unfold Dat.blockOf blk2; rw [A2]; try rfl) t d).trans
    (by unfold Dat.fetched Dat.blockOf blk2; rw [A2]; try rfl)

/-- The body obligation of the launch theorem, at every point: the inputs' buffers hold their blocks, so `body2`
    applies; the invariant and the core's dues pass through unread. -/
theorem obligation2 (c : Dev nD) : BodyObligation (dat2 (F := F) V c) (defs₀ (F := F)) Variants.none () Set.univ := fun t => by
  rw [bigSep_W2, bigSep_W2]
  simp only [in2_0, in2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (body2 c Set.univ (grid2.coords t) (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2)) (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.KernelIdeal.Gen

end
-- ==== Proof.KI.R3.lean ====
/-
  Region 3 of @main: the second layer's bias and activation, `max(x + b, 0)` on the aggregated features. The grid has 20 points; point `t` reads rows
  `5000·t … 5000·t + 4999` of the input (window 0), the whole bias row of 128 entries (window 1, fetched once and left
  in place), and writes the same rows of the result (window 2). The body loads both blocks whole, spreads the bias row
  over the 5000 rows, adds it to the input block, takes the entrywise maximum with 0 and stores the result whole; it also loads the output block
  first, a value it never uses. So after the body the output block is the payload `k3_pay1` of the two input blocks,
  whatever it held before. Stated at any entry contents `V` of the core's buffers and at any float instance.
-/
import proofs.«406510_j66254165508930_1_alg».proof.Proof.Gen.KernelIdeal.Launch
import proofs.«406510_j66254165508930_1_alg».proof.Proof.Gen.KernelIdeal.Skeleton
import proofs.«406510_j66254165508930_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rank-2 offsets `[0, 0]` are the zero offsets. -/
theorem off3_2 : (![0, 0] : Fin 2 → ℕ) = fun _ => 0 := by funext a; fin_cases a <;> rfl

/-- The rank-1 offset `[0]` is the zero offset. -/
theorem off3_1 : (![0] : Fin 1 → ℕ) = fun _ => 0 := by funext a; fin_cases a; rfl

set_option maxHeartbeats 1000000 in
/-- The body on whole staging memrefs: the two inputs keep their contents `x`, `b`; the output, whatever it held,
    ends at the bias payload of `x` and `b`. -/
theorem body3 (c : Dev nD) (E : Set ℕ) (i : grid3.Coords)
    (a1 : Memref sig .tc .vmem S5000x128 .f32) (h1 : a1.IsWhole) (a2 : Memref sig .tc .vmem S128 .f32) (h2 : a2.IsWhole)
    (a3 : Memref sig .tc .vmem S5000x128 .f32) (h3 : a3.IsWhole)
    (x : Vec F S5000x128 .f32) (b : Vec F S128 .f32) (K : PUnit → sProp 𝕄) :
    iprop(owns (c : Thread nD τ) a1 fullShare x ∗ owns (c : Thread nD τ) a2 fullShare b ∗ (∃ d, owns (c : Thread nD τ) a3 fullShare d)
        ∗ (iprop(owns (c : Thread nD τ) a1 fullShare x ∗ owns (c : Thread nD τ) a2 fullShare b
            ∗ owns (c : Thread nD τ) a3 fullShare (k3_pay1 x b)) -∗ K ⟨⟩))
      ⊢ wp frame (wpE (defs₀ (F := F)) Variants.none c none) E (cc3__bias_act_kernel i a1 h1 a2 h2 a3 h3) K := by
  simp only [cc3__bias_act_kernel_eq_skeleton]; unfold cc3__bias_act_kernel_skel
  unfold owns
  iintro ⟨⟨%f1, %e1, H1⟩, ⟨%f2, %e2, H2⟩, ⟨%d3, %f3, -, H3⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  -- one store through the whole rectangle: what is read back is its payload, and a load through the whole rectangle is the block
  rw [View.read_writes_eq_canon _ _ _ (View.cover_of_tiled _ S5000x128.size (by rfl)), View.canon_unit_zero off3_2]
  simp only [View.readAt_eq_ld, View.ld_unit_zero (S := S5000x128) off3_2, View.ld_unit_zero (S := S128) off3_1]

/-- The region's proof data on core `c`: the arrays as entered; after the body at point `t` the inputs' buffers at
    their blocks and the output's at the bias payload of the two blocks; the class invariant (the scoped rest and
    the generator register, untouched); full shares; nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => k3_pay1 (blk3 V c 0 t) (blk3 V c 1 t)
  Φ _ := Pipeline.ΦA spec3 c
  q _ := fullShare
  owed _ := 0

theorem A3 (c : Dev nD) (w : Fin cfg3.W) : (dat3 V c).A w = V c (Pipeline.arrRef spec3 w) := by dsimp only [dat3]
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = k3_pay1 (blk3 V c 0 t) (blk3 V c 1 t) := by dsimp only [dat3]

/-- An input's current staging buffer holds its block at every point, fetched there or carried over from the point
    before (the bias row's block index never moves). -/
theorem in3_0 (c : Dev nD) (t : Fin cfg3.N) (d) : (dat3 V c).before 0 t d = blk3 V c 0 t :=
  ((dat3 V c).before_in_eq_fetched 0 rfl (fun _ => rfl) (fun _ _ _ => rfl)
    (fun t => by rw [after3_0]; unfold Dat.blockOf blk3; rw [A3]; try rfl) t d).trans
    (by unfold Dat.fetched Dat.blockOf blk3; rw [A3]; try rfl)
theorem in3_1 (c : Dev nD) (t : Fin cfg3.N) (d) : (dat3 V c).before 1 t d = blk3 V c 1 t :=
  ((dat3 V c).before_in_eq_fetched 1 rfl (fun _ => rfl) (fun _ _ _ => rfl)
    (fun t => by rw [after3_1]; unfold Dat.blockOf blk3; rw [A3]; try rfl) t d).trans
    (by unfold Dat.fetched Dat.blockOf blk3; rw [A3]; try rfl)

/-- The body obligation of the launch theorem, at every point: the inputs' buffers hold their blocks, so `body3`
    applies; the invariant and the core's dues pass through unread. -/
theorem obligation3 (c : Dev nD) : BodyObligation (dat3 (F := F) V c) (defs₀ (F := F)) Variants.none () Set.univ := fun t => by
  rw [bigSep_W3, bigSep_W3]
  simp only [in3_0, in3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (body3 c Set.univ (grid3.coords t) (win3_0.stage (cfg3.slots t 0)) (hstage3_0 ((cfg3.slots t 0).cast nbuf3_0))
    (win3_1.stage (cfg3.slots t 1)) (hstage3_1 ((cfg3.slots t 1).cast nbuf3_1))
    (win3_2.stage (cfg3.slots t 2)) (hstage3_2 ((cfg3.slots t 2).cast nbuf3_2)) (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.KernelIdeal.Gen

end
-- ==== Proof.KI.R4.lean ====
/-
  A projection `hw = h · W` of @main (its regions 0, 2 and 4 are this one text at three calls). The grid has 20 points; point `t` reads rows
  `5000·t … 5000·t + 4999` of `h` (window 0), the whole 128 × 128 weight (window 1, fetched once and left in place),
  and writes the same rows of the product (window 2). The body loads both blocks whole, rounds them to bf16, multiplies
  them into a zero accumulator and stores the product whole; it also loads the output block first, a value it never
  uses. So after the body the output block is the payload `k4_pay1` of the two input blocks, whatever it held before.
  Stated at any entry contents `V` of the core's buffers and at any float instance.
-/
import proofs.«406510_j66254165508930_1_alg».proof.Proof.Gen.KernelIdeal.Launch
import proofs.«406510_j66254165508930_1_alg».proof.Proof.Gen.KernelIdeal.Skeleton
import proofs.«406510_j66254165508930_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The offsets `[0, 0]` are the zero offsets. -/
theorem off4_2 : (![0, 0] : Fin 2 → ℕ) = fun _ => 0 := by funext a; fin_cases a <;> rfl

set_option maxHeartbeats 1000000 in
/-- The body on whole staging memrefs: the two inputs keep their contents `x`, `w`; the output, whatever it held,
    ends at the product payload of `x` and `w`. -/
theorem body4 (c : Dev nD) (E : Set ℕ) (i : grid4.Coords)
    (a1 : Memref sig .tc .vmem S5000x128 .f32) (h1 : a1.IsWhole) (a2 : Memref sig .tc .vmem S128x128 .f32) (h2 : a2.IsWhole)
    (a3 : Memref sig .tc .vmem S5000x128 .f32) (h3 : a3.IsWhole)
    (x : Vec F S5000x128 .f32) (w : Vec F S128x128 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (k4_pay1 x w)) -∗ K ⟨⟩))
      ⊢ wp frame (wpE (defs₀ (F := F)) Variants.none c none) E (cc4__matmul_kernel i a1 h1 a2 h2 a3 h3) K := by
  simp only [cc4__matmul_kernel_eq_skeleton]; unfold cc4__matmul_kernel_skel
  unfold owns
  iintro ⟨⟨%f1, %e1, H1⟩, ⟨%f2, %e2, H2⟩, ⟨%d3, %f3, -, H3⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  -- one store through the whole rectangle: what is read back is its payload, and a load through the whole rectangle is the block
  rw [View.read_writes_eq_canon _ _ _ (View.cover_of_tiled _ S5000x128.size (by rfl)), View.canon_unit_zero off4_2]
  simp only [View.readAt_eq_ld, View.ld_unit_zero (S := S5000x128) off4_2, View.ld_unit_zero (S := S128x128) off4_2]

/-- The region's proof data on core `c`: the arrays as entered; after the body at point `t` the inputs' buffers at
    their blocks and the output's at the product payload of the two blocks; the class invariant (the scoped rest and
    the generator register, untouched); full shares; nothing owed. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => k4_pay1 (blk4 V c 0 t) (blk4 V c 1 t)
  Φ _ := Pipeline.ΦA spec4 c
  q _ := fullShare
  owed _ := 0

theorem A4 (c : Dev nD) (w : Fin cfg4.W) : (dat4 V c).A w = V c (Pipeline.arrRef spec4 w) := by dsimp only [dat4]
theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
theorem after4_2 (c : Dev nD) (t : Fin cfg4.N) : (dat4 V c).after 2 t = k4_pay1 (blk4 V c 0 t) (blk4 V c 1 t) := by dsimp only [dat4]

/-- An input's current staging buffer holds its block at every point, fetched there or carried over from the point
    before (the weight's block index never moves). -/
theorem in4_0 (c : Dev nD) (t : Fin cfg4.N) (d) : (dat4 V c).before 0 t d = blk4 V c 0 t :=
  ((dat4 V c).before_in_eq_fetched 0 rfl (fun _ => rfl) (fun _ _ _ => rfl)
    (fun t => by rw [after4_0]; unfold Dat.blockOf blk4; rw [A4]; try rfl) t d).trans
    (by unfold Dat.fetched Dat.blockOf blk4; rw [A4]; try rfl)
theorem in4_1 (c : Dev nD) (t : Fin cfg4.N) (d) : (dat4 V c).before 1 t d = blk4 V c 1 t :=
  ((dat4 V c).before_in_eq_fetched 1 rfl (fun _ => rfl) (fun _ _ _ => rfl)
    (fun t => by rw [after4_1]; unfold Dat.blockOf blk4; rw [A4]; try rfl) t d).trans
    (by unfold Dat.fetched Dat.blockOf blk4; rw [A4]; try rfl)

/-- The body obligation of the launch theorem, at every point: the inputs' buffers hold their blocks, so `body4`
    applies; the invariant and the core's dues pass through unread. -/
theorem obligation4 (c : Dev nD) : BodyObligation (dat4 (F := F) V c) (defs₀ (F := F)) Variants.none () Set.univ := fun t => by
  rw [bigSep_W4, bigSep_W4]
  simp only [in4_0, in4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (body4 c Set.univ (grid4.coords t) (win4_0.stage (cfg4.slots t 0)) (hstage4_0 ((cfg4.slots t 0).cast nbuf4_0))
    (win4_1.stage (cfg4.slots t 1)) (hstage4_1 ((cfg4.slots t 1).cast nbuf4_1))
    (win4_2.stage (cfg4.slots t 2)) (hstage4_2 ((cfg4.slots t 2).cast nbuf4_2)) (blk4 V c 0 t) (blk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.KernelIdeal.Gen

end
-- ==== Proof.KI.R5.lean ====
/-
  Region 5 of @main: the last layer's bias, `x + b` on the aggregated features, with no activation. The grid has 20 points; point `t` reads rows
  `5000·t … 5000·t + 4999` of the input (window 0), the whole bias row of 128 entries (window 1, fetched once and left
  in place), and writes the same rows of the result (window 2). The body loads both blocks whole, spreads the bias row
  over the 5000 rows, adds it to the input block and stores the result whole; it also loads the output block
  first, a value it never uses. So after the body the output block is the payload `k5_pay1` of the two input blocks,
  whatever it held before. Stated at any entry contents `V` of the core's buffers and at any float instance.
-/
import proofs.«406510_j66254165508930_1_alg».proof.Proof.Gen.KernelIdeal.Launch
import proofs.«406510_j66254165508930_1_alg».proof.Proof.Gen.KernelIdeal.Skeleton
import proofs.«406510_j66254165508930_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The rank-2 offsets `[0, 0]` are the zero offsets. -/
theorem off5_2 : (![0, 0] : Fin 2 → ℕ) = fun _ => 0 := by funext a; fin_cases a <;> rfl

/-- The rank-1 offset `[0]` is the zero offset. -/
theorem off5_1 : (![0] : Fin 1 → ℕ) = fun _ => 0 := by funext a; fin_cases a; rfl

set_option maxHeartbeats 1000000 in
/-- The body on whole staging memrefs: the two inputs keep their contents `x`, `b`; the output, whatever it held,
    ends at the bias payload of `x` and `b`. -/
theorem body5 (c : Dev nD) (E : Set ℕ) (i : grid5.Coords)
    (a1 : Memref sig .tc .vmem S5000x128 .f32) (h1 : a1.IsWhole) (a2 : Memref sig .tc .vmem S128 .f32) (h2 : a2.IsWhole)
    (a3 : Memref sig .tc .vmem S5000x128 .f32) (h3 : a3.IsWhole)
    (x : Vec F S5000x128 .f32) (b : Vec F S128 .f32) (K : PUnit → sProp 𝕄) :
    iprop(owns (c : Thread nD τ) a1 fullShare x ∗ owns (c : Thread nD τ) a2 fullShare b ∗ (∃ d, owns (c : Thread nD τ) a3 fullShare d)
        ∗ (iprop(owns (c : Thread nD τ) a1 fullShare x ∗ owns (c : Thread nD τ) a2 fullShare b
            ∗ owns (c : Thread nD τ) a3 fullShare (k5_pay1 x b)) -∗ K ⟨⟩))
      ⊢ wp frame (wpE (defs₀ (F := F)) Variants.none c none) E (cc5__bias_act_kernel i a1 h1 a2 h2 a3 h3) K := by
  simp only [cc5__bias_act_kernel_eq_skeleton]; unfold cc5__bias_act_kernel_skel
  unfold owns
  iintro ⟨⟨%f1, %e1, H1⟩, ⟨%f2, %e2, H2⟩, ⟨%d3, %f3, -, H3⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  -- one store through the whole rectangle: what is read back is its payload, and a load through the whole rectangle is the block
  rw [View.read_writes_eq_canon _ _ _ (View.cover_of_tiled _ S5000x128.size (by rfl)), View.canon_unit_zero off5_2]
  simp only [View.readAt_eq_ld, View.ld_unit_zero (S := S5000x128) off5_2, View.ld_unit_zero (S := S128) off5_1]

/-- The region's proof data on core `c`: the arrays as entered; after the body at point `t` the inputs' buffers at
    their blocks and the output's at the bias payload of the two blocks; the class invariant (the scoped rest and
    the generator register, untouched); full shares; nothing owed. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => k5_pay1 (blk5 V c 0 t) (blk5 V c 1 t)
  Φ _ := Pipeline.ΦA spec5 c
  q _ := fullShare
  owed _ := 0

theorem A5 (c : Dev nD) (w : Fin cfg5.W) : (dat5 V c).A w = V c (Pipeline.arrRef spec5 w) := by dsimp only [dat5]
theorem after5_0 (c : Dev nD) (t : Fin cfg5.N) : (dat5 V c).after 0 t = blk5 V c 0 t := by dsimp only [dat5]
theorem after5_1 (c : Dev nD) (t : Fin cfg5.N) : (dat5 V c).after 1 t = blk5 V c 1 t := by dsimp only [dat5]
theorem after5_2 (c : Dev nD) (t : Fin cfg5.N) : (dat5 V c).after 2 t = k5_pay1 (blk5 V c 0 t) (blk5 V c 1 t) := by dsimp only [dat5]

/-- An input's current staging buffer holds its block at every point, fetched there or carried over from the point
    before (the bias row's block index never moves). -/
theorem in5_0 (c : Dev nD) (t : Fin cfg5.N) (d) : (dat5 V c).before 0 t d = blk5 V c 0 t :=
  ((dat5 V c).before_in_eq_fetched 0 rfl (fun _ => rfl) (fun _ _ _ => rfl)
    (fun t => by rw [after5_0]; unfold Dat.blockOf blk5; rw [A5]; try rfl) t d).trans
    (by unfold Dat.fetched Dat.blockOf blk5; rw [A5]; try rfl)
theorem in5_1 (c : Dev nD) (t : Fin cfg5.N) (d) : (dat5 V c).before 1 t d = blk5 V c 1 t :=
  ((dat5 V c).before_in_eq_fetched 1 rfl (fun _ => rfl) (fun _ _ _ => rfl)
    (fun t => by rw [after5_1]; unfold Dat.blockOf blk5; rw [A5]; try rfl) t d).trans
    (by unfold Dat.fetched Dat.blockOf blk5; rw [A5]; try rfl)

/-- The body obligation of the launch theorem, at every point: the inputs' buffers hold their blocks, so `body5`
    applies; the invariant and the core's dues pass through unread. -/
theorem obligation5 (c : Dev nD) : BodyObligation (dat5 (F := F) V c) (defs₀ (F := F)) Variants.none () Set.univ := fun t => by
  rw [bigSep_W5, bigSep_W5]
  simp only [in5_0, in5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (body5 c Set.univ (grid5.coords t) (win5_0.stage (cfg5.slots t 0)) (hstage5_0 ((cfg5.slots t 0).cast nbuf5_0))
    (win5_1.stage (cfg5.slots t 1)) (hstage5_1 ((cfg5.slots t 1).cast nbuf5_1))
    (win5_2.stage (cfg5.slots t 2)) (hstage5_2 ((cfg5.slots t 2).cast nbuf5_2)) (blk5 V c 0 t) (blk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.KernelIdeal.Gen

end
-- ==== Proof.KI.R6.lean ====
/-
  Region 6 of @main: the pooling `pooled = onehotᵀ · h`, accumulated over the grid. The grid has 20 points; point `t`
  reads rows `5000·t … 5000·t + 4999` of the one-hot matrix (window 0, bf16) and of the features (window 1, f32); the
  result (window 2, 128 × 128) has one block whose index never moves, written back at the last point only. Beside the
  windows the body is handed a 128 × 128 accumulator of its own that is CARRIED from point to point. At the first point
  the body zeroes the accumulator; at every point it loads both input blocks and the accumulator `s` and stores the
  payload `k6_pay2 x₀ x₁ s` (the blocks' product, rounded to bf16, added to `s`) back into it; at the last point it
  copies the accumulator whole into the result's buffer. So three cases of control (first, middle, last point), and
  the accumulator after point `n` is the fold `acc6 n` of the payload over the points up to `n`, from zeros.
  Stated at any entry contents `V` of the core's buffers and at any float instance.
-/
import proofs.«406510_j66254165508930_1_alg».proof.Proof.Gen.KernelIdeal.Launch
import proofs.«406510_j66254165508930_1_alg».proof.Proof.Gen.KernelIdeal.Skeleton
import proofs.«406510_j66254165508930_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets `[0, 0]` are the zero offsets. -/
theorem off6_00 : (![0, 0] : Fin 2 → ℕ) = fun _ => 0 := by funext a; fin_cases a <;> rfl

/-- The body's first condition (the point is the grid's first), from the grid coordinates. -/
abbrev cond6_0 (i : grid6.Coords) : Prop := (Scalar.cmpi .ne (Scalar.extui (Scalar.cmpi .eq (BitVec.ofNat 32 (i 0).val) 0#32)) 0#32) = 1#1
/-- The body's second condition (the point is the grid's last). -/
abbrev cond6_1 (i : grid6.Coords) : Prop := k6_cond2 i = 1#1
/-- The first holds at point 0 only, the second at point 19 only: decided over the grid. -/
theorem hcond6_0 : ∀ t : Fin cfg6.N, cond6_0 (grid6.coords t) ↔ t.val = 0 :=
  (by decide +kernel : ∀ t : Fin grid6.N, cond6_0 (grid6.coords t) ↔ t.val = 0)
theorem hcond6_1 : ∀ t : Fin cfg6.N, cond6_1 (grid6.coords t) ↔ t.val = 19 :=
  (by decide +kernel : ∀ t : Fin grid6.N, cond6_1 (grid6.coords t) ↔ t.val = 19)

/-- Before the last point the result's window is idle and not written back; at the last point it is live. -/
theorem idle6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
theorem live6_2 : ∀ t : Fin cfg6.N, cond6_1 (grid6.coords t) → cfg6.idle 2 (grid6.coords t) = false := by decide +kernel
/-- The inputs' windows are never idle. -/
theorem live6_0 : ∀ t : Fin cfg6.N, cfg6.idle 0 (grid6.coords t) = false := by decide +kernel
theorem live6_1 : ∀ t : Fin cfg6.N, cfg6.idle 1 (grid6.coords t) = false := by decide +kernel

set_option maxHeartbeats 1000000 in
/-- The body at the FIRST point, on whole memrefs: the accumulator, whatever it held, is zeroed, read back and left at
    the payload of the two input blocks over zeros; the inputs keep their contents; the result's buffer is not touched. -/
theorem body6_first (c : Dev nD) (E : Set ℕ) (i : grid6.Coords) (hc0 : cond6_0 i) (hc1 : ¬cond6_1 i)
    (a1 : Memref sig .tc .vmem S5000x128 .bf16) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (x0 : Vec F S5000x128 .bf16) (x1 : Vec F S5000x128 .f32) (K : PUnit → sProp 𝕄) :
    iprop(owns (c : Thread nD τ) a1 fullShare x0 ∗ owns (c : Thread nD τ) a2 fullShare x1 ∗ (∃ d, owns (c : Thread nD τ) a4 fullShare d)
        ∗ (iprop(owns (c : Thread nD τ) a1 fullShare x0 ∗ owns (c : Thread nD τ) a2 fullShare x1
            ∗ owns (c : Thread nD τ) a4 fullShare (k6_pay2 x0 x1 k6_pay1)) -∗ K ⟨⟩))
      ⊢ wp frame (wpE (defs₀ (F := F)) Variants.none c none) E (cc6__pool_kernel i a1 h1 a2 h2 a3 h3 a4 h4) K := by
  simp only [cc6__pool_kernel_eq_skeleton]; unfold cc6__pool_kernel_skel
  unfold owns
  iintro ⟨⟨%f1, %e1, H1⟩, ⟨%f2, %e2, H2⟩, ⟨%d4, %f4, -, H4⟩, Hk⟩
  subst e1; subst e2
  sl_exec (disch := first | exact hc0 | exact hc1)
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  sl_unfold_run_names
  -- the later store covers: what is read back is its payload; the load between the two stores read the zeros
  rw [View.read_writes_eq_canon _ _ _ (fun y => ⟨_, List.mem_cons_self .., View.mem_set_unit_zero off6_00 inb_S128x128_S128x128_0_0 y⟩),
    View.canon_cons_unit_zero off6_00, View.readCov_unit_zero _ off6_00]
  simp only [View.readAt_eq_ld, View.ld_unit_zero (S := S5000x128) off6_00]

set_option maxHeartbeats 1000000 in
/-- The body at a MIDDLE point: the accumulator, holding `s`, is left at the payload of the two input blocks over `s`. -/
theorem body6_mid (c : Dev nD) (E : Set ℕ) (i : grid6.Coords) (hc0 : ¬cond6_0 i) (hc1 : ¬cond6_1 i)
    (a1 : Memref sig .tc .vmem S5000x128 .bf16) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (x0 : Vec F S5000x128 .bf16) (x1 : Vec F S5000x128 .f32) (s : Vec F S128x128 .f32) (K : PUnit → sProp 𝕄) :
    iprop(owns (c : Thread nD τ) a1 fullShare x0 ∗ owns (c : Thread nD τ) a2 fullShare x1 ∗ owns (c : Thread nD τ) a4 fullShare s
        ∗ (iprop(owns (c : Thread nD τ) a1 fullShare x0 ∗ owns (c : Thread nD τ) a2 fullShare x1
            ∗ owns (c : Thread nD τ) a4 fullShare (k6_pay2 x0 x1 s)) -∗ K ⟨⟩))
      ⊢ wp frame (wpE (defs₀ (F := F)) Variants.none c none) E (cc6__pool_kernel i a1 h1 a2 h2 a3 h3 a4 h4) K := by
  simp only [cc6__pool_kernel_eq_skeleton]; unfold cc6__pool_kernel_skel
  unfold owns
  iintro ⟨⟨%f1, %e1, H1⟩, ⟨%f2, %e2, H2⟩, ⟨%f4, %e4, H4⟩, Hk⟩
  subst e1; subst e2; subst e4
  sl_exec (disch := first | exact hc0 | exact hc1)
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  try sl_unfold_run_names
  rw [View.read_writes_eq_canon _ _ _ (fun y => ⟨_, List.mem_cons_self .., View.mem_set_unit_zero off6_00 inb_S128x128_S128x128_0_0 y⟩),
    View.canon_cons_unit_zero off6_00]
  simp only [View.readAt_eq_ld, View.ld_unit_zero (S := S5000x128) off6_00, View.ld_unit_zero (S := S128x128) off6_00]

set_option maxHeartbeats 1000000 in
/-- The body at the LAST point: the accumulator, holding `s`, is left at the payload of the two input blocks over `s`,
    read back, and stored whole into the result's buffer, whatever that held. -/
theorem body6_last (c : Dev nD) (E : Set ℕ) (i : grid6.Coords) (hc0 : ¬cond6_0 i) (hc1 : cond6_1 i)
    (a1 : Memref sig .tc .vmem S5000x128 .bf16) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (x0 : Vec F S5000x128 .bf16) (x1 : Vec F S5000x128 .f32) (s : Vec F S128x128 .f32) (K : PUnit → sProp 𝕄) :
    iprop(owns (c : Thread nD τ) a1 fullShare x0 ∗ owns (c : Thread nD τ) a2 fullShare x1 ∗ (∃ d, owns (c : Thread nD τ) a3 fullShare d)
        ∗ owns (c : Thread nD τ) a4 fullShare s
        ∗ (iprop(owns (c : Thread nD τ) a1 fullShare x0 ∗ owns (c : Thread nD τ) a2 fullShare x1
            ∗ owns (c : Thread nD τ) a3 fullShare (k6_pay2 x0 x1 s) ∗ owns (c : Thread nD τ) a4 fullShare (k6_pay2 x0 x1 s)) -∗ K ⟨⟩))
      ⊢ wp frame (wpE (defs₀ (F := F)) Variants.none c none) E (cc6__pool_kernel i a1 h1 a2 h2 a3 h3 a4 h4) K := by
  simp only [cc6__pool_kernel_eq_skeleton]; unfold cc6__pool_kernel_skel
  unfold owns
  iintro ⟨⟨%f1, %e1, H1⟩, ⟨%f2, %e2, H2⟩, ⟨%d3, %f3, -, H3⟩, ⟨%f4, %e4, H4⟩, Hk⟩
  subst e1; subst e2; subst e4
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_run_names
    rw [View.read_writes_eq_canon _ _ _ (fun y => ⟨_, List.mem_cons_self .., View.mem_set_unit_zero off6_00 inb_S128x128_S128x128_0_0 y⟩),
      View.canon_cons_unit_zero off6_00, View.readCov_unit_zero _ off6_00]
    simp only [View.readAt_eq_ld, View.ld_unit_zero (S := S5000x128) off6_00, View.ld_unit_zero (S := S128x128) off6_00]
  iexists _; isplitr
  swap; · iexact H4
  ipureintro
  try sl_unfold_run_names
  rw [View.read_writes_eq_canon _ _ _ (fun y => ⟨_, List.mem_cons_self .., View.mem_set_unit_zero off6_00 inb_S128x128_S128x128_0_0 y⟩),
    View.canon_cons_unit_zero off6_00]
  simp only [View.readAt_eq_ld, View.ld_unit_zero (S := S5000x128) off6_00, View.ld_unit_zero (S := S128x128) off6_00]

section
variable (V : (c : Dev nD) → (b : Ref sig .tc) → Buf (Elt F) ((c : Thread nD τ).loc b))

/-- Window `w`'s block at point `t`, cut out of its array as the region finds it. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- THE ACCUMULATION: what the carried accumulator holds after the body at point `n`: the payload of point `n`'s two
    input blocks over what point `n - 1` left, over zeros at the first point. -/
def acc6 (c : Dev nD) : (n : ℕ) → n < cfg6.N → Vec F S128x128 .f32
  | 0, h => k6_pay2 (blk6 V c 0 ⟨0, h⟩) (blk6 V c 1 ⟨0, h⟩) k6_pay1
  | n + 1, h => k6_pay2 (blk6 V c 0 ⟨n + 1, h⟩) (blk6 V c 1 ⟨n + 1, h⟩) (acc6 c n (Nat.lt_of_succ_lt h))

theorem acc6_zero (c : Dev nD) (t : Fin cfg6.N) (h : t.val = 0) :
    acc6 V c t.val t.isLt = k6_pay2 (blk6 V c 0 t) (blk6 V c 1 t) k6_pay1 := by
  obtain ⟨n, hn⟩ := t
  cases n with
  | zero => rfl
  | succ n => exact absurd h (Nat.succ_ne_zero _)

theorem acc6_pos (c : Dev nD) (t : Fin cfg6.N) (h : t.val ≠ 0) :
    acc6 V c t.val t.isLt = k6_pay2 (blk6 V c 0 t) (blk6 V c 1 t) (acc6 V c (t.val - 1) (Nat.lt_of_le_of_lt (Nat.sub_le _ _) t.isLt)) := by
  obtain ⟨n, hn⟩ := t
  cases n with
  | zero => exact absurd rfl h
  | succ n => rfl

/-- The accumulator: the kernel's own scoped buffer, whole. -/
abbrev scM6 : Memref sig .tc .vmem S128x128 .f32 := Memref.whole cc6_scratch0

/-- The class invariant with the accumulator as a memref owned at some contents. -/
theorem PhiA6_eq (c : Dev nD) :
    (Pipeline.ΦA spec6 c : sProp 𝕄)
      = iprop(iprop(iprop(∃ d, owns (c : Thread nD τ) scM6 fullShare d) ∗ Pipeline.scopedRestBut spec6 c [cc6_scratch0]) ∗ (∃ r, prngReg c r)) := by
  unfold Pipeline.ΦA; rw [scopedRest6_split]; simp only [scM6, owns_whole]; try rfl

/-- The region invariant before position `n`: before the first point the class's (the accumulator at anything);
    afterwards the accumulator at what the point before left, the other scoped buffers at anything and the generator
    register at some state. -/
def Phi6 (c : Dev nD) : (n : ℕ) → n ≤ cfg6.N → sProp 𝕄
  | 0, _ => Pipeline.ΦA spec6 c
  | n + 1, hn => iprop(iprop(owns (c : Thread nD τ) scM6 fullShare (acc6 V c n hn) ∗ Pipeline.scopedRestBut spec6 c [cc6_scratch0]) ∗ (∃ r, prngReg c r))

theorem Phi6_zero (c : Dev nD) (n : ℕ) (h : n ≤ cfg6.N) (hz : n = 0) : Phi6 V c n h = Pipeline.ΦA spec6 c := by
  subst hz; rfl

theorem Phi6_succ (c : Dev nD) (n : ℕ) (hn : n < cfg6.N) :
    Phi6 V c (n + 1) hn = iprop(iprop(owns (c : Thread nD τ) scM6 fullShare (acc6 V c n hn) ∗ Pipeline.scopedRestBut spec6 c [cc6_scratch0]) ∗ (∃ r, prngReg c r)) := rfl

theorem Phi6_pos (c : Dev nD) (n : ℕ) (h : n ≤ cfg6.N) (hz : n ≠ 0) :
    Phi6 V c n h = iprop(iprop(owns (c : Thread nD τ) scM6 fullShare (acc6 V c (n - 1) (by omega)) ∗ Pipeline.scopedRestBut spec6 c [cc6_scratch0]) ∗ (∃ r, prngReg c r)) := by
  cases n with
  | zero => exact absurd rfl hz
  | succ n => rfl

/-- The region's proof data on core `c`: the arrays as entered; after the body at point `t` the inputs' buffers at
    their blocks and the result's at the accumulation up to `t` (read at the last point only: elsewhere the window is
    idle); the invariant `Phi6`; full shares; nothing owed. -/
def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => acc6 V c t.val t.isLt
  Φ t := Phi6 V c t.val (Nat.le_of_lt_succ t.isLt)
  q _ := fullShare
  owed _ := 0

theorem A6 (c : Dev nD) (w : Fin cfg6.W) : (dat6 V c).A w = V c (Pipeline.arrRef spec6 w) := by dsimp only [dat6]
theorem after6_0 (c : Dev nD) (t : Fin cfg6.N) : (dat6 V c).after 0 t = blk6 V c 0 t := by dsimp only [dat6]
theorem after6_1 (c : Dev nD) (t : Fin cfg6.N) : (dat6 V c).after 1 t = blk6 V c 1 t := by dsimp only [dat6]
theorem after6_2 (c : Dev nD) (t : Fin cfg6.N) : (dat6 V c).after 2 t = acc6 V c t.val t.isLt := by dsimp only [dat6]

theorem Phi6_castSucc (c : Dev nD) (t : Fin cfg6.N) :
    (dat6 V c).Φ t.castSucc = Phi6 V c t.val (Nat.le_of_lt t.isLt) := by
  dsimp only [dat6]; simp only [Fin.coe_castSucc]

/-- An input's current staging buffer holds its block at every point (both are fetched at every point). -/
theorem in6_0 (c : Dev nD) (t : Fin cfg6.N) (d) : (dat6 V c).before 0 t d = blk6 V c 0 t :=
  ((dat6 V c).before_in_eq_fetched 0 rfl (fun _ => rfl) (fun _ _ _ => rfl)
    (fun t => by rw [after6_0]; unfold Dat.blockOf blk6; rw [A6]; try rfl) t d).trans
    (by unfold Dat.fetched Dat.blockOf blk6; rw [A6]; try rfl)
theorem in6_1 (c : Dev nD) (t : Fin cfg6.N) (d) : (dat6 V c).before 1 t d = blk6 V c 1 t :=
  ((dat6 V c).before_in_eq_fetched 1 rfl (fun _ => rfl) (fun _ _ _ => rfl)
    (fun t => by rw [after6_1]; unfold Dat.blockOf blk6; rw [A6]; try rfl) t d).trans
    (by unfold Dat.fetched Dat.blockOf blk6; rw [A6]; try rfl)

/-- What the body is called with at point `t`, the windows one by one, -/
def pre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def post6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4000000 in
/-- The body at any point, by the three cases of its two conditions: the invariant hands the body the accumulator (at
    anything at the first point, at what the point before left afterwards) and takes it back at this point's
    accumulation; before the last point the result's buffer passes through untouched (the window is idle and not
    written back there); at the last point it is stored whole at the accumulation. -/
theorem sound6 (c : Dev nD) (t : Fin cfg6.N) :
    pre6 V c t ⊢ wp frame (wpE (defs₀ (F := F)) Variants.none c none) Set.univ (bodyAt6 t) (fun _ => post6 V c t) := by
  unfold pre6 post6 bodyAt6
  simp only [in6_0, in6_1]
  rw [show (dat6 V c).owesAt () t.succ = (dat6 V c).owesAt () t.castSucc from rfl]
  rw [show (dat6 V c).Φ t.succ = Phi6 V c (t.val + 1) t.isLt from rfl, Phi6_succ]
  rw [show (dat6 V c).leavesExact 0 t = owns (c : Thread nD τ) (st6_0 t) fullShare ((dat6 V c).after 0 t) from by
    unfold Dat.leavesExact; rw [live6_0 t], after6_0]
  rw [show (dat6 V c).leavesExact 1 t = owns (c : Thread nD τ) (st6_1 t) fullShare ((dat6 V c).after 1 t) from by
    unfold Dat.leavesExact; rw [live6_1 t], after6_1]
  have hN : t.val < 20 := lt_of_lt_of_eq t.isLt (show cfg6.N = 20 from N_6)
  by_cases hl : t.val = 19
  · -- the last point
    have hz : t.val ≠ 0 := by omega
    have hc0 : ¬cond6_0 (grid6.coords t) := fun h => hz ((hcond6_0 t).mp h)
    have hc1 : cond6_1 (grid6.coords t) := (hcond6_1 t).mpr hl
    rw [show (dat6 V c).leavesExact 2 t = owns (c : Thread nD τ) (st6_2 t) fullShare ((dat6 V c).after 2 t) from by
      unfold Dat.leavesExact; rw [live6_2 t hc1], after6_2]
    rw [acc6_pos V c t hz, Phi6_castSucc V c t, Phi6_pos V c _ _ hz]
    iintro ⟨⟨⟨HS, Hr⟩, Hg⟩, Ho, ⟨%d0, H0⟩, ⟨%d1, H1⟩, ⟨%d2, H2⟩⟩
    iapply (body6_last c Set.univ (grid6.coords t) hc0 hc1 _ _ _ _ _ _ _ _ (blk6 V c 0 t) (blk6 V c 1 t) _ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · have hc1 : ¬cond6_1 (grid6.coords t) := fun h => hl ((hcond6_1 t).mp h)
    rw [Dat.leavesExact_idle (dat6 V c) 2 t (idle6_2 t hc1) (noFlush6_2 t hc1)]
    by_cases hz : t.val = 0
    · -- the first point
      have hc0 : cond6_0 (grid6.coords t) := (hcond6_0 t).mpr hz
      rw [acc6_zero V c t hz, Phi6_castSucc V c t, Phi6_zero V c _ _ hz, PhiA6_eq]
      iintro ⟨⟨⟨HS, Hr⟩, Hg⟩, Ho, ⟨%d0, H0⟩, ⟨%d1, H1⟩, H2⟩
      iapply (body6_first c Set.univ (grid6.coords t) hc0 hc1 _ _ _ _ _ _ _ _ (blk6 V c 0 t) (blk6 V c 1 t) _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · -- a middle point
      have hc0 : ¬cond6_0 (grid6.coords t) := fun h => hz ((hcond6_0 t).mp h)
      rw [acc6_pos V c t hz, Phi6_castSucc V c t, Phi6_pos V c _ _ hz]
      iintro ⟨⟨⟨HS, Hr⟩, Hg⟩, Ho, ⟨%d0, H0⟩, ⟨%d1, H1⟩, H2⟩
      iapply (body6_mid c Set.univ (grid6.coords t) hc0 hc1 _ _ _ _ _ _ _ _ (blk6 V c 0 t) (blk6 V c 1 t) _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2

/-- The body obligation of the launch theorem, at every point. -/
theorem obligation6 (c : Dev nD) : BodyObligation (dat6 (F := F) V c) (defs₀ (F := F)) Variants.none () Set.univ := fun t => by
  rw [bigSep_W6, bigSep_W6]
  exact sound6 V c t

/-- What the launch hands the region is the invariant before the first point. -/
theorem hin6 (c : Dev nD) : Pipeline.ΦA spec6 c ⊢ (dat6 V c).Φ 0 := by
  rw [show (dat6 V c).Φ 0 = Phi6 V c 0 (Nat.zero_le _) from rfl, Phi6_zero V c 0 _ rfl]
  try exact Idealize.SL.BI.Entails.refl _

/-- After the last point the invariant gives the class's back: the accumulator's named contents are forgotten. -/
theorem hout6 (c : Dev nD) : (dat6 V c).Φ (Fin.last cfg6.N) ⊢ Pipeline.ΦA spec6 c := by
  have hne : (Fin.last cfg6.N).val ≠ 0 := by rw [Fin.val_last]; have : cfg6.N = 20 := N_6; omega
  rw [show (dat6 V c).Φ (Fin.last cfg6.N) = Phi6 V c (Fin.last cfg6.N).val (Nat.le_of_lt_succ (Fin.last cfg6.N).isLt) from rfl,
    Phi6_pos V c _ _ hne, PhiA6_eq]
  iintro ⟨⟨HS, Hr⟩, Hg⟩
  isplitl [HS Hr]
  · isplitl [HS]
    · iexists _; iexact HS
    iexact Hr
  iexact Hg

end

end Cert.KernelIdeal.Gen

end
-- ==== Proof.KI.R7.lean ====
/-
  Region 7 of @main: the last step `out = (sums / max(counts, 1)) · linW + linb`. The grid has a single point; it reads
  the whole 128 × 128 array of pooled sums (window 0), the 128 counts (window 1), the whole 128 × 104 weight (window 2)
  and the 104 biases (window 3), and writes the whole 128 × 104 result (window 4). The body loads the four input blocks
  whole, clamps the counts below by one, divides each row of the sums by its count, rounds the quotient and the weight
  to bf16, multiplies them into a zero accumulator, adds the bias to every row and stores the sum whole; it also loads
  the output block first, a value it never uses. So after the body the output block is the payload `k7_pay1` of the
  four input blocks, whatever it held before. Stated at any entry contents `V` of the core's buffers and at any float
  instance.
-/
import proofs.«406510_j66254165508930_1_alg».proof.Proof.Gen.KernelIdeal.Launch
import proofs.«406510_j66254165508930_1_alg».proof.Proof.Gen.KernelIdeal.Skeleton
import proofs.«406510_j66254165508930_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at the single point `t`, cut out of its array as the region finds it. -/
def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The offsets `[0, 0]` are the zero offsets. -/
theorem off7_2 : (![0, 0] : Fin 2 → ℕ) = fun _ => 0 := by funext a; fin_cases a <;> rfl

/-- The offset `[0]` is the zero offset. -/
theorem off7_1 : (![0] : Fin 1 → ℕ) = fun _ => 0 := by funext a; fin_cases a; rfl

set_option maxHeartbeats 1000000 in
/-- The body on whole staging memrefs: the four inputs keep their contents `p`, `n`, `w`, `b`; the output, whatever
    it held, ends at the payload `k7_pay1 n p w b` (the sums divided by the clamped counts, times the weight, plus
    the bias). -/
theorem body7 (c : Dev nD) (E : Set ℕ) (i : grid7.Coords)
    (a1 : Memref sig .tc .vmem S128x128 .f32) (h1 : a1.IsWhole) (a2 : Memref sig .tc .vmem S128 .f32) (h2 : a2.IsWhole)
    (a3 : Memref sig .tc .vmem S128x104 .f32) (h3 : a3.IsWhole) (a4 : Memref sig .tc .vmem S104 .f32) (h4 : a4.IsWhole)
    (a5 : Memref sig .tc .vmem S128x104 .f32) (h5 : a5.IsWhole)
    (p : Vec F S128x128 .f32) (n : Vec F S128 .f32) (w : Vec F S128x104 .f32) (b : Vec F S104 .f32)
    (K : PUnit → sProp 𝕄) :
    iprop(owns (c : Thread nD τ) a1 fullShare p ∗ owns (c : Thread nD τ) a2 fullShare n
        ∗ owns (c : Thread nD τ) a3 fullShare w ∗ owns (c : Thread nD τ) a4 fullShare b
        ∗ (∃ d, owns (c : Thread nD τ) a5 fullShare d)
        ∗ (iprop(owns (c : Thread nD τ) a1 fullShare p ∗ owns (c : Thread nD τ) a2 fullShare n
            ∗ owns (c : Thread nD τ) a3 fullShare w ∗ owns (c : Thread nD τ) a4 fullShare b
            ∗ owns (c : Thread nD τ) a5 fullShare (k7_pay1 n p w b)) -∗ K ⟨⟩))
      ⊢ wp frame (wpE (defs₀ (F := F)) Variants.none c none) E (cc7__finalize_kernel i a1 h1 a2 h2 a3 h3 a4 h4 a5 h5) K := by
  simp only [cc7__finalize_kernel_eq_skeleton]; unfold cc7__finalize_kernel_skel
  unfold owns
  iintro ⟨⟨%f1, %e1, H1⟩, ⟨%f2, %e2, H2⟩, ⟨%f3, %e3, H3⟩, ⟨%f4, %e4, H4⟩, ⟨%d5, %f5, -, H5⟩, Hk⟩
  subst e1; subst e2; subst e3; subst e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- one store through the whole rectangle: what is read back is its payload, and a load through a whole rectangle is the block
  rw [View.read_writes_eq_canon _ _ _ (View.cover_of_tiled _ S128x104.size (by rfl)), View.canon_unit_zero off7_2]
  simp only [View.readAt_eq_ld, View.ld_unit_zero (S := S128x128) off7_2, View.ld_unit_zero (S := S128x104) off7_2,
    View.ld_unit_zero (S := S128) off7_1, View.ld_unit_zero (S := S104) off7_1]

/-- The region's proof data on core `c`: the arrays as entered; after the body at the point `t` the four inputs'
    buffers at their blocks and the output's at the payload of those blocks; the class invariant (the scoped rest and
    the generator register, untouched); full shares; nothing owed. -/
def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => blk7 V c 3 t
    | ⟨4, _⟩ => k7_pay1 (blk7 V c 1 t) (blk7 V c 0 t) (blk7 V c 2 t) (blk7 V c 3 t)
  Φ _ := Pipeline.ΦA spec7 c
  q _ := fullShare
  owed _ := 0

theorem A7 (c : Dev nD) (w : Fin cfg7.W) : (dat7 V c).A w = V c (Pipeline.arrRef spec7 w) := by dsimp only [dat7]
theorem after7_0 (c : Dev nD) (t : Fin cfg7.N) : (dat7 V c).after 0 t = blk7 V c 0 t := by dsimp only [dat7]
theorem after7_1 (c : Dev nD) (t : Fin cfg7.N) : (dat7 V c).after 1 t = blk7 V c 1 t := by dsimp only [dat7]
theorem after7_2 (c : Dev nD) (t : Fin cfg7.N) : (dat7 V c).after 2 t = blk7 V c 2 t := by dsimp only [dat7]
theorem after7_3 (c : Dev nD) (t : Fin cfg7.N) : (dat7 V c).after 3 t = blk7 V c 3 t := by dsimp only [dat7]
theorem after7_4 (c : Dev nD) (t : Fin cfg7.N) :
    (dat7 V c).after 4 t = k7_pay1 (blk7 V c 1 t) (blk7 V c 0 t) (blk7 V c 2 t) (blk7 V c 3 t) := by dsimp only [dat7]

/-- An input's current staging buffer holds its block at the point, fetched there. -/
theorem in7_0 (c : Dev nD) (t : Fin cfg7.N) (d) : (dat7 V c).before 0 t d = blk7 V c 0 t :=
  ((dat7 V c).before_in_eq_fetched 0 rfl (fun _ => rfl) (fun _ _ _ => rfl)
    (fun t => by rw [after7_0]; unfold Dat.blockOf blk7; rw [A7]; try rfl) t d).trans
    (by unfold Dat.fetched Dat.blockOf blk7; rw [A7]; try rfl)
theorem in7_1 (c : Dev nD) (t : Fin cfg7.N) (d) : (dat7 V c).before 1 t d = blk7 V c 1 t :=
  ((dat7 V c).before_in_eq_fetched 1 rfl (fun _ => rfl) (fun _ _ _ => rfl)
    (fun t => by rw [after7_1]; unfold Dat.blockOf blk7; rw [A7]; try rfl) t d).trans
    (by unfold Dat.fetched Dat.blockOf blk7; rw [A7]; try rfl)
theorem in7_2 (c : Dev nD) (t : Fin cfg7.N) (d) : (dat7 V c).before 2 t d = blk7 V c 2 t :=
  ((dat7 V c).before_in_eq_fetched 2 rfl (fun _ => rfl) (fun _ _ _ => rfl)
    (fun t => by rw [after7_2]; unfold Dat.blockOf blk7; rw [A7]; try rfl) t d).trans
    (by unfold Dat.fetched Dat.blockOf blk7; rw [A7]; try rfl)
theorem in7_3 (c : Dev nD) (t : Fin cfg7.N) (d) : (dat7 V c).before 3 t d = blk7 V c 3 t :=
  ((dat7 V c).before_in_eq_fetched 3 rfl (fun _ => rfl) (fun _ _ _ => rfl)
    (fun t => by rw [after7_3]; unfold Dat.blockOf blk7; rw [A7]; try rfl) t d).trans
    (by unfold Dat.fetched Dat.blockOf blk7; rw [A7]; try rfl)

/-- The body obligation of the launch theorem, at the single point: the inputs' buffers hold their blocks, so `body7`
    applies; the invariant and the core's dues pass through unread. -/
theorem obligation7 (c : Dev nD) : BodyObligation (dat7 (F := F) V c) (defs₀ (F := F)) Variants.none () Set.univ := fun t => by
  rw [bigSep_W7, bigSep_W7]
  simp only [in7_0, in7_1, in7_2, in7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (body7 c Set.univ (grid7.coords t) (win7_0.stage (cfg7.slots t 0)) (hstage7_0 ((cfg7.slots t 0).cast nbuf7_0))
    (win7_1.stage (cfg7.slots t 1)) (hstage7_1 ((cfg7.slots t 1).cast nbuf7_1))
    (win7_2.stage (cfg7.slots t 2)) (hstage7_2 ((cfg7.slots t 2).cast nbuf7_2))
    (win7_3.stage (cfg7.slots t 3)) (hstage7_3 ((cfg7.slots t 3).cast nbuf7_3))
    (win7_4.stage (cfg7.slots t 4)) (hstage7_4 ((cfg7.slots t 4).cast nbuf7_4))
    (blk7 V c 0 t) (blk7 V c 1 t) (blk7 V c 2 t) (blk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end

end Cert.KernelIdeal.Gen

end
-- ==== Proof.KI.Main.lean ====
/-
  The run of the whole program. Each region's proof data is taken at the contents the region is entered from, and what
  a region leaves in its output array is that array after the last write-back (`arrAt` of its proof data at the last
  point); with the host stretches between them this is the chain of contents of Fold.lean. The eight regions are
  segments of @main entered and left at those contents, so the launch theorem gives: every weakly fair execution of
  @main terminates, the result buffer holds the last region's output, and the arguments are as launched.
-/
import proofs.«406510_j66254165508930_1_alg».proof.Proof.KI.Fold
import proofs.«406510_j66254165508930_1_alg».proof.Proof.KI.Region
import proofs.«406510_j66254165508930_1_alg».proof.Proof.KI.RunCond
import proofs.«406510_j66254165508930_1_alg».proof.Proof.KI.R0
import proofs.«406510_j66254165508930_1_alg».proof.Proof.KI.R1
import proofs.«406510_j66254165508930_1_alg».proof.Proof.KI.R2
import proofs.«406510_j66254165508930_1_alg».proof.Proof.KI.R3
import proofs.«406510_j66254165508930_1_alg».proof.Proof.KI.R4
import proofs.«406510_j66254165508930_1_alg».proof.Proof.KI.R5
import proofs.«406510_j66254165508930_1_alg».proof.Proof.KI.R6
import proofs.«406510_j66254165508930_1_alg».proof.Proof.KI.R7
import Idealize.ShloMosaic.Lib.Pipeline.Kit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's contents read at its own references. -/
abbrev atRefs (W : Dev nD → Valuation τ sig (Elt F)) (c : Dev nD) (b : Ref sig .tc) : Buf (Elt F) ((c : Thread nD τ).loc b) :=
  W c (Proc.devRef .tc b)

/-- What each region leaves in its output array: the array after the region's last write-back, the region's proof
    data taken at the contents it is entered at. -/
def leaves : Leaves F where
  l0 W c := (dat0 (atRefs W) c).arrAt 2 cfg0.N
  l1 W c := (dat1 (atRefs W) c).arrAt 2 cfg1.N
  l2 W c := (dat2 (atRefs W) c).arrAt 2 cfg2.N
  l3 W c := (dat3 (atRefs W) c).arrAt 2 cfg3.N
  l4 W c := (dat4 (atRefs W) c).arrAt 2 cfg4.N
  l5 W c := (dat5 (atRefs W) c).arrAt 2 cfg5.N
  l6 W c := (dat6 (atRefs W) c).arrAt 2 cfg6.N
  l7 W c := (dat7 (atRefs W) c).arrAt 4 cfg7.N

variable (m : (ℓ : Loc nD τ sig) → Buf (Elt F) ℓ)

/-! ## The proof data of the eight calls, each at the contents its region is entered from -/

def pdats : (p : Fin 8) → (c : Dev nD) → Dat τ (Elt F) Unit ℕ (UR sig nD τ) ℕ (cfgs p) c
  | ⟨0, _⟩ => fun c => dat0 (atRefs (V3 m)) c
  | ⟨1, _⟩ => fun c => dat1 (atRefs (X5 leaves m)) c
  | ⟨2, _⟩ => fun c => dat2 (atRefs (X6 leaves m)) c
  | ⟨3, _⟩ => fun c => dat3 (atRefs (X8 leaves m)) c
  | ⟨4, _⟩ => fun c => dat4 (atRefs (X9 leaves m)) c
  | ⟨5, _⟩ => fun c => dat5 (atRefs (X11 leaves m)) c
  | ⟨6, _⟩ => fun c => dat6 (atRefs (X13 leaves m)) c
  | ⟨7, _⟩ => fun c => dat7 (atRefs (X15 leaves m)) c

/-! ## The regions as segments -/

/-- Region 0's arrays at its exit: the inputs as entered, the output at what the write-backs left. -/
theorem exitArr0 (c : Dev nD) (w : Fin cfg0.W) :
    (pdats m 0 c).arrAt w (cfgs 0).N = X4 leaves m c (Proc.devRef .tc (Pipeline.arrRef (cfgs 0).spec w)) := by
  fin_cases w
  · exact ((dat0 (atRefs (V3 m)) c).arrAt_in 0 rfl _).trans ((A0 (atRefs (V3 m)) c 0).trans (X4_of leaves m c main_v11 (by decide)).symm)
  · exact ((dat0 (atRefs (V3 m)) c).arrAt_in 1 rfl _).trans ((A0 (atRefs (V3 m)) c 1).trans (X4_of leaves m c main_arg5 (by decide)).symm)
  · exact (X4_out leaves m c).symm
/-- Every buffer that is no array of region 0 is as entered. -/
theorem exitRest0 (c : Dev nD) (b : Ref sig .tc) (hb : b ∉ Finset.univ.image (Pipeline.arrRef (cfgs 0).spec)) :
    X4 leaves m c (Proc.devRef .tc b) = V3 m c (Proc.devRef .tc b) :=
  X4_of leaves m c b fun e => hb (Finset.mem_image.mpr ⟨2, Finset.mem_univ _, e.symm⟩)
/-- Region 0 as a segment of @main. -/
def reg0 : Pipeline.RegionSeg (pcfgs (F := F)) adm (pdats m) () defs₀ Variants.none noLevels zeroLevel 0 :=
  regionAt (pdats m) 0 launch0 (V3 m) (X4 leaves m) (fun c => obligation0 (atRefs (V3 m)) c)
    (fun _ _ => rfl) (fun _ _ => rfl) (fun _ _ => rfl) (fun c w => A0 (atRefs (V3 m)) c w)
    (fun _ => .rfl) (fun _ => .rfl) (exitArr0 m) (exitRest0 m)

/-- Region 1's arrays at its exit: the inputs as entered, the output at what the write-backs left. -/
theorem exitArr1 (c : Dev nD) (w : Fin cfg1.W) :
    (pdats m 1 c).arrAt w (cfgs 1).N = X6 leaves m c (Proc.devRef .tc (Pipeline.arrRef (cfgs 1).spec w)) := by
  fin_cases w
  · exact ((dat1 (atRefs (X5 leaves m)) c).arrAt_in 0 rfl _).trans ((A1 (atRefs (X5 leaves m)) c 0).trans (X6_of leaves m c main_v57 (by decide)).symm)
  · exact ((dat1 (atRefs (X5 leaves m)) c).arrAt_in 1 rfl _).trans ((A1 (atRefs (X5 leaves m)) c 1).trans (X6_of leaves m c main_arg6 (by decide)).symm)
  · exact (X6_out leaves m c).symm
/-- Every buffer that is no array of region 1 is as entered. -/
theorem exitRest1 (c : Dev nD) (b : Ref sig .tc) (hb : b ∉ Finset.univ.image (Pipeline.arrRef (cfgs 1).spec)) :
    X6 leaves m c (Proc.devRef .tc b) = X5 leaves m c (Proc.devRef .tc b) :=
  X6_of leaves m c b fun e => hb (Finset.mem_image.mpr ⟨2, Finset.mem_univ _, e.symm⟩)
/-- Region 1 as a segment of @main. -/
def reg1 : Pipeline.RegionSeg (pcfgs (F := F)) adm (pdats m) () defs₀ Variants.none noLevels zeroLevel 1 :=
  regionAt (pdats m) 1 launch1 (X5 leaves m) (X6 leaves m) (fun c => obligation1 (atRefs (X5 leaves m)) c)
    (fun _ _ => rfl) (fun _ _ => rfl) (fun _ _ => rfl) (fun c w => A1 (atRefs (X5 leaves m)) c w)
    (fun _ => .rfl) (fun _ => .rfl) (exitArr1 m) (exitRest1 m)

/-- Region 2's arrays at its exit: the inputs as entered, the output at what the write-backs left. -/
theorem exitArr2 (c : Dev nD) (w : Fin cfg2.W) :
    (pdats m 2 c).arrAt w (cfgs 2).N = X7 leaves m c (Proc.devRef .tc (Pipeline.arrRef (cfgs 2).spec w)) := by
  fin_cases w
  · exact ((dat2 (atRefs (X6 leaves m)) c).arrAt_in 0 rfl _).trans ((A2 (atRefs (X6 leaves m)) c 0).trans (X7_of leaves m c main_v58 (by decide)).symm)
  · exact ((dat2 (atRefs (X6 leaves m)) c).arrAt_in 1 rfl _).trans ((A2 (atRefs (X6 leaves m)) c 1).trans (X7_of leaves m c main_arg7 (by decide)).symm)
  · exact (X7_out leaves m c).symm
/-- Every buffer that is no array of region 2 is as entered. -/
theorem exitRest2 (c : Dev nD) (b : Ref sig .tc) (hb : b ∉ Finset.univ.image (Pipeline.arrRef (cfgs 2).spec)) :
    X7 leaves m c (Proc.devRef .tc b) = X6 leaves m c (Proc.devRef .tc b) :=
  X7_of leaves m c b fun e => hb (Finset.mem_image.mpr ⟨2, Finset.mem_univ _, e.symm⟩)
/-- Region 2 as a segment of @main. -/
def reg2 : Pipeline.RegionSeg (pcfgs (F := F)) adm (pdats m) () defs₀ Variants.none noLevels zeroLevel 2 :=
  regionAt (pdats m) 2 launch2 (X6 leaves m) (X7 leaves m) (fun c => obligation2 (atRefs (X6 leaves m)) c)
    (fun _ _ => rfl) (fun _ _ => rfl) (fun _ _ => rfl) (fun c w => A2 (atRefs (X6 leaves m)) c w)
    (fun _ => .rfl) (fun _ => .rfl) (exitArr2 m) (exitRest2 m)

/-- Region 3's arrays at its exit: the inputs as entered, the output at what the write-backs left. -/
theorem exitArr3 (c : Dev nD) (w : Fin cfg3.W) :
    (pdats m 3 c).arrAt w (cfgs 3).N = X9 leaves m c (Proc.devRef .tc (Pipeline.arrRef (cfgs 3).spec w)) := by
  fin_cases w
  · exact ((dat3 (atRefs (X8 leaves m)) c).arrAt_in 0 rfl _).trans ((A3 (atRefs (X8 leaves m)) c 0).trans (X9_of leaves m c main_v76 (by decide)).symm)
  · exact ((dat3 (atRefs (X8 leaves m)) c).arrAt_in 1 rfl _).trans ((A3 (atRefs (X8 leaves m)) c 1).trans (X9_of leaves m c main_arg8 (by decide)).symm)
  · exact (X9_out leaves m c).symm
/-- Every buffer that is no array of region 3 is as entered. -/
theorem exitRest3 (c : Dev nD) (b : Ref sig .tc) (hb : b ∉ Finset.univ.image (Pipeline.arrRef (cfgs 3).spec)) :
    X9 leaves m c (Proc.devRef .tc b) = X8 leaves m c (Proc.devRef .tc b) :=
  X9_of leaves m c b fun e => hb (Finset.mem_image.mpr ⟨2, Finset.mem_univ _, e.symm⟩)
/-- Region 3 as a segment of @main. -/
def reg3 : Pipeline.RegionSeg (pcfgs (F := F)) adm (pdats m) () defs₀ Variants.none noLevels zeroLevel 3 :=
  regionAt (pdats m) 3 launch3 (X8 leaves m) (X9 leaves m) (fun c => obligation3 (atRefs (X8 leaves m)) c)
    (fun _ _ => rfl) (fun _ _ => rfl) (fun _ _ => rfl) (fun c w => A3 (atRefs (X8 leaves m)) c w)
    (fun _ => .rfl) (fun _ => .rfl) (exitArr3 m) (exitRest3 m)

/-- Region 4's arrays at its exit: the inputs as entered, the output at what the write-backs left. -/
theorem exitArr4 (c : Dev nD) (w : Fin cfg4.W) :
    (pdats m 4 c).arrAt w (cfgs 4).N = X10 leaves m c (Proc.devRef .tc (Pipeline.arrRef (cfgs 4).spec w)) := by
  fin_cases w
  · exact ((dat4 (atRefs (X9 leaves m)) c).arrAt_in 0 rfl _).trans ((A4 (atRefs (X9 leaves m)) c 0).trans (X10_of leaves m c main_v77 (by decide)).symm)
  · exact ((dat4 (atRefs (X9 leaves m)) c).arrAt_in 1 rfl _).trans ((A4 (atRefs (X9 leaves m)) c 1).trans (X10_of leaves m c main_arg9 (by decide)).symm)
  · exact (X10_out leaves m c).symm
/-- Every buffer that is no array of region 4 is as entered. -/
theorem exitRest4 (c : Dev nD) (b : Ref sig .tc) (hb : b ∉ Finset.univ.image (Pipeline.arrRef (cfgs 4).spec)) :
    X10 leaves m c (Proc.devRef .tc b) = X9 leaves m c (Proc.devRef .tc b) :=
  X10_of leaves m c b fun e => hb (Finset.mem_image.mpr ⟨2, Finset.mem_univ _, e.symm⟩)
/-- Region 4 as a segment of @main. -/
def reg4 : Pipeline.RegionSeg (pcfgs (F := F)) adm (pdats m) () defs₀ Variants.none noLevels zeroLevel 4 :=
  regionAt (pdats m) 4 launch4 (X9 leaves m) (X10 leaves m) (fun c => obligation4 (atRefs (X9 leaves m)) c)
    (fun _ _ => rfl) (fun _ _ => rfl) (fun _ _ => rfl) (fun c w => A4 (atRefs (X9 leaves m)) c w)
    (fun _ => .rfl) (fun _ => .rfl) (exitArr4 m) (exitRest4 m)

/-- Region 5's arrays at its exit: the inputs as entered, the output at what the write-backs left. -/
theorem exitArr5 (c : Dev nD) (w : Fin cfg5.W) :
    (pdats m 5 c).arrAt w (cfgs 5).N = X12 leaves m c (Proc.devRef .tc (Pipeline.arrRef (cfgs 5).spec w)) := by
  fin_cases w
  · exact ((dat5 (atRefs (X11 leaves m)) c).arrAt_in 0 rfl _).trans ((A5 (atRefs (X11 leaves m)) c 0).trans (X12_of leaves m c main_v95 (by decide)).symm)
  · exact ((dat5 (atRefs (X11 leaves m)) c).arrAt_in 1 rfl _).trans ((A5 (atRefs (X11 leaves m)) c 1).trans (X12_of leaves m c main_arg10 (by decide)).symm)
  · exact (X12_out leaves m c).symm
/-- Every buffer that is no array of region 5 is as entered. -/
theorem exitRest5 (c : Dev nD) (b : Ref sig .tc) (hb : b ∉ Finset.univ.image (Pipeline.arrRef (cfgs 5).spec)) :
    X12 leaves m c (Proc.devRef .tc b) = X11 leaves m c (Proc.devRef .tc b) :=
  X12_of leaves m c b fun e => hb (Finset.mem_image.mpr ⟨2, Finset.mem_univ _, e.symm⟩)
/-- Region 5 as a segment of @main. -/
def reg5 : Pipeline.RegionSeg (pcfgs (F := F)) adm (pdats m) () defs₀ Variants.none noLevels zeroLevel 5 :=
  regionAt (pdats m) 5 launch5 (X11 leaves m) (X12 leaves m) (fun c => obligation5 (atRefs (X11 leaves m)) c)
    (fun _ _ => rfl) (fun _ _ => rfl) (fun _ _ => rfl) (fun c w => A5 (atRefs (X11 leaves m)) c w)
    (fun _ => .rfl) (fun _ => .rfl) (exitArr5 m) (exitRest5 m)

/-- Region 6's arrays at its exit: the inputs as entered, the output at what the write-backs left. -/
theorem exitArr6 (c : Dev nD) (w : Fin cfg6.W) :
    (pdats m 6 c).arrAt w (cfgs 6).N = X14 leaves m c (Proc.devRef .tc (Pipeline.arrRef (cfgs 6).spec w)) := by
  fin_cases w
  · exact ((dat6 (atRefs (X13 leaves m)) c).arrAt_in 0 rfl _).trans ((A6 (atRefs (X13 leaves m)) c 0).trans (X14_of leaves m c main_v103 (by decide)).symm)
  · exact ((dat6 (atRefs (X13 leaves m)) c).arrAt_in 1 rfl _).trans ((A6 (atRefs (X13 leaves m)) c 1).trans (X14_of leaves m c main_v96 (by decide)).symm)
  · exact (X14_out leaves m c).symm
/-- Every buffer that is no array of region 6 is as entered. -/
theorem exitRest6 (c : Dev nD) (b : Ref sig .tc) (hb : b ∉ Finset.univ.image (Pipeline.arrRef (cfgs 6).spec)) :
    X14 leaves m c (Proc.devRef .tc b) = X13 leaves m c (Proc.devRef .tc b) :=
  X14_of leaves m c b fun e => hb (Finset.mem_image.mpr ⟨2, Finset.mem_univ _, e.symm⟩)
/-- Region 6 as a segment of @main. -/
def reg6 : Pipeline.RegionSeg (pcfgs (F := F)) adm (pdats m) () defs₀ Variants.none noLevels zeroLevel 6 :=
  regionAt (pdats m) 6 launch6 (X13 leaves m) (X14 leaves m) (fun c => obligation6 (atRefs (X13 leaves m)) c)
    (fun _ _ => rfl) (fun _ _ => rfl) (fun _ _ => rfl) (fun c w => A6 (atRefs (X13 leaves m)) c w)
    (fun c => hin6 (atRefs (X13 leaves m)) c) (fun c => hout6 (atRefs (X13 leaves m)) c) (exitArr6 m) (exitRest6 m)

/-- Region 7's arrays at its exit: the inputs as entered, the output at what the write-backs left. -/
theorem exitArr7 (c : Dev nD) (w : Fin cfg7.W) :
    (pdats m 7 c).arrAt w (cfgs 7).N = X16 leaves m c (Proc.devRef .tc (Pipeline.arrRef (cfgs 7).spec w)) := by
  fin_cases w
  · exact ((dat7 (atRefs (X15 leaves m)) c).arrAt_in 0 rfl _).trans ((A7 (atRefs (X15 leaves m)) c 0).trans (X16_of leaves m c main_v104 (by decide)).symm)
  · exact ((dat7 (atRefs (X15 leaves m)) c).arrAt_in 1 rfl _).trans ((A7 (atRefs (X15 leaves m)) c 1).trans (X16_of leaves m c main_v108 (by decide)).symm)
  · exact ((dat7 (atRefs (X15 leaves m)) c).arrAt_in 2 rfl _).trans ((A7 (atRefs (X15 leaves m)) c 2).trans (X16_of leaves m c main_arg11 (by decide)).symm)
  · exact ((dat7 (atRefs (X15 leaves m)) c).arrAt_in 3 rfl _).trans ((A7 (atRefs (X15 leaves m)) c 3).trans (X16_of leaves m c main_arg12 (by decide)).symm)
  · exact (X16_out leaves m c).symm
/-- Every buffer that is no array of region 7 is as entered. -/
theorem exitRest7 (c : Dev nD) (b : Ref sig .tc) (hb : b ∉ Finset.univ.image (Pipeline.arrRef (cfgs 7).spec)) :
    X16 leaves m c (Proc.devRef .tc b) = X15 leaves m c (Proc.devRef .tc b) :=
  X16_of leaves m c b fun e => hb (Finset.mem_image.mpr ⟨4, Finset.mem_univ _, e.symm⟩)
/-- Region 7 as a segment of @main. -/
def reg7 : Pipeline.RegionSeg (pcfgs (F := F)) adm (pdats m) () defs₀ Variants.none noLevels zeroLevel 7 :=
  regionAt (pdats m) 7 launch7 (X15 leaves m) (X16 leaves m) (fun c => obligation7 (atRefs (X15 leaves m)) c)
    (fun _ _ => rfl) (fun _ _ => rfl) (fun _ _ => rfl) (fun c w => A7 (atRefs (X15 leaves m)) c w)
    (fun _ => .rfl) (fun _ => .rfl) (exitArr7 m) (exitRest7 m)

/-! ## The run -/

/-- The pipelines' cells and duty tokens as the launch deals them. -/
abbrev launchGhost : UR sig nD τ := initOf (Pipeline.cells cfgs cellOf_inj) (Pipeline.launchToks cfgs cellOf_inj)

set_option backward.isDefEq.respectTransparency.types false in
/-- THE RUN: from any memory with zero counters every weakly fair execution of @main terminates; the result buffer
    ends at the last region's output and every argument array as launched. -/
theorem run_all (ρ : Dev nD → PrngReg) :
    θ_run defs (onTc (τ := τ) (main (F := F))) ⟨m, fun _ => 0, ρ⟩ (fun r => ∀ c : Dev nD,
      r.2.mem ((c.tc : Thread nD τ).loc main_v109) = X16 leaves m c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_cond m emb₁ () Variants.none noLevels zeroLevel (fun _ _ => rfl) ρ (outs leaves m) (pdats m)
    (O₀ := 0) (G := fun _ => iprop(emp)) (u₀ := launchGhost)
    (hu₀ := by
      iintro Hu; imodintro
      isplitl [Hu]
      · iapply (show (ownU launchGhost : sProp 𝕄) ⊢ BI.own (emb₁ launchGhost) from .rfl)
        iexact Hu
      iapply (show (BI.emp : sProp 𝕄) ⊢ bigSep Finset.univ (fun _ : Dev nD => (BI.emp : sProp 𝕄)) from by rw [BI.bigSep_emp_const])
      iempintro)
    (E := fun _ c => beside c)
    (hE0 := by
      refine Pipeline.initEach noLevels zeroLevel fun c => ?_
      iintro ⟨⟨-, HO, -, Hp, -⟩, -⟩
      imodintro
      isplitl [Hp]; · iexists _; iexact Hp
      iexists ∅; iexact HO)
    (hE8 := fun c => by iintro ⟨-, HO⟩; iexact HO)
    (reg0 m) (fun c => .rfl) (fun c => by rw [V4_eq]; exact .rfl)
    (reg1 m) (fun c => by rw [V5_eq]; exact .rfl) (fun c => by rw [V6_eq]; exact .rfl)
    (reg2 m) (fun c => by rw [V6_eq]; exact .rfl) (fun c => by rw [V7_eq]; exact .rfl)
    (reg3 m) (fun c => by rw [V8_eq]; exact .rfl) (fun c => by rw [V9_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)
    (reg7 m) (fun c => by rw [V15_eq]; exact .rfl) (fun c => by rw [V16_eq]; exact .rfl)

end Cert.KernelIdeal.Gen

end
-- ==== Proof.Spec.lean ====
/-
  The stages of the graph network as pure functions of arrays, spelt with the reference program's own operations:
  the projection `h · W`, the bias row added (and the maximum with zero), the per-graph sums and counts as
  accumulating scatters through the column of graph numbers, and the final normalisation and linear layer.
  Beside them the one-hot form of the per-graph sum: entry `(g, k)` is the sum over ALL nodes `n` of
  `onehot[n, g] · h[n, k]`, where `onehot[n, g]` is one when node `n`'s graph number is `g` and zero otherwise.
-/
import proofs.«406510_j66254165508930_1_alg».proof.Proof.Gen.ReferenceIdeal
import Idealize.ShloMosaic.Lib.ValueIdx

noncomputable section

open scoped BigOperators

namespace Cert.Stages

open Idealize.ShloMosaic Idealize.ShloMosaic.ValueIdx Cert.ReferenceIdeal Cert.ReferenceIdeal.Gen

variable {F : FTy → Type} [FloatOps F]

/-- The projection: every node's feature row times the weight matrix. -/
def proj (h : (⟨S100000x128, .f32⟩ : BufTy).Contents (Elt F)) (W : (⟨S128x128, .f32⟩ : BufTy).Contents (Elt F)) :
    (⟨S100000x128, .f32⟩ : BufTy).Contents (Elt F) :=
  Host.dotGeneral dot_S100000x128_S128x128_S100000x128_1_0_0_1_n_n none h W

/-- The bias row added to every node's row. -/
def addBias (a : (⟨S100000x128, .f32⟩ : BufTy).Contents (Elt F)) (b : (⟨S128, .f32⟩ : BufTy).Contents (Elt F)) :
    (⟨S100000x128, .f32⟩ : BufTy).Contents (Elt F) :=
  addf a (broadcastInDim S100000x128 ![0, 1] bcast_S1x128_S100000x128_0_1 (broadcastInDim S1x128 ![1] bcast_S128_S1x128_1 b))

/-- The maximum with zero, entry by entry. -/
def relu (a : (⟨S100000x128, .f32⟩ : BufTy).Contents (Elt F)) : (⟨S100000x128, .f32⟩ : BufTy).Contents (Elt F) :=
  maximumf a (broadcastInDim S100000x128 ![] bcast_S_S100000x128 (constant S_ .f32 0x00000000#32))

/-- The per-graph sums: node `n`'s row is added to the row its graph number names; a number outside `[0, 128)`
    names no row. -/
def poolSum (batch : (⟨S100000, .i32⟩ : BufTy).Contents (Elt F)) (h : (⟨S100000x128, .f32⟩ : BufTy).Contents (Elt F)) :
    (⟨S128x128, .f32⟩ : BufTy).Contents (Elt F) :=
  Host.scatterAdd scatter_S128x128_S100000x1_S100000x128_1_0_0_1
    (broadcastInDim S128x128 ![] bcast_S_S128x128 (constant S_ .f32 0x00000000#32))
    (broadcastInDim S100000x1 ![0] bcast_S100000_S100000x1_0 batch) h

/-- The per-graph node counts, as a scatter of ones. -/
def counts (batch : (⟨S100000, .i32⟩ : BufTy).Contents (Elt F)) : (⟨S128, .f32⟩ : BufTy).Contents (Elt F) :=
  Host.scatterAdd scatter_S128_S100000x1_S100000_n_0_0_1
    (broadcastInDim S128 ![] bcast_S_S128 (constant S_ .f32 0x00000000#32))
    (broadcastInDim S100000x1 ![0] bcast_S100000_S100000x1_0 batch)
    (broadcastInDim S100000 ![] bcast_S_S100000 (constant S_ .f32 0x3F800000#32))

/-- The mean over each graph (the sums divided by the counts, a count below one read as one), the last linear layer
    and its bias. -/
def finalize (pooled : (⟨S128x128, .f32⟩ : BufTy).Contents (Elt F)) (cnt : (⟨S128, .f32⟩ : BufTy).Contents (Elt F))
    (linW : (⟨S128x104, .f32⟩ : BufTy).Contents (Elt F)) (linb : (⟨S104, .f32⟩ : BufTy).Contents (Elt F)) :
    (⟨S128x104, .f32⟩ : BufTy).Contents (Elt F) :=
  addf
    (Host.dotGeneral dot_S128x128_S128x104_S128x104_1_0_0_1_n_n none
      (Host.divf pooled
        (broadcastInDim S128x128 ![0, 1] bcast_S128x1_S128x128_0_1
          (broadcastInDim S128x1 ![0] bcast_S128_S128x1_0
            (maximumf cnt (broadcastInDim S128 ![] bcast_S_S128 (constant S_ .f32 0x3F800000#32))))))
      linW)
    (broadcastInDim S128x104 ![0, 1] bcast_S1x104_S128x104_0_1 (broadcastInDim S1x104 ![1] bcast_S104_S1x104_1 linb))

/-- The one-hot matrix of the graph numbers: entry `(n, g)` is one when `batch[n] = g`, zero otherwise. -/
def oneHot (batch : (⟨S100000, .i32⟩ : BufTy).Contents (Elt F)) : (⟨S100000x128, .bf16⟩ : BufTy).Contents (Elt F) :=
  uitofp .bf16
    (cmpi .eq
      (broadcastInDim S100000x128 ![0, 1] bcast_S100000x1_S100000x128_0_1 (broadcastInDim S100000x1 ![0] bcast_S100000_S100000x1_0 batch))
      (broadcastInDim S100000x128 ![0, 1] bcast_S1x128_S100000x128_0_1 (broadcastInDim S1x128 ![1] bcast_S128_S1x128_1 (iotaInDim S128 32 0))))

/-- The one-hot form of the per-graph sums on the extended reals: entry `(g, k)` sums `oh[n, g] · h[n, k]` over every node. -/
def oneHotSum (oh : (⟨S100000x128, .bf16⟩ : BufTy).Contents (Elt Ideal)) (h : (⟨S100000x128, .f32⟩ : BufTy).Contents (Elt Ideal)) :
    (⟨S128x128, .f32⟩ : BufTy).Contents (Elt Ideal) :=
  fun i => ∑ n : Fin 100000, (oh (ix2 n (i 0)) : EReal) * (h (ix2 n (i 1)) : EReal)

end Cert.Stages

end
-- ==== Proof.KI.Val0.lean ====
/-
  The value of region 0 on the extended reals: after the twenty points the output array is the projection `h · W`
  of the node features by the weight, as the reference spells it. Entry `(r, c)` of either side is the sum over the
  128 contracted positions `k` of `h[r, k] · W[k, c]`: the kernel's from the block product (rounding to bf16 is the
  identity here, the accumulator starts at zero), the reference's from its one `dot_general`. Point `t`'s blocks are
  rows `5000·t … 5000·t + 4999` of `h` and of the output and the whole weight, and the twenty row blocks fill the
  array.
-/
import proofs.«406510_j66254165508930_1_alg».proof.Proof.KI.R0
import proofs.«406510_j66254165508930_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The block product at an index -/

/-- The block product's left operand index on the row axis: the output's row. -/
theorem lhs_blockDot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- On the contracted axis: the contraction position. -/
theorem lhs_blockDot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand index on its contracted axis: the contraction position. -/
theorem rhs_blockDot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- On the column axis: the output's column. -/
theorem rhs_blockDot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(i 0, k)` of a 5000-row block. -/
abbrev blockRow (i : S5000x128.Idx) (k : Fin 128) : S5000x128.Idx := fun a => match a with
  | ⟨0, _⟩ => ⟨(i 0).val, (i 0).isLt⟩
  | ⟨1, _⟩ => ⟨k.val, k.isLt⟩
/-- Entry `(k, i 1)` of the weight. -/
abbrev weightCol (i : S5000x128.Idx) (k : Fin 128) : S128x128.Idx := fun a => match a with
  | ⟨0, _⟩ => ⟨k.val, k.isLt⟩
  | ⟨1, _⟩ => ⟨(i 1).val, (i 1).isLt⟩

/-- The block product at an index is the sum over the contracted positions of the row's entries times the column's. -/
theorem blockDot_apply (x : Vec Ideal S5000x128 .f32) (w : Vec Ideal S128x128 .f32) (i : S5000x128.Idx) :
    k0_pay1 x w i = ∑ k : Fin 128, x (blockRow i k) * w (weightCol i k) := by
  unfold k0_pay1
  rw [shapeCast_self]
  refine (Ideal.matmul_constant_zero_apply dot_S5000x128_S128x128_S5000x128_1_0_0_1_n_n none _ _ i).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = blockRow i k := funext fun a => Fin.ext (by
    match a with
    | ⟨0, _⟩ => exact lhs_blockDot_0 _ _
    | ⟨1, _⟩ => exact (lhs_blockDot_1 _ _).trans hk)
  have er : dot_S5000x128_S128x128_S5000x128_1_0_0_1_n_n.rhsIdx i ((ValueIdx.contrEquiv1 dot_S5000x128_S128x128_S5000x128_1_0_0_1_n_n 128 rfl rfl).symm k) = weightCol i k := funext fun a => Fin.ext (by
    match a with
    | ⟨0, _⟩ => exact (rhs_blockDot_0 _ _).trans hk
    | ⟨1, _⟩ => exact rhs_blockDot_1 _ _)
  rw [el, er]
  rfl

/-! ## The reference's projection at an index -/

/-- The projection's left operand index on the row axis: the output's row. -/
theorem lhs_proj_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
/-- On the contracted axis: the contraction position. -/
theorem lhs_proj_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
/-- The right operand index on its contracted axis: the contraction position. -/
theorem rhs_proj_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
/-- On the column axis: the output's column. -/
theorem rhs_proj_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- Entry `(i 0, k)` of the node features. -/
abbrev nodeRow (i : Cert.ReferenceIdeal.S100000x128.Idx) (k : Fin 128) : Cert.ReferenceIdeal.S100000x128.Idx := fun a => match a with
  | ⟨0, _⟩ => ⟨(i 0).val, (i 0).isLt⟩
  | ⟨1, _⟩ => ⟨k.val, k.isLt⟩
/-- Entry `(k, i 1)` of the weight. -/
abbrev projCol (i : Cert.ReferenceIdeal.S100000x128.Idx) (k : Fin 128) : Cert.ReferenceIdeal.S128x128.Idx := fun a => match a with
  | ⟨0, _⟩ => ⟨k.val, k.isLt⟩
  | ⟨1, _⟩ => ⟨(i 1).val, (i 1).isLt⟩

/-- The projection at an index is the sum over the contracted positions of the node's entries times the column's. -/
theorem proj_apply (h : (⟨Cert.ReferenceIdeal.S100000x128, .f32⟩ : BufTy).Contents (Elt Ideal)) (W : (⟨Cert.ReferenceIdeal.S128x128, .f32⟩ : BufTy).Contents (Elt Ideal)) (i : Cert.ReferenceIdeal.S100000x128.Idx) :
    Cert.Stages.proj (F := Ideal) h W i = ∑ k : Fin 128, h (nodeRow i k) * W (projCol i k) := by
  unfold Cert.Stages.proj
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = nodeRow i k := funext fun a => Fin.ext (by
    match a with
    | ⟨0, _⟩ => exact lhs_proj_0 _ _
    | ⟨1, _⟩ => exact (lhs_proj_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = projCol i k := funext fun a => Fin.ext (by
    match a with
    | ⟨0, _⟩ => exact (rhs_proj_0 _ _).trans hk
    | ⟨1, _⟩ => exact rhs_proj_1 _ _)
  rw [el, er]

/-! ## A row block's product is the projection's rows -/

/-- The core: when `x` holds the 5000 rows of `h` from row `r0` and `w` the weight, the block product at `(p, q)` is the
    projection at `(r0 + p, q)`. -/
theorem blockDot_eq_proj (h : Vec Ideal S100000x128 .f32) (W : Vec Ideal S128x128 .f32)
    (x : Vec Ideal S5000x128 .f32) (w : Vec Ideal S128x128 .f32) (r0 : ℕ)
    (hx : ∀ (j : S5000x128.Idx) (i : S100000x128.Idx), (i 0).val = r0 + (j 0).val → (i 1).val = (j 1).val → x j = h i)
    (hw : ∀ j : S128x128.Idx, w j = W j)
    (y : S5000x128.Idx) (i : S100000x128.Idx) (h0 : (i 0).val = r0 + (y 0).val) (h1 : (i 1).val = (y 1).val) :
    k0_pay1 x w y = Cert.Stages.proj (F := Ideal) h W i := by
  rw [blockDot_apply]
  refine Eq.trans ?_ (proj_apply h W i).symm
  refine Finset.sum_congr rfl fun k _ => ?_
  rw [hx (blockRow y k) (nodeRow i k) h0 rfl, hw]
  exact congrArg (fun z => h (nodeRow i k) * W z) (funext fun a => Fin.ext (by
    match a with
    | ⟨0, _⟩ => rfl
    | ⟨1, _⟩ => exact h1.symm))

/-- The later projections' payloads are the same block product. -/
theorem pay2_eq_pay0 (x : Vec Ideal S5000x128 .f32) (w : Vec Ideal S128x128 .f32) : k2_pay1 x w = k0_pay1 x w := rfl
theorem pay4_eq_pay0 (x : Vec Ideal S5000x128 .f32) (w : Vec Ideal S128x128 .f32) : k4_pay1 x w = k0_pay1 x w := rfl

/-! ## The array after the twenty points -/

section
variable (V : (c : Dev nD) → (b : Ref sig .tc) → Buf (Elt Ideal) ((c : Thread nD τ).loc b))

/-- The index maps over the grid: the feature and output windows sit at row block `t`, column block 0; the weight's
    block never moves. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem rowBlock_onto0 : ∀ q : Fin 20, ∃ t : Fin cfg0.N, win0_2.index t = ![q.val, 0] :=
  (by decide +kernel : ∀ q : Fin 20, ∃ t : Fin grid0.N, win0_2.index t = ![q.val, 0])

/-- What point `t` writes back is block `t` of the projection of the arrays as the region finds them. -/
theorem flushed0_eq (c : Dev nD) (t : Fin cfg0.N) :
    (dat0 (F := Ideal) V c).flushed 2 t
      = ((cfg0.win 2).blk t).view.read (Elt Ideal) (Cert.Stages.proj (F := Ideal) (V c main_v11) (V c main_arg5)) := by
  show (cfg0.win 2).cut (grid0.coords t) ((dat0 V c).after 2 t) = _
  rw [after0_2]
  obtain ⟨e0, e1, e2, e3, e4, e5⟩ := blockIdx0 t
  funext y
  refine blockDot_eq_proj (V c main_v11) (V c main_arg5) (blk0 V c 0 t) (blk0 V c 1 t) (5000 * t.val) ?_ ?_ y
    (((cfg0.win 2).blk t).view.emb y) ?_ ?_
  · intro j i h0 h1
    show V c main_v11 (((cfg0.win 0).blk t).view.emb j) = V c main_v11 i
    refine congrArg (V c main_v11) (funext fun a => Fin.ext ?_)
    match a with
    | ⟨0, _⟩ => show win0_0.index t (0 : Fin 2) * 5000 + 1 * (j 0).val = (i 0).val; omega
    | ⟨1, _⟩ => show win0_0.index t (1 : Fin 2) * 128 + 1 * (j 1).val = (i 1).val; omega
  · intro j
    show V c main_arg5 (((cfg0.win 1).blk t).view.emb j) = V c main_arg5 j
    refine congrArg (V c main_arg5) (funext fun a => Fin.ext ?_)
    match a with
    | ⟨0, _⟩ => show win0_1.index t (0 : Fin 2) * 128 + 1 * (j 0).val = (j 0).val; omega
    | ⟨1, _⟩ => show win0_1.index t (1 : Fin 2) * 128 + 1 * (j 1).val = (j 1).val; omega
  · show win0_2.index t (0 : Fin 2) * 5000 + 1 * (y 0).val = 5000 * t.val + (y 0).val; omega
  · show win0_2.index t (1 : Fin 2) * 128 + 1 * (y 1).val = (y 1).val; omega

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v40).slice (win0_2.rect t)).set ↔ _
  rw [View.set_slice_whole, Rect.mem_set_unit]
  exact Iff.rfl

/-- Every index of the output array is in some point's block: row `r` in block `r / 5000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := rowBlock_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region is the projection of the feature array by the weight. -/
theorem final0 (c : Dev nD) :
    (dat0 (F := Ideal) V c).arrAt 2 cfg0.N = Cert.Stages.proj (V c main_v11) (V c main_arg5) :=
  (dat0 (F := Ideal) V c).arrAt_eq_of_cover 2 _ (fun t _ => flushed0_eq V c t) (fun i => cover0 i)

end

end Cert.KernelIdeal.Gen

end
-- ==== Proof.KI.Val1.lean ====
/-
  The value of region 1 of @main on the extended reals: the first layer's bias row added to every row of the aggregated features, and the maximum with zero.
  Entry `(r, q)` of the output array after the region is `max (a[r, q] + b[q], 0)`, where `a` is the input array and `b` the
  bias row as the region finds them. Point `t` of the grid writes rows `5000·t … 5000·t + 4999`, each entry the body's
  payload of the input block's entry in the same place and of the bias entry in the same column; the twenty blocks
  fill the array, row `r` lying in the block of point `r / 5000`.
-/
import proofs.«406510_j66254165508930_1_alg».proof.Proof.KI.R1
import proofs.«406510_j66254165508930_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)

/-- The payload as one expression of the two loaded blocks. -/
theorem pay1_eq (x : Vec Ideal S5000x128 .f32) (b : Vec Ideal S128 .f32) :
    k1_pay1 x b = maximumf (addf (shapeCast S5000x128 x shapeCasts_S5000x128_S5000x128) (broadcastTo S5000x128 (shapeCast S1x128 b shapeCasts_S128_S1x128) broadcasts_S1x128_S5000x128)) (broadcast S5000x128 (Scalar.ofBits .f32 0x00000000#32)) := rfl

/-- The payload at row `p`, column `q` of the block: the bias entry of column `q` added to the input's entry, and the maximum with zero. -/
theorem pay1_at (x : Vec Ideal S5000x128 .f32) (b : Vec Ideal S128 .f32) (p : Fin 5000) (q : Fin 128) :
    k1_pay1 x b (ix2 p q) = max (x (ix2 p q) + b (ix1 q)) (Ideal.ofBits .f32 0x00000000#32) := by
  rw [pay1_eq, maximumf_apply, broadcast_apply, addf_apply, shapeCast_self, broadcastTo_1b_ab_apply, shapeCast_a_1a_apply]
  rfl

/-- The claimed array at row `r`, column `q`: the same expression of the whole arrays. -/
theorem spec1_at (A : (⟨Cert.ReferenceIdeal.S100000x128, .f32⟩ : BufTy).Contents (Elt Ideal))
    (B : (⟨Cert.ReferenceIdeal.S128, .f32⟩ : BufTy).Contents (Elt Ideal)) (r : Fin 100000) (q : Fin 128) :
    Cert.Stages.relu (Cert.Stages.addBias A B) (ix2 r q) = max (A (ix2 r q) + B (ix1 q)) (Ideal.ofBits .f32 0x00000000#32) := by
  unfold Cert.Stages.relu Cert.Stages.addBias
  rw [maximumf_apply, broadcastInDim_scalar_apply, constant_apply, addf_apply, broadcastInDim_oneRow_apply]
  rw [broadcastInDim_apply ![1] _ B (ix2 (0 : Fin 1) q) (ix1 q) (fun a => by
    match a with
    | ⟨0, _⟩ => rfl)]

/-- The printed index maps over the twenty points: the input's and the output's block is `(t, 0)`, the bias row's `(0)`. -/
theorem blocks1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- What point `t` writes back is block `t` of the claimed array. -/
theorem written1 (c : Dev nD) (t : Fin cfg1.N) :
    (dat1 (F := Ideal) V c).flushed 2 t
      = ((cfg1.win 2).blk t).view.read (Elt Ideal) (Cert.Stages.relu (Cert.Stages.addBias (V c main_v57) (V c main_arg6))) := by
  show (cfg1.win 2).cut (grid1.coords t) ((dat1 V c).after 2 t) = _
  rw [after1_2]
  obtain ⟨e0, e1, e2, e3, e4⟩ := blocks1 t
  have ht : t.val < 20 := t.isLt
  funext j
  obtain ⟨p, q, rfl⟩ : ∃ (p : Fin 5000) (q : Fin 128), j = ix2 p q := ⟨j 0, j 1, eq_ix2 j⟩
  have hp : p.val < 5000 := p.isLt
  show k1_pay1 (blk1 V c 0 t) (blk1 V c 1 t) (ix2 p q) = (Cert.Stages.relu (Cert.Stages.addBias (V c main_v57) (V c main_arg6))) (((cfg1.win 2).blk t).view.emb (ix2 p q))
  -- the place of entry (p, q) of block t in the arrays
  have place2 : ((cfg1.win 2).blk t).view.emb (ix2 p q) = ix2 (⟨t.val * 5000 + p.val, by omega⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  have place0 : ((cfg1.win 0).blk t).view.emb (ix2 p q) = ix2 (⟨t.val * 5000 + p.val, by omega⟩ : Fin 100000) q := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have place1 : ((cfg1.win 1).blk t).view.emb (ix1 q) = ix1 q := by
    funext a; apply Fin.ext
    match a with
    | ⟨0, _⟩ => show win1_1.index t (0 : Fin 1) * 128 + 1 * q.val = q.val; omega
  have in0 : blk1 V c 0 t (ix2 p q) = V c main_v57 (ix2 (⟨t.val * 5000 + p.val, by omega⟩ : Fin 100000) q) := by
    show V c main_v57 (((cfg1.win 0).blk t).view.emb (ix2 p q)) = _
    rw [place0]
  have in1 : blk1 V c 1 t (ix1 q) = V c main_arg6 (ix1 q) := by
    show V c main_arg6 (((cfg1.win 1).blk t).view.emb (ix1 q)) = _
    rw [place1]
  rw [pay1_at, place2, spec1_at, in0, in1]

/-- An index of the output array is in point `t`'s block iff each coordinate is in the block's range on its axis. -/
theorem inBlock1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v58).slice (win1_2.rect t)).set ↔ _
  rw [View.set_slice_whole, Rect.mem_set_unit]
  exact Iff.rfl

/-- Every index of the output array is in some point's block: row `r` in the block of point `r / 5000`. -/
theorem covered1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hlt : (i 0).val / 5000 < 20 := by omega
  obtain ⟨-, -, -, e3, e4⟩ := blocks1 ⟨(i 0).val / 5000, hlt⟩
  refine ⟨⟨(i 0).val / 5000, hlt⟩, flush1_2 _, ?_⟩
  rw [inBlock1]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    rw [e3]; show (i 0).val / 5000 * 5000 ≤ (i 0).val ∧ (i 0).val < (i 0).val / 5000 * 5000 + 5000; omega
  | ⟨1, _⟩ =>
    show win1_2.index ⟨(i 0).val / 5000, hlt⟩ (1 : Fin 2) * 128 ≤ (i 1).val ∧ (i 1).val < win1_2.index ⟨(i 0).val / 5000, hlt⟩ (1 : Fin 2) * 128 + 128
    rw [e4]; omega

/-- The output array after the region. -/
theorem final1 (c : Dev nD) :
    (dat1 (F := Ideal) V c).arrAt 2 cfg1.N = Cert.Stages.relu (Cert.Stages.addBias (V c main_v57) (V c main_arg6)) :=
  (dat1 (F := Ideal) V c).arrAt_eq_of_cover 2 _ (fun t _ => written1 V c t) (covered1)

end

end Cert.KernelIdeal.Gen

end
-- ==== Proof.KI.Val2.lean ====
/-
  The value of region 2 on the extended reals: the same projection at another call. After the twenty points the
  output array is `h · W` of the feature array and the weight this call is given, as the reference spells it: point
  `t`'s blocks are rows `5000·t … 5000·t + 4999` of the features and of the output and the whole weight, the block
  product at `(p, q)` is the projection at `(5000·t + p, q)`, and the twenty row blocks fill the array.
-/
import proofs.«406510_j66254165508930_1_alg».proof.Proof.KI.R2
import proofs.«406510_j66254165508930_1_alg».proof.Proof.KI.Val0
import proofs.«406510_j66254165508930_1_alg».proof.Proof.Spec
import Idealize.ShloMosaic.Lib.Pipeline.Value

set_option maxRecDepth 16384

noncomputable section

open scoped BigOperators

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section
variable (V : (c : Dev nD) → (b : Ref sig .tc) → Buf (Elt Ideal) ((c : Thread nD τ).loc b))

/-- The index maps over the grid: the feature and output windows sit at row block `t`, column block 0; the weight's
    block never moves. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block is some point's. -/
theorem rowBlock_onto2 : ∀ q : Fin 20, ∃ t : Fin cfg2.N, win2_2.index t = ![q.val, 0] :=
  (by decide +kernel : ∀ q : Fin 20, ∃ t : Fin grid2.N, win2_2.index t = ![q.val, 0])

/-- What point `t` writes back is block `t` of the projection of the arrays as the region finds them. -/
theorem flushed2_eq (c : Dev nD) (t : Fin cfg2.N) :
    (dat2 (F := Ideal) V c).flushed 2 t
      = ((cfg2.win 2).blk t).view.read (Elt Ideal) (Cert.Stages.proj (F := Ideal) (V c main_v58) (V c main_arg7)) := by
  show (cfg2.win 2).cut (grid2.coords t) ((dat2 V c).after 2 t) = _
  rw [after2_2, pay2_eq_pay0]
  obtain ⟨e0, e1, e2, e3, e4, e5⟩ := blockIdx2 t
  funext y
  refine blockDot_eq_proj (V c main_v58) (V c main_arg7) (blk2 V c 0 t) (blk2 V c 1 t) (5000 * t.val) ?_ ?_ y
    (((cfg2.win 2).blk t).view.emb y) ?_ ?_
  · intro j i h0 h1
    show V c main_v58 (((cfg2.win 0).blk t).view.emb j) = V c main_v58 i
    refine congrArg (V c main_v58) (funext fun a => Fin.ext ?_)
    match a with
    | ⟨0, _⟩ => show win2_0.index t (0 : Fin 2) * 5000 + 1 * (j 0).val = (i 0).val; omega
    | ⟨1, _⟩ => show win2_0.index t (1 : Fin 2) * 128 + 1 * (j 1).val = (i 1).val; omega
  · intro j
    show V c main_arg7 (((cfg2.win 1).blk t).view.emb j) = V c main_arg7 j
    refine congrArg (V c main_arg7) (funext fun a => Fin.ext ?_)
    match a with
    | ⟨0, _⟩ => show win2_1.index t (0 : Fin 2) * 128 + 1 * (j 0).val = (j 0).val; omega
    | ⟨1, _⟩ => show win2_1.index t (1 : Fin 2) * 128 + 1 * (j 1).val = (j 1).val; omega
  · show win2_2.index t (0 : Fin 2) * 5000 + 1 * (y 0).val = 5000 * t.val + (y 0).val; omega
  · show win2_2.index t (1 : Fin 2) * 128 + 1 * (y 1).val = (y 1).val; omega

/-- An index of the output array is in point `t`'s block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v59).slice (win2_2.rect t)).set ↔ _
  rw [View.set_slice_whole, Rect.mem_set_unit]
  exact Iff.rfl

/-- Every index of the output array is in some point's block: row `r` in block `r / 5000`. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := rowBlock_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region is the projection of the feature array by the weight. -/
theorem final2 (c : Dev nD) :
    (dat2 (F := Ideal) V c).arrAt 2 cfg2.N = Cert.Stages.proj (V c main_v58) (V c main_arg7) :=
  (dat2 (F := Ideal) V c).arrAt_eq_of_cover 2 _ (fun t _ => flushed2_eq V c t) (fun i => cover2 i)

end

end Cert.KernelIdeal.Gen

end
-- ==== Proof.KI.Val3.lean ====
/-
  The value of region 3 of @main on the extended reals: the second layer's bias row added to every row of the aggregated features, and the maximum with zero.
  Entry `(r, q)` of the output array after the region is `max (a[r, q] + b[q], 0)`, where `a` is the input array and `b` the
  bias row as the region finds them. Point `t` of the grid writes rows `5000·t … 5000·t + 4999`, each entry the body's
  payload of the input block's entry in the same place and of the bias entry in the same column; the twenty blocks
  fill the array, row `r` lying in the block of point `r / 5000`.
-/
import proofs.«406510_j66254165508930_1_alg».proof.Proof.KI.R3
import proofs.«406510_j66254165508930_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)

/-- The payload as one expression of the two loaded blocks. -/
theorem pay3_eq (x : Vec Ideal S5000x128 .f32) (b : Vec Ideal S128 .f32) :
    k3_pay1 x b = maximumf (addf (shapeCast S5000x128 x shapeCasts_S5000x128_S5000x128) (broadcastTo S5000x128 (shapeCast S1x128 b shapeCasts_S128_S1x128) broadcasts_S1x128_S5000x128)) (broadcast S5000x128 (Scalar.ofBits .f32 0x00000000#32)) := rfl

/-- The payload at row `p`, column `q` of the block: the bias entry of column `q` added to the input's entry, and the maximum with zero. -/
theorem pay3_at (x : Vec Ideal S5000x128 .f32) (b : Vec Ideal S128 .f32) (p : Fin 5000) (q : Fin 128) :
    k3_pay1 x b (ix2 p q) = max (x (ix2 p q) + b (ix1 q)) (Ideal.ofBits .f32 0x00000000#32) := by
  rw [pay3_eq, maximumf_apply, broadcast_apply, addf_apply, shapeCast_self, broadcastTo_1b_ab_apply, shapeCast_a_1a_apply]
  rfl

/-- The claimed array at row `r`, column `q`: the same expression of the whole arrays. -/
theorem spec3_at (A : (⟨Cert.ReferenceIdeal.S100000x128, .f32⟩ : BufTy).Contents (Elt Ideal))
    (B : (⟨Cert.ReferenceIdeal.S128, .f32⟩ : BufTy).Contents (Elt Ideal)) (r : Fin 100000) (q : Fin 128) :
    Cert.Stages.relu (Cert.Stages.addBias A B) (ix2 r q) = max (A (ix2 r q) + B (ix1 q)) (Ideal.ofBits .f32 0x00000000#32) := by
  unfold Cert.Stages.relu Cert.Stages.addBias
  rw [maximumf_apply, broadcastInDim_scalar_apply, constant_apply, addf_apply, broadcastInDim_oneRow_apply]
  rw [broadcastInDim_apply ![1] _ B (ix2 (0 : Fin 1) q) (ix1 q) (fun a => by
    match a with
    | ⟨0, _⟩ => rfl)]

/-- The printed index maps over the twenty points: the input's and the output's block is `(t, 0)`, the bias row's `(0)`. -/
theorem blocks3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b))

/-- What point `t` writes back is block `t` of the claimed array. -/
theorem written3 (c : Dev nD) (t : Fin cfg3.N) :
    (dat3 (F := Ideal) V c).flushed 2 t
      = ((cfg3.win 2).blk t).view.read (Elt Ideal) (Cert.Stages.relu (Cert.Stages.addBias (V c main_v76) (V c main_arg8))) := by
  show (cfg3.win 2).cut (grid3.coords t) ((dat3 V c).after 2 t) = _
  rw [after3_2]
  obtain ⟨e0, e1, e2, e3, e4⟩ := blocks3 t
  have ht : t.val < 20 := t.isLt
  funext j
  obtain ⟨p, q, rfl⟩ : ∃ (p : Fin 5000) (q : Fin 128), j = ix2 p q := ⟨j 0, j 1, eq_ix2 j⟩
  have hp : p.val < 5000 := p.isLt
  show k3_pay1 (blk3 V c 0 t) (blk3 V c 1 t) (ix2 p q) = (Cert.Stages.relu (Cert.Stages.addBias (V c main_v76) (V c main_arg8))) (((cfg3.win 2).blk t).view.emb (ix2 p q))
  -- the place of entry (p, q) of block t in the arrays
  have place2 : ((cfg3.win 2).blk t).view.emb (ix2 p q) = ix2 (⟨t.val * 5000 + p.val, by omega⟩ : Fin 100000) q := by
    funext a; apply Fin.ext
    match a with
    | ⟨0, _⟩ => show win3_2.index t (0 : Fin 2) * 5000 + 1 * p.val = t.val * 5000 + p.val; omega
    | ⟨1, _⟩ => show win3_2.index t (1 : Fin 2) * 128 + 1 * q.val = q.val; omega
  have place0 : ((cfg3.win 0).blk t).view.emb (ix2 p q) = ix2 (⟨t.val * 5000 + p.val, by omega⟩ : Fin 100000) q := by
    funext a; apply Fin.ext
    match a with
    | ⟨0, _⟩ => show win3_0.index t (0 : Fin 2) * 5000 + 1 * p.val = t.val * 5000 + p.val; omega
    | ⟨1, _⟩ => show win3_0.index t (1 : Fin 2) * 128 + 1 * q.val = q.val; omega
  have place1 : ((cfg3.win 1).blk t).view.emb (ix1 q) = ix1 q := by
    funext a; apply Fin.ext
    match a with
    | ⟨0, _⟩ => show win3_1.index t (0 : Fin 1) * 128 + 1 * q.val = q.val; omega
  have in0 : blk3 V c 0 t (ix2 p q) = V c main_v76 (ix2 (⟨t.val * 5000 + p.val, by omega⟩ : Fin 100000) q) := by
    show V c main_v76 (((cfg3.win 0).blk t).view.emb (ix2 p q)) = _
    rw [place0]
  have in1 : blk3 V c 1 t (ix1 q) = V c main_arg8 (ix1 q) := by
    show V c main_arg8 (((cfg3.win 1).blk t).view.emb (ix1 q)) = _
    rw [place1]
  rw [pay3_at, place2, spec3_at, in0, in1]

/-- An index of the output array is in point `t`'s block iff each coordinate is in the block's range on its axis. -/
theorem inBlock3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v77).slice (win3_2.rect t)).set ↔ _
  rw [View.set_slice_whole, Rect.mem_set_unit]
  exact Iff.rfl

/-- Every index of the output array is in some point's block: row `r` in the block of point `r / 5000`. -/
theorem covered3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hlt : (i 0).val / 5000 < 20 := by omega
  obtain ⟨-, -, -, e3, e4⟩ := blocks3 ⟨(i 0).val / 5000, hlt⟩
  refine ⟨⟨(i 0).val / 5000, hlt⟩, flush3_2 _, ?_⟩
  rw [inBlock3]
  intro a
  match a with
  | ⟨0, _⟩ =>
    show win3_2.index ⟨(i 0).val / 5000, hlt⟩ (0 : Fin 2) * 5000 ≤ (i 0).val ∧ (i 0).val < win3_2.index ⟨(i 0).val / 5000, hlt⟩ (0 : Fin 2) * 5000 + 5000
    rw [e3]; show (i 0).val / 5000 * 5000 ≤ (i 0).val ∧ (i 0).val < (i 0).val / 5000 * 5000 + 5000; omega
  | ⟨1, _⟩ =>
    show win3_2.index ⟨(i 0).val / 5000, hlt⟩ (1 : Fin 2) * 128 ≤ (i 1).val ∧ (i 1).val < win3_2.index ⟨(i 0).val / 5000, hlt⟩ (1 : Fin 2) * 128 + 128
    rw [e4]; omega

/-- The output array after the region. -/
theorem final3 (c : Dev nD) :
    (dat3 (F := Ideal) V c).arrAt 2 cfg3.N = Cert.Stages.relu (Cert.Stages.addBias (V c main_v76) (V c main_arg8)) :=
  (dat3 (F := Ideal) V c).arrAt_eq_of_cover 2 _ (fun t _ => written3 V c t) (covered3)

end

end Cert.KernelIdeal.Gen

end
-- ==== Proof.KI.Val4.lean ====
/-
  The value of region 4 on the extended reals: the same projection at another call. After the twenty points the
  output array is `h · W` of the feature array and the weight this call is given, as the reference spells it: point
  `t`'s blocks are rows `5000·t … 5000·t + 4999` of the features and of the output and the whole weight, the block
  product at `(p, q)` is the projection at `(5000·t + p, q)`, and the twenty row blocks fill the array.
-/
import proofs.«406510_j66254165508930_1_alg».proof.Proof.KI.R4
import proofs.«406510_j66254165508930_1_alg».proof.Proof.KI.Val0
import proofs.«406510_j66254165508930_1_alg».proof.Proof.Spec
import Idealize.ShloMosaic.Lib.Pipeline.Value

set_option maxRecDepth 16384

noncomputable section

open scoped BigOperators

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section
variable (V : (c : Dev nD) → (b : Ref sig .tc) → Buf (Elt Ideal) ((c : Thread nD τ).loc b))

/-- The index maps over the grid: the feature and output windows sit at row block `t`, column block 0; the weight's
    block never moves. -/
theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every row block is some point's. -/
theorem rowBlock_onto4 : ∀ q : Fin 20, ∃ t : Fin cfg4.N, win4_2.index t = ![q.val, 0] :=
  (by decide +kernel : ∀ q : Fin 20, ∃ t : Fin grid4.N, win4_2.index t = ![q.val, 0])

/-- What point `t` writes back is block `t` of the projection of the arrays as the region finds them. -/
theorem flushed4_eq (c : Dev nD) (t : Fin cfg4.N) :
    (dat4 (F := Ideal) V c).flushed 2 t
      = ((cfg4.win 2).blk t).view.read (Elt Ideal) (Cert.Stages.proj (F := Ideal) (V c main_v77) (V c main_arg9)) := by
  show (cfg4.win 2).cut (grid4.coords t) ((dat4 V c).after 2 t) = _
  rw [after4_2, pay4_eq_pay0]
  obtain ⟨e0, e1, e2, e3, e4, e5⟩ := blockIdx4 t
  funext y
  refine blockDot_eq_proj (V c main_v77) (V c main_arg9) (blk4 V c 0 t) (blk4 V c 1 t) (5000 * t.val) ?_ ?_ y
    (((cfg4.win 2).blk t).view.emb y) ?_ ?_
  · intro j i h0 h1
    show V c main_v77 (((cfg4.win 0).blk t).view.emb j) = V c main_v77 i
    refine congrArg (V c main_v77) (funext fun a => Fin.ext ?_)
    match a with
    | ⟨0, _⟩ => show win4_0.index t (0 : Fin 2) * 5000 + 1 * (j 0).val = (i 0).val; omega
    | ⟨1, _⟩ => show win4_0.index t (1 : Fin 2) * 128 + 1 * (j 1).val = (i 1).val; omega
  · intro j
    show V c main_arg9 (((cfg4.win 1).blk t).view.emb j) = V c main_arg9 j
    refine congrArg (V c main_arg9) (funext fun a => Fin.ext ?_)
    match a with
    | ⟨0, _⟩ => show win4_1.index t (0 : Fin 2) * 128 + 1 * (j 0).val = (j 0).val; omega
    | ⟨1, _⟩ => show win4_1.index t (1 : Fin 2) * 128 + 1 * (j 1).val = (j 1).val; omega
  · show win4_2.index t (0 : Fin 2) * 5000 + 1 * (y 0).val = 5000 * t.val + (y 0).val; omega
  · show win4_2.index t (1 : Fin 2) * 128 + 1 * (y 1).val = (y 1).val; omega

/-- An index of the output array is in point `t`'s block iff each coordinate is in the block's range on its axis. -/
theorem mem_blk4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v78).slice (win4_2.rect t)).set ↔ _
  rw [View.set_slice_whole, Rect.mem_set_unit]
  exact Iff.rfl

/-- Every index of the output array is in some point's block: row `r` in block `r / 5000`. -/
theorem cover4 (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := rowBlock_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The output array after the region is the projection of the feature array by the weight. -/
theorem final4 (c : Dev nD) :
    (dat4 (F := Ideal) V c).arrAt 2 cfg4.N = Cert.Stages.proj (V c main_v77) (V c main_arg9) :=
  (dat4 (F := Ideal) V c).arrAt_eq_of_cover 2 _ (fun t _ => flushed4_eq V c t) (fun i => cover4 i)

end

end Cert.KernelIdeal.Gen

end
-- ==== Proof.KI.Val5.lean ====
/-
  The value of region 5 of @main on the extended reals: the last layer's bias row added to every row of the aggregated features.
  Entry `(r, q)` of the output array after the region is `a[r, q] + b[q]`, where `a` is the input array and `b` the
  bias row as the region finds them. Point `t` of the grid writes rows `5000·t … 5000·t + 4999`, each entry the body's
  payload of the input block's entry in the same place and of the bias entry in the same column; the twenty blocks
  fill the array, row `r` lying in the block of point `r / 5000`.
-/
import proofs.«406510_j66254165508930_1_alg».proof.Proof.KI.R5
import proofs.«406510_j66254165508930_1_alg».proof.Proof.Spec
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)

/-- The payload as one expression of the two loaded blocks. -/
theorem pay5_eq (x : Vec Ideal S5000x128 .f32) (b : Vec Ideal S128 .f32) :
    k5_pay1 x b = addf (shapeCast S5000x128 x shapeCasts_S5000x128_S5000x128) (broadcastTo S5000x128 (shapeCast S1x128 b shapeCasts_S128_S1x128) broadcasts_S1x128_S5000x128) := rfl

/-- The payload at row `p`, column `q` of the block: the bias entry of column `q` added to the input's entry. -/
theorem pay5_at (x : Vec Ideal S5000x128 .f32) (b : Vec Ideal S128 .f32) (p : Fin 5000) (q : Fin 128) :
    k5_pay1 x b (ix2 p q) = x (ix2 p q) + b (ix1 q) := by
  rw [pay5_eq, addf_apply, shapeCast_self, broadcastTo_1b_ab_apply, shapeCast_a_1a_apply]

/-- The claimed array at row `r`, column `q`: the same expression of the whole arrays. -/
theorem spec5_at (A : (⟨Cert.ReferenceIdeal.S100000x128, .f32⟩ : BufTy).Contents (Elt Ideal))
    (B : (⟨Cert.ReferenceIdeal.S128, .f32⟩ : BufTy).Contents (Elt Ideal)) (r : Fin 100000) (q : Fin 128) :
    Cert.Stages.addBias A B (ix2 r q) = A (ix2 r q) + B (ix1 q) := by
  unfold Cert.Stages.addBias
  rw [addf_apply, broadcastInDim_oneRow_apply]
  rw [broadcastInDim_apply ![1] _ B (ix2 (0 : Fin 1) q) (ix1 q) (fun a => by
    match a with
    | ⟨0, _⟩ => rfl)]

/-- The printed index maps over the twenty points: the input's and the output's block is `(t, 0)`, the bias row's `(0)`. -/
theorem blocks5 : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

section
variable (V : (c : Dev nD) → (b : Ref sig .tc) → Buf (Elt Ideal) ((c : Thread nD τ).loc b))

/-- What point `t` writes back is block `t` of the claimed array. -/
theorem written5 (c : Dev nD) (t : Fin cfg5.N) :
    (dat5 (F := Ideal) V c).flushed 2 t
      = ((cfg5.win 2).blk t).view.read (Elt Ideal) (Cert.Stages.addBias (V c main_v95) (V c main_arg10)) := by
  show (cfg5.win 2).cut (grid5.coords t) ((dat5 V c).after 2 t) = _
  rw [after5_2]
  obtain ⟨e0, e1, e2, e3, e4⟩ := blocks5 t
  have ht : t.val < 20 := t.isLt
  funext j
  obtain ⟨p, q, rfl⟩ : ∃ (p : Fin 5000) (q : Fin 128), j = ix2 p q := ⟨j 0, j 1, eq_ix2 j⟩
  have hp : p.val < 5000 := p.isLt
  show k5_pay1 (blk5 V c 0 t) (blk5 V c 1 t) (ix2 p q) = (Cert.Stages.addBias (V c main_v95) (V c main_arg10)) (((cfg5.win 2).blk t).view.emb (ix2 p q))
  -- the place of entry (p, q) of block t in the arrays
  have place2 : ((cfg5.win 2).blk t).view.emb (ix2 p q) = ix2 (⟨t.val * 5000 + p.val, by omega⟩ : Fin 100000) q := by
    funext a; apply Fin.ext
    match a with
    | ⟨0, _⟩ => show win5_2.index t (0 : Fin 2) * 5000 + 1 * p.val = t.val * 5000 + p.val; omega
    | ⟨1, _⟩ => show win5_2.index t (1 : Fin 2) * 128 + 1 * q.val = q.val; omega
  have place0 : ((cfg5.win 0).blk t).view.emb (ix2 p q) = ix2 (⟨t.val * 5000 + p.val, by omega⟩ : Fin 100000) q := by
    funext a; apply Fin.ext
    match a with
    | ⟨0, _⟩ => show win5_0.index t (0 : Fin 2) * 5000 + 1 * p.val = t.val * 5000 + p.val; omega
    | ⟨1, _⟩ => show win5_0.index t (1 : Fin 2) * 128 + 1 * q.val = q.val; omega
  have place1 : ((cfg5.win 1).blk t).view.emb (ix1 q) = ix1 q := by
    funext a; apply Fin.ext
    match a with
    | ⟨0, _⟩ => show win5_1.index t (0 : Fin 1) * 128 + 1 * q.val = q.val; omega
  have in0 : blk5 V c 0 t (ix2 p q) = V c main_v95 (ix2 (⟨t.val * 5000 + p.val, by omega⟩ : Fin 100000) q) := by
    show V c main_v95 (((cfg5.win 0).blk t).view.emb (ix2 p q)) = _
    rw [place0]
  have in1 : blk5 V c 1 t (ix1 q) = V c main_arg10 (ix1 q) := by
    show V c main_arg10 (((cfg5.win 1).blk t).view.emb (ix1 q)) = _
    rw [place1]
  rw [pay5_at, place2, spec5_at, in0, in1]

/-- An index of the output array is in point `t`'s block iff each coordinate is in the block's range on its axis. -/
theorem inBlock5 (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v96).slice (win5_2.rect t)).set ↔ _
  rw [View.set_slice_whole, Rect.mem_set_unit]
  exact Iff.rfl

/-- Every index of the output array is in some point's block: row `r` in the block of point `r / 5000`. -/
theorem covered5 (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  have hlt : (i 0).val / 5000 < 20 := by omega
  obtain ⟨-, -, -, e3, e4⟩ := blocks5 ⟨(i 0).val / 5000, hlt⟩
  refine ⟨⟨(i 0).val / 5000, hlt⟩, flush5_2 _, ?_⟩
  rw [inBlock5]
  intro a
  match a with
  | ⟨0, _⟩ =>
    show win5_2.index ⟨(i 0).val / 5000, hlt⟩ (0 : Fin 2) * 5000 ≤ (i 0).val ∧ (i 0).val < win5_2.index ⟨(i 0).val / 5000, hlt⟩ (0 : Fin 2) * 5000 + 5000
    rw [e3]; show (i 0).val / 5000 * 5000 ≤ (i 0).val ∧ (i 0).val < (i 0).val / 5000 * 5000 + 5000; omega
  | ⟨1, _⟩ =>
    show win5_2.index ⟨(i 0).val / 5000, hlt⟩ (1 : Fin 2) * 128 ≤ (i 1).val ∧ (i 1).val < win5_2.index ⟨(i 0).val / 5000, hlt⟩ (1 : Fin 2) * 128 + 128
    rw [e4]; omega

/-- The output array after the region. -/
theorem final5 (c : Dev nD) :
    (dat5 (F := Ideal) V c).arrAt 2 cfg5.N = Cert.Stages.addBias (V c main_v95) (V c main_arg10) :=
  (dat5 (F := Ideal) V c).arrAt_eq_of_cover 2 _ (fun t _ => written5 V c t) (covered5)

end

end Cert.KernelIdeal.Gen

end
-- ==== Proof.KI.Val6.lean ====
/-
  The value of region 6 on the extended reals: after the twenty points the result array is the one-hot sum, entry
  `(g, k)` the sum over ALL 100000 rows `n` of `onehot[n, g] · h[n, k]`. At one point the body adds to the accumulator's
  entry `(g, k)` the sum over the point's 5000 rows `r` of the one-hot block's `(r, g)` times the feature block's
  `(r, k)`: the block product contracts the row axis of both blocks, rounding to bf16 is the identity here, and the
  product's own accumulator is zero. The accumulator starts from zeros, and point `t`'s blocks are rows
  `5000·t … 5000·t + 4999` of the two arrays; so after point `n` the accumulator holds the sum of the terms of rows
  `0 … 5000·(n + 1) - 1` (induction on the point; addition of extended reals needs nothing more), and after the last
  point the sum over every row. The result's one block is its whole array, written back once, at the last point.
-/
import proofs.«406510_j66254165508930_1_alg».proof.Proof.KI.R6
import proofs.«406510_j66254165508930_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The block product at an index -/

/-- The pooling product's left operand index on its row axis, the contracted one: the contraction position. -/
theorem lhs_poolDot6_0 (i : S128x128.Idx) (q : dot_S5000x128_S5000x128_S128x128_0_0_1_1_n_n.contr.Idx) :
    (dot_S5000x128_S5000x128_S128x128_0_0_1_1_n_n.lhsIdx i q 0).val = (q ⟨0, by decide⟩).val :=
  dot_S5000x128_S5000x128_S128x128_0_0_1_1_n_n.lhsIdx_val_of_single rfl i q
/-- On its column axis: the output's row (the graph number). -/
theorem lhs_poolDot6_1 (i : S128x128.Idx) (q : dot_S5000x128_S5000x128_S128x128_0_0_1_1_n_n.contr.Idx) :
    (dot_S5000x128_S5000x128_S128x128_0_0_1_1_n_n.lhsIdx i q 1).val = (i 0).val := by
  unfold DotDims.lhsIdx
  rw [dif_neg (show ¬(1 : Fin S5000x128.rank) ∈ dot_S5000x128_S5000x128_S128x128_0_0_1_1_n_n.lhsBatch by decide), dif_pos (show (1 : Fin S5000x128.rank) ∈ dot_S5000x128_S5000x128_S128x128_0_0_1_1_n_n.lhsNonContracting by decide)]
  rfl
/-- The right operand index on its row axis, the contracted one: the contraction position. -/
theorem rhs_poolDot6_0 (i : S128x128.Idx) (q : dot_S5000x128_S5000x128_S128x128_0_0_1_1_n_n.contr.Idx) :
    (dot_S5000x128_S5000x128_S128x128_0_0_1_1_n_n.rhsIdx i q 0).val = (q ⟨0, by decide⟩).val :=
  dot_S5000x128_S5000x128_S128x128_0_0_1_1_n_n.rhsIdx_val_of_single rfl i q
/-- On its column axis: the output's column (the feature). -/
theorem rhs_poolDot6_1 (i : S128x128.Idx) (q : dot_S5000x128_S5000x128_S128x128_0_0_1_1_n_n.contr.Idx) :
    (dot_S5000x128_S5000x128_S128x128_0_0_1_1_n_n.rhsIdx i q 1).val = (i 1).val := by
  unfold DotDims.rhsIdx
  rw [dif_neg (show ¬(1 : Fin S5000x128.rank) ∈ dot_S5000x128_S5000x128_S128x128_0_0_1_1_n_n.rhsBatch by decide), dif_pos (show (1 : Fin S5000x128.rank) ∈ dot_S5000x128_S5000x128_S128x128_0_0_1_1_n_n.rhsNonContracting by decide)]
  rfl

/-- The accumulating payload at entry `(g, k)`: what the accumulator held there plus the sum over the block's 5000 rows
    `r` of the one-hot block's entry `(r, g)` times the feature block's entry `(r, k)` (the product contracts the row
    axis of BOTH blocks; the rounding to bf16 is the identity on the extended reals; the product's own accumulator is zero). -/
theorem pay6_apply (x0 : Vec Ideal S5000x128 .bf16) (x1 : Vec Ideal S5000x128 .f32) (s : Vec Ideal S128x128 .f32) (g k : Fin 128) :
    k6_pay2 x0 x1 s (ix2 g k) = (s (ix2 g k) : EReal) + ∑ r : Fin 5000, (x0 (ix2 r g) : EReal) * (x1 (ix2 r k) : EReal) := by
  unfold k6_pay2
  simp only [shapeCast_self]
  refine (congrArg (fun z : EReal => (s (ix2 g k) : EReal) + z)
    (Ideal.matmul_constant_zero_apply dot_S5000x128_S5000x128_S128x128_0_0_1_1_n_n none _ _ (ix2 g k))).trans ?_
  refine congrArg (fun z : EReal => (s (ix2 g k) : EReal) + z) ?_
  rw [← Equiv.sum_comp (ValueIdx.contrEquiv1 dot_S5000x128_S5000x128_S128x128_0_0_1_1_n_n 5000 rfl rfl).symm]
  refine Finset.sum_congr rfl fun r _ => ?_
  have hr := ValueIdx.contrEquiv1_symm_val dot_S5000x128_S5000x128_S128x128_0_0_1_1_n_n 5000 rfl rfl r
  have el : dot_S5000x128_S5000x128_S128x128_0_0_1_1_n_n.lhsIdx (ix2 g k) ((ValueIdx.contrEquiv1 dot_S5000x128_S5000x128_S128x128_0_0_1_1_n_n 5000 rfl rfl).symm r) = ix2 r g := funext fun a => Fin.ext (by
    match a with
    | ⟨0, _⟩ => exact (lhs_poolDot6_0 _ _).trans hr
    | ⟨1, _⟩ => exact lhs_poolDot6_1 _ _)
  have er : dot_S5000x128_S5000x128_S128x128_0_0_1_1_n_n.rhsIdx (ix2 g k) ((ValueIdx.contrEquiv1 dot_S5000x128_S5000x128_S128x128_0_0_1_1_n_n 5000 rfl rfl).symm r) = ix2 r k := funext fun a => Fin.ext (by
    match a with
    | ⟨0, _⟩ => exact (rhs_poolDot6_0 _ _).trans hr
    | ⟨1, _⟩ => exact rhs_poolDot6_1 _ _)
  rw [el, er]
  rfl

/-- The zero payload the accumulator starts from is zero at every entry. -/
theorem pay6_zero (i : S128x128.Idx) : (k6_pay1 (F := Ideal) i : EReal) = 0 := by
  unfold k6_pay1
  rw [shapeCast_self]
  exact Ideal.ofBits_zero_f32

/-! ## The accumulator as a sum over rows -/

/-- Row `m`'s term of entry `(g, k)` of the one-hot sum; zero past the last row. -/
def rowTerm6 (oh : Vec Ideal S100000x128 .bf16) (h : Vec Ideal S100000x128 .f32) (g k : Fin 128) (m : ℕ) : EReal :=
  if hm : m < 100000 then (oh (ix2 ⟨m, hm⟩ g) : EReal) * (h (ix2 ⟨m, hm⟩ k) : EReal) else 0

/-- When the blocks `x0`, `x1` hold the 5000 rows of `oh`, `h` from row `b`, the payload adds those rows' terms to what
    the accumulator held. -/
theorem pay6_rows (oh : Vec Ideal S100000x128 .bf16) (h : Vec Ideal S100000x128 .f32)
    (x0 : Vec Ideal S5000x128 .bf16) (x1 : Vec Ideal S5000x128 .f32) (s : Vec Ideal S128x128 .f32) (b : ℕ) (hb : b + 5000 ≤ 100000)
    (hx0 : ∀ (j : S5000x128.Idx) (i : S100000x128.Idx), (i 0).val = b + (j 0).val → (i 1).val = (j 1).val → x0 j = oh i)
    (hx1 : ∀ (j : S5000x128.Idx) (i : S100000x128.Idx), (i 0).val = b + (j 0).val → (i 1).val = (j 1).val → x1 j = h i)
    (g k : Fin 128) :
    k6_pay2 x0 x1 s (ix2 g k) = (s (ix2 g k) : EReal) + ∑ m ∈ Finset.range 5000, rowTerm6 oh h g k (b + m) := by
  rw [pay6_apply, Finset.sum_range]
  refine congrArg (fun z : EReal => (s (ix2 g k) : EReal) + z) (Finset.sum_congr rfl fun r _ => ?_)
  have hm : b + r.val < 100000 := by have := r.isLt; omega
  unfold rowTerm6
  rw [dif_pos hm, hx0 (ix2 r g) (ix2 ⟨b + r.val, hm⟩ g) rfl rfl, hx1 (ix2 r k) (ix2 ⟨b + r.val, hm⟩ k) rfl rfl]

section
variable (V : (c : Dev nD) → (b : Ref sig .tc) → Buf (Elt Ideal) ((c : Thread nD τ).loc b))

/-- The index maps over the grid: both inputs' windows sit at row block `t`, column block 0; the result's block never moves. -/
theorem blockIdx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

/-- Point `t`'s one-hot block holds rows `5000·t … 5000·t + 4999` of the one-hot array as the region finds it, -/
theorem blkRows6_0 (c : Dev nD) (t : Fin cfg6.N) (j : S5000x128.Idx) (i : S100000x128.Idx)
    (h0 : (i 0).val = 5000 * t.val + (j 0).val) (h1 : (i 1).val = (j 1).val) : blk6 V c 0 t j = V c main_v103 i := by
  obtain ⟨e0, e1, -, -, -, -⟩ := blockIdx6 t
  show V c main_v103 (((cfg6.win 0).blk t).view.emb j) = V c main_v103 i
  refine congrArg (V c main_v103) (funext fun a => Fin.ext ?_)
  match a with
  | ⟨0, _⟩ => show win6_0.index t (0 : Fin 2) * 5000 + 1 * (j 0).val = (i 0).val; omega
  | ⟨1, _⟩ => show win6_0.index t (1 : Fin 2) * 128 + 1 * (j 1).val = (i 1).val; omega
/-- and its feature block the same rows of the feature array. -/
theorem blkRows6_1 (c : Dev nD) (t : Fin cfg6.N) (j : S5000x128.Idx) (i : S100000x128.Idx)
    (h0 : (i 0).val = 5000 * t.val + (j 0).val) (h1 : (i 1).val = (j 1).val) : blk6 V c 1 t j = V c main_v96 i := by
  obtain ⟨-, -, e2, e3, -, -⟩ := blockIdx6 t
  show V c main_v96 (((cfg6.win 1).blk t).view.emb j) = V c main_v96 i
  refine congrArg (V c main_v96) (funext fun a => Fin.ext ?_)
  match a with
  | ⟨0, _⟩ => show win6_1.index t (0 : Fin 2) * 5000 + 1 * (j 0).val = (i 0).val; omega
  | ⟨1, _⟩ => show win6_1.index t (1 : Fin 2) * 128 + 1 * (j 1).val = (i 1).val; omega

/-- ONE POINT'S STEP: the payload of point `t`'s blocks over `s` adds rows `5000·t … 5000·t + 4999`'s terms to `s`. -/
theorem step6 (c : Dev nD) (t : Fin cfg6.N) (s : Vec Ideal S128x128 .f32) (g k : Fin 128) :
    k6_pay2 (blk6 V c 0 t) (blk6 V c 1 t) s (ix2 g k)
      = (s (ix2 g k) : EReal) + ∑ m ∈ Finset.range 5000, rowTerm6 (V c main_v103) (V c main_v96) g k (5000 * t.val + m) :=
  pay6_rows (V c main_v103) (V c main_v96) (blk6 V c 0 t) (blk6 V c 1 t) s (5000 * t.val)
    (by have := t.isLt; have : cfg6.N = 20 := N_6; omega) (blkRows6_0 V c t) (blkRows6_1 V c t) g k

/-- THE ACCUMULATOR AFTER POINT `n` is the sum of the terms of rows `0 … 5000·(n + 1) - 1`: by induction on the point. -/
theorem acc6_rows (c : Dev nD) : ∀ (n : ℕ) (hn : n < cfg6.N) (g k : Fin 128),
    (acc6 V c n hn (ix2 g k) : EReal) = ∑ m ∈ Finset.range (5000 * (n + 1)), rowTerm6 (V c main_v103) (V c main_v96) g k m
  | 0, hn, g, k => by
    rw [show acc6 V c 0 hn = k6_pay2 (blk6 V c 0 ⟨0, hn⟩) (blk6 V c 1 ⟨0, hn⟩) (k6_pay1 (F := Ideal)) from rfl, step6, pay6_zero, zero_add]
    refine Finset.sum_congr rfl fun m _ => ?_
    rw [show 5000 * (⟨0, hn⟩ : Fin cfg6.N).val + m = m from by show 5000 * 0 + m = m; omega]
  | n + 1, hn, g, k => by
    rw [show acc6 V c (n + 1) hn = k6_pay2 (blk6 V c 0 ⟨n + 1, hn⟩) (blk6 V c 1 ⟨n + 1, hn⟩) (acc6 V c n (Nat.lt_of_succ_lt hn)) from rfl,
      step6, acc6_rows c n (Nat.lt_of_succ_lt hn) g k,
      show 5000 * (n + 1 + 1) = 5000 * (n + 1) + 5000 from by omega, Finset.sum_range_add]

/-- After the LAST point the accumulator is the one-hot sum over all 100000 rows. -/
theorem acc6_last (c : Dev nD) (t : Fin cfg6.N) (ht : t.val = 19) (y : S128x128.Idx) (i : S128x128.Idx)
    (h0 : (i 0).val = (y 0).val) (h1 : (i 1).val = (y 1).val) :
    acc6 V c t.val t.isLt y = Cert.Stages.oneHotSum (V c main_v103) (V c main_v96) i := by
  obtain ⟨g, k, rfl⟩ : ∃ (g k : Fin 128), y = ix2 g k := ⟨y 0, y 1, eq_ix2 y⟩
  obtain rfl : g = i 0 := Fin.ext h0.symm
  obtain rfl : k = i 1 := Fin.ext h1.symm
  refine (acc6_rows V c t.val t.isLt (i 0) (i 1)).trans ?_
  rw [show 5000 * (t.val + 1) = 100000 from by omega, Finset.sum_range]
  unfold Cert.Stages.oneHotSum
  refine Finset.sum_congr rfl fun n _ => ?_
  unfold rowTerm6
  rw [dif_pos n.isLt]

/-! ## The array after the twenty points -/

/-- What the last point writes back is the whole one-hot sum (the result's one block is its whole array). -/
theorem flushed6_eq (c : Dev nD) (t : Fin cfg6.N) (hf : (cfg6.win 2).flush t = true) :
    (dat6 (F := Ideal) V c).flushed 2 t
      = ((cfg6.win 2).blk t).view.read (Elt Ideal) (Cert.Stages.oneHotSum (V c main_v103) (V c main_v96)) := by
  have ht : t.val = 19 := by
    have h := (flush6_2 t).mp hf
    have hN : t.val < 20 := lt_of_lt_of_eq t.isLt (show cfg6.N = 20 from N_6)
    omega
  show (cfg6.win 2).cut (grid6.coords t) ((dat6 V c).after 2 t) = _
  rw [after6_2]
  obtain ⟨-, -, -, -, e4, e5⟩ := blockIdx6 t
  have hA : ∀ y : S128x128.Idx, acc6 V c t.val t.isLt y
      = Cert.Stages.oneHotSum (V c main_v103) (V c main_v96) (((cfg6.win 2).blk t).view.emb y) := fun y =>
    acc6_last V c t ht y (((cfg6.win 2).blk t).view.emb y)
      (by show win6_2.index t (0 : Fin 2) * 128 + 1 * (y 0).val = (y 0).val; omega)
      (by show win6_2.index t (1 : Fin 2) * 128 + 1 * (y 1).val = (y 1).val; omega)
  generalize acc6 V c t.val t.isLt = A at hA ⊢
  funext y
  show A y = _
  refine (hA y).trans ?_
  rw [View.read_apply, cast_eq]

/-- An index of the result array is in point `t`'s block iff each coordinate is in the block's range on its axis. -/
theorem mem_blk6 (t : Fin cfg6.N) (i : S128x128.Idx) :
    i ∈ ((cfg6.win 2).blk t).view.set ↔ ∀ a : Fin 2, win6_2.index t a * S128x128.size a ≤ (i a).val ∧ (i a).val < win6_2.index t a * S128x128.size a + S128x128.size a := by
  show i ∈ ((View.whole main_v104).slice (win6_2.rect t)).set ↔ _
  rw [View.set_slice_whole, Rect.mem_set_unit]
  exact Iff.rfl

/-- Every index of the result array is in the last point's block, the one point that writes back. -/
theorem cover6 (i : S128x128.Idx) : ∃ t : Fin cfg6.N, (cfg6.win 2).flush t = true ∧ i ∈ ((cfg6.win 2).blk t).view.set := by
  have hi0 : (i 0).val < 128 := (i 0).isLt
  have hi1 : (i 1).val < 128 := (i 1).isLt
  have hN : 19 < cfg6.N := by rw [show cfg6.N = 20 from N_6]; omega
  obtain ⟨-, -, -, -, e4, e5⟩ := blockIdx6 ⟨19, hN⟩
  refine ⟨⟨19, hN⟩, (flush6_2 ⟨19, hN⟩).mpr rfl, ?_⟩
  rw [mem_blk6]
  intro a
  match a with
  | ⟨0, _⟩ => show win6_2.index ⟨19, hN⟩ (0 : Fin 2) * 128 ≤ (i 0).val ∧ (i 0).val < win6_2.index ⟨19, hN⟩ (0 : Fin 2) * 128 + 128; omega
  | ⟨1, _⟩ => show win6_2.index ⟨19, hN⟩ (1 : Fin 2) * 128 ≤ (i 1).val ∧ (i 1).val < win6_2.index ⟨19, hN⟩ (1 : Fin 2) * 128 + 128; omega

/-- The result array after the region is the one-hot sum of the one-hot array and the feature array as the region finds them. -/
theorem final6 (c : Dev nD) :
    (dat6 (F := Ideal) V c).arrAt 2 cfg6.N = Cert.Stages.oneHotSum (V c main_v103) (V c main_v96) :=
  (dat6 (F := Ideal) V c).arrAt_eq_of_cover 2 _ (fun t hf => flushed6_eq V c t hf) (fun i => cover6 i)

end

end Cert.KernelIdeal.Gen

end
-- ==== Proof.KI.Val7.lean ====
/-
  The value of region 7 on the extended reals. The grid has one point and every window's block is its whole array, so the
  output array after the region is what that point writes back: the payload of the four input arrays. Read at an index
  `(r, q)` the payload is

      (∑ k, (sums[r, k] / max(counts[r], 1.0)) · linW[k, q]) + linb[q],

  because on the extended reals rounding to bf16 is the identity and the product into a zero accumulator is the plain sum
  over the contracted axis; the reference's last stage (its divide, its dot_general and its broadcasts) read at the same
  index is the same expression. So the output array ends at the reference's last stage of the sums, the counts, the
  weight and the bias as the region finds them.
-/
import proofs.«406510_j66254165508930_1_alg».proof.Proof.KI.R7
import proofs.«406510_j66254165508930_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.ShloMosaic.Pipeline (Dat Cfg Window)
open scoped BigOperators

namespace Val7

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The contraction as a sum over `k` -/

/-- A contraction over one axis of extent 128, the left operand's columns against the right operand's rows: the sum over
    the contraction positions at output `(r, c)` is the sum over `k` of the left at `(r, k)` times the right at `(k, c)`. -/
theorem contract_sum (D : DotDims S128x128 S128x104 S128x104) (hr : D.contr.rank = 1) (hs : D.contr.size ⟨0, by omega⟩ = 128)
    (l0 : ∀ (i : S128x104.Idx) (q : D.contr.Idx), (D.lhsIdx i q 0).val = (i 0).val)
    (l1 : ∀ (i : S128x104.Idx) (q : D.contr.Idx), (D.lhsIdx i q 1).val = (q ⟨0, by omega⟩).val)
    (r0 : ∀ (i : S128x104.Idx) (q : D.contr.Idx), (D.rhsIdx i q 0).val = (q ⟨0, by omega⟩).val)
    (r1 : ∀ (i : S128x104.Idx) (q : D.contr.Idx), (D.rhsIdx i q 1).val = (i 1).val)
    (L : S128x128.Idx → EReal) (R : S128x104.Idx → EReal) (r : Fin 128) (c : Fin 104) :
    ∑ q : D.contr.Idx, L (D.lhsIdx (ix2 r c) q) * R (D.rhsIdx (ix2 r c) q) = ∑ k : Fin 128, L (ix2 r k) * R (ix2 k c) := by
  rw [← Equiv.sum_comp (contrEquiv1 D 128 hr hs).symm]
  refine Finset.sum_congr rfl fun k _ => ?_
  have hk := contrEquiv1_symm_val D 128 hr hs k
  have el : D.lhsIdx (ix2 r c) ((contrEquiv1 D 128 hr hs).symm k) = ix2 r k := funext fun a => Fin.ext (by
    match a with
    | ⟨0, _⟩ => exact l0 _ _
    | ⟨1, _⟩ => exact (l1 _ _).trans hk)
  have er : D.rhsIdx (ix2 r c) ((contrEquiv1 D 128 hr hs).symm k) = ix2 k c := funext fun a => Fin.ext (by
    match a with
    | ⟨0, _⟩ => exact (r0 _ _).trans hk
    | ⟨1, _⟩ => exact r1 _ _)
  rw [el, er]

/-- The kernel's dot record: its left index keeps the output's row, -/
theorem kdot_lhs_row (i : S128x104.Idx) (q : Cert.KernelIdeal.dot_S128x128_S128x104_S128x104_1_0_0_1_n_n.contr.Idx) :
    (Cert.KernelIdeal.dot_S128x128_S128x104_S128x104_1_0_0_1_n_n.lhsIdx i q 0).val = (i 0).val := by
  unfold DotDims.lhsIdx
  rw [dif_neg (show ¬(0 : Fin S128x128.rank) ∈ Cert.KernelIdeal.dot_S128x128_S128x104_S128x104_1_0_0_1_n_n.lhsBatch by decide),
    dif_pos (show (0 : Fin S128x128.rank) ∈ Cert.KernelIdeal.dot_S128x128_S128x104_S128x104_1_0_0_1_n_n.lhsNonContracting by decide)]
  rfl
/-- and runs along the contraction on its second axis; -/
theorem kdot_lhs_col (i : S128x104.Idx) (q : Cert.KernelIdeal.dot_S128x128_S128x104_S128x104_1_0_0_1_n_n.contr.Idx) :
    (Cert.KernelIdeal.dot_S128x128_S128x104_S128x104_1_0_0_1_n_n.lhsIdx i q 1).val = (q ⟨0, by decide⟩).val :=
  Cert.KernelIdeal.dot_S128x128_S128x104_S128x104_1_0_0_1_n_n.lhsIdx_val_of_single rfl i q
/-- its right index runs along the contraction on its first axis, -/
theorem kdot_rhs_row (i : S128x104.Idx) (q : Cert.KernelIdeal.dot_S128x128_S128x104_S128x104_1_0_0_1_n_n.contr.Idx) :
    (Cert.KernelIdeal.dot_S128x128_S128x104_S128x104_1_0_0_1_n_n.rhsIdx i q 0).val = (q ⟨0, by decide⟩).val :=
  Cert.KernelIdeal.dot_S128x128_S128x104_S128x104_1_0_0_1_n_n.rhsIdx_val_of_single rfl i q
/-- and keeps the output's column. -/
theorem kdot_rhs_col (i : S128x104.Idx) (q : Cert.KernelIdeal.dot_S128x128_S128x104_S128x104_1_0_0_1_n_n.contr.Idx) :
    (Cert.KernelIdeal.dot_S128x128_S128x104_S128x104_1_0_0_1_n_n.rhsIdx i q 1).val = (i 1).val := by
  unfold DotDims.rhsIdx
  rw [dif_neg (show ¬(1 : Fin S128x104.rank) ∈ Cert.KernelIdeal.dot_S128x128_S128x104_S128x104_1_0_0_1_n_n.rhsBatch by decide),
    dif_pos (show (1 : Fin S128x104.rank) ∈ Cert.KernelIdeal.dot_S128x128_S128x104_S128x104_1_0_0_1_n_n.rhsNonContracting by decide)]
  rfl

/-- The reference's dot record: its left index keeps the output's row, -/
theorem rdot_lhs_row (i : S128x104.Idx) (q : Cert.ReferenceIdeal.dot_S128x128_S128x104_S128x104_1_0_0_1_n_n.contr.Idx) :
    (Cert.ReferenceIdeal.dot_S128x128_S128x104_S128x104_1_0_0_1_n_n.lhsIdx i q 0).val = (i 0).val := by
  unfold DotDims.lhsIdx
  rw [dif_neg (show ¬(0 : Fin S128x128.rank) ∈ Cert.ReferenceIdeal.dot_S128x128_S128x104_S128x104_1_0_0_1_n_n.lhsBatch by decide),
    dif_pos (show (0 : Fin S128x128.rank) ∈ Cert.ReferenceIdeal.dot_S128x128_S128x104_S128x104_1_0_0_1_n_n.lhsNonContracting by decide)]
  rfl
/-- and runs along the contraction on its second axis; -/
theorem rdot_lhs_col (i : S128x104.Idx) (q : Cert.ReferenceIdeal.dot_S128x128_S128x104_S128x104_1_0_0_1_n_n.contr.Idx) :
    (Cert.ReferenceIdeal.dot_S128x128_S128x104_S128x104_1_0_0_1_n_n.lhsIdx i q 1).val = (q ⟨0, by decide⟩).val :=
  Cert.ReferenceIdeal.dot_S128x128_S128x104_S128x104_1_0_0_1_n_n.lhsIdx_val_of_single rfl i q
/-- its right index runs along the contraction on its first axis, -/
theorem rdot_rhs_row (i : S128x104.Idx) (q : Cert.ReferenceIdeal.dot_S128x128_S128x104_S128x104_1_0_0_1_n_n.contr.Idx) :
    (Cert.ReferenceIdeal.dot_S128x128_S128x104_S128x104_1_0_0_1_n_n.rhsIdx i q 0).val = (q ⟨0, by decide⟩).val :=
  Cert.ReferenceIdeal.dot_S128x128_S128x104_S128x104_1_0_0_1_n_n.rhsIdx_val_of_single rfl i q
/-- and keeps the output's column. -/
theorem rdot_rhs_col (i : S128x104.Idx) (q : Cert.ReferenceIdeal.dot_S128x128_S128x104_S128x104_1_0_0_1_n_n.contr.Idx) :
    (Cert.ReferenceIdeal.dot_S128x128_S128x104_S128x104_1_0_0_1_n_n.rhsIdx i q 1).val = (i 1).val := by
  unfold DotDims.rhsIdx
  rw [dif_neg (show ¬(1 : Fin S128x104.rank) ∈ Cert.ReferenceIdeal.dot_S128x128_S128x104_S128x104_1_0_0_1_n_n.rhsBatch by decide),
    dif_pos (show (1 : Fin S128x104.rank) ∈ Cert.ReferenceIdeal.dot_S128x128_S128x104_S128x104_1_0_0_1_n_n.rhsNonContracting by decide)]
  rfl

/-! ## The two sides at an index -/

/-- The payload at `(r, q)`: row `r` of the sums, each entry divided by that row's count (a count below the
    constant `1.0` read as it), against column `q` of the weight, plus entry `q` of the bias. At the extended reals
    the roundings to bf16 are the identity and the product into the zero accumulator is the plain sum. -/
theorem pay7_apply (n : Vec Ideal S128 .f32) (p : Vec Ideal S128x128 .f32) (w : Vec Ideal S128x104 .f32) (b : Vec Ideal S104 .f32)
    (r : Fin 128) (q : Fin 104) :
    k7_pay1 n p w b (ix2 r q)
      = (∑ k : Fin 128, Ideal.div (p (ix2 r k)) (max (n (ix1 r)) (Ideal.ofBits .f32 0x3F800000#32)) * w (ix2 k q)) + b (ix1 q) := by
  unfold k7_pay1
  refine (addf_apply _ _ _).trans ?_
  refine congrArg₂ (· + ·) ?_ ?_
  · -- the product: a sum over the contracted axis, each factor read through its layout operations
    refine (Ideal.matmul_constant_zero_apply _ none _ _ _).trans ?_
    refine (contract_sum _ rfl rfl kdot_lhs_row kdot_lhs_col kdot_rhs_row kdot_rhs_col _ _ r q).trans ?_
    refine Finset.sum_congr rfl fun k _ => ?_
    refine congrArg₂ (· * ·) ?_ rfl
    refine congrArg₂ Ideal.div (congrFun (shapeCast_self p _) _) ?_
    -- the divisor: the clamped counts as a column, spread along the row
    refine (broadcastTo_a1_ab_apply _ _ r k).trans ((shapeCast_a_a1_apply _ _ r 0).trans ?_)
    exact congrArg (max · _) (congrFun (shapeCast_self n _) _)
  · -- the bias: one row spread over every row
    exact (broadcastTo_1b_ab_apply _ _ r q).trans (shapeCast_a_1a_apply _ _ 0 q)

/-- The reference's last stage at `(r, q)`: the same sum and the same bias entry. -/
theorem finalize_apply (P : (⟨Cert.ReferenceIdeal.S128x128, .f32⟩ : BufTy).Contents (Elt Ideal))
    (N : (⟨Cert.ReferenceIdeal.S128, .f32⟩ : BufTy).Contents (Elt Ideal))
    (W : (⟨Cert.ReferenceIdeal.S128x104, .f32⟩ : BufTy).Contents (Elt Ideal))
    (B : (⟨Cert.ReferenceIdeal.S104, .f32⟩ : BufTy).Contents (Elt Ideal)) (r : Fin 128) (q : Fin 104) :
    Cert.Stages.finalize P N W B (ix2 r q)
      = (∑ k : Fin 128, Ideal.div (P (ix2 r k)) (max (N (ix1 r)) (Ideal.ofBits .f32 0x3F800000#32)) * W (ix2 k q)) + B (ix1 q) := by
  unfold Cert.Stages.finalize
  refine (addf_apply _ _ _).trans ?_
  refine congrArg₂ (· + ·) ?_ ?_
  · simp only [Host.dotGeneral]
    refine (Ideal.dotGeneral_apply _ none _ _ _ _).trans ?_
    refine (contract_sum _ rfl rfl rdot_lhs_row rdot_lhs_col rdot_rhs_row rdot_rhs_col _ _ r q).trans ?_
    refine Finset.sum_congr rfl fun k _ => ?_
    refine congrArg₂ (· * ·) ?_ rfl
    refine congrArg (Ideal.div (P (ix2 r k))) ?_
    -- the divisor: the clamped counts as a column, spread along the row
    refine (broadcastInDim_apply _ _ _ (ix2 r k) (ix2 r (0 : Fin 1)) (fun a => match a with
      | ⟨0, _⟩ => by show r.val = if (128 : Nat) = 1 then 0 else r.val; rw [if_neg (by decide)]
      | ⟨1, _⟩ => by show 0 = if (1 : Nat) = 1 then 0 else k.val; rw [if_pos rfl])).trans ?_
    refine (broadcastInDim_apply _ _ _ (ix2 r (0 : Fin 1)) (ix1 r) (fun a => match a with
      | ⟨0, _⟩ => by show r.val = if (128 : Nat) = 1 then 0 else r.val; rw [if_neg (by decide)])).trans ?_
    exact congrArg (max (N (ix1 r))) (broadcastInDim_apply _ _ _ (ix1 r) ix0 (fun a => a.elim0))
  · -- the bias: one row spread over every row
    refine (broadcastInDim_apply _ _ _ (ix2 r q) (ix2 (0 : Fin 1) q) (fun a => match a with
      | ⟨0, _⟩ => by show 0 = if (1 : Nat) = 1 then 0 else r.val; rw [if_pos rfl]
      | ⟨1, _⟩ => by show q.val = if (104 : Nat) = 1 then 0 else q.val; rw [if_neg (by decide)])).trans ?_
    exact broadcastInDim_apply _ _ _ (ix2 (0 : Fin 1) q) (ix1 q) (fun a => match a with
      | ⟨0, _⟩ => by show q.val = if (104 : Nat) = 1 then 0 else q.val; rw [if_neg (by decide)])

/-! ## The blocks of the single point -/

/-- The printed index maps, decided over the grid's one point: every window's block index is zero on every axis (each
    block is its whole array). -/
theorem idx7_zero : ∀ t : Fin cfg7.N, win7_0.index t (0 : Fin 2) = 0 ∧ win7_0.index t (1 : Fin 2) = 0
    ∧ win7_1.index t (0 : Fin 1) = 0
    ∧ win7_2.index t (0 : Fin 2) = 0 ∧ win7_2.index t (1 : Fin 2) = 0
    ∧ win7_3.index t (0 : Fin 1) = 0
    ∧ win7_4.index t (0 : Fin 2) = 0 ∧ win7_4.index t (1 : Fin 2) = 0 :=
  (by decide +kernel : ∀ t : Fin grid7.N, _)

section
variable (V : (c : Dev nD) → (b : Ref sig .tc) → Buf (Elt Ideal) ((c : Thread nD τ).loc b))

/-- The block of the sums is the array of sums. -/
theorem blk7_0_apply (c : Dev nD) (t : Fin cfg7.N) (r k : Fin 128) : blk7 V c 0 t (ix2 r k) = V c main_v104 (ix2 r k) := by
  obtain ⟨e00, e01, -⟩ := idx7_zero t
  show V c main_v104 (((cfg7.win 0).blk t).view.emb (ix2 r k)) = V c main_v104 (ix2 r k)
  refine congrArg _ (funext fun a => Fin.ext ?_)
  match a with
  | ⟨0, _⟩ => show win7_0.index t (0 : Fin 2) * 128 + 1 * r.val = r.val; omega
  | ⟨1, _⟩ => show win7_0.index t (1 : Fin 2) * 128 + 1 * k.val = k.val; omega

/-- The block of the counts is the array of counts. -/
theorem blk7_1_apply (c : Dev nD) (t : Fin cfg7.N) (r : Fin 128) : blk7 V c 1 t (ix1 r) = V c main_v108 (ix1 r) := by
  obtain ⟨-, -, e10, -⟩ := idx7_zero t
  show V c main_v108 (((cfg7.win 1).blk t).view.emb (ix1 r)) = V c main_v108 (ix1 r)
  refine congrArg _ (funext fun a => Fin.ext ?_)
  match a with
  | ⟨0, _⟩ => show win7_1.index t (0 : Fin 1) * 128 + 1 * r.val = r.val; omega

/-- The block of the weight is the weight. -/
theorem blk7_2_apply (c : Dev nD) (t : Fin cfg7.N) (k : Fin 128) (q : Fin 104) : blk7 V c 2 t (ix2 k q) = V c main_arg11 (ix2 k q) := by
  obtain ⟨-, -, -, e20, e21, -⟩ := idx7_zero t
  show V c main_arg11 (((cfg7.win 2).blk t).view.emb (ix2 k q)) = V c main_arg11 (ix2 k q)
  refine congrArg _ (funext fun a => Fin.ext ?_)
  match a with
  | ⟨0, _⟩ => show win7_2.index t (0 : Fin 2) * 128 + 1 * k.val = k.val; omega
  | ⟨1, _⟩ => show win7_2.index t (1 : Fin 2) * 104 + 1 * q.val = q.val; omega

/-- The block of the bias is the bias. -/
theorem blk7_3_apply (c : Dev nD) (t : Fin cfg7.N) (q : Fin 104) : blk7 V c 3 t (ix1 q) = V c main_arg12 (ix1 q) := by
  obtain ⟨-, -, -, -, -, e30, -⟩ := idx7_zero t
  show V c main_arg12 (((cfg7.win 3).blk t).view.emb (ix1 q)) = V c main_arg12 (ix1 q)
  refine congrArg _ (funext fun a => Fin.ext ?_)
  match a with
  | ⟨0, _⟩ => show win7_3.index t (0 : Fin 1) * 104 + 1 * q.val = q.val; omega

/-- An entry of the output's block sits at the same place in the output array. -/
theorem emb7_4 (t : Fin cfg7.N) (r : Fin 128) (q : Fin 104) : ((cfg7.win 4).blk t).view.emb (ix2 r q) = ix2 r q := by
  obtain ⟨-, -, -, -, -, -, e40, e41⟩ := idx7_zero t
  refine funext fun a => Fin.ext ?_
  match a with
  | ⟨0, _⟩ => show win7_4.index t (0 : Fin 2) * 128 + 1 * r.val = r.val; omega
  | ⟨1, _⟩ => show win7_4.index t (1 : Fin 2) * 104 + 1 * q.val = q.val; omega

/-- What the point writes back is its block of the reference's last stage of the four arrays as the region finds them. -/
theorem flushed7_eq (c : Dev nD) (t : Fin cfg7.N) :
    (dat7 (F := Ideal) V c).flushed 4 t = ((cfg7.win 4).blk t).view.read (Elt Ideal)
      (Cert.Stages.finalize (V c main_v104) (V c main_v108) (V c main_arg11) (V c main_arg12)) := by
  show (cfg7.win 4).cut (grid7.coords t) ((dat7 V c).after 4 t) = _
  rw [after7_4]
  funext y
  obtain ⟨r, q, rfl⟩ : ∃ (r : Fin 128) (q : Fin 104), y = ix2 r q := ⟨y 0, y 1, eq_ix2 y⟩
  show k7_pay1 (blk7 V c 1 t) (blk7 V c 0 t) (blk7 V c 2 t) (blk7 V c 3 t) (ix2 r q)
    = Cert.Stages.finalize (V c main_v104) (V c main_v108) (V c main_arg11) (V c main_arg12) (((cfg7.win 4).blk t).view.emb (ix2 r q))
  rw [emb7_4 t r q]
  refine (pay7_apply _ _ _ _ r q).trans (Eq.trans ?_ (finalize_apply _ _ _ _ r q).symm)
  simp only [blk7_0_apply V c t, blk7_1_apply V c t, blk7_2_apply V c t, blk7_3_apply V c t]

/-- An index of the output array is in the point's block iff each coordinate is in the block's range on its axis. -/
theorem mem_blk7_4 (t : Fin cfg7.N) (i : S128x104.Idx) :
    i ∈ ((cfg7.win 4).blk t).view.set ↔ ∀ a : Fin 2, win7_4.index t a * S128x104.size a ≤ (i a).val
      ∧ (i a).val < win7_4.index t a * S128x104.size a + S128x104.size a := by
  show i ∈ ((View.whole main_v109).slice (win7_4.rect t)).set ↔ _
  rw [View.set_slice_whole, Rect.mem_set_unit]
  exact Iff.rfl

/-- The one block is the whole output array. -/
theorem cover7_4 (c : Dev nD) (i : ((cfg7.win 4).arr.view.loc (c.tc : Thread nD τ)).2.ty.Idx) :
    ∃ t : Fin cfg7.N, (cfg7.win 4).flush t = true ∧ i ∈ ((cfg7.win 4).blk t).view.set := by
  have hN : 0 < cfg7.N := (by decide +kernel : 0 < grid7.N)
  obtain ⟨-, -, -, -, -, -, e40, e41⟩ := idx7_zero ⟨0, hN⟩
  refine ⟨⟨0, hN⟩, flush7_4 _, ?_⟩
  rw [mem_blk7_4]
  intro a
  match a with
  | ⟨0, _⟩ =>
    show win7_4.index ⟨0, hN⟩ (0 : Fin 2) * 128 ≤ (i 0).val ∧ (i 0).val < win7_4.index ⟨0, hN⟩ (0 : Fin 2) * 128 + 128
    have h0 : (i 0).val < 128 := (i 0).isLt
    omega
  | ⟨1, _⟩ =>
    show win7_4.index ⟨0, hN⟩ (1 : Fin 2) * 104 ≤ (i 1).val ∧ (i 1).val < win7_4.index ⟨0, hN⟩ (1 : Fin 2) * 104 + 104
    have h1 : (i 1).val < 104 := (i 1).isLt
    omega

end

end Val7

section
variable (V : (c : Dev nD) → (b : Ref sig .tc) → Buf (Elt Ideal) ((c : Thread nD τ).loc b))

/-- THE OUTPUT ARRAY after the region: the reference's last stage of the sums, the counts, the weight and the bias as the
    region finds them. -/
theorem final7 (c : Dev nD) :
    (dat7 (F := Ideal) V c).arrAt 4 cfg7.N
      = Cert.Stages.finalize (V c main_v104) (V c main_v108) (V c main_arg11) (V c main_arg12) :=
  (dat7 V c).arrAt_eq_of_cover 4 _ (fun t _ => Val7.flushed7_eq V c t) (Val7.cover7_4 c)

end

end Cert.KernelIdeal.Gen

end
-- ==== Proof.SpecGcn.lean ====
/-
  The whole network as one function of the program's arguments, built from the stages: the edge list's source and
  target columns, the embedding rows, the degree normalisation (one over the square root of one plus the number of
  edges into a node), the normalised neighbour sum with its self-loop term, three layers, and the mean per graph with
  the last linear layer.
-/
import proofs.«406510_j66254165508930_1_alg».proof.Proof.Spec

noncomputable section

namespace Cert.Stages

open Idealize.ShloMosaic Idealize.ShloMosaic.ValueIdx Cert.ReferenceIdeal Cert.ReferenceIdeal.Gen

variable {F : FTy → Type} [FloatOps F]

/-- The sources of the edges: row 0 of the edge list. -/
def srcOf (ei : (⟨S2x640000, .i32⟩ : BufTy).Contents (Elt F)) : (⟨S640000, .i32⟩ : BufTy).Contents (Elt F) :=
  shapeCast _ (extractStridedSlice S1x640000 ![0, 0] ei slices_S2x640000_S1x640000_0_0) shapeCasts_S1x640000_S640000

/-- The targets of the edges: row 1 of the edge list. -/
def dstOf (ei : (⟨S2x640000, .i32⟩ : BufTy).Contents (Elt F)) : (⟨S640000, .i32⟩ : BufTy).Contents (Elt F) :=
  shapeCast _ (extractStridedSlice S1x640000 ![1, 0] ei slices_S2x640000_S1x640000_1_0) shapeCasts_S1x640000_S640000

/-- A node number below zero counts from the end. -/
def wrapNode (v : (⟨S640000, .i32⟩ : BufTy).Contents (Elt F)) : (⟨S640000, .i32⟩ : BufTy).Contents (Elt F) :=
  select (cmpi .slt v (broadcastInDim S640000 ![] bcast_S_S640000 (constantI S_ 32 0#32)))
    (addi v (broadcastInDim S640000 ![] bcast_S_S640000 (constantI S_ 32 100000#32))) v

/-- A column of row numbers. -/
def asColumn (v : (⟨S640000, .i32⟩ : BufTy).Contents (Elt F)) : (⟨S640000x1, .i32⟩ : BufTy).Contents (Elt F) :=
  broadcastInDim S640000x1 ![0] bcast_S640000_S640000x1_0 v

/-- The embedding rows of the nodes' tokens (a token number below zero counts from the end of the table). -/
def embed (x : (⟨S100000x1, .i32⟩ : BufTy).Contents (Elt F)) (tbl : (⟨S50000x128, .f32⟩ : BufTy).Contents (Elt F)) : (⟨S100000x128, .f32⟩ : BufTy).Contents (Elt F) :=
  Host.gather gather_S50000x128_S100000x1_S100000x128_1_0_n_n_0_1_1128 tbl
    (broadcastInDim S100000x1 ![0] bcast_S100000_S100000x1_0
      (select
        (cmpi .slt (shapeCast _ x shapeCasts_S100000x1_S100000) (broadcastInDim S100000 ![] bcast_S_S100000 (constantI S_ 32 0#32)))
        (addi (shapeCast _ x shapeCasts_S100000x1_S100000) (broadcastInDim S100000 ![] bcast_S_S100000 (constantI S_ 32 50000#32)))
        (shapeCast _ x shapeCasts_S100000x1_S100000)))

/-- One plus the number of edges into each node. -/
def degree (dst : (⟨S640000, .i32⟩ : BufTy).Contents (Elt F)) : (⟨S100000, .f32⟩ : BufTy).Contents (Elt F) :=
  addf
    (Host.scatterAdd scatter_S100000_S640000x1_S640000_n_0_0_1
      (broadcastInDim S100000 ![] bcast_S_S100000 (constant S_ .f32 0x00000000#32)) (asColumn dst)
      (broadcastInDim S640000 ![] bcast_S_S640000 (constant S_ .f32 0x3F800000#32)))
    (broadcastInDim S100000 ![] bcast_S_S100000 (constant S_ .f32 0x3F800000#32))

/-- One over the square root of the degree where the degree is positive, zero elsewhere. -/
def invSqrtDeg (dst : (⟨S640000, .i32⟩ : BufTy).Contents (Elt F)) : (⟨S100000, .f32⟩ : BufTy).Contents (Elt F) :=
  select
    (cmpf (F := F) .ogt (degree dst) (broadcastInDim S100000 ![] bcast_S_S100000 (constant S_ .f32 0x00000000#32)))
    (Host.divf (broadcastInDim S100000 ![] bcast_S_S100000 (constant S_ .f32 0x3F800000#32)) (Host.sqrt (degree dst)))
    (broadcastInDim S100000 ![] bcast_S_S100000 (id (constant S_ .f32 0x00000000#32)))

/-- An edge's weight: the two endpoints' normalisations multiplied. -/
def edgeNorm (src dst : (⟨S640000, .i32⟩ : BufTy).Contents (Elt F)) : (⟨S640000, .f32⟩ : BufTy).Contents (Elt F) :=
  mulf (Host.gather gather_S100000_S640000x1_S640000_n_0_n_n_0_1_1 (invSqrtDeg dst) (asColumn (wrapNode src)))
    (Host.gather gather_S100000_S640000x1_S640000_n_0_n_n_0_1_1 (invSqrtDeg dst) (asColumn (wrapNode dst)))

/-- The self-loop's weight. -/
def selfNorm (dst : (⟨S640000, .i32⟩ : BufTy).Contents (Elt F)) : (⟨S100000, .f32⟩ : BufTy).Contents (Elt F) :=
  mulf (invSqrtDeg dst) (invSqrtDeg dst)

/-- The normalised neighbour sum of the projected features `hw`, plus the self-loop term. -/
def aggr (hw : (⟨S100000x128, .f32⟩ : BufTy).Contents (Elt F)) (src dst : (⟨S640000, .i32⟩ : BufTy).Contents (Elt F)) (norm : (⟨S640000, .f32⟩ : BufTy).Contents (Elt F)) (sn : (⟨S100000, .f32⟩ : BufTy).Contents (Elt F)) :
    (⟨S100000x128, .f32⟩ : BufTy).Contents (Elt F) :=
  addf
    (Host.scatterAdd scatter_S100000x128_S640000x1_S640000x128_1_0_0_1
      (broadcastInDim S100000x128 ![] bcast_S_S100000x128 (constant S_ .f32 0x00000000#32)) (asColumn dst)
      (mulf (Host.gather gather_S100000x128_S640000x1_S640000x128_1_0_n_n_0_1_1128 hw (asColumn (wrapNode src)))
        (broadcastInDim S640000x128 ![0, 1] bcast_S640000x1_S640000x128_0_1 (broadcastInDim S640000x1 ![0] bcast_S640000_S640000x1_0 norm))))
    (mulf hw (broadcastInDim S100000x128 ![0, 1] bcast_S100000x1_S100000x128_0_1 (broadcastInDim S100000x1 ![0] bcast_S100000_S100000x1_0 sn)))

/-- One graph-convolution layer before its activation. -/
def layer (h : (⟨S100000x128, .f32⟩ : BufTy).Contents (Elt F)) (W : (⟨S128x128, .f32⟩ : BufTy).Contents (Elt F)) (b : (⟨S128, .f32⟩ : BufTy).Contents (Elt F)) (ei : (⟨S2x640000, .i32⟩ : BufTy).Contents (Elt F)) :
    (⟨S100000x128, .f32⟩ : BufTy).Contents (Elt F) :=
  addBias (aggr (proj h W) (srcOf ei) (dstOf ei) (edgeNorm (srcOf ei) (dstOf ei)) (selfNorm (dstOf ei))) b

/-- The network: embedding, three layers (the first two followed by the maximum with zero), the mean per graph, the
    last linear layer. -/
def gcn (x : (⟨S100000x1, .i32⟩ : BufTy).Contents (Elt F)) (ei : (⟨S2x640000, .i32⟩ : BufTy).Contents (Elt F)) (batch : (⟨S100000, .i32⟩ : BufTy).Contents (Elt F)) (tbl : (⟨S50000x128, .f32⟩ : BufTy).Contents (Elt F))
    (W1 : (⟨S128x128, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F))
    (W3 : (⟨S128x128, .f32⟩ : BufTy).Contents (Elt F)) (b3 : (⟨S128, .f32⟩ : BufTy).Contents (Elt F)) (linW : (⟨S128x104, .f32⟩ : BufTy).Contents (Elt F)) (linb : (⟨S104, .f32⟩ : BufTy).Contents (Elt F)) :
    (⟨S128x104, .f32⟩ : BufTy).Contents (Elt F) :=
  finalize (poolSum batch (layer (relu (layer (relu (layer (embed x tbl) W1 b1 ei)) W2 b2 ei)) W3 b3 ei)) (counts batch) linW linb

end Cert.Stages

end
-- ==== Proof.KI.Stretch.lean ====
/-
  The host operations of the kernel program between its kernel regions, read as the stage functions of the network:
  the edge list's two columns, the embedding rows, the degree normalisation and the edge and self-loop weights before
  the first region; the normalised neighbour sum before each bias region; the one-hot matrix of the graph numbers and
  the per-graph node counts before the last two regions. Each buffer a stretch writes is a composition of the
  program's pure operations over the buffers it reads, and that composition is the stage function's own definition
  over records of the same literals.
-/
import proofs.«406510_j66254165508930_1_alg».proof.Proof.Gen.KernelIdeal.Regions
import proofs.«406510_j66254165508930_1_alg».proof.Proof.SpecGcn
import Idealize.ShloMosaic.Lib.StableHlo.Run

set_option maxRecDepth 16384

noncomputable section

namespace Cert.KernelIdeal.Gen

open Idealize.ShloMosaic Idealize.ShloMosaic.TcCoe
open Idealize.SL.Sem

variable {F : FTy → Type} [FloatOps F]

/-! ## The first stretch, at any contents of the buffers it reads -/

/-- Row 0 of the edge list, as a vector. -/
theorem first_src (W : Valuation τ sig (Elt F)) :
    StableHlo.after hostOps0 W (Proc.devRef .tc main_v1) = Cert.Stages.srcOf (W (Proc.devRef .tc main_arg1)) := by
  after_results
  rfl

/-- Row 1 of the edge list, as a vector. -/
theorem first_dst (W : Valuation τ sig (Elt F)) :
    StableHlo.after hostOps0 W (Proc.devRef .tc main_v3) = Cert.Stages.dstOf (W (Proc.devRef .tc main_arg1)) := by
  after_results
  rfl

/-- The embedding rows of the nodes' tokens. -/
theorem first_emb (W : Valuation τ sig (Elt F)) :
    StableHlo.after hostOps0 W (Proc.devRef .tc main_v11) = Cert.Stages.embed (W (Proc.devRef .tc main_arg0)) (W (Proc.devRef .tc main_arg4)) := by
  after_results
  rfl

/-- Where the degree is positive. -/
theorem first_pos (W : Valuation τ sig (Elt F)) :
    StableHlo.after hostOps0 W (Proc.devRef .tc main_v19)
      = cmpf (F := F) .ogt (Cert.Stages.degree (Cert.Stages.dstOf (W (Proc.devRef .tc main_arg1))))
          (broadcastInDim S100000 ![] bcast_S_S100000 (constant S_ .f32 0x00000000#32)) := by
  after_results
  rfl

/-- One over the square root of the degree. -/
theorem first_quot (W : Valuation τ sig (Elt F)) :
    StableHlo.after hostOps0 W (Proc.devRef .tc main_v22)
      = Host.divf (broadcastInDim S100000 ![] bcast_S_S100000 (constant S_ .f32 0x3F800000#32))
          (Host.sqrt (Cert.Stages.degree (Cert.Stages.dstOf (W (Proc.devRef .tc main_arg1))))) := by
  after_results
  rfl

/-- The zero the normalisation takes where the degree is not positive. -/
theorem first_zero (W : Valuation τ sig (Elt F)) :
    StableHlo.after hostOps0 W (Proc.devRef .tc main_cst_5) = constant S_ .f32 0x00000000#32 := by
  after_results

/-! ## The second stretch: the choice between the quotient and zero -/

theorem second_inv (W : Valuation τ sig (Elt F)) :
    StableHlo.after hostOps0_1 W (Proc.devRef .tc main_v23)
      = select (W (Proc.devRef .tc main_v19)) (W (Proc.devRef .tc main_v22)) (broadcastInDim S100000 ![] bcast_S_S100000 (id (W (Proc.devRef .tc main_cst_5)))) := by
  after_results
  rfl

/-- It leaves the two columns of the edge list as they were. -/
theorem second_src (W : Valuation τ sig (Elt F)) : StableHlo.after hostOps0_1 W (Proc.devRef .tc main_v1) = W (Proc.devRef .tc main_v1) := by
  after_results
theorem second_dst (W : Valuation τ sig (Elt F)) : StableHlo.after hostOps0_1 W (Proc.devRef .tc main_v3) = W (Proc.devRef .tc main_v3) := by
  after_results
theorem second_emb (W : Valuation τ sig (Elt F)) : StableHlo.after hostOps0_1 W (Proc.devRef .tc main_v11) = W (Proc.devRef .tc main_v11) := by
  after_results

/-! ## The third stretch: the edge weights and the self-loop weights -/

set_option maxHeartbeats 1000000 in
theorem third_norm (W : Valuation τ sig (Elt F)) :
    StableHlo.after hostOps0_2 W (Proc.devRef .tc main_v38)
      = mulf (Host.gather gather_S100000_S640000x1_S640000_n_0_n_n_0_1_1 (W (Proc.devRef .tc main_v23)) (Cert.Stages.asColumn (Cert.Stages.wrapNode (W (Proc.devRef .tc main_v1)))))
          (Host.gather gather_S100000_S640000x1_S640000_n_0_n_n_0_1_1 (W (Proc.devRef .tc main_v23)) (Cert.Stages.asColumn (Cert.Stages.wrapNode (W (Proc.devRef .tc main_v3))))) := by
  after_results_simp
  rfl

theorem third_self (W : Valuation τ sig (Elt F)) :
    StableHlo.after hostOps0_2 W (Proc.devRef .tc main_v39) = mulf (W (Proc.devRef .tc main_v23)) (W (Proc.devRef .tc main_v23)) := by
  after_results

theorem third_src (W : Valuation τ sig (Elt F)) : StableHlo.after hostOps0_2 W (Proc.devRef .tc main_v1) = W (Proc.devRef .tc main_v1) := by
  after_results
theorem third_dst (W : Valuation τ sig (Elt F)) : StableHlo.after hostOps0_2 W (Proc.devRef .tc main_v3) = W (Proc.devRef .tc main_v3) := by
  after_results
theorem third_emb (W : Valuation τ sig (Elt F)) : StableHlo.after hostOps0_2 W (Proc.devRef .tc main_v11) = W (Proc.devRef .tc main_v11) := by
  after_results

/-! ## The three stretches from the launch memory -/

section
variable (m : (ℓ : Loc nD τ sig) → Buf (Elt F) ℓ)

/-- The degree normalisation after the second stretch. -/
theorem launch_inv (c : Dev nD) :
    StableHlo.after hostOps0_1 (StableHlo.after hostOps0 (V0 m c)) (Proc.devRef .tc main_v23)
      = Cert.Stages.invSqrtDeg (Cert.Stages.dstOf (m ((c.tc : Thread nD τ).loc main_arg1))) := by
  rw [second_inv, first_pos, first_quot, first_zero]
  rfl

theorem s0_emb (c : Dev nD) :
    V3 m c (Proc.devRef .tc main_v11) = Cert.Stages.embed (m ((c.tc : Thread nD τ).loc main_arg0)) (m ((c.tc : Thread nD τ).loc main_arg4)) := by
  show StableHlo.after hostOps0_2 (StableHlo.after hostOps0_1 (StableHlo.after hostOps0 (V0 m c))) (Proc.devRef .tc main_v11) = _
  rw [third_emb, second_emb, first_emb]

theorem s0_src (c : Dev nD) :
    V3 m c (Proc.devRef .tc main_v1) = Cert.Stages.srcOf (m ((c.tc : Thread nD τ).loc main_arg1)) := by
  show StableHlo.after hostOps0_2 (StableHlo.after hostOps0_1 (StableHlo.after hostOps0 (V0 m c))) (Proc.devRef .tc main_v1) = _
  rw [third_src, second_src, first_src]

theorem s0_dst (c : Dev nD) :
    V3 m c (Proc.devRef .tc main_v3) = Cert.Stages.dstOf (m ((c.tc : Thread nD τ).loc main_arg1)) := by
  show StableHlo.after hostOps0_2 (StableHlo.after hostOps0_1 (StableHlo.after hostOps0 (V0 m c))) (Proc.devRef .tc main_v3) = _
  rw [third_dst, second_dst, first_dst]

theorem s0_norm (c : Dev nD) :
    V3 m c (Proc.devRef .tc main_v38)
      = Cert.Stages.edgeNorm (Cert.Stages.srcOf (m ((c.tc : Thread nD τ).loc main_arg1))) (Cert.Stages.dstOf (m ((c.tc : Thread nD τ).loc main_arg1))) := by
  show StableHlo.after hostOps0_2 (StableHlo.after hostOps0_1 (StableHlo.after hostOps0 (V0 m c))) (Proc.devRef .tc main_v38) = _
  rw [third_norm, launch_inv, second_src, second_dst, first_src, first_dst]
  rfl

theorem s0_self (c : Dev nD) :
    V3 m c (Proc.devRef .tc main_v39) = Cert.Stages.selfNorm (Cert.Stages.dstOf (m ((c.tc : Thread nD τ).loc main_arg1))) := by
  show StableHlo.after hostOps0_2 (StableHlo.after hostOps0_1 (StableHlo.after hostOps0 (V0 m c))) (Proc.devRef .tc main_v39) = _
  rw [third_self, launch_inv]
  rfl

end

/-! ## The stretches before the bias regions, at any contents of the buffers they read -/

set_option maxHeartbeats 1000000 in
/-- The host operations before region 1: the node numbers wrapped, the projected rows gathered at the edges' sources
    and scaled by the edge weights, summed into the rows of the edges' targets, and the self-loop term added. -/
theorem s1_agg (W : Valuation τ sig (Elt F)) :
    StableHlo.after hostOps1 W (Proc.devRef .tc main_v57)
      = Cert.Stages.aggr (W (Proc.devRef .tc main_v40)) (W (Proc.devRef .tc main_v1)) (W (Proc.devRef .tc main_v3)) (W (Proc.devRef .tc main_v38)) (W (Proc.devRef .tc main_v39)) := by
  after_results_simp
  rfl

set_option maxHeartbeats 1000000 in
/-- The host operations before region 3: the node numbers wrapped, the projected rows gathered at the edges' sources
    and scaled by the edge weights, summed into the rows of the edges' targets, and the self-loop term added. -/
theorem s3_agg (W : Valuation τ sig (Elt F)) :
    StableHlo.after hostOps3 W (Proc.devRef .tc main_v76)
      = Cert.Stages.aggr (W (Proc.devRef .tc main_v59)) (W (Proc.devRef .tc main_v1)) (W (Proc.devRef .tc main_v3)) (W (Proc.devRef .tc main_v38)) (W (Proc.devRef .tc main_v39)) := by
  after_results_simp
  rfl

set_option maxHeartbeats 1000000 in
/-- The host operations before region 5: the node numbers wrapped, the projected rows gathered at the edges' sources
    and scaled by the edge weights, summed into the rows of the edges' targets, and the self-loop term added. -/
theorem s5_agg (W : Valuation τ sig (Elt F)) :
    StableHlo.after hostOps5 W (Proc.devRef .tc main_v95)
      = Cert.Stages.aggr (W (Proc.devRef .tc main_v78)) (W (Proc.devRef .tc main_v1)) (W (Proc.devRef .tc main_v3)) (W (Proc.devRef .tc main_v38)) (W (Proc.devRef .tc main_v39)) := by
  after_results_simp
  rfl

/-! ## The stretches before the pooling and the last region -/

/-- The one-hot matrix of the graph numbers. -/
theorem s6_onehot (W : Valuation τ sig (Elt F)) :
    StableHlo.after hostOps6 W (Proc.devRef .tc main_v103) = Cert.Stages.oneHot (W (Proc.devRef .tc main_arg3)) := by
  after_results
  rfl

/-- The per-graph node counts. -/
theorem s7_counts (W : Valuation τ sig (Elt F)) :
    StableHlo.after hostOps7 W (Proc.devRef .tc main_v108) = Cert.Stages.counts (W (Proc.devRef .tc main_arg3)) := by
  after_results
  rfl

end Cert.KernelIdeal.Gen

end
-- ==== Proof.LibRowTake.lean ====
/-
  Rows of a matrix taken and put back through a column of signed row numbers, read at an entry.

  `x[idx]` of a matrix `x : [N, C]` at a column `idx : [R, 1]` of row numbers is the gather whose result row `e` is
  the row of `x` that `idx[e, 0]` names, the number read as a signed integer and CLAMPED into `[0, N − 1]`. The
  accumulating scatter of update rows `u : [R, C]` into `x` through such a column adds to entry `(n, c)` every
  `u[e, c]` whose row number `idx[e, 0]`, read signed and NOT clamped, is exactly `n`; a row number outside
  `[0, N)` names no row, and its update row is dropped. On the extended reals that accumulation is a finite sum, so
  it does not depend on the order in which the update rows arrive.
-/
import Idealize.ShloMosaic.Lib.ValueIdx

noncomputable section

open scoped BigOperators

namespace Idealize.ShloMosaic.RowTake

open Idealize.ShloMosaic Idealize.ShloMosaic.ValueIdx

/-! ## The gather of rows -/

section Gather
variable {α : Type}

/-- The dimension numbers of a gather of whole rows: operand `[N, C]`, start indices `[R, 1]`, result `[R, C]`; the
    row axis collapsed and named by the start index, the column axis an offset axis, slices `1 × C`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Result entry `(e, c)` starts, on the row axis, at the row number `idx[e, 0]` read signed and clamped. -/
theorem rowGather_start_row {N R C w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowGatherDims N R C wf).start (ix2 e c) idx 0 = min (idx (ix2 e 0)).toInt.toNat (N - 1) := by
  unfold GatherDims.start
  rw [dif_pos (show (0 : Fin 2) ∈ ([0] : List (Fin 2)) from List.mem_singleton.mpr rfl)]
  have hsi : (rowGatherDims N R C wf).siIdx (ix2 e c) ⟨List.idxOf (0 : Fin 2) (rowGatherDims N R C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- … and, on the column axis, at `0`: the start index names no column. -/
theorem rowGather_start_col {N R C w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowGatherDims N R C wf).start (ix2 e c) idx 1 = 0 := by
  unfold GatherDims.start
  rw [dif_neg (show (1 : Fin 2) ∉ ([0] : List (Fin 2)) from by decide)]

/-- Its offset coordinate is `0` on the collapsed row axis … -/
theorem rowGather_off_row {N R C : Nat}
    (wf : GatherDims.WF ⟨2, ![N, C]⟩ ⟨2, ![R, 1]⟩ ⟨2, ![R, C]⟩ [1] [0] [] [0] [] 1 ![1, C]) (e : Fin R) (c : Fin C) :
    (rowGatherDims N R C wf).offCoord (ix2 e c) 0 = 0 :=
  GatherDims.offCoord_eq_zero _ _ _ (fun h => ((GatherDims.mem_sKept _ _).mp h).1 (List.mem_singleton.mpr rfl))

/-- … and its own column on the column axis. -/
theorem rowGather_off_col {N R C : Nat}
    (wf : GatherDims.WF ⟨2, ![N, C]⟩ ⟨2, ![R, 1]⟩ ⟨2, ![R, C]⟩ [1] [0] [] [0] [] 1 ![1, C]) (e : Fin R) (c : Fin C) :
    (rowGatherDims N R C wf).offCoord (ix2 e c) 1 = c.val := by
  unfold GatherDims.offCoord
  rw [dif_pos ((GatherDims.mem_sKept _ _).mpr
    ⟨show (1 : Fin 2) ∉ ([0] : List (Fin 2)) from by decide, List.not_mem_nil⟩)]
  rfl

/-- The gathered entry `(e, c)` is the operand's entry in column `c` of the row `idx[e, 0]` names, that number read
    signed and clamped into `[0, N − 1]`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  show (rowGatherDims N R C wf).start (ix2 e c) idx a + (rowGatherDims N R C wf).batchCoord (ix2 e c) a
    + (rowGatherDims N R C wf).offCoord (ix2 e c) a = _
  rw [GatherDims.batchCoord_eq_zero _ _ _ List.not_mem_nil, Nat.add_zero]
  match a with
  | ⟨0, _⟩ =>
    exact (show (rowGatherDims N R C wf).start (ix2 e c) idx 0 + (rowGatherDims N R C wf).offCoord (ix2 e c) 0
        = min (idx (ix2 e 0)).toInt.toNat (N - 1) by rw [rowGather_start_row, rowGather_off_row, Nat.add_zero])
  | ⟨1, _⟩ =>
    exact (show (rowGatherDims N R C wf).start (ix2 e c) idx 1 + (rowGatherDims N R C wf).offCoord (ix2 e c) 1
        = c.val by rw [rowGather_start_col, rowGather_off_col, Nat.zero_add])

end Gather

/-! ## The accumulating scatter of rows -/

section Scatter

/-- The dimension numbers of a scatter of whole rows: operand `[N, C]`, scatter indices `[R, 1]`, updates `[R, C]`;
    the row axis inserted and named by the scatter index, the column axis the update's window axis. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- Update entry `(e, c)` starts, on the row axis, at the signed row number `idx[e, 0]`. -/
theorem rowScatter_start_row (idx : IVec ⟨2, ![R, 1]⟩ w) (e : Fin R) (c : Fin C) :
    (rowScatterDims N R C wf).start (ix2 e c) idx 0 = (idx (ix2 e 0)).toInt := by
  unfold ScatterDims.start
  rw [dif_pos (show (0 : Fin 2) ∈ ([0] : List (Fin 2)) from List.mem_singleton.mpr rfl)]
  have hsi : (rowScatterDims N R C wf).siIdx (ix2 e c) ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, on the column axis, at `0`. -/
theorem rowScatter_start_col (idx : IVec ⟨2, ![R, 1]⟩ w) (e : Fin R) (c : Fin C) :
    (rowScatterDims N R C wf).start (ix2 e c) idx 1 = 0 := by
  unfold ScatterDims.start
  rw [dif_neg (show (1 : Fin 2) ∉ ([0] : List (Fin 2)) from by decide)]

/-- The operand's axes that are not inserted: the column axis alone. -/
theorem rowScatter_mem_sKept (a : Fin 2) : a ∈ (rowScatterDims N R C wf).sKept ↔ a ∉ ([0] : List (Fin 2)) := by
  simp [ScatterDims.sKept, Shape.kept, List.mem_filter, List.mem_finRange]

/-- Its window coordinate is `0` on the row axis … -/
theorem rowScatter_window_row (e : Fin R) (c : Fin C) : (rowScatterDims N R C wf).window (ix2 e c) 0 = 0 := by
  unfold ScatterDims.window
  rw [dif_neg (fun h => ((rowScatter_mem_sKept wf 0).mp h) (List.mem_singleton.mpr rfl))]

/-- … and its own column on the column axis. -/
theorem rowScatter_window_col (e : Fin R) (c : Fin C) : (rowScatterDims N R C wf).window (ix2 e c) 1 = c.val := by
  unfold ScatterDims.window
  rw [dif_pos ((rowScatter_mem_sKept wf 1).mpr (by decide))]
  rfl

/-- WHERE AN UPDATE ENTRY LANDS: entry `(e, c)` lands on `(n, c')` exactly when its row number, read signed, is `n`
    and `c = c'`. -/
theorem rowScatter_lands (idx : IVec ⟨2, ![R, 1]⟩ w) (e : Fin R) (c : Fin C) (n : Fin N) (c' : Fin C) :
    (rowScatterDims N R C wf).resultIdx? (ix2 e c) idx = some (ix2 n c')
      ↔ (idx (ix2 e 0)).toInt = (n.val : Int) ∧ c = c' := by
  -- start plus window coordinate, axis by axis: the signed row number on the row axis, the column on the column axis
  have h0 : (rowScatterDims N R C wf).start (ix2 e c) idx 0 + ((rowScatterDims N R C wf).window (ix2 e c) 0 : Nat)
      = (idx (ix2 e 0)).toInt := by
    rw [rowScatter_start_row, rowScatter_window_row, Nat.cast_zero, Int.add_zero]
  have h1 : (rowScatterDims N R C wf).start (ix2 e c) idx 1 + ((rowScatterDims N R C wf).window (ix2 e c) 1 : Nat)
      = (c.val : Int) := by
    rw [rowScatter_start_col, rowScatter_window_col, Int.zero_add]
  have hN : (⟨2, ![N, C]⟩ : Shape).size 0 = N := rfl
  have hC : (⟨2, ![N, C]⟩ : Shape).size 1 = C := rfl
  unfold ScatterDims.resultIdx?
  constructor
  · intro h
    by_cases hall : ∀ a, 0 ≤ (rowScatterDims N R C wf).start (ix2 e c) idx a + ((rowScatterDims N R C wf).window (ix2 e c) a : Nat)
        ∧ (rowScatterDims N R C wf).start (ix2 e c) idx a + ((rowScatterDims N R C wf).window (ix2 e c) a : Nat)
          < ((⟨2, ![N, C]⟩ : Shape).size a : Nat)
    · rw [dif_pos hall] at h
      have heq := Option.some.inj h
      -- the landed index read on each axis
      have e0 : ((rowScatterDims N R C wf).start (ix2 e c) idx 0
          + ((rowScatterDims N R C wf).window (ix2 e c) 0 : Nat)).toNat = n.val :=
        congrArg (fun f => (f 0).val) heq
      have e1 : ((rowScatterDims N R C wf).start (ix2 e c) idx 1
          + ((rowScatterDims N R C wf).window (ix2 e c) 1 : Nat)).toNat = c'.val :=
        congrArg (fun f => (f 1).val) heq
      have p0 := (hall 0).1
      rw [h0] at e0 p0
      rw [h1] at e1
      refine ⟨by omega, Fin.ext (by omega)⟩
    · rw [dif_neg hall] at h
      exact absurd h (by simp)
  · rintro ⟨hi, rfl⟩
    have hall : ∀ a, 0 ≤ (rowScatterDims N R C wf).start (ix2 e c) idx a + ((rowScatterDims N R C wf).window (ix2 e c) a : Nat)
        ∧ (rowScatterDims N R C wf).start (ix2 e c) idx a + ((rowScatterDims N R C wf).window (ix2 e c) a : Nat)
          < ((⟨2, ![N, C]⟩ : Shape).size a : Nat) := by
      rw [Fin.forall_fin_two, h0, h1, hN, hC, hi]
      have := n.isLt
      have := c.isLt
      omega
    rw [dif_pos hall]
    congr 1
    funext a
    refine Fin.ext ?_
    match a with
    | ⟨0, _⟩ =>
      exact (show ((rowScatterDims N R C wf).start (ix2 e c) idx 0
          + ((rowScatterDims N R C wf).window (ix2 e c) 0 : Nat)).toNat = n.val by rw [h0, hi]; exact Int.toNat_natCast _)
    | ⟨1, _⟩ =>
      exact (show ((rowScatterDims N R C wf).start (ix2 e c) idx 1
          + ((rowScatterDims N R C wf).window (ix2 e c) 1 : Nat)).toNat = c.val by rw [h1]; exact Int.toNat_natCast _)

/-- THE SCATTER READ AT `(n, c)`, on the extended reals: the operand's entry plus the sum, over the update rows whose
    row number is `n`, of their entries in column `c`. -/
theorem rowScatterAdd_apply (x : (⟨2, ![N, C]⟩ : Shape).Idx → EReal) (idx : IVec ⟨2, ![R, 1]⟩ w)
    (upd : (⟨2, ![R, C]⟩ : Shape).Idx → EReal) (n : Fin N) (c : Fin C) :
    Ideal.hostScatterAdd (rowScatterDims N R C wf) x idx upd (ix2 n c)
      = x (ix2 n c) + ∑ e : Fin R, if (idx (ix2 e 0)).toInt = (n.val : Int) then upd (ix2 e c) else 0 := by
  unfold Ideal.hostScatterAdd
  congr 1
  -- the filtered sum as a sum of conditionals, over the update's two coordinates
  rw [Finset.sum_filter, sum_idx2]
  refine Finset.sum_congr rfl (fun e _ => ?_)
  -- in update row `e` only column `c` can land on `(n, c)`
  rw [Finset.sum_eq_single c]
  · by_cases hi : (idx (ix2 e 0)).toInt = (n.val : Int)
    · rw [if_pos ((rowScatter_lands wf idx e c n c).mpr ⟨hi, rfl⟩), if_pos hi]
    · rw [if_neg (fun h => hi ((rowScatter_lands wf idx e c n c).mp h).1), if_neg hi]
  · intro b _ hb
    exact if_neg (fun h => hb ((rowScatter_lands wf idx e b n c).mp h).2)
  · intro h
    exact absurd (Finset.mem_univ c) h

end Scatter

end Idealize.ShloMosaic.RowTake

end
-- ==== Proof.PoolSum.lean ====
/-
  The per-graph sums two ways. The one-hot matrix has entry (n, g) equal to one when node n's graph number is g and
  zero otherwise, so the product sum over ALL nodes n of onehot[n, g] · h[n, k] keeps exactly the rows whose graph number
  is g. The accumulating scatter through the column of graph numbers adds to entry (g, k) every h[n, k] whose graph
  number, read signed, is g, starting from zero. Both are the same finite sum on the extended reals, where
  1 · x = x and 0 · x = 0 for every x, finite or not.
-/
import proofs.«406510_j66254165508930_1_alg».proof.Proof.Spec
import proofs.«406510_j66254165508930_1_alg».proof.Proof.LibRowTake
import Idealize.ShloMosaic.Lib.StableHlo.Predicate
import Idealize.ShloMosaic.PureOps.Ideal.Laws

noncomputable section

open scoped BigOperators

namespace Cert.Stages

open Idealize.ShloMosaic Idealize.ShloMosaic.ValueIdx Cert.ReferenceIdeal Cert.ReferenceIdeal.Gen
open Idealize.ShloMosaic.StableHlo.Predicate Idealize.ShloMosaic.RowTake

/-- A 32-bit word equals the word of a number below 128 exactly when its signed value is that number. -/
theorem word_eq_ofNat_iff (a : BitVec 32) (g : Fin 128) : a = BitVec.ofNat 32 g.val ↔ a.toInt = (g.val : Int) := by
  have hg : g.val < 2 ^ 31 := lt_trans g.isLt (by norm_num)
  constructor
  · rintro rfl
    exact toInt_ofNat_small g.val hg
  · intro h
    exact BitVec.eq_of_toInt_eq (h.trans (toInt_ofNat_small g.val hg).symm)

/-- A single bit read as an unsigned number, on the extended reals: one when set, zero when clear. -/
theorem bit_toNat_cast (b : BitVec 1) : (((b.toNat : ℝ) : EReal)) = if b = 1#1 then 1 else 0 := by
  have hb : b = 0#1 ∨ b = 1#1 := by
    revert b; decide
  rcases hb with rfl | rfl
  · simp
  · simp

/-- THE ONE-HOT ENTRY: entry (n, g) is one when node n's graph number, read signed, is g, and zero otherwise. -/
theorem oneHot_apply (batch : (⟨S100000, .i32⟩ : BufTy).Contents (Elt Ideal)) (n : Fin 100000) (g : Fin 128) :
    (oneHot (F := Ideal) batch (ix2 n g) : EReal)
      = if (batch (Shape.Idx.ofFin n)).toInt = (g.val : Int) then 1 else 0 := by
  have hix : (ix2 n g : (⟨2, ![100000, 128]⟩ : Shape).Idx) = ij n g := by
    funext a; match a with | ⟨0, _⟩ => rfl | ⟨1, _⟩ => rfl
  unfold oneHot
  show (((IntOp.cmpi .eq _ _).toNat : ℝ) : EReal) = _
  rw [bit_toNat_cast, hix, bcast_rows, bcast_cols, iota_apply]
  exact if_congr (cmpi_eq_iff.trans (word_eq_ofNat_iff _ g)) rfl rfl

/-- THE SCATTER ENTRY: entry (g, k) of the per-graph sums is the sum of h[n, k] over the nodes n whose graph number,
    read signed, is g. -/
theorem poolSum_apply (batch : (⟨S100000, .i32⟩ : BufTy).Contents (Elt Ideal))
    (h : (⟨S100000x128, .f32⟩ : BufTy).Contents (Elt Ideal)) (g k : Fin 128) :
    (poolSum batch h (ix2 g k) : EReal)
      = ∑ n : Fin 100000, if (batch (Shape.Idx.ofFin n)).toInt = (g.val : Int) then (h (ix2 n k) : EReal) else 0 := by
  have hcol : ∀ e : Fin 100000, (ix2 e (0 : Fin 1) : (⟨2, ![100000, 1]⟩ : Shape).Idx) = ixP e := by
    intro e; funext a; match a with | ⟨0, _⟩ => rfl | ⟨1, _⟩ => rfl
  unfold poolSum
  show Ideal.hostScatterAdd (rowScatterDims 128 100000 128 scatter_S128x128_S100000x1_S100000x128_1_0_0_1_wf) _ _ _ (ix2 g k) = _
  rw [rowScatterAdd_apply]
  -- the operand is the zero constant everywhere
  show Ideal.ofBits .f32 0x00000000#32 + _ = _
  rw [Ideal.ofBits_zero_f32, zero_add]
  -- the column of graph numbers read at (e, 0) is node e's graph number
  refine Finset.sum_congr rfl (fun e _ => ?_)
  rw [hcol e, bcast_col1]

/-- THE TWO POOLINGS AGREE: the one-hot product sum over all nodes is the accumulating scatter of the node rows
    through their graph numbers. -/
theorem oneHotSum_oneHot (batch : (⟨Cert.ReferenceIdeal.S100000, .i32⟩ : BufTy).Contents (Elt Ideal))
    (h : (⟨Cert.ReferenceIdeal.S100000x128, .f32⟩ : BufTy).Contents (Elt Ideal)) :
    Cert.Stages.oneHotSum (Cert.Stages.oneHot (F := Ideal) batch) h = Cert.Stages.poolSum batch h := by
  funext i
  obtain ⟨g, k, rfl⟩ : ∃ (g k : Fin 128), i = ix2 g k := ⟨i 0, i 1, eq_ix2 i⟩
  rw [poolSum_apply]
  show ∑ n : Fin 100000, (oneHot (F := Ideal) batch (ix2 n g) : EReal) * (h (ix2 n k) : EReal) = _
  refine Finset.sum_congr rfl (fun n _ => ?_)
  rw [oneHot_apply]
  -- one times x is x and zero times x is zero, for every extended real x
  by_cases hn : (batch (Shape.Idx.ofFin n)).toInt = (g.val : Int)
  · rw [if_pos hn, if_pos hn, one_mul]
  · rw [if_neg hn, if_neg hn, zero_mul]

end Cert.Stages

end
-- ==== Proof.KI.Bridge.lean ====
/-
  From the kernel program's result to one function of its arguments. Between the items of @main every buffer is either
  an argument (never written), one of the four edge arrays the launch stretches compute (sources, targets, edge weights,
  self-loop weights: never written again), or the output of a later item. So reading forwards: region 0 leaves the first
  projection of the embedded nodes; each host stretch leaves the neighbour sum of the projection before it; regions 1
  and 3 leave a layer with its bias and the maximum with zero, region 5 the third layer with its bias only; regions 2 and
  4 project again; the fourth host stretch leaves the one-hot matrix of the graph numbers and region 6 its product sum
  with the third layer, which is the per-graph scatter sum; the fifth host stretch leaves the per-graph counts; region 7
  leaves the mean, the last linear layer and its bias. Composed, that is the network `gcn` of the arguments.
-/
import proofs.«406510_j66254165508930_1_alg».proof.Proof.KI.Fold
import proofs.«406510_j66254165508930_1_alg».proof.Proof.KI.Stretch
import proofs.«406510_j66254165508930_1_alg».proof.Proof.SpecGcn
import proofs.«406510_j66254165508930_1_alg».proof.Proof.PoolSum

set_option maxRecDepth 16384

noncomputable section

namespace Cert.KernelIdeal.Gen

open Idealize.ShloMosaic Idealize.ShloMosaic.TcCoe Idealize.SL.Sem

namespace Bridge

/-! ## Buffers that stay as the launch stretches leave them -/

/-- A buffer that no item after the launch stretches writes. -/
abbrev Kept (r : Ref sig .tc) : Prop :=
  r ≠ main_v40 ∧ r ∉ hostOps1_W ∧ r ≠ main_v58 ∧ r ≠ main_v59 ∧ r ∉ hostOps3_W ∧ r ≠ main_v77 ∧ r ≠ main_v78 ∧ r ∉ hostOps5_W
    ∧ r ≠ main_v96 ∧ r ∉ hostOps6_W ∧ r ≠ main_v104 ∧ r ∉ hostOps7_W ∧ r ≠ main_v109

/-- A buffer that the launch stretches do not write: an argument of the program. -/
abbrev Given (r : Ref sig .tc) : Prop := r ∉ hostOps0_W ∧ r ∉ hostOps0_1_W ∧ r ∉ hostOps0_2_W

section Kept
variable {F : FTy → Type} [FloatOps F] (lv : Leaves F) (m : (ℓ : Loc nD τ sig) → Buf (Elt F) ℓ) (c : Dev nD)
variable {r : Ref sig .tc} (k : Kept r)
include k

/-! Between any two items a kept buffer holds what it held after the launch stretches. -/
theorem X4_kept : X4 lv m c (Proc.devRef .tc r) = V3 m c (Proc.devRef .tc r) := (X4_of lv m c r k.1)
theorem X5_kept : X5 lv m c (Proc.devRef .tc r) = V3 m c (Proc.devRef .tc r) := (X5_of lv m c r k.2.1).trans (X4_kept lv m c k)
theorem X6_kept : X6 lv m c (Proc.devRef .tc r) = V3 m c (Proc.devRef .tc r) := (X6_of lv m c r k.2.2.1).trans (X5_kept lv m c k)
theorem X7_kept : X7 lv m c (Proc.devRef .tc r) = V3 m c (Proc.devRef .tc r) := (X7_of lv m c r k.2.2.2.1).trans (X6_kept lv m c k)
theorem X8_kept : X8 lv m c (Proc.devRef .tc r) = V3 m c (Proc.devRef .tc r) := (X8_of lv m c r k.2.2.2.2.1).trans (X7_kept lv m c k)
theorem X9_kept : X9 lv m c (Proc.devRef .tc r) = V3 m c (Proc.devRef .tc r) := (X9_of lv m c r k.2.2.2.2.2.1).trans (X8_kept lv m c k)
theorem X10_kept : X10 lv m c (Proc.devRef .tc r) = V3 m c (Proc.devRef .tc r) := (X10_of lv m c r k.2.2.2.2.2.2.1).trans (X9_kept lv m c k)
theorem X11_kept : X11 lv m c (Proc.devRef .tc r) = V3 m c (Proc.devRef .tc r) := (X11_of lv m c r k.2.2.2.2.2.2.2.1).trans (X10_kept lv m c k)
theorem X12_kept : X12 lv m c (Proc.devRef .tc r) = V3 m c (Proc.devRef .tc r) := (X12_of lv m c r k.2.2.2.2.2.2.2.2.1).trans (X11_kept lv m c k)
theorem X13_kept : X13 lv m c (Proc.devRef .tc r) = V3 m c (Proc.devRef .tc r) := (X13_of lv m c r k.2.2.2.2.2.2.2.2.2.1).trans (X12_kept lv m c k)
theorem X14_kept : X14 lv m c (Proc.devRef .tc r) = V3 m c (Proc.devRef .tc r) := (X14_of lv m c r k.2.2.2.2.2.2.2.2.2.2.1).trans (X13_kept lv m c k)
theorem X15_kept : X15 lv m c (Proc.devRef .tc r) = V3 m c (Proc.devRef .tc r) := (X15_of lv m c r k.2.2.2.2.2.2.2.2.2.2.2.1).trans (X14_kept lv m c k)

omit k in
/-- After the launch stretches an argument holds what the program was launched with. -/
theorem V3_given (g : Given r) : V3 m c (Proc.devRef .tc r) = m ((c.tc : Thread nD τ).loc r) :=
  (V3_of m c r g.2.2).trans ((V2_of m c r g.2.1).trans (V1_of m c r g.1))

end Kept

/-! ## The chain of stages -/

section Chain
variable (lv : Leaves Ideal) (m : (ℓ : Loc nD τ sig) → Buf (Elt Ideal) ℓ) (c : Dev nD)

/-- The neighbour sum read at contents `W` whose edge columns and weights are still those of the launch stretches. -/
theorem aggr_at (W : Valuation τ sig (Elt Ideal)) (hw : (⟨Cert.ReferenceIdeal.S100000x128, .f32⟩ : BufTy).Contents (Elt Ideal))
    (e1 : W (Proc.devRef .tc main_v1) = V3 m c (Proc.devRef .tc main_v1))
    (e3 : W (Proc.devRef .tc main_v3) = V3 m c (Proc.devRef .tc main_v3))
    (e38 : W (Proc.devRef .tc main_v38) = V3 m c (Proc.devRef .tc main_v38))
    (e39 : W (Proc.devRef .tc main_v39) = V3 m c (Proc.devRef .tc main_v39)) :
    Cert.Stages.aggr hw (W (Proc.devRef .tc main_v1)) (W (Proc.devRef .tc main_v3)) (W (Proc.devRef .tc main_v38)) (W (Proc.devRef .tc main_v39))
      = Cert.Stages.aggr hw (Cert.Stages.srcOf (m ((c.tc : Thread nD τ).loc main_arg1))) (Cert.Stages.dstOf (m ((c.tc : Thread nD τ).loc main_arg1))) (Cert.Stages.edgeNorm (Cert.Stages.srcOf (m ((c.tc : Thread nD τ).loc main_arg1))) (Cert.Stages.dstOf (m ((c.tc : Thread nD τ).loc main_arg1)))) (Cert.Stages.selfNorm (Cert.Stages.dstOf (m ((c.tc : Thread nD τ).loc main_arg1)))) := by
  rw [e1, e3, e38, e39, s0_src, s0_dst, s0_norm, s0_self]

variable
      (h0 : ∀ W c, lv.l0 W c = Cert.Stages.proj (W c (Proc.devRef .tc main_v11)) (W c (Proc.devRef .tc main_arg5)))
      (h1 : ∀ W c, lv.l1 W c = Cert.Stages.relu (Cert.Stages.addBias (W c (Proc.devRef .tc main_v57)) (W c (Proc.devRef .tc main_arg6))))
      (h2 : ∀ W c, lv.l2 W c = Cert.Stages.proj (W c (Proc.devRef .tc main_v58)) (W c (Proc.devRef .tc main_arg7)))
      (h3 : ∀ W c, lv.l3 W c = Cert.Stages.relu (Cert.Stages.addBias (W c (Proc.devRef .tc main_v76)) (W c (Proc.devRef .tc main_arg8))))
      (h4 : ∀ W c, lv.l4 W c = Cert.Stages.proj (W c (Proc.devRef .tc main_v77)) (W c (Proc.devRef .tc main_arg9)))
      (h5 : ∀ W c, lv.l5 W c = Cert.Stages.addBias (W c (Proc.devRef .tc main_v95)) (W c (Proc.devRef .tc main_arg10)))
      (h6 : ∀ W c, lv.l6 W c = Cert.Stages.oneHotSum (W c (Proc.devRef .tc main_v103)) (W c (Proc.devRef .tc main_v96)))
      (h7 : ∀ W c, lv.l7 W c = Cert.Stages.finalize (W c (Proc.devRef .tc main_v104)) (W c (Proc.devRef .tc main_v108)) (W c (Proc.devRef .tc main_arg11)) (W c (Proc.devRef .tc main_arg12)))
include h0 h1 h2 h3 h4 h5 h6 h7

/-- After region 0: the first projection of the embedded nodes. -/
theorem at4_v40 : X4 lv m c (Proc.devRef .tc main_v40) = (Cert.Stages.proj (Cert.Stages.embed (m ((c.tc : Thread nD τ).loc main_arg0)) (m ((c.tc : Thread nD τ).loc main_arg4))) (m ((c.tc : Thread nD τ).loc main_arg5))) := by
  rw [X4_out, h0, s0_emb, V3_given m c (r := main_arg5) (by decide)]

/-- After the first host stretch: its neighbour sum. -/
theorem at5_v57 : X5 lv m c (Proc.devRef .tc main_v57) = Cert.Stages.aggr (Cert.Stages.proj (Cert.Stages.embed (m ((c.tc : Thread nD τ).loc main_arg0)) (m ((c.tc : Thread nD τ).loc main_arg4))) (m ((c.tc : Thread nD τ).loc main_arg5))) (Cert.Stages.srcOf (m ((c.tc : Thread nD τ).loc main_arg1))) (Cert.Stages.dstOf (m ((c.tc : Thread nD τ).loc main_arg1))) (Cert.Stages.edgeNorm (Cert.Stages.srcOf (m ((c.tc : Thread nD τ).loc main_arg1))) (Cert.Stages.dstOf (m ((c.tc : Thread nD τ).loc main_arg1)))) (Cert.Stages.selfNorm (Cert.Stages.dstOf (m ((c.tc : Thread nD τ).loc main_arg1)))) := by
  show StableHlo.after hostOps1 (X4 lv m c) (Proc.devRef .tc main_v57) = _
  rw [s1_agg, aggr_at m c (X4 lv m c) _ (X4_kept lv m c (by decide)) (X4_kept lv m c (by decide)) (X4_kept lv m c (by decide))
    (X4_kept lv m c (by decide)), at4_v40 lv m c h0 h1 h2 h3 h4 h5 h6 h7]

/-- After region 1: the first layer, activated. -/
theorem at6_v58 : X6 lv m c (Proc.devRef .tc main_v58) = (Cert.Stages.relu (Cert.Stages.layer (Cert.Stages.embed (m ((c.tc : Thread nD τ).loc main_arg0)) (m ((c.tc : Thread nD τ).loc main_arg4))) (m ((c.tc : Thread nD τ).loc main_arg5)) (m ((c.tc : Thread nD τ).loc main_arg6)) (m ((c.tc : Thread nD τ).loc main_arg1)))) := by
  rw [X6_out, h1, at5_v57 lv m c h0 h1 h2 h3 h4 h5 h6 h7, X5_kept lv m c (r := main_arg6) (by decide), V3_given m c (r := main_arg6) (by decide)]
  rfl

/-- After region 2: the second projection. -/
theorem at7_v59 : X7 lv m c (Proc.devRef .tc main_v59) = (Cert.Stages.proj (Cert.Stages.relu (Cert.Stages.layer (Cert.Stages.embed (m ((c.tc : Thread nD τ).loc main_arg0)) (m ((c.tc : Thread nD τ).loc main_arg4))) (m ((c.tc : Thread nD τ).loc main_arg5)) (m ((c.tc : Thread nD τ).loc main_arg6)) (m ((c.tc : Thread nD τ).loc main_arg1)))) (m ((c.tc : Thread nD τ).loc main_arg7))) := by
  rw [X7_out, h2, at6_v58 lv m c h0 h1 h2 h3 h4 h5 h6 h7, X6_kept lv m c (r := main_arg7) (by decide), V3_given m c (r := main_arg7) (by decide)]

/-- After the second host stretch: its neighbour sum. -/
theorem at8_v76 : X8 lv m c (Proc.devRef .tc main_v76) = Cert.Stages.aggr (Cert.Stages.proj (Cert.Stages.relu (Cert.Stages.layer (Cert.Stages.embed (m ((c.tc : Thread nD τ).loc main_arg0)) (m ((c.tc : Thread nD τ).loc main_arg4))) (m ((c.tc : Thread nD τ).loc main_arg5)) (m ((c.tc : Thread nD τ).loc main_arg6)) (m ((c.tc : Thread nD τ).loc main_arg1)))) (m ((c.tc : Thread nD τ).loc main_arg7))) (Cert.Stages.srcOf (m ((c.tc : Thread nD τ).loc main_arg1))) (Cert.Stages.dstOf (m ((c.tc : Thread nD τ).loc main_arg1))) (Cert.Stages.edgeNorm (Cert.Stages.srcOf (m ((c.tc : Thread nD τ).loc main_arg1))) (Cert.Stages.dstOf (m ((c.tc : Thread nD τ).loc main_arg1)))) (Cert.Stages.selfNorm (Cert.Stages.dstOf (m ((c.tc : Thread nD τ).loc main_arg1)))) := by
  show StableHlo.after hostOps3 (X7 lv m c) (Proc.devRef .tc main_v76) = _
  rw [s3_agg, aggr_at m c (X7 lv m c) _ (X7_kept lv m c (by decide)) (X7_kept lv m c (by decide)) (X7_kept lv m c (by decide))
    (X7_kept lv m c (by decide)), at7_v59 lv m c h0 h1 h2 h3 h4 h5 h6 h7]

/-- After region 3: the second layer, activated. -/
theorem at9_v77 : X9 lv m c (Proc.devRef .tc main_v77) = (Cert.Stages.relu (Cert.Stages.layer (Cert.Stages.relu (Cert.Stages.layer (Cert.Stages.embed (m ((c.tc : Thread nD τ).loc main_arg0)) (m ((c.tc : Thread nD τ).loc main_arg4))) (m ((c.tc : Thread nD τ).loc main_arg5)) (m ((c.tc : Thread nD τ).loc main_arg6)) (m ((c.tc : Thread nD τ).loc main_arg1)))) (m ((c.tc : Thread nD τ).loc main_arg7)) (m ((c.tc : Thread nD τ).loc main_arg8)) (m ((c.tc : Thread nD τ).loc main_arg1)))) := by
  rw [X9_out, h3, at8_v76 lv m c h0 h1 h2 h3 h4 h5 h6 h7, X8_kept lv m c (r := main_arg8) (by decide), V3_given m c (r := main_arg8) (by decide)]
  rfl

/-- After region 4: the third projection. -/
theorem at10_v78 : X10 lv m c (Proc.devRef .tc main_v78) = (Cert.Stages.proj (Cert.Stages.relu (Cert.Stages.layer (Cert.Stages.relu (Cert.Stages.layer (Cert.Stages.embed (m ((c.tc : Thread nD τ).loc main_arg0)) (m ((c.tc : Thread nD τ).loc main_arg4))) (m ((c.tc : Thread nD τ).loc main_arg5)) (m ((c.tc : Thread nD τ).loc main_arg6)) (m ((c.tc : Thread nD τ).loc main_arg1)))) (m ((c.tc : Thread nD τ).loc main_arg7)) (m ((c.tc : Thread nD τ).loc main_arg8)) (m ((c.tc : Thread nD τ).loc main_arg1)))) (m ((c.tc : Thread nD τ).loc main_arg9))) := by
  rw [X10_out, h4, at9_v77 lv m c h0 h1 h2 h3 h4 h5 h6 h7, X9_kept lv m c (r := main_arg9) (by decide), V3_given m c (r := main_arg9) (by decide)]

/-- After the third host stretch: its neighbour sum. -/
theorem at11_v95 : X11 lv m c (Proc.devRef .tc main_v95) = Cert.Stages.aggr (Cert.Stages.proj (Cert.Stages.relu (Cert.Stages.layer (Cert.Stages.relu (Cert.Stages.layer (Cert.Stages.embed (m ((c.tc : Thread nD τ).loc main_arg0)) (m ((c.tc : Thread nD τ).loc main_arg4))) (m ((c.tc : Thread nD τ).loc main_arg5)) (m ((c.tc : Thread nD τ).loc main_arg6)) (m ((c.tc : Thread nD τ).loc main_arg1)))) (m ((c.tc : Thread nD τ).loc main_arg7)) (m ((c.tc : Thread nD τ).loc main_arg8)) (m ((c.tc : Thread nD τ).loc main_arg1)))) (m ((c.tc : Thread nD τ).loc main_arg9))) (Cert.Stages.srcOf (m ((c.tc : Thread nD τ).loc main_arg1))) (Cert.Stages.dstOf (m ((c.tc : Thread nD τ).loc main_arg1))) (Cert.Stages.edgeNorm (Cert.Stages.srcOf (m ((c.tc : Thread nD τ).loc main_arg1))) (Cert.Stages.dstOf (m ((c.tc : Thread nD τ).loc main_arg1)))) (Cert.Stages.selfNorm (Cert.Stages.dstOf (m ((c.tc : Thread nD τ).loc main_arg1)))) := by
  show StableHlo.after hostOps5 (X10 lv m c) (Proc.devRef .tc main_v95) = _
  rw [s5_agg, aggr_at m c (X10 lv m c) _ (X10_kept lv m c (by decide)) (X10_kept lv m c (by decide)) (X10_kept lv m c (by decide))
    (X10_kept lv m c (by decide)), at10_v78 lv m c h0 h1 h2 h3 h4 h5 h6 h7]

/-- After region 5: the third layer (no activation). -/
theorem at12_v96 : X12 lv m c (Proc.devRef .tc main_v96) = (Cert.Stages.layer (Cert.Stages.relu (Cert.Stages.layer (Cert.Stages.relu (Cert.Stages.layer (Cert.Stages.embed (m ((c.tc : Thread nD τ).loc main_arg0)) (m ((c.tc : Thread nD τ).loc main_arg4))) (m ((c.tc : Thread nD τ).loc main_arg5)) (m ((c.tc : Thread nD τ).loc main_arg6)) (m ((c.tc : Thread nD τ).loc main_arg1)))) (m ((c.tc : Thread nD τ).loc main_arg7)) (m ((c.tc : Thread nD τ).loc main_arg8)) (m ((c.tc : Thread nD τ).loc main_arg1)))) (m ((c.tc : Thread nD τ).loc main_arg9)) (m ((c.tc : Thread nD τ).loc main_arg10)) (m ((c.tc : Thread nD τ).loc main_arg1))) := by
  rw [X12_out, h5, at11_v95 lv m c h0 h1 h2 h3 h4 h5 h6 h7, X11_kept lv m c (r := main_arg10) (by decide), V3_given m c (r := main_arg10) (by decide)]
  rfl

/-- After the fourth host stretch: the one-hot matrix of the graph numbers. -/
theorem at13_v103 : X13 lv m c (Proc.devRef .tc main_v103) = Cert.Stages.oneHot (m ((c.tc : Thread nD τ).loc main_arg3)) := by
  show StableHlo.after hostOps6 (X12 lv m c) (Proc.devRef .tc main_v103) = _
  rw [s6_onehot, X12_kept lv m c (r := main_arg3) (by decide), V3_given m c (r := main_arg3) (by decide)]

/-- After region 6: the per-graph sums of the third layer. -/
theorem at14_v104 : X14 lv m c (Proc.devRef .tc main_v104) = Cert.Stages.poolSum (m ((c.tc : Thread nD τ).loc main_arg3)) (Cert.Stages.layer (Cert.Stages.relu (Cert.Stages.layer (Cert.Stages.relu (Cert.Stages.layer (Cert.Stages.embed (m ((c.tc : Thread nD τ).loc main_arg0)) (m ((c.tc : Thread nD τ).loc main_arg4))) (m ((c.tc : Thread nD τ).loc main_arg5)) (m ((c.tc : Thread nD τ).loc main_arg6)) (m ((c.tc : Thread nD τ).loc main_arg1)))) (m ((c.tc : Thread nD τ).loc main_arg7)) (m ((c.tc : Thread nD τ).loc main_arg8)) (m ((c.tc : Thread nD τ).loc main_arg1)))) (m ((c.tc : Thread nD τ).loc main_arg9)) (m ((c.tc : Thread nD τ).loc main_arg10)) (m ((c.tc : Thread nD τ).loc main_arg1))) := by
  rw [X14_out, h6, at13_v103 lv m c h0 h1 h2 h3 h4 h5 h6 h7, X13_of lv m c main_v96 (by decide), at12_v96 lv m c h0 h1 h2 h3 h4 h5 h6 h7]
  exact Cert.Stages.oneHotSum_oneHot _ _

/-- After the fifth host stretch: the per-graph node counts. -/
theorem at15_v108 : X15 lv m c (Proc.devRef .tc main_v108) = Cert.Stages.counts (m ((c.tc : Thread nD τ).loc main_arg3)) := by
  show StableHlo.after hostOps7 (X14 lv m c) (Proc.devRef .tc main_v108) = _
  rw [s7_counts, X14_kept lv m c (r := main_arg3) (by decide), V3_given m c (r := main_arg3) (by decide)]

/-- THE KERNEL PROGRAM'S RESULT is the network of its arguments. -/
theorem _root_.Cert.KernelIdeal.Gen.kernel_is_gcn : X16 lv m c (Proc.devRef .tc main_v109) = Cert.Stages.gcn (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [X16_out, h7, X15_of lv m c main_v104 (by decide), at14_v104 lv m c h0 h1 h2 h3 h4 h5 h6 h7,
    at15_v108 lv m c h0 h1 h2 h3 h4 h5 h6 h7, X15_kept lv m c (r := main_arg11) (by decide), V3_given m c (r := main_arg11) (by decide),
    X15_kept lv m c (r := main_arg12) (by decide), V3_given m c (r := main_arg12) (by decide)]
  rfl

end Chain

end Bridge

end Cert.KernelIdeal.Gen

end
-- ==== Proof.RefRead.lean ====
/-
  The reference program's run and its stages read at an index, gathered under one import.
-/
import proofs.«406510_j66254165508930_1_alg».proof.Proof.RefRun
import proofs.«406510_j66254165508930_1_alg».proof.Proof.RefReadAt
-- ==== Proof.RefGcn.lean ====
/-
  The reference program, read one operation at a time, IS the network of the stage functions: the edge list's two rows,
  the embedding rows, and for each of the three layers the projection, the degree and its inverse square root, the
  wrapped node numbers, the edge weights, the self-loop weight, the normalised neighbour sum, the bias (and, after the
  first two layers, the maximum with zero); then the per-graph sums and counts and the last linear layer. Every
  identity is the unfolding of the operations' definitions: no array is ever evaluated. The later layers compute the
  degree, the weights and the self-loop weight again under other names; they are the same functions of the edge list.
-/
import proofs.«406510_j66254165508930_1_alg».proof.Proof.RefReadAt
import proofs.«406510_j66254165508930_1_alg».proof.Proof.SpecGcn

noncomputable section

namespace Cert.ReferenceIdeal.Stagewise

open Cert.ReferenceIdeal Cert.ReferenceIdeal.Gen Cert.ReferenceIdeal.Read Idealize.ShloMosaic Cert.Stages

variable {F : FTy → Type} [FloatOps F]

/-- Row 0 of the edge list, as a vector: the edges' sources. -/
theorem v1_eq (x1 : (⟨S2x640000, .i32⟩ : BufTy).Contents (Elt F)) :
    val_main_v1 (F := F) x1 = srcOf x1 := by
  unfold val_main_v1 val_main_v0
  unfold srcOf
  rfl

/-- Row 1 of the edge list, as a vector: the edges' targets. -/
theorem v3_eq (x1 : (⟨S2x640000, .i32⟩ : BufTy).Contents (Elt F)) :
    val_main_v3 (F := F) x1 = dstOf x1 := by
  unfold val_main_v3 val_main_v2
  unfold dstOf
  rfl

/-- The embedding rows of the nodes' tokens. -/
theorem v11_eq (x0 : (⟨S100000x1, .i32⟩ : BufTy).Contents (Elt F)) (x4 : (⟨S50000x128, .f32⟩ : BufTy).Contents (Elt F)) :
    val_main_v11 (F := F) x0 x4 = embed x0 x4 := by
  unfold val_main_v11 val_main_v10 val_main_v9 val_main_v8 val_main_v7 val_main_c_0 val_main_v6 val_main_v5 val_main_c val_main_v4
  unfold embed
  rfl

/-- The first layer's projection of its input rows. -/
theorem v12_eq (x0 : (⟨S100000x1, .i32⟩ : BufTy).Contents (Elt F)) (x4 : (⟨S50000x128, .f32⟩ : BufTy).Contents (Elt F)) (x5 : (⟨S128x128, .f32⟩ : BufTy).Contents (Elt F)) :
    val_main_v12 (F := F) x0 x4 x5 = proj (embed x0 x4) x5 := by
  unfold val_main_v12
  rw [v11_eq]
  unfold proj
  rfl

/-- One plus the number of edges into each node, as the first layer computes it. -/
theorem v18_eq (x1 : (⟨S2x640000, .i32⟩ : BufTy).Contents (Elt F)) :
    val_main_v18 (F := F) x1 = degree (dstOf x1) := by
  unfold val_main_v18 val_main_v17 val_main_cst_2 val_main_v16 val_main_v15 val_main_v14 val_main_cst_1 val_main_v13 val_main_cst
  rw [v3_eq]
  unfold degree asColumn
  rfl

/-- One over the square root of the degree, as the first layer computes it. -/
theorem v24_eq (x1 : (⟨S2x640000, .i32⟩ : BufTy).Contents (Elt F)) :
    val_main_v24 (F := F) x1 = invSqrtDeg (dstOf x1) := by
  unfold val_main_v24 val_main_call0_v1 val_main_call0_v0 val_main_cst_5 val_main_v23 val_main_v22 val_main_cst_4 val_main_v21 val_main_v20 val_main_v19 val_main_cst_3
  rw [v18_eq]
  unfold invSqrtDeg
  rfl

/-- Node numbers below zero counted from the end (first layer). -/
theorem v29_eq (x1 : (⟨S2x640000, .i32⟩ : BufTy).Contents (Elt F)) :
    val_main_v29 (F := F) x1 = wrapNode (srcOf x1) := by
  unfold val_main_v29 val_main_v28 val_main_v27 val_main_c_7 val_main_v26 val_main_v25 val_main_c_6
  rw [v1_eq]
  unfold wrapNode
  rfl

/-- Node numbers below zero counted from the end (first layer). -/
theorem v36_eq (x1 : (⟨S2x640000, .i32⟩ : BufTy).Contents (Elt F)) :
    val_main_v36 (F := F) x1 = wrapNode (dstOf x1) := by
  unfold val_main_v36 val_main_v35 val_main_v34 val_main_c_9 val_main_v33 val_main_v32 val_main_c_8
  rw [v3_eq]
  unfold wrapNode
  rfl

/-- Node numbers below zero counted from the end (first layer). -/
theorem v44_eq (x1 : (⟨S2x640000, .i32⟩ : BufTy).Contents (Elt F)) :
    val_main_v44 (F := F) x1 = wrapNode (srcOf x1) := by
  unfold val_main_v44 val_main_v43 val_main_v42 val_main_c_11 val_main_v41 val_main_v40 val_main_c_10
  rw [v1_eq]
  unfold wrapNode
  rfl

/-- The edge weights of the first layer: the two endpoints' normalisations multiplied. -/
theorem v39_eq (x1 : (⟨S2x640000, .i32⟩ : BufTy).Contents (Elt F)) :
    val_main_v39 (F := F) x1 = edgeNorm (srcOf x1) (dstOf x1) := by
  unfold val_main_v39 val_main_v38 val_main_v37 val_main_v31 val_main_v30
  rw [v24_eq, v29_eq, v36_eq]
  unfold edgeNorm asColumn
  rfl

/-- The self-loop weight of the first layer. -/
theorem v53_eq (x1 : (⟨S2x640000, .i32⟩ : BufTy).Contents (Elt F)) :
    val_main_v53 (F := F) x1 = selfNorm (dstOf x1) := by
  unfold val_main_v53
  rw [v24_eq]
  unfold selfNorm
  rfl

/-- The first layer's normalised neighbour sum with its self-loop term. -/
theorem v57_eq (x0 : (⟨S100000x1, .i32⟩ : BufTy).Contents (Elt F)) (x1 : (⟨S2x640000, .i32⟩ : BufTy).Contents (Elt F)) (x4 : (⟨S50000x128, .f32⟩ : BufTy).Contents (Elt F)) (x5 : (⟨S128x128, .f32⟩ : BufTy).Contents (Elt F)) :
    val_main_v57 (F := F) x0 x1 x4 x5 = aggr (proj (embed x0 x4) x5) (srcOf x1) (dstOf x1) (edgeNorm (srcOf x1) (dstOf x1)) (selfNorm (dstOf x1)) := by
  unfold val_main_v57 val_main_v56 val_main_v55 val_main_v54 val_main_v52 val_main_v51 val_main_v50 val_main_cst_12 val_main_v49 val_main_v48 val_main_v47 val_main_v46 val_main_v45
  rw [v3_eq, v12_eq, v39_eq, v44_eq, v53_eq]
  unfold aggr asColumn
  rfl

/-- The first layer before its activation: the neighbour sum plus the bias row. -/
theorem v60_eq (x0 : (⟨S100000x1, .i32⟩ : BufTy).Contents (Elt F)) (x1 : (⟨S2x640000, .i32⟩ : BufTy).Contents (Elt F)) (x4 : (⟨S50000x128, .f32⟩ : BufTy).Contents (Elt F)) (x5 : (⟨S128x128, .f32⟩ : BufTy).Contents (Elt F)) (x6 : (⟨S128, .f32⟩ : BufTy).Contents (Elt F)) :
    val_main_v60 (F := F) x0 x1 x4 x5 x6 = layer (embed x0 x4) x5 x6 x1 := by
  unfold val_main_v60 val_main_v59 val_main_v58
  rw [v57_eq]
  unfold layer addBias
  rfl

/-- The first layer's maximum with zero. -/
theorem v61_eq (x0 : (⟨S100000x1, .i32⟩ : BufTy).Contents (Elt F)) (x1 : (⟨S2x640000, .i32⟩ : BufTy).Contents (Elt F)) (x4 : (⟨S50000x128, .f32⟩ : BufTy).Contents (Elt F)) (x5 : (⟨S128x128, .f32⟩ : BufTy).Contents (Elt F)) (x6 : (⟨S128, .f32⟩ : BufTy).Contents (Elt F)) :
    val_main_v61 (F := F) x0 x1 x4 x5 x6 = relu (layer (embed x0 x4) x5 x6 x1) := by
  unfold val_main_v61 val_main_call1_v0 val_main_call1_cst
  rw [v60_eq]
  unfold relu
  rfl

/-- The second layer's projection of its input rows. -/
theorem v62_eq (x0 : (⟨S100000x1, .i32⟩ : BufTy).Contents (Elt F)) (x1 : (⟨S2x640000, .i32⟩ : BufTy).Contents (Elt F)) (x4 : (⟨S50000x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) :
    val_main_v62 (F := F) x0 x1 x4 x5 x6 x7 = proj (relu (layer (embed x0 x4) x5 x6 x1)) x7 := by
  unfold val_main_v62
  rw [v61_eq]
  unfold proj
  rfl

/-- One plus the number of edges into each node, as the second layer computes it. -/
theorem v68_eq (x1 : (⟨S2x640000, .i32⟩ : BufTy).Contents (Elt F)) :
    val_main_v68 (F := F) x1 = degree (dstOf x1) := by
  unfold val_main_v68 val_main_v67 val_main_cst_15 val_main_v66 val_main_v65 val_main_v64 val_main_cst_14 val_main_v63 val_main_cst_13
  rw [v3_eq]
  unfold degree asColumn
  rfl

/-- One over the square root of the degree, as the second layer computes it. -/
theorem v74_eq (x1 : (⟨S2x640000, .i32⟩ : BufTy).Contents (Elt F)) :
    val_main_v74 (F := F) x1 = invSqrtDeg (dstOf x1) := by
  unfold val_main_v74 val_main_call2_v1 val_main_call2_v0 val_main_cst_18 val_main_v73 val_main_v72 val_main_cst_17 val_main_v71 val_main_v70 val_main_v69 val_main_cst_16
  rw [v68_eq]
  unfold invSqrtDeg
  rfl

/-- Node numbers below zero counted from the end (second layer). -/
theorem v79_eq (x1 : (⟨S2x640000, .i32⟩ : BufTy).Contents (Elt F)) :
    val_main_v79 (F := F) x1 = wrapNode (srcOf x1) := by
  unfold val_main_v79 val_main_v78 val_main_v77 val_main_c_20 val_main_v76 val_main_v75 val_main_c_19
  rw [v1_eq]
  unfold wrapNode
  rfl

/-- Node numbers below zero counted from the end (second layer). -/
theorem v86_eq (x1 : (⟨S2x640000, .i32⟩ : BufTy).Contents (Elt F)) :
    val_main_v86 (F := F) x1 = wrapNode (dstOf x1) := by
  unfold val_main_v86 val_main_v85 val_main_v84 val_main_c_22 val_main_v83 val_main_v82 val_main_c_21
  rw [v3_eq]
  unfold wrapNode
  rfl

/-- Node numbers below zero counted from the end (second layer). -/
theorem v94_eq (x1 : (⟨S2x640000, .i32⟩ : BufTy).Contents (Elt F)) :
    val_main_v94 (F := F) x1 = wrapNode (srcOf x1) := by
  unfold val_main_v94 val_main_v93 val_main_v92 val_main_c_24 val_main_v91 val_main_v90 val_main_c_23
  rw [v1_eq]
  unfold wrapNode
  rfl

/-- The edge weights of the second layer: the two endpoints' normalisations multiplied. -/
theorem v89_eq (x1 : (⟨S2x640000, .i32⟩ : BufTy).Contents (Elt F)) :
    val_main_v89 (F := F) x1 = edgeNorm (srcOf x1) (dstOf x1) := by
  unfold val_main_v89 val_main_v88 val_main_v87 val_main_v81 val_main_v80
  rw [v74_eq, v79_eq, v86_eq]
  unfold edgeNorm asColumn
  rfl

/-- The self-loop weight of the second layer. -/
theorem v103_eq (x1 : (⟨S2x640000, .i32⟩ : BufTy).Contents (Elt F)) :
    val_main_v103 (F := F) x1 = selfNorm (dstOf x1) := by
  unfold val_main_v103
  rw [v74_eq]
  unfold selfNorm
  rfl

/-- The second layer's normalised neighbour sum with its self-loop term. -/
theorem v107_eq (x0 : (⟨S100000x1, .i32⟩ : BufTy).Contents (Elt F)) (x1 : (⟨S2x640000, .i32⟩ : BufTy).Contents (Elt F)) (x4 : (⟨S50000x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) :
    val_main_v107 (F := F) x0 x1 x4 x5 x6 x7 = aggr (proj (relu (layer (embed x0 x4) x5 x6 x1)) x7) (srcOf x1) (dstOf x1) (edgeNorm (srcOf x1) (dstOf x1)) (selfNorm (dstOf x1)) := by
  unfold val_main_v107 val_main_v106 val_main_v105 val_main_v104 val_main_v102 val_main_v101 val_main_v100 val_main_cst_25 val_main_v99 val_main_v98 val_main_v97 val_main_v96 val_main_v95
  rw [v3_eq, v62_eq, v89_eq, v94_eq, v103_eq]
  unfold aggr asColumn
  rfl

/-- The second layer before its activation: the neighbour sum plus the bias row. -/
theorem v110_eq (x0 : (⟨S100000x1, .i32⟩ : BufTy).Contents (Elt F)) (x1 : (⟨S2x640000, .i32⟩ : BufTy).Contents (Elt F)) (x4 : (⟨S50000x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) :
    val_main_v110 (F := F) x0 x1 x4 x5 x6 x7 x8 = layer (relu (layer (embed x0 x4) x5 x6 x1)) x7 x8 x1 := by
  unfold val_main_v110 val_main_v109 val_main_v108
  rw [v107_eq]
  unfold layer addBias
  rfl

/-- The second layer's maximum with zero. -/
theorem v111_eq (x0 : (⟨S100000x1, .i32⟩ : BufTy).Contents (Elt F)) (x1 : (⟨S2x640000, .i32⟩ : BufTy).Contents (Elt F)) (x4 : (⟨S50000x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) :
    val_main_v111 (F := F) x0 x1 x4 x5 x6 x7 x8 = relu (layer (relu (layer (embed x0 x4) x5 x6 x1)) x7 x8 x1) := by
  unfold val_main_v111 val_main_call3_v0 val_main_call3_cst
  rw [v110_eq]
  unfold relu
  rfl

/-- The third layer's projection of its input rows. -/
theorem v112_eq (x0 : (⟨S100000x1, .i32⟩ : BufTy).Contents (Elt F)) (x1 : (⟨S2x640000, .i32⟩ : BufTy).Contents (Elt F)) (x4 : (⟨S50000x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) :
    val_main_v112 (F := F) x0 x1 x4 x5 x6 x7 x8 x9 = proj (relu (layer (relu (layer (embed x0 x4) x5 x6 x1)) x7 x8 x1)) x9 := by
  unfold val_main_v112
  rw [v111_eq]
  unfold proj
  rfl

/-- One plus the number of edges into each node, as the third layer computes it. -/
theorem v118_eq (x1 : (⟨S2x640000, .i32⟩ : BufTy).Contents (Elt F)) :
    val_main_v118 (F := F) x1 = degree (dstOf x1) := by
  unfold val_main_v118 val_main_v117 val_main_cst_28 val_main_v116 val_main_v115 val_main_v114 val_main_cst_27 val_main_v113 val_main_cst_26
  rw [v3_eq]
  unfold degree asColumn
  rfl

/-- One over the square root of the degree, as the third layer computes it. -/
theorem v124_eq (x1 : (⟨S2x640000, .i32⟩ : BufTy).Contents (Elt F)) :
    val_main_v124 (F := F) x1 = invSqrtDeg (dstOf x1) := by
  unfold val_main_v124 val_main_call4_v1 val_main_call4_v0 val_main_cst_31 val_main_v123 val_main_v122 val_main_cst_30 val_main_v121 val_main_v120 val_main_v119 val_main_cst_29
  rw [v118_eq]
  unfold invSqrtDeg
  rfl

/-- Node numbers below zero counted from the end (third layer). -/
theorem v129_eq (x1 : (⟨S2x640000, .i32⟩ : BufTy).Contents (Elt F)) :
    val_main_v129 (F := F) x1 = wrapNode (srcOf x1) := by
  unfold val_main_v129 val_main_v128 val_main_v127 val_main_c_33 val_main_v126 val_main_v125 val_main_c_32
  rw [v1_eq]
  unfold wrapNode
  rfl

/-- Node numbers below zero counted from the end (third layer). -/
theorem v136_eq (x1 : (⟨S2x640000, .i32⟩ : BufTy).Contents (Elt F)) :
    val_main_v136 (F := F) x1 = wrapNode (dstOf x1) := by
  unfold val_main_v136 val_main_v135 val_main_v134 val_main_c_35 val_main_v133 val_main_v132 val_main_c_34
  rw [v3_eq]
  unfold wrapNode
  rfl

/-- Node numbers below zero counted from the end (third layer). -/
theorem v144_eq (x1 : (⟨S2x640000, .i32⟩ : BufTy).Contents (Elt F)) :
    val_main_v144 (F := F) x1 = wrapNode (srcOf x1) := by
  unfold val_main_v144 val_main_v143 val_main_v142 val_main_c_37 val_main_v141 val_main_v140 val_main_c_36
  rw [v1_eq]
  unfold wrapNode
  rfl

/-- The edge weights of the third layer: the two endpoints' normalisations multiplied. -/
theorem v139_eq (x1 : (⟨S2x640000, .i32⟩ : BufTy).Contents (Elt F)) :
    val_main_v139 (F := F) x1 = edgeNorm (srcOf x1) (dstOf x1) := by
  unfold val_main_v139 val_main_v138 val_main_v137 val_main_v131 val_main_v130
  rw [v124_eq, v129_eq, v136_eq]
  unfold edgeNorm asColumn
  rfl

/-- The self-loop weight of the third layer. -/
theorem v153_eq (x1 : (⟨S2x640000, .i32⟩ : BufTy).Contents (Elt F)) :
    val_main_v153 (F := F) x1 = selfNorm (dstOf x1) := by
  unfold val_main_v153
  rw [v124_eq]
  unfold selfNorm
  rfl

/-- The third layer's normalised neighbour sum with its self-loop term. -/
theorem v157_eq (x0 : (⟨S100000x1, .i32⟩ : BufTy).Contents (Elt F)) (x1 : (⟨S2x640000, .i32⟩ : BufTy).Contents (Elt F)) (x4 : (⟨S50000x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) :
    val_main_v157 (F := F) x0 x1 x4 x5 x6 x7 x8 x9 = aggr (proj (relu (layer (relu (layer (embed x0 x4) x5 x6 x1)) x7 x8 x1)) x9) (srcOf x1) (dstOf x1) (edgeNorm (srcOf x1) (dstOf x1)) (selfNorm (dstOf x1)) := by
  unfold val_main_v157 val_main_v156 val_main_v155 val_main_v154 val_main_v152 val_main_v151 val_main_v150 val_main_cst_38 val_main_v149 val_main_v148 val_main_v147 val_main_v146 val_main_v145
  rw [v3_eq, v112_eq, v139_eq, v144_eq, v153_eq]
  unfold aggr asColumn
  rfl

/-- The third layer before its activation: the neighbour sum plus the bias row. -/
theorem v160_eq (x0 : (⟨S100000x1, .i32⟩ : BufTy).Contents (Elt F)) (x1 : (⟨S2x640000, .i32⟩ : BufTy).Contents (Elt F)) (x4 : (⟨S50000x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) :
    val_main_v160 (F := F) x0 x1 x4 x5 x6 x7 x8 x9 x10 = layer (relu (layer (relu (layer (embed x0 x4) x5 x6 x1)) x7 x8 x1)) x9 x10 x1 := by
  unfold val_main_v160 val_main_v159 val_main_v158
  rw [v157_eq]
  unfold layer addBias
  rfl

/-- The per-graph sums of the third layer's rows. -/
theorem v163_eq (x0 : (⟨S100000x1, .i32⟩ : BufTy).Contents (Elt F)) (x1 : (⟨S2x640000, .i32⟩ : BufTy).Contents (Elt F)) (x3 : (⟨S100000, .i32⟩ : BufTy).Contents (Elt F)) (x4 : (⟨S50000x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) :
    val_main_v163 (F := F) x0 x1 x3 x4 x5 x6 x7 x8 x9 x10 = poolSum x3 (layer (relu (layer (relu (layer (embed x0 x4) x5 x6 x1)) x7 x8 x1)) x9 x10 x1) := by
  unfold val_main_v163 val_main_v162 val_main_v161 val_main_cst_39
  rw [v160_eq]
  unfold poolSum
  rfl

/-- The per-graph node counts. -/
theorem v167_eq (x3 : (⟨S100000, .i32⟩ : BufTy).Contents (Elt F)) :
    val_main_v167 (F := F) x3 = counts x3 := by
  unfold val_main_v167 val_main_v166 val_main_v165 val_main_cst_41 val_main_v164 val_main_cst_40
  unfold counts
  rfl

/-- The result: the mean per graph through the last linear layer, plus its bias. -/
theorem ref_is_gcn (x0 : (⟨S100000x1, .i32⟩ : BufTy).Contents (Elt F)) (x1 : (⟨S2x640000, .i32⟩ : BufTy).Contents (Elt F)) (x3 : (⟨S100000, .i32⟩ : BufTy).Contents (Elt F)) (x4 : (⟨S50000x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S128x104, .f32⟩ : BufTy).Contents (Elt F)) (x12 : (⟨S104, .f32⟩ : BufTy).Contents (Elt F)) :
    val_main_v176 (F := F) x0 x1 x3 x4 x5 x6 x7 x8 x9 x10 x11 x12 = Cert.Stages.gcn x0 x1 x3 x4 x5 x6 x7 x8 x9 x10 x11 x12 := by
  unfold val_main_v176 val_main_v175 val_main_v174 val_main_v173 val_main_v172 val_main_v171 val_main_v170 val_main_v169 val_main_v168 val_main_cst_42
  rw [v163_eq, v167_eq]
  unfold gcn finalize
  rfl

end Cert.ReferenceIdeal.Stagewise

end
-- ==== Proof.lean ====
/-
  The certificate of a three-layer graph convolution network against its jnp reference, on the extended reals.

  Both programs embed the nodes' tokens, and in each layer project the features (`h · W`), weight every edge by the
  inverse square roots of its endpoints' degrees, sum the weighted neighbour rows into each node with a self-loop term,
  and add a bias (the first two layers followed by the maximum with zero); then they average the nodes of each graph and
  apply a last linear layer. The kernel program runs the three projections, the three bias steps, the per-graph sums and
  the final normalisation and linear layer as eight tiled kernels, with the gathers and scatters between them as host
  operations; the reference does everything with host operations.

  On the extended reals a tiled product with a zero accumulator is the product, a rounding to bf16 is the identity, and
  the tiles cover each array exactly once, so seven of the kernels compute, on whole arrays, literally the reference's
  operation (Val0 … Val5, Val7). The pooling kernel differs: it multiplies a ONE-HOT matrix of the graph numbers
  (`onehot[n, g] = 1` when node `n` belongs to graph `g`, else `0`) into the features, accumulating over twenty
  blocks of rows in a scratch buffer, where the reference adds each node's row into the row its graph number names.
  Entry `(g, k)` of the first is the sum over ALL nodes `n` of `onehot[n, g] · h[n, k]` (Val6); since `1 · x = x` and
  `0 · x = 0` for every extended real, that is the sum of `h[n, k]` over the nodes of graph `g`, which is what the
  accumulating scatter leaves there (PoolSum; a graph number outside `[0, 128)` matches no column and names no row, so it
  contributes to neither). No law used needs finite values. Both programs' results are therefore one composed function
  `Stages.gcn` of the arguments (the kernel side: Bridge; the reference side: RefGcn).

  Every run terminates without a fault and leaves the arguments as launched: for the two kernel programs by the run of
  their eight regions between the host stretches (Main, at the word-level and at the ideal instance), for the reference
  by its run as a list of host operations. Nothing was rewritten between the printed kernel and its idealisation.
-/
import proofs.«406510_j66254165508930_1_alg».proof.Defs
import proofs.«406510_j66254165508930_1_alg».proof.Proof.Gen.Kernel
import proofs.«406510_j66254165508930_1_alg».proof.Proof.Gen.KernelIdeal
import proofs.«406510_j66254165508930_1_alg».proof.Proof.Gen.ReferenceIdeal
import proofs.«406510_j66254165508930_1_alg».proof.Proof.Gen.Pre_finite_inputs
import proofs.«406510_j66254165508930_1_alg».proof.Proof.K.Main
import proofs.«406510_j66254165508930_1_alg».proof.Proof.KI.Main
import proofs.«406510_j66254165508930_1_alg».proof.Proof.KI.Val0
import proofs.«406510_j66254165508930_1_alg».proof.Proof.KI.Val1
import proofs.«406510_j66254165508930_1_alg».proof.Proof.KI.Val2
import proofs.«406510_j66254165508930_1_alg».proof.Proof.KI.Val3
import proofs.«406510_j66254165508930_1_alg».proof.Proof.KI.Val4
import proofs.«406510_j66254165508930_1_alg».proof.Proof.KI.Val5
import proofs.«406510_j66254165508930_1_alg».proof.Proof.KI.Val6
import proofs.«406510_j66254165508930_1_alg».proof.Proof.KI.Val7
import proofs.«406510_j66254165508930_1_alg».proof.Proof.KI.Bridge
import proofs.«406510_j66254165508930_1_alg».proof.Proof.RefRead
import proofs.«406510_j66254165508930_1_alg».proof.Proof.RefGcn
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_kernel : Cert.frame_Kernel := fun m ρ _ =>
  (θ_run Cert.Kernel.defs _ _).mono (fun _ h c => (h c).2) (Cert.Kernel.Gen.run_all (F := Bits) m ρ)

/-- So does its idealisation. -/
theorem frame_kernelIdeal : Cert.frame_KernelIdeal := fun m ρ _ =>
  (θ_run Cert.KernelIdeal.defs _ _).mono (fun _ h c => (h c).2) (Cert.KernelIdeal.Gen.run_all (F := Ideal) m ρ)

/-- And the reference: its run as a list of host operations, the result dropped. -/
theorem frame_reference : Cert.frame_ReferenceIdeal := fun m ρ _ =>
  (θ_run Cert.ReferenceIdeal.defs _ _).mono (fun _ h c => (h c).2) (Cert.ReferenceIdeal.Value.run (F := Ideal) m ρ)

open Cert.KernelIdeal Cert.KernelIdeal.Gen in
/-- On the extended reals the kernel program's result is the network `Stages.gcn` of its arguments: each region leaves in
    its output array the stage's function of the arrays it is entered at, and the host stretches between are the
    remaining stages. -/
theorem kernel_result (m : (ℓ : Loc nD τ sig) → Buf (Elt Ideal) ℓ) (c : Dev nD) :
    X16 (leaves (F := Ideal)) m c (Proc.devRef .tc main_v109)
      = Cert.Stages.gcn (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) :=
  kernel_is_gcn (leaves (F := Ideal)) m c
    (fun W c => final0 (atRefs W) c) (fun W c => final1 (atRefs W) c) (fun W c => final2 (atRefs W) c)
    (fun W c => final3 (atRefs W) c) (fun W c => final4 (atRefs W) c) (fun W c => final5 (atRefs W) c)
    (fun W c => final6 (atRefs W) c) (fun W c => final7 (atRefs W) c)

/-- The two idealised programs, run from memories that agree on the arguments, both end, with the same result: each
    is the network `Stages.gcn` of the arguments. -/
theorem algebraic : Cert.algebraic_KernelIdeal_ReferenceIdeal := by
  intro m ρ m' ρ' _ hagree
  refine ⟨fun c => Cert.KernelIdeal.Gen.X16 (Cert.KernelIdeal.Gen.leaves (F := Ideal)) m c (Proc.devRef .tc Cert.KernelIdeal.main_v109),
    Cert.KernelIdeal.Gen.run_all (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, -, e3, e4, e5, e6, e7, e8, e9, e10, e11, e12⟩ := hagree c
  rw [Cert.ReferenceIdeal.Read.val_main_v176_eq, Cert.ReferenceIdeal.Stagewise.ref_is_gcn, e0, e1, e3, e4, e5, e6, e7, e8, e9, e10, e11, e12]
  exact (kernel_result m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
